-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S4096x2 : Shape := ⟨2, ![4096, 2]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_arg16 : FVec F S128x128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_c_28 : IVec S_ 32 := constantI S_ 32 0#32
  let main_v74 : IVec S2x800000 32 := broadcastInDim S2x800000 ![] bcast_S_S2x800000 main_c_28
  let main_v75 : IVec S2x800000 1 := cmpi .sge main_arg1 main_v74
  let main_c_29 : IVec S_ 1 := constantI S_ 1 1#1
  let main_v76 : IVec S_ 1 := (fun x v => Host.reduce IntOp.andi x v reducesTo_S2x800000_S_d0_1 h_S_) main_v75 main_c_29
  let main_v77 : IVec S_ 1 := andi main_v73 main_v76
  let main_c_30 : IVec S_ 32 := constantI S_ 32 50000#32
  let main_v78 : IVec S2x800000 32 := broadcastInDim S2x800000 ![] bcast_S_S2x800000 main_c_30
  let main_v79 : IVec S2x800000 1 := cmpi .slt main_arg1 main_v78
  let main_c_31 : IVec S_ 1 := constantI S_ 1 1#1
  let main_v80 : IVec S_ 1 := (fun x v => Host.reduce IntOp.andi x v reducesTo_S2x800000_S_d0_1 h_S_) main_v79 main_c_31
  let main_v81 : IVec S_ 1 := andi main_v77 main_v80
  main_v81

def fn_part3 {F : FTy → Type} [FloatOps F] (main_arg1 : IVec S2x800000 32) (main_arg13 : FVec F S128 .f32) (main_arg14 : FVec F S128 .f32) (main_arg15 : FVec F S128x128 .f32) (main_arg16 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg1 main_arg16 main_v63 main_v67

def fn_part2 {F : FTy → Type} [FloatOps F] (main_arg1 : IVec S2x800000 32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_arg15 main_arg16 main_v48 main_v49 main_v50

def fn_part1 {F : FTy → Type} [FloatOps F] (main_arg1 : IVec S2x800000 32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S4096x2 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S4096x2 : Shape := ⟨2, ![4096, 2]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S850000x128 : Shape := ⟨2, ![850000, 128]⟩
abbrev S4096x1 : Shape := ⟨2, ![4096, 1]⟩
abbrev S4096 : Shape := ⟨1, ![4096]⟩
abbrev S4096x128 : Shape := ⟨2, ![4096, 128]⟩
abbrev S2048x128 : Shape := ⟨2, ![2048, 128]⟩
abbrev S2048x1 : Shape := ⟨2, ![2048, 1]⟩
abbrev S2048 : Shape := ⟨1, ![2048]⟩

abbrev nBuf : Space → Nat
  | .hbm => 208
  | .vmem => 79
  | .smem => 0
  | _ => 0

abbrev hbmTy0_0 (i : Nat) : BufTy := match i % 128 with
  | 0 => ⟨S50000x128, .f32⟩
  | 1 => ⟨S2x800000, .i32⟩
  | 2 => ⟨S4096x2, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128x128, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S_, .f32⟩
  | 35 => ⟨S850000, .f32⟩
  | 36 => ⟨S50000, .f32⟩
  | 37 => ⟨S_, .f32⟩
  | 38 => ⟨S50000, .f32⟩
  | 39 => ⟨S50000, .f32⟩
  | 40 => ⟨S50000x1, .f32⟩
  | 41 => ⟨S1x128, .f32⟩
  | 42 => ⟨S50000x128, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S1, .i32⟩
  | 52 => ⟨S_, .i32⟩
  | 53 => ⟨S850000x1, .i32⟩
  | 54 => ⟨S850000x1, .i1⟩
  | 55 => ⟨S1x1, .i32⟩
  | 56 => ⟨S850000x1, .i32⟩
  | 57 => ⟨S850000x1, .i1⟩
  | 58 => ⟨S850000x1, .i1⟩
  | 59 => ⟨S_, .i1⟩
  | 60 => ⟨S850000, .i1⟩
  | 61 => ⟨S850000x128, .f32⟩
  | 62 => ⟨S850000x128, .i1⟩
  | 63 => ⟨S_, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S50000x128, .f32⟩
  | 86 => ⟨S1x128, .f32⟩
  | 87 => ⟨S50000x128, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S1, .i32⟩
  | 97 => ⟨S_, .i32⟩
  | 98 => ⟨S850000x1, .i32⟩
  | 99 => ⟨S850000x1, .i1⟩
  | 100 => ⟨S1x1, .i32⟩
  | 101 => ⟨S850000x1, .i32⟩
  | 102 => ⟨S850000x1, .i1⟩
  | 103 => ⟨S850000x1, .i1⟩
  | 104 => ⟨S_, .i1⟩
  | 105 => ⟨S850000, .i1⟩
  | 106 => ⟨S850000x128, .f32⟩
  | 107 => ⟨S850000x128, .i1⟩
  | 108 => ⟨S_, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S50000x128, .f32⟩
  | 3 => ⟨S1x128, .f32⟩
  | 4 => ⟨S50000x128, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S1, .i32⟩
  | 14 => ⟨S_, .i32⟩
  | 15 => ⟨S850000x1, .i32⟩
  | 16 => ⟨S850000x1, .i1⟩
  | 17 => ⟨S1x1, .i32⟩
  | 18 => ⟨S850000x1, .i32⟩
  | 19 => ⟨S850000x1, .i1⟩
  | 20 => ⟨S850000x1, .i1⟩
  | 21 => ⟨S_, .i1⟩
  | 22 => ⟨S850000, .i1⟩
  | 23 => ⟨S850000x128, .f32⟩
  | 24 => ⟨S850000x128, .i1⟩
  | 25 => ⟨S_, .f32⟩
  | 26 => ⟨S850000x128, .f32⟩
  | 27 => ⟨S850000x128, .f32⟩
  | 28 => ⟨S_, .f32⟩
  | 29 => ⟨S50000x128, .f32⟩
  | 30 => ⟨S850000x1, .i32⟩
  | 31 => ⟨S50000x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S1x128, .f32⟩
  | 47 => ⟨S50000x128, .f32⟩
  | 48 => ⟨S4096x1, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096x128, .f32⟩
  | 62 => ⟨S4096x1, .i32⟩
  | 63 => ⟨S4096, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S4096x128, .f32⟩
  | 76 => ⟨S128x128, .f32⟩
  | 77 => ⟨S128x128, .f32⟩
  | 78 => ⟨S128x128, .f32⟩
  | 79 => ⟨S4096x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S5000x1, .f32⟩
  | .local _ .vmem, ⟨53, _⟩ => ⟨S5000x1, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x1, .f32⟩
  | .local _ .vmem, ⟨59, _⟩ => ⟨S5000x1, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x1, .f32⟩
  | .local _ .vmem, ⟨65, _⟩ => ⟨S5000x1, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S2048x128, .f32⟩
  | .local _ .vmem, ⟨73, _⟩ => ⟨S2048x128, .f32⟩
  | .local _ .vmem, ⟨74, _⟩ => ⟨S2048x128, .f32⟩
  | .local _ .vmem, ⟨75, _⟩ => ⟨S2048x128, .f32⟩
  | .local _ .vmem, ⟨76, _⟩ => ⟨S128x128, .f32⟩
  | .local _ .vmem, ⟨77, _⟩ => ⟨S2048x1, .f32⟩
  | .local _ .vmem, ⟨78, _⟩ => ⟨S2048x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25_0 : Ref sig .tc := ⟨.hbm, 70, rfl⟩
abbrev main_v25_1 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_6 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_call1_c : Ref sig .tc := ⟨.hbm, 88, rfl⟩
abbrev main_call1_v0 : Ref sig .tc := ⟨.hbm, 89, rfl⟩
abbrev main_call1_v1 : Ref sig .tc := ⟨.hbm, 90, rfl⟩
abbrev main_call1_c_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_c_1 : Ref sig .tc := ⟨.hbm, 96, rfl⟩
abbrev main_call1_c_2 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_c_3 : Ref sig .tc := ⟨.hbm, 104, rfl⟩
abbrev main_call1_v12 : Ref sig .tc := ⟨.hbm, 105, rfl⟩
abbrev main_call1_v13 : Ref sig .tc := ⟨.hbm, 106, rfl⟩
abbrev main_call1_v14 : Ref sig .tc := ⟨.hbm, 107, rfl⟩
abbrev main_call1_cst : Ref sig .tc := ⟨.hbm, 108, rfl⟩
abbrev main_call1_v15 : Ref sig .tc := ⟨.hbm, 109, rfl⟩
abbrev main_v39 : Ref sig .tc := ⟨.hbm, 110, rfl⟩
abbrev main_cst_7 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43_0 : Ref sig .tc := ⟨.hbm, 115, rfl⟩
abbrev main_v43_1 : Ref sig .tc := ⟨.hbm, 116, rfl⟩
abbrev main_cst_8 : Ref sig .tc := ⟨.hbm, 117, rfl⟩
abbrev main_v44 : Ref sig .tc := ⟨.hbm, 118, rfl⟩
abbrev main_v45 : Ref sig .tc := ⟨.hbm, 119, rfl⟩
abbrev main_cst_9 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_cst_10 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_call2_c : Ref sig .tc := ⟨.hbm, 133, rfl⟩
abbrev main_call2_v0 : Ref sig .tc := ⟨.hbm, 134, rfl⟩
abbrev main_call2_v1 : Ref sig .tc := ⟨.hbm, 135, rfl⟩
abbrev main_call2_c_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_c_1 : Ref sig .tc := ⟨.hbm, 141, rfl⟩
abbrev main_call2_c_2 : Ref sig .tc := ⟨.hbm, 142, rfl⟩
abbrev main_call2_v6 : Ref sig .tc := ⟨.hbm, 143, rfl⟩
abbrev main_call2_v7 : Ref sig .tc := ⟨.hbm, 144, rfl⟩
abbrev main_call2_v8 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_c_3 : Ref sig .tc := ⟨.hbm, 149, rfl⟩
abbrev main_call2_v12 : Ref sig .tc := ⟨.hbm, 150, rfl⟩
abbrev main_call2_v13 : Ref sig .tc := ⟨.hbm, 151, rfl⟩
abbrev main_call2_v14 : Ref sig .tc := ⟨.hbm, 152, rfl⟩
abbrev main_call2_cst : Ref sig .tc := ⟨.hbm, 153, rfl⟩
abbrev main_call2_v15 : Ref sig .tc := ⟨.hbm, 154, rfl⟩
abbrev main_v57 : Ref sig .tc := ⟨.hbm, 155, rfl⟩
abbrev main_cst_11 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61_0 : Ref sig .tc := ⟨.hbm, 160, rfl⟩
abbrev main_v61_1 : Ref sig .tc := ⟨.hbm, 161, rfl⟩
abbrev main_cst_12 : Ref sig .tc := ⟨.hbm, 162, rfl⟩
abbrev main_v62 : Ref sig .tc := ⟨.hbm, 163, rfl⟩
abbrev main_v63 : Ref sig .tc := ⟨.hbm, 164, rfl⟩
abbrev main_cst_13 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_cst_14 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_c_15 : Ref sig .tc := ⟨.hbm, 178, rfl⟩
abbrev main_v75 : Ref sig .tc := ⟨.hbm, 179, rfl⟩
abbrev main_v76 : Ref sig .tc := ⟨.hbm, 180, rfl⟩
abbrev main_c_16 : Ref sig .tc := ⟨.hbm, 181, rfl⟩
abbrev main_v77 : Ref sig .tc := ⟨.hbm, 182, rfl⟩
abbrev main_v78 : Ref sig .tc := ⟨.hbm, 183, rfl⟩
abbrev main_c_17 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_c_18 : Ref sig .tc := ⟨.hbm, 192, rfl⟩
abbrev main_v86 : Ref sig .tc := ⟨.hbm, 193, rfl⟩
abbrev main_v87 : Ref sig .tc := ⟨.hbm, 194, rfl⟩
abbrev main_c_19 : Ref sig .tc := ⟨.hbm, 195, rfl⟩
abbrev main_v88 : Ref sig .tc := ⟨.hbm, 196, rfl⟩
abbrev main_v89 : Ref sig .tc := ⟨.hbm, 197, rfl⟩
abbrev main_c_20 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc8_stg5_0 : Ref sig .tc := ⟨.vmem, 69, rfl⟩
abbrev cc8_stg6_0 : Ref sig .tc := ⟨.vmem, 70, rfl⟩
abbrev cc8_stg6_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg3_1 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem6_0 : DmaSem sig := 70
abbrev cc8_sem6_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77
abbrev cc9_sem3_1 : DmaSem sig := 78

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2048x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2048x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S_S50000x128 : S_.BroadcastsInDim S50000x128 (![] : Fin 0 → Fin S50000x128.rank)
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  transposes_S128x128_S128x128_1_0 : S128x128.Transposes [1, 0] S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S128x128_S128x128 : S128x128.ShapeCasts S128x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S4096x1_S4096x128_1_0_n_n_0_1_1128_wf : GatherDims.WF S50000x128 S4096x1 S4096x128 [1] [0] [] [0] [] 1 ![1, 128]
  dot_S128x128_S128x128_S128x128_1_0_0_1_n_n_wf : DotDims.WF S128x128 S128x128 S128x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .f32 = 32 ∨ (Rect.block (s := S50000x1) S5000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x128.size a ≤ S4096x128.size a
  hwx9_0 : ∀ i : grid9.Coords, EltTy.bits .f32 = 32 ∨ (Rect.block (s := S4096x128) S2048x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x128.size a ≤ S4096x128.size a
  hwx9_1 : ∀ i : grid9.Coords, EltTy.bits .f32 = 32 ∨ (Rect.block (s := S4096x128) S2048x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x1.size a ≤ S4096x1.size a
  hwx9_3 : ∀ i : grid9.Coords, EltTy.bits .f32 = 32 ∨ (Rect.block (s := S4096x1) S2048x1.size (cc9_transform_3 i) (hinb9_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v38) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v42) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v42) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v45) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v52) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v53) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v54) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v54) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v55) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v18) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v56) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v60) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v18) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v61_0) S1x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v61_1) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v60) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v18) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v63) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v69) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v70) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v71) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v72) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v83) S2048x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v94) S2048x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v97) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v98) S2048x1.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S4096x2 : Shape := ⟨2, ![4096, 2]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S1x128 : Shape := ⟨2, ![1, 128]⟩
abbrev S_ : Shape := ⟨0, ![]⟩
abbrev S850000x1 : Shape := ⟨2, ![850000, 1]⟩
abbrev S850000x128 : Shape := ⟨2, ![850000, 128]⟩
abbrev S4096x1 : Shape := ⟨2, ![4096, 1]⟩
abbrev S4096 : Shape := ⟨1, ![4096]⟩
abbrev S4096x128 : Shape := ⟨2, ![4096, 128]⟩

abbrev nBuf : Space → Nat
  | .hbm => 336
  | .vmem => 0
  | .smem => 0
  | _ => 0

abbrev hbmTy0_0 (i : Nat) : BufTy := match i % 128 with
  | 0 => ⟨S50000x128, .f32⟩
  | 1 => ⟨S2x800000, .i32⟩
  | 2 => ⟨S4096x2, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128x128, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S_, .f32⟩
  | 39 => ⟨S850000, .f32⟩
  | 40 => ⟨S50000, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S850000x1, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x128, .f32⟩
  | 74 => ⟨S850000x128, .f32⟩
  | 75 => ⟨S_, .f32⟩
  | 76 => ⟨S50000x128, .f32⟩
  | 77 => ⟨S850000x1, .i32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S_, .f32⟩
  | 3 => ⟨S850000, .f32⟩
  | 4 => ⟨S50000, .f32⟩
  | 5 => ⟨S_, .f32⟩
  | 6 => ⟨S50000, .f32⟩
  | 7 => ⟨S50000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S850000, .f32⟩
  | 27 => ⟨S850000x1, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000x128, .f32⟩
  | 37 => ⟨S850000x128, .f32⟩
  | 38 => ⟨S850000x128, .f32⟩
  | 39 => ⟨S_, .f32⟩
  | 40 => ⟨S50000x128, .f32⟩
  | 41 => ⟨S850000x1, .i32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .i1⟩
  | 76 => ⟨S_, .f32⟩
  | 77 => ⟨S50000x128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S_, .f32⟩
  | 95 => ⟨S850000, .f32⟩
  | 96 => ⟨S50000, .f32⟩
  | 97 => ⟨S_, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S850000x1, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_2 (i : Nat) : BufTy := match i % 128 with
  | 0 => ⟨S850000x128, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S128, .f32⟩
  | 18 => ⟨S_, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .i1⟩
  | 40 => ⟨S_, .f32⟩
  | 41 => ⟨S50000x128, .f32⟩
  | 42 => ⟨S50000x128, .f32⟩
  | 43 => ⟨S50000x128, .f32⟩
  | 44 => ⟨S4096x1, .i32⟩
  | 45 => ⟨S4096, .i32⟩
  | 46 => ⟨S_, .i32⟩
  | 47 => ⟨S4096, .i32⟩
  | 48 => ⟨S4096, .i32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4096x128, .f32⟩
  | 58 => ⟨S4096x1, .i32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S4096x128, .f32⟩
  | 72 => ⟨S4096x128, .f32⟩
  | 73 => ⟨S4096x128, .f32⟩
  | 74 => ⟨S128x128, .f32⟩
  | 75 => ⟨S4096x128, .f32⟩
  | 76 => ⟨S4096x128, .f32⟩
  | 77 => ⟨S_, .f32⟩
  | 78 => ⟨S4096, .f32⟩
  | 79 => ⟨S4096x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_c_18 : Ref sig .tc := ⟨.hbm, 122, rfl⟩
abbrev main_v85 : Ref sig .tc := ⟨.hbm, 123, rfl⟩
abbrev main_v86 : Ref sig .tc := ⟨.hbm, 124, rfl⟩
abbrev main_c_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_20 : Ref sig .tc := ⟨.hbm, 130, rfl⟩
abbrev main_v91 : Ref sig .tc := ⟨.hbm, 131, rfl⟩
abbrev main_v92 : Ref sig .tc := ⟨.hbm, 132, rfl⟩
abbrev main_cst_21 : Ref sig .tc := ⟨.hbm, 133, rfl⟩
abbrev main_v93 : Ref sig .tc := ⟨.hbm, 134, rfl⟩
abbrev main_v94 : Ref sig .tc := ⟨.hbm, 135, rfl⟩
abbrev main_c_22 : Ref sig .tc := ⟨.hbm, 136, rfl⟩
abbrev main_v95 : Ref sig .tc := ⟨.hbm, 137, rfl⟩
abbrev main_v96 : Ref sig .tc := ⟨.hbm, 138, rfl⟩
abbrev main_c_23 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_c_25 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_26 : Ref sig .tc := ⟨.hbm, 156, rfl⟩
abbrev main_v111 : Ref sig .tc := ⟨.hbm, 157, rfl⟩
abbrev main_v112 : Ref sig .tc := ⟨.hbm, 158, rfl⟩
abbrev main_c_27 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_28 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_29 : Ref sig .tc := ⟨.hbm, 171, rfl⟩
abbrev main_v123 : Ref sig .tc := ⟨.hbm, 172, rfl⟩
abbrev main_cst_30 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_31 : Ref sig .tc := ⟨.hbm, 180, rfl⟩
abbrev main_v130 : Ref sig .tc := ⟨.hbm, 181, rfl⟩
abbrev main_cst_32 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_33 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_34 : Ref sig .tc := ⟨.hbm, 201, rfl⟩
abbrev main_v148 : Ref sig .tc := ⟨.hbm, 202, rfl⟩
abbrev main_v149 : Ref sig .tc := ⟨.hbm, 203, rfl⟩
abbrev main_cst_35 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_36 : Ref sig .tc := ⟨.hbm, 212, rfl⟩
abbrev main_v157 : Ref sig .tc := ⟨.hbm, 213, rfl⟩
abbrev main_c_37 : Ref sig .tc := ⟨.hbm, 214, rfl⟩
abbrev main_v158 : Ref sig .tc := ⟨.hbm, 215, rfl⟩
abbrev main_v159 : Ref sig .tc := ⟨.hbm, 216, rfl⟩
abbrev main_c_38 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_39 : Ref sig .tc := ⟨.hbm, 222, rfl⟩
abbrev main_v164 : Ref sig .tc := ⟨.hbm, 223, rfl⟩
abbrev main_v165 : Ref sig .tc := ⟨.hbm, 224, rfl⟩
abbrev main_cst_40 : Ref sig .tc := ⟨.hbm, 225, rfl⟩
abbrev main_v166 : Ref sig .tc := ⟨.hbm, 226, rfl⟩
abbrev main_v167 : Ref sig .tc := ⟨.hbm, 227, rfl⟩
abbrev main_c_41 : Ref sig .tc := ⟨.hbm, 228, rfl⟩
abbrev main_v168 : Ref sig .tc := ⟨.hbm, 229, rfl⟩
abbrev main_v169 : Ref sig .tc := ⟨.hbm, 230, rfl⟩
abbrev main_c_42 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_c_43 : Ref sig .tc := ⟨.hbm, 237, rfl⟩
abbrev main_v175 : Ref sig .tc := ⟨.hbm, 238, rfl⟩
abbrev main_v176 : Ref sig .tc := ⟨.hbm, 239, rfl⟩
abbrev main_c_44 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_c_45 : Ref sig .tc := ⟨.hbm, 248, rfl⟩
abbrev main_v184 : Ref sig .tc := ⟨.hbm, 249, rfl⟩
abbrev main_v185 : Ref sig .tc := ⟨.hbm, 250, rfl⟩
abbrev main_c_46 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_cst_47 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_48 : Ref sig .tc := ⟨.hbm, 263, rfl⟩
abbrev main_v196 : Ref sig .tc := ⟨.hbm, 264, rfl⟩
abbrev main_cst_49 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_cst_50 : Ref sig .tc := ⟨.hbm, 272, rfl⟩
abbrev main_v203 : Ref sig .tc := ⟨.hbm, 273, rfl⟩
abbrev main_cst_51 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_cst_52 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_cst_53 : Ref sig .tc := ⟨.hbm, 293, rfl⟩
abbrev main_v221 : Ref sig .tc := ⟨.hbm, 294, rfl⟩
abbrev main_v222 : Ref sig .tc := ⟨.hbm, 295, rfl⟩
abbrev main_cst_54 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_c_55 : Ref sig .tc := ⟨.hbm, 302, rfl⟩
abbrev main_v228 : Ref sig .tc := ⟨.hbm, 303, rfl⟩
abbrev main_v229 : Ref sig .tc := ⟨.hbm, 304, rfl⟩
abbrev main_c_56 : Ref sig .tc := ⟨.hbm, 305, rfl⟩
abbrev main_v230 : Ref sig .tc := ⟨.hbm, 306, rfl⟩
abbrev main_v231 : Ref sig .tc := ⟨.hbm, 307, rfl⟩
abbrev main_c_57 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_c_58 : Ref sig .tc := ⟨.hbm, 316, rfl⟩
abbrev main_v239 : Ref sig .tc := ⟨.hbm, 317, rfl⟩
abbrev main_v240 : Ref sig .tc := ⟨.hbm, 318, rfl⟩
abbrev main_c_59 : Ref sig .tc := ⟨.hbm, 319, rfl⟩
abbrev main_v241 : Ref sig .tc := ⟨.hbm, 320, rfl⟩
abbrev main_v242 : Ref sig .tc := ⟨.hbm, 321, rfl⟩
abbrev main_c_60 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_cst_61 : Ref sig .tc := ⟨.hbm, 333, rfl⟩
abbrev main_v253 : Ref sig .tc := ⟨.hbm, 334, rfl⟩
abbrev main_v254 : Ref sig .tc := ⟨.hbm, 335, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  transposes_S128x128_S128x128_1_0 : S128x128.Transposes [1, 0] S128x128
  reducesTo_S4096x128_S4096_d1 : S4096x128.ReducesTo [1] S4096
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S4096x1_S4096x128_1_0_n_n_0_1_1128_wf : GatherDims.WF S50000x128 S4096x1 S4096x128 [1] [0] [] [0] [] 1 ![1, 128]
  dot_S4096x128_S128x128_S4096x128_1_0_0_1_n_n_wf : DotDims.WF S4096x128 S128x128 S4096x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.Spec.lean ====
/-
  The mathematics of this certificate, free of either program.

  A three-layer graph convolution followed by a bilinear decode, over the extended reals.  Every array is a
  function of its coordinates.  `R e` and `C e` are the source and target node of edge `e` (the 800000 given
  edges followed by one self loop per node); `deg c` counts the edges arriving at `c`, `dis c = deg c ^ (-1/2)`.

  One layer, the reference's way: every edge `e` carries `(dis (R e) * dis (C e)) * L (R e) j` to its target
  (`aggR`), `L = h W + b`; the columns are centred by their mean, scaled by `rsqrt (variance + eps)` with the
  two-pass variance `mean ((a - mean a)^2)`, then `g`, `be` and the leaky slope.
  One layer, the kernel's way: the node factor is split off the edge sum — the rows are scaled by `dis` before
  they are sent (`hsK`), summed per target (`seg`), and scaled by `dis` of the target afterwards (`xK`) — and
  the variance is `mean (x^2) - (mean x)^2`, clamped at zero.
  On finite data the two are one function (`Proof/LayerAlgebra.lean`): a finite factor distributes over a
  finite sum of reals, and `mean ((a - m)^2) = mean (a^2) - m^2` when `m = mean a` over exactly 50000 rows.
  The decode: the reference multiplies `((a p1) p2) p1ᵀ`, the kernel `a ((p1 p2) p1ᵀ)`: associativity of
  finite real matrix products (`Proof/DecodeAlgebra.lean`).
-/
import Idealize.ShloMosaic.PureOps.Ideal

noncomputable section

open scoped BigOperators

namespace Cert.Spec

open Idealize.ShloMosaic

/-! ## The float words both programs spell -/

/-- `0.0`. -/
def cZero : EReal := Ideal.ofBits .f32 0x00000000#32
/-- `1.0`. -/
def cOne : EReal := Ideal.ofBits .f32 0x3F800000#32
/-- `-0.5`. -/
def cNegHalf : EReal := Ideal.ofBits .f32 0xBF000000#32
/-- `50000.0`, the number of rows. -/
def cN : EReal := Ideal.ofBits .f32 0x47435000#32
/-- The f32 nearest `1e-5`. -/
def cEps : EReal := Ideal.ofBits .f32 0x3727C5AC#32
/-- The f32 nearest `0.1`. -/
def cSlope : EReal := Ideal.ofBits .f32 0x3DCCCCCD#32

/-- A matrix and a vector of extended reals, by coordinates. -/
abbrev Mat (a b : ℕ) := Fin a → Fin b → EReal
abbrev Vc (a : ℕ) := Fin a → EReal

/-- Every entry is a real number. -/
def FinM {a b : ℕ} (M : Mat a b) : Prop := ∀ i j, ∃ r : ℝ, M i j = (r : EReal)
def FinV {a : ℕ} (v : Vc a) : Prop := ∀ i, ∃ r : ℝ, v i = (r : EReal)

/-! ## The graph -/

/-- The number of edges arriving at node `c`, as a sum of ones. -/
def deg (C : Fin 850000 → Fin 50000) : Vc 50000 :=
  fun c => ∑ _e ∈ Finset.univ.filter (fun e => C e = c), cOne

/-- `deg ^ (-1/2)`. -/
def dis (C : Fin 850000 → Fin 50000) : Vc 50000 := fun c => Ideal.pow (deg C c) cNegHalf

/-! ## One layer -/

/-- `h W + b`. -/
def lin (h : Mat 50000 128) (W : Mat 128 128) (b : Vc 128) : Mat 50000 128 :=
  fun i j => (∑ k : Fin 128, h i k * W k j) + b j

/-- The sum, at each target node, of the source rows of the edges arriving there. -/
def seg (R C : Fin 850000 → Fin 50000) (u : Mat 50000 128) : Mat 50000 128 :=
  fun c j => ∑ e ∈ Finset.univ.filter (fun e => C e = c), u (R e) j

/-- The kernel's rows before they are sent: scaled by the source's factor. -/
def hsK (d : Vc 50000) (L : Mat 50000 128) : Mat 50000 128 := fun i j => L i j * d i

/-- The kernel's aggregate: the segment sum scaled by the target's factor. -/
def xK (R C : Fin 850000 → Fin 50000) (d : Vc 50000) (L : Mat 50000 128) : Mat 50000 128 :=
  fun c j => seg R C (hsK d L) c j * d c

/-- The reference's aggregate: each edge carries both factors. -/
def aggR (R C : Fin 850000 → Fin 50000) (d : Vc 50000) (L : Mat 50000 128) : Mat 50000 128 :=
  fun c j => ∑ e ∈ Finset.univ.filter (fun e => C e = c), (d (R e) * d (C e)) * L (R e) j

/-- The sum of each column. -/
def colSum (x : Mat 50000 128) : Vc 128 := fun j => ∑ c : Fin 50000, x c j

/-- The mean of each column. -/
def mean (x : Mat 50000 128) : Vc 128 := fun j => Ideal.div (colSum x j) cN

/-- The kernel's variance: the mean of the squares less the square of the mean, clamped at zero. -/
def varK (x : Mat 50000 128) : Vc 128 :=
  fun j => max (Ideal.div (colSum (fun c j => x c j * x c j) j) cN - mean x j * mean x j) cZero

/-- The reference's variance: the mean of the squared deviations. -/
def varR (a : Mat 50000 128) : Vc 128 :=
  fun j => Ideal.div (colSum (fun c j => (a c j - mean a j) * (a c j - mean a j)) j) cN

/-- The leaky slope. -/
def leaky (y : EReal) : EReal := Scalar.select (Ideal.cmp .oge y cZero) y (cSlope * y)

/-- Centre, scale, shift, and the leaky slope. -/
def bn (x : Mat 50000 128) (mu var g be : Vc 128) : Mat 50000 128 :=
  fun c j => leaky ((x c j - mu j) * Ideal.rsqrt (var j + cEps) * g j + be j)

/-- One layer as the kernel computes it. -/
def layerK (R C : Fin 850000 → Fin 50000) (d : Vc 50000) (h : Mat 50000 128) (W : Mat 128 128) (b g be : Vc 128) :
    Mat 50000 128 :=
  bn (xK R C d (lin h W b)) (mean (xK R C d (lin h W b))) (varK (xK R C d (lin h W b))) g be

/-- One layer as the reference computes it. -/
def layerR (R C : Fin 850000 → Fin 50000) (d : Vc 50000) (h : Mat 50000 128) (W : Mat 128 128) (b g be : Vc 128) :
    Mat 50000 128 :=
  bn (aggR R C d (lin h W b)) (mean (aggR R C d (lin h W b))) (varR (aggR R C d (lin h W b))) g be

/-! ## The decode -/

/-- `(p1 p2) p1ᵀ`. -/
def mK (p1 p2 : Mat 128 128) : Mat 128 128 := fun k j => ∑ l : Fin 128, (∑ i : Fin 128, p1 k i * p2 i l) * p1 j l

/-- The kernel's decode: `sum_j (a m)[r, j] * bb[r, j]`. -/
def decK (a bb : Mat 4096 128) (m : Mat 128 128) : Vc 4096 :=
  fun r => ∑ j : Fin 128, (∑ k : Fin 128, a r k * m k j) * bb r j

/-- The reference's decode: `sum_j (((a p1) p2) p1ᵀ)[r, j] * bb[r, j]`. -/
def decR (a bb : Mat 4096 128) (p1 p2 : Mat 128 128) : Vc 4096 :=
  fun r => ∑ j : Fin 128, (∑ l : Fin 128, (∑ i : Fin 128, (∑ k : Fin 128, a r k * p1 k i) * p2 i l) * p1 j l) * bb r j

end Cert.Spec

end
-- ==== Proof.SpecGraph.lean ====
/-
  The graph and the decode's rows, read off the integer inputs.

  The edge list has 850000 entries: entry `e` below 800000 is column `e` of the edge table (row 0 the source, row 1
  the target); entry `800000 + v` is the self loop of node `v`.  `R` and `C` are the source and target node of an
  edge: the word read as a number, reduced into the 50000 nodes (when every table entry is below 50000 this is the
  word itself).  The decode reads, for pair `r` and side `k`, row `drugNode di k r` of the last layer: the table's
  1-based word less one, a negative result counted from the end, then clamped into the rows.
-/
import proofs.«404543_j21388937134518_2_alg».proof.Proof.Spec
import Idealize.ShloMosaic.Lib.ValueIdx

noncomputable section

namespace Cert.Spec

open Idealize.ShloMosaic Idealize.ShloMosaic.ValueIdx

/-- The edge table's shape and the drug-pair table's. -/
abbrev SEdge : Shape := ⟨2, ![2, 800000]⟩
abbrev SDrug : Shape := ⟨2, ![4096, 2]⟩

/-- Entry `e` of the list of edge ends on side `s` (0 the source, 1 the target). -/
def endW (ei : IVec SEdge 32) (s : Fin 2) (e : Fin 850000) : BitVec 32 :=
  if h : e.val < 800000 then ei (ix2 s (⟨e.val, h⟩ : Fin 800000)) else BitVec.ofNat 32 (e.val - 800000)

/-- The node a word names. -/
def nodeOf (w : BitVec 32) : Fin 50000 := ⟨w.toNat % 50000, Nat.mod_lt _ (by norm_num)⟩

/-- The source and the target node of edge `e`. -/
def R (ei : IVec SEdge 32) (e : Fin 850000) : Fin 50000 := nodeOf (endW ei 0 e)
def C (ei : IVec SEdge 32) (e : Fin 850000) : Fin 50000 := nodeOf (endW ei 1 e)

/-- Every end of every edge is below 50000 when the table's entries are. -/
theorem endW_lt (ei : IVec SEdge 32) (hei : ∀ i, (ei i).toNat < 50000) (s : Fin 2) (e : Fin 850000) :
    (endW ei s e).toNat < 50000 := by
  unfold endW
  split
  · exact hei _
  · rename_i h
    have he : e.val - 800000 < 50000 := by have := e.isLt; omega
    rw [BitVec.toNat_ofNat, Nat.mod_eq_of_lt (by omega)]
    exact he

/-- Then the node is the word itself. -/
theorem nodeOf_val (w : BitVec 32) (hw : w.toNat < 50000) : (nodeOf w).val = w.toNat := Nat.mod_eq_of_lt hw

/-- The word of pair `r`, side `k`, as both programs prepare it: less one, and plus 50000 when that is negative. -/
def drugW (di : IVec SDrug 32) (k : Fin 2) (r : Fin 4096) : BitVec 32 :=
  Scalar.select (IntOp.cmpi .slt (di (ix2 r k) - 1#32) 0#32) (di (ix2 r k) - 1#32 + 50000#32) (di (ix2 r k) - 1#32)

/-- The row it reads: the word as a signed number, clamped into the rows. -/
def drugNode (di : IVec SDrug 32) (k : Fin 2) (r : Fin 4096) : Fin 50000 :=
  ⟨min (drugW di k r).toInt.toNat 49999, by omega⟩

end Cert.Spec

end
-- ==== Proof.SpecCongr.lean ====
/-
  The specification's functions respect pointwise equality of their arguments: two arrays that agree entry by entry
  give the same linear map, segment sum, column sum, normalisation and decode.  (Each is function extensionality.)
-/
import proofs.«404543_j21388937134518_2_alg».proof.Proof.Spec
import Idealize.ShloMosaic.Lib.ValueIdx

noncomputable section

namespace Cert.Spec

open Idealize.ShloMosaic Idealize.ShloMosaic.ValueIdx

theorem lin_congr {h h' : Mat 50000 128} {W W' : Mat 128 128} {b b' : Vc 128}
    (hh : ∀ a k, h a k = h' a k) (hW : ∀ k q, W k q = W' k q) (hb : ∀ q, b q = b' q) (i : Fin 50000) (j : Fin 128) :
    lin h W b i j = lin h' W' b' i j := by
  rw [show h = h' from funext fun a => funext (hh a), show W = W' from funext fun k => funext (hW k), show b = b' from funext hb]

theorem hsK_congr {d d' : Vc 50000} {L L' : Mat 50000 128} (hd : ∀ a, d a = d' a) (hL : ∀ a q, L a q = L' a q)
    (i : Fin 50000) (j : Fin 128) : hsK d L i j = hsK d' L' i j := by
  rw [show d = d' from funext hd, show L = L' from funext fun a => funext (hL a)]

theorem seg_congr (R C : Fin 850000 → Fin 50000) {u u' : Mat 50000 128} (hu : ∀ a q, u a q = u' a q)
    (c : Fin 50000) (j : Fin 128) : seg R C u c j = seg R C u' c j := by
  rw [show u = u' from funext fun a => funext (hu a)]

theorem aggR_congr (R C : Fin 850000 → Fin 50000) {d d' : Vc 50000} {L L' : Mat 50000 128} (hd : ∀ a, d a = d' a)
    (hL : ∀ a q, L a q = L' a q) (c : Fin 50000) (j : Fin 128) : aggR R C d L c j = aggR R C d' L' c j := by
  rw [show d = d' from funext hd, show L = L' from funext fun a => funext (hL a)]

theorem colSum_congr {x x' : Mat 50000 128} (hx : ∀ a q, x a q = x' a q) (j : Fin 128) : colSum x j = colSum x' j := by
  rw [show x = x' from funext fun a => funext (hx a)]

theorem bn_congr {x x' : Mat 50000 128} {mu mu' var var' g g' be be' : Vc 128}
    (hx : ∀ a q, x a q = x' a q) (hmu : ∀ q, mu q = mu' q) (hvar : ∀ q, var q = var' q) (hg : ∀ q, g q = g' q)
    (hbe : ∀ q, be q = be' q) (i : Fin 50000) (j : Fin 128) : bn x mu var g be i j = bn x' mu' var' g' be' i j := by
  rw [show x = x' from funext fun a => funext (hx a), show mu = mu' from funext hmu, show var = var' from funext hvar,
    show g = g' from funext hg, show be = be' from funext hbe]

theorem decK_congr {a a' bb bb' : Mat 4096 128} {m m' : Mat 128 128} (ha : ∀ r k, a r k = a' r k)
    (hbb : ∀ r k, bb r k = bb' r k) (hm : ∀ k q, m k q = m' k q) (r : Fin 4096) : decK a bb m r = decK a' bb' m' r := by
  rw [show a = a' from funext fun r => funext (ha r), show bb = bb' from funext fun r => funext (hbb r),
    show m = m' from funext fun k => funext (hm k)]

theorem decR_congr {a a' bb bb' : Mat 4096 128} (p1 p2 : Mat 128 128) (ha : ∀ r k, a r k = a' r k)
    (hbb : ∀ r k, bb r k = bb' r k) (r : Fin 4096) : decR a bb p1 p2 r = decR a' bb' p1 p2 r := by
  rw [show a = a' from funext fun r => funext (ha r), show bb = bb' from funext fun r => funext (hbb r)]

/-- An array whose entries are the segment sum of the scaled rows, times a column whose entries are the node factors,
    is the kernel's scaled aggregate, entry by entry. -/
theorem xK_of {R C : Fin 850000 → Fin 50000} {d : Vc 50000} {L : Mat 50000 128}
    (Xv : (⟨2, ![50000, 128]⟩ : Shape).Idx → EReal) (Dv : (⟨2, ![50000, 1]⟩ : Shape).Idx → EReal)
    (hX : ∀ a q, Xv (ix2 a q) = seg R C (hsK d L) a q) (hD : ∀ a, Dv (ix2 a (0 : Fin 1)) = d a) (a : Fin 50000) (j : Fin 128) :
    Xv (ix2 a j) * Dv (ix2 a (0 : Fin 1)) = xK R C d L a j := by
  rw [hX, hD]; rfl

/-- The same for its square. -/
theorem xK_sq_of {R C : Fin 850000 → Fin 50000} {d : Vc 50000} {L : Mat 50000 128}
    (Xv : (⟨2, ![50000, 128]⟩ : Shape).Idx → EReal) (Dv : (⟨2, ![50000, 1]⟩ : Shape).Idx → EReal)
    (hX : ∀ a q, Xv (ix2 a q) = seg R C (hsK d L) a q) (hD : ∀ a, Dv (ix2 a (0 : Fin 1)) = d a) (a : Fin 50000) (j : Fin 128) :
    (Xv (ix2 a j) * Dv (ix2 a (0 : Fin 1))) * (Xv (ix2 a j) * Dv (ix2 a (0 : Fin 1))) = xK R C d L a j * xK R C d L a j := by
  rw [xK_of Xv Dv hX hD a j]

end Cert.Spec

end
-- ==== Proof.LayerAlgebra.lean ====
/-
  One layer of the graph convolution computed the kernel's way is the layer computed the reference's way, on finite
  data, and its entries are again finite.

  The node factor `dis c` of the target is a real number, so it distributes over the finite sum of the real rows
  arriving at `c`; each edge's term `(L (R e) j * dis (R e)) * dis c` is the reference's
  `(dis (R e) * dis (C e)) * L (R e) j` because `C e = c` on the edges summed.  The variances agree because, with
  `m` the mean of the 50000 reals `a c`, `sum (a c - m)^2 / 50000 = sum (a c)^2 / 50000 - m^2`, a non-negative
  number, so the clamp at zero does nothing.  `rsqrt` of a non-negative real plus the positive `eps` is a real.
-/
import proofs.«404543_j21388937134518_2_alg».proof.Proof.Spec
import Mathlib.Analysis.SpecialFunctions.Pow.Real

noncomputable section

open scoped BigOperators

namespace Cert.Spec

open Idealize.ShloMosaic

/-! ## Sums of reals inside the extended reals -/

/-- The inclusion of the reals carries a finite sum to the sum of the inclusions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The float words as reals -/

theorem cOne_eq : cOne = ((1 : ℝ) : EReal) := by
  unfold cOne; simp [Ideal.ofBits, Ideal.ieee, -EReal.coe_mul]; norm_num

theorem cZero_eq : cZero = ((0 : ℝ) : EReal) := by
  unfold cZero; simp [Ideal.ofBits, Ideal.ieee]

theorem cN_eq : cN = ((50000 : ℝ) : EReal) := by
  unfold cN; simp [Ideal.ofBits, Ideal.ieee, -EReal.coe_mul]; norm_num

theorem cNegHalf_eq : cNegHalf = ((-(1 / 2) : ℝ) : EReal) := by
  unfold cNegHalf; simp [Ideal.ofBits, Ideal.ieee, -EReal.coe_mul]; norm_num

/-- `eps` is a positive real. -/
theorem cEps_pos : ∃ e : ℝ, 0 < e ∧ cEps = (e : EReal) := by
  unfold cEps
  simp [Ideal.ofBits, Ideal.ieee, -EReal.coe_mul]

/-- The leaky slope's factor is a real. -/
theorem cSlope_fin : ∃ s : ℝ, cSlope = (s : EReal) := by
  unfold cSlope
  simp [Ideal.ofBits, Ideal.ieee, -EReal.coe_mul]

/-! ## The degree factor is real -/

/-- The degree is the number of arriving edges, a real. -/
theorem deg_fin (C : Fin 850000 → Fin 50000) : FinV (deg C) := by
  intro c
  refine ⟨∑ _e ∈ Finset.univ.filter (fun e => C e = c), (1 : ℝ), ?_⟩
  rw [coe_sum]; simp only [deg, cOne_eq]

/-- `deg ^ (-1/2)` is a real number at every node: the degree is a finite sum of ones, and a real power of a real
    is real. -/
theorem dis_fin (C : Fin 850000 → Fin 50000) : FinV (dis C) := by
  intro c
  obtain ⟨r, hr⟩ := deg_fin C c
  refine ⟨Real.rpow r (-(1 / 2)), ?_⟩
  simp only [dis, hr, cNegHalf_eq]
  rfl

/-! ## The affine map keeps entries real -/

theorem lin_fin {h : Mat 50000 128} {W : Mat 128 128} {b : Vc 128} (hh : FinM h) (hW : FinM W) (hb : FinV b) :
    FinM (lin h W b) := by
  choose hr hhr using hh
  choose Wr hWr using hW
  choose br hbr using hb
  intro i j
  refine ⟨(∑ k : Fin 128, hr i k * Wr k j) + br j, ?_⟩
  simp only [lin, hhr, hWr, hbr, EReal.coe_add, coe_sum, EReal.coe_mul]

/-! ## The two aggregates -/

/-- Entry by entry the kernel's aggregate is the reference's: the target's real factor goes inside the finite sum,
    and on the edges summed the target is `c`. -/
theorem xK_eq_aggR (R C : Fin 850000 → Fin 50000) {d : Vc 50000} {L : Mat 50000 128} (hd : FinV d) (hL : FinM L) :
    xK R C d L = aggR R C d L := by
  choose dr hdr using hd
  choose Lr hLr using hL
  funext c j
  have h1 : xK R C d L c j
      = ((∑ e ∈ Finset.univ.filter (fun e => C e = c), (dr (R e) * dr (C e)) * Lr (R e) j : ℝ) : EReal) := by
    have : (∑ e ∈ Finset.univ.filter (fun e => C e = c), (dr (R e) * dr (C e)) * Lr (R e) j : ℝ)
        = (∑ e ∈ Finset.univ.filter (fun e => C e = c), Lr (R e) j * dr (R e)) * dr c := by
      rw [Finset.sum_mul]
      refine Finset.sum_congr rfl (fun e he => ?_)
      rw [(Finset.mem_filter.mp he).2]; ring
    rw [this]
    simp only [xK, seg, hsK, hdr, hLr, EReal.coe_mul, coe_sum]
  have h2 : aggR R C d L c j
      = ((∑ e ∈ Finset.univ.filter (fun e => C e = c), (dr (R e) * dr (C e)) * Lr (R e) j : ℝ) : EReal) := by
    simp only [aggR, hdr, hLr, EReal.coe_mul, coe_sum]
  rw [h1, h2]

theorem aggR_fin (R C : Fin 850000 → Fin 50000) {d : Vc 50000} {L : Mat 50000 128} (hd : FinV d) (hL : FinM L) :
    FinM (aggR R C d L) := by
  choose dr hdr using hd
  choose Lr hLr using hL
  intro c j
  refine ⟨∑ e ∈ Finset.univ.filter (fun e => C e = c), (dr (R e) * dr (C e)) * Lr (R e) j, ?_⟩
  simp only [aggR, hdr, hLr, EReal.coe_mul, coe_sum]

/-! ## Mean and variance of real columns -/

/-- Over the reals: the mean of the squared deviations from the mean of 50000 numbers is the mean of the squares
    less the square of the mean. -/
theorem var_identity (f : Fin 50000 → ℝ) :
    (∑ c, (f c - (∑ c, f c) * (1 / 50000)) * (f c - (∑ c, f c) * (1 / 50000))) * (1 / 50000)
      = (∑ c, f c * f c) * (1 / 50000) - ((∑ c, f c) * (1 / 50000)) * ((∑ c, f c) * (1 / 50000)) := by
  generalize hS : (∑ c, f c) = S
  have hexp : ∀ c, (f c - S * (1 / 50000)) * (f c - S * (1 / 50000))
      = f c * f c - (2 * S * (1 / 50000)) * f c + (S * (1 / 50000)) * (S * (1 / 50000)) := by
    intro c; ring
  rw [Finset.sum_congr rfl (fun c _ => hexp c), Finset.sum_add_distrib, Finset.sum_sub_distrib,
    ← Finset.mul_sum, hS, Finset.sum_const, Finset.card_univ, Fintype.card_fin, nsmul_eq_mul]
  push_cast
  ring

/-- The mean of the squared deviations is not negative. -/
theorem var_nonneg (f : Fin 50000 → ℝ) (m : ℝ) :
    0 ≤ (∑ c, (f c - m) * (f c - m)) * (1 / 50000) :=
  mul_nonneg (Finset.sum_nonneg (fun c _ => mul_self_nonneg _)) (by norm_num)

theorem mean_coe (ar : Fin 50000 → Fin 128 → ℝ) (j : Fin 128) :
    mean (fun c j => (ar c j : EReal)) j = (((∑ c, ar c j) * (1 / 50000) : ℝ) : EReal) := by
  simp only [mean, colSum, cN_eq]
  rw [Ideal.div_coe (by norm_num), ← coe_sum, ← EReal.coe_mul]

theorem varR_coe (ar : Fin 50000 → Fin 128 → ℝ) (j : Fin 128) :
    varR (fun c j => (ar c j : EReal)) j
      = (((∑ c, (ar c j - (∑ c, ar c j) * (1 / 50000)) * (ar c j - (∑ c, ar c j) * (1 / 50000))) * (1 / 50000) : ℝ) : EReal) := by
  simp only [varR, colSum, mean_coe, cN_eq]
  rw [Ideal.div_coe (by norm_num)]
  simp only [← EReal.coe_sub, ← EReal.coe_mul, ← coe_sum]

theorem varK_coe (ar : Fin 50000 → Fin 128 → ℝ) (j : Fin 128) :
    varK (fun c j => (ar c j : EReal)) j
      = (((∑ c, (ar c j - (∑ c, ar c j) * (1 / 50000)) * (ar c j - (∑ c, ar c j) * (1 / 50000))) * (1 / 50000) : ℝ) : EReal) := by
  simp only [varK, colSum, mean_coe, cN_eq, cZero_eq]
  rw [Ideal.div_coe (by norm_num)]
  simp only [← EReal.coe_sub, ← EReal.coe_mul, ← coe_sum]
  rw [← var_identity]
  exact max_eq_left (EReal.coe_le_coe_iff.mpr (var_nonneg _ _))

/-- On a real matrix the kernel's variance is the reference's. -/
theorem varK_eq_varR {a : Mat 50000 128} (ha : FinM a) : varK a = varR a := by
  choose ar har using ha
  have : a = fun c j => (ar c j : EReal) := by funext c j; exact har c j
  subst this
  funext j
  rw [varK_coe, varR_coe]

theorem mean_fin {a : Mat 50000 128} (ha : FinM a) : FinV (mean a) := by
  choose ar har using ha
  have : a = fun c j => (ar c j : EReal) := by funext c j; exact har c j
  subst this
  intro j
  exact ⟨_, mean_coe ar j⟩

/-- The reference's variance is a real that is not negative. -/
theorem varR_fin {a : Mat 50000 128} (ha : FinM a) : ∀ j, ∃ v : ℝ, 0 ≤ v ∧ varR a j = (v : EReal) := by
  choose ar har using ha
  have : a = fun c j => (ar c j : EReal) := by funext c j; exact har c j
  subst this
  intro j
  exact ⟨_, var_nonneg _ _, varR_coe ar j⟩

/-! ## Normalisation keeps entries real -/

/-- The leaky slope of a real is a real. -/
theorem leaky_fin (y : ℝ) : ∃ r : ℝ, leaky (y : EReal) = (r : EReal) := by
  obtain ⟨s, hs⟩ := cSlope_fin
  unfold leaky Scalar.select
  split_ifs
  · exact ⟨y, rfl⟩
  · exact ⟨s * y, by rw [hs, EReal.coe_mul]⟩

/-- The reciprocal square root of a non-negative real plus `eps` is a real. -/
theorem rsqrt_fin {v : ℝ} (hv : 0 ≤ v) : ∃ r : ℝ, Ideal.rsqrt ((v : EReal) + cEps) = (r : EReal) := by
  obtain ⟨e, he, hce⟩ := cEps_pos
  refine ⟨(Real.sqrt (v + e))⁻¹, ?_⟩
  have hpos : 0 < v + e := by linarith
  rw [hce, ← EReal.coe_add, Ideal.rsqrt_coe, if_neg (not_lt.mpr hpos.le), if_neg hpos.ne']

theorem bn_fin {x : Mat 50000 128} {mu var g be : Vc 128} (hx : FinM x) (hmu : FinV mu)
    (hvar : ∀ j, ∃ v : ℝ, 0 ≤ v ∧ var j = (v : EReal)) (hg : FinV g) (hbe : FinV be) :
    FinM (bn x mu var g be) := by
  intro c j
  obtain ⟨xr, hxr⟩ := hx c j
  obtain ⟨mr, hmr⟩ := hmu j
  obtain ⟨v, hv, hvr⟩ := hvar j
  obtain ⟨gr, hgr⟩ := hg j
  obtain ⟨ber, hber⟩ := hbe j
  obtain ⟨q, hq⟩ := rsqrt_fin hv
  have : bn x mu var g be c j = leaky (((xr - mr) * q * gr + ber : ℝ) : EReal) := by
    simp only [bn, hxr, hmr, hvr, hgr, hber, hq, EReal.coe_add, EReal.coe_mul, EReal.coe_sub]
  rw [this]
  exact leaky_fin _

/-! ## The layer -/

/-- The two ways of computing a layer agree on finite data, and the layer's entries are finite. -/
theorem layer_eq (R C : Fin 850000 → Fin 50000) (d : Vc 50000) (h : Mat 50000 128) (W : Mat 128 128) (b g be : Vc 128)
    (hd : FinV d) (hh : FinM h) (hW : FinM W) (hb : FinV b) (hg : FinV g) (hbe : FinV be) :
    layerK R C d h W b g be = layerR R C d h W b g be ∧ FinM (layerR R C d h W b g be) := by
  have hL : FinM (lin h W b) := lin_fin hh hW hb
  have hx : xK R C d (lin h W b) = aggR R C d (lin h W b) := xK_eq_aggR R C hd hL
  have ha : FinM (aggR R C d (lin h W b)) := aggR_fin R C hd hL
  refine ⟨?_, ?_⟩
  · unfold layerK layerR
    rw [hx, varK_eq_varR ha]
  · unfold layerR
    exact bn_fin ha (mean_fin ha) (varR_fin ha) hg hbe

end Cert.Spec

end
-- ==== Proof.DecodeAlgebra.lean ====
/-
  The bilinear decode: `a ((p1 p2) p1ᵀ)` and `((a p1) p2) p1ᵀ` are one matrix on finite data, so the two row sums
  against `bb` agree.  Over the reals this is associativity of the matrix product: every sum is finite, a real
  factor moves across a finite sum, and two finite sums exchange.
-/
import proofs.«404543_j21388937134518_2_alg».proof.Proof.Spec
import Mathlib.Data.EReal.Basic
import Mathlib.Algebra.BigOperators.Ring.Finset
import Mathlib.Tactic.Ring

noncomputable section

open scoped BigOperators

namespace Cert.Spec

open Idealize.ShloMosaic

/-- The inclusion of the reals in the extended reals carries a finite sum to the sum of the images. -/
theorem coe_sum_dec {ι : Type*} (s : Finset ι) (f : ι → ℝ) :
    ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

/-- Associativity of a row times three real matrices, at one output column: both sides are the triple sum of
the products `v k * p k i * q i l * w l`. -/
theorem real_assoc {n : ℕ} (v w : Fin n → ℝ) (p q : Fin n → Fin n → ℝ) :
    ∑ k, v k * (∑ l, (∑ i, p k i * q i l) * w l) = ∑ l, (∑ i, (∑ k, v k * p k i) * q i l) * w l := by
  simp only [Finset.mul_sum, Finset.sum_mul]
  rw [Finset.sum_comm]
  refine Finset.sum_congr rfl fun l _ => ?_
  rw [Finset.sum_comm]
  refine Finset.sum_congr rfl fun i _ => ?_
  refine Finset.sum_congr rfl fun k _ => ?_
  ring

/-- The kernel's and the reference's decode agree on finite data. -/
theorem decode_eq (a bb : Mat 4096 128) (p1 p2 : Mat 128 128)
    (ha : FinM a) (hbb : FinM bb) (hp1 : FinM p1) (hp2 : FinM p2) :
    decK a bb (mK p1 p2) = decR a bb p1 p2 := by
  choose a' ha' using ha
  choose bb' hbb' using hbb
  choose p1' hp1' using hp1
  choose p2' hp2' using hp2
  funext r
  simp only [decK, decR, mK, ha', hbb', hp1', hp2']
  simp only [← EReal.coe_mul, ← coe_sum_dec]
  congr 1
  refine Finset.sum_congr rfl fun j _ => ?_
  rw [real_assoc (fun k => a' r k) (fun l => p1' j l) p1' p2']

end Cert.Spec

end
-- ==== Proof.NetAlgebra.lean ====
/-
  The whole network, the kernel's way and the reference's way, is one function on finite data.

  Three layers are stacked, each on the rows the layer before left; the decode reads two rows of the last layer per
  pair.  Layer by layer the two ways agree and leave finite rows (`layer_eq`), the node factors `dis` are real
  (`dis_fin`), the gathered rows of a finite matrix are finite, and the two decodes agree on finite rows
  (`decode_eq`).
-/
import proofs.«404543_j21388937134518_2_alg».proof.Proof.LayerAlgebra
import proofs.«404543_j21388937134518_2_alg».proof.Proof.DecodeAlgebra

noncomputable section

open scoped BigOperators

namespace Cert.Spec

open Idealize.ShloMosaic

/-- Three stacked layers, the kernel's way. -/
def netK (R C : Fin 850000 → Fin 50000) (x : Mat 50000 128) (w1 : Mat 128 128) (b1 : Vc 128) (w2 : Mat 128 128) (b2 : Vc 128)
    (w3 : Mat 128 128) (b3 g1 be1 g2 be2 g3 be3 : Vc 128) : Mat 50000 128 :=
  layerK R C (dis C) (layerK R C (dis C) (layerK R C (dis C) x w1 b1 g1 be1) w2 b2 g2 be2) w3 b3 g3 be3

/-- Three stacked layers, the reference's way. -/
def netR (R C : Fin 850000 → Fin 50000) (x : Mat 50000 128) (w1 : Mat 128 128) (b1 : Vc 128) (w2 : Mat 128 128) (b2 : Vc 128)
    (w3 : Mat 128 128) (b3 g1 be1 g2 be2 g3 be3 : Vc 128) : Mat 50000 128 :=
  layerR R C (dis C) (layerR R C (dis C) (layerR R C (dis C) x w1 b1 g1 be1) w2 b2 g2 be2) w3 b3 g3 be3

/-- The two networks agree on finite data, and their rows are finite. -/
theorem net_eq (R C : Fin 850000 → Fin 50000) (x : Mat 50000 128) (w1 : Mat 128 128) (b1 : Vc 128) (w2 : Mat 128 128) (b2 : Vc 128)
    (w3 : Mat 128 128) (b3 g1 be1 g2 be2 g3 be3 : Vc 128)
    (hx : FinM x) (hw1 : FinM w1) (hb1 : FinV b1) (hw2 : FinM w2) (hb2 : FinV b2) (hw3 : FinM w3) (hb3 : FinV b3)
    (hg1 : FinV g1) (hbe1 : FinV be1) (hg2 : FinV g2) (hbe2 : FinV be2) (hg3 : FinV g3) (hbe3 : FinV be3) :
    netK R C x w1 b1 w2 b2 w3 b3 g1 be1 g2 be2 g3 be3 = netR R C x w1 b1 w2 b2 w3 b3 g1 be1 g2 be2 g3 be3
      ∧ FinM (netR R C x w1 b1 w2 b2 w3 b3 g1 be1 g2 be2 g3 be3) := by
  have hd := dis_fin C
  obtain ⟨e1, f1⟩ := layer_eq R C (dis C) x w1 b1 g1 be1 hd hx hw1 hb1 hg1 hbe1
  obtain ⟨e2, f2⟩ := layer_eq R C (dis C) _ w2 b2 g2 be2 hd f1 hw2 hb2 hg2 hbe2
  obtain ⟨e3, f3⟩ := layer_eq R C (dis C) _ w3 b3 g3 be3 hd f2 hw3 hb3 hg3 hbe3
  refine ⟨?_, f3⟩
  unfold netK netR
  rw [e1, e2, e3]

/-- The decode of the kernel's network against the decode of the reference's: equal on finite data, whatever rows
    `ra`, `rb` the pairs read. -/
theorem decode_net_eq (R C : Fin 850000 → Fin 50000) (ra rb : Fin 4096 → Fin 50000)
    (x : Mat 50000 128) (w1 : Mat 128 128) (b1 : Vc 128) (w2 : Mat 128 128) (b2 : Vc 128)
    (w3 : Mat 128 128) (b3 g1 be1 g2 be2 g3 be3 : Vc 128) (p1 p2 : Mat 128 128)
    (hx : FinM x) (hw1 : FinM w1) (hb1 : FinV b1) (hw2 : FinM w2) (hb2 : FinV b2) (hw3 : FinM w3) (hb3 : FinV b3)
    (hg1 : FinV g1) (hbe1 : FinV be1) (hg2 : FinV g2) (hbe2 : FinV be2) (hg3 : FinV g3) (hbe3 : FinV be3)
    (hp1 : FinM p1) (hp2 : FinM p2) :
    decK (fun r k => netK R C x w1 b1 w2 b2 w3 b3 g1 be1 g2 be2 g3 be3 (ra r) k)
         (fun r k => netK R C x w1 b1 w2 b2 w3 b3 g1 be1 g2 be2 g3 be3 (rb r) k) (mK p1 p2)
      = decR (fun r k => netR R C x w1 b1 w2 b2 w3 b3 g1 be1 g2 be2 g3 be3 (ra r) k)
             (fun r k => netR R C x w1 b1 w2 b2 w3 b3 g1 be1 g2 be2 g3 be3 (rb r) k) p1 p2 := by
  obtain ⟨e, f⟩ := net_eq R C x w1 b1 w2 b2 w3 b3 g1 be1 g2 be2 g3 be3 hx hw1 hb1 hw2 hb2 hw3 hb3 hg1 hbe1 hg2 hbe2 hg3 hbe3
  rw [e]
  exact decode_eq _ _ p1 p2 (fun r k => f (ra r) k) (fun r k => f (rb r) k) hp1 hp2

end Cert.Spec

end
-- ==== Proof.KLinear.lean ====
/-
  The linear regions of the kernel, read as mathematics.  Such a region walks ten tiles of 5000 rows of a
  [50000,128] array X and of a [50000,1] column d, with a [128,128] matrix W and a [1,128] row b held whole.
  Each tile's output block is (X_tile W + b) scaled row by row by d; the ten blocks tile the [50000,128] output, so
  after the region the output array holds, at row i and column j, (sum_k X[i,k] W[k,j] + b[j]) * d[i].
-/
import proofs.«404543_j21388937134518_2_alg».proof.Proof.Gen.KernelIdeal.Frame
import proofs.«404543_j21388937134518_2_alg».proof.Proof.Spec
import Idealize.ShloMosaic.Lib.Pipeline.Value
import Idealize.ShloMosaic.Lib.ValueIdx
import Idealize.ShloMosaic.Lib.Tactic
import Idealize.ShloMosaic.PureOps.Ideal.Laws

set_option pp.maxSteps 5000
set_option pp.deepTerms false

noncomputable section

open scoped BigOperators

namespace Cert.KernelIdeal.KLinear

open Cert.KernelIdeal Cert.KernelIdeal.Gen Idealize.ShloMosaic Idealize.ShloMosaic.ValueIdx
open Idealize.ShloMosaic.TcCoe Idealize.SL.Sem
open Idealize.ShloMosaic.Pipeline (Dat)

theorem hz : (![0, 0] : Fin 2 → Nat) = fun _ => 0 := funext fun a => by fin_cases a <;> rfl

/-! ## The block product at an index -/

/-- Along the rows' axis the left operand is read at the output's row … -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and along its columns at the contraction position; -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand along its rows at the contraction position … -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and along its columns at the output's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into the zero splat at (p, q) is the sum over k of a[p,k] b[k,q]. -/
theorem mm_apply {φ₁ φ₂ : FTy} (a : FVec Ideal S5000x128 φ₁) (b : FVec Ideal S128x128 φ₂) (p : Fin 5000) (q : Fin 128) :
    FloatOps.matmul dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-- A [1,128] row broadcast down 5000 rows reads its column. -/
theorem bcast_row_apply (x : FVec Ideal S1x128 .f32) (h : S1x128.Broadcasts S5000x128) (p : Fin 5000) (q : Fin 128) :
    broadcastTo S5000x128 x h (ix2 p q) = x (ix2 0 q) :=
  broadcastTo_apply x h (ix2 p q) (ix2 0 q) (fun a => by
    match a with
    | ⟨0, _⟩ => rfl
    | ⟨1, _⟩ => rfl)

/-- A [5000,1] column broadcast across 128 columns reads its row. -/
theorem bcast_col_apply (x : FVec Ideal S5000x1 .f32) (h : S5000x1.Broadcasts S5000x128) (p : Fin 5000) (q : Fin 128) :
    broadcastTo S5000x128 x h (ix2 p q) = x (ix2 p 0) :=
  broadcastTo_apply x h (ix2 p q) (ix2 p 0) (fun a => by
    match a with
    | ⟨0, _⟩ => rfl
    | ⟨1, _⟩ => rfl)

/-- What a linear region's output array ends holding: (X W + b) with row i scaled by d[i]. -/
abbrev G (X : FVec Ideal S50000x128 .f32) (Wt : FVec Ideal S128x128 .f32) (Bv : FVec Ideal S1x128 .f32)
    (Dz : FVec Ideal S50000x1 .f32) : S50000x128.Idx → Ideal .f32 :=
  fun i => ((∑ k : Fin 128, X (ix2 (i 0) k) * Wt (ix2 k (i 1))) + Bv (ix2 0 (i 1))) * Dz (ix2 (i 0) 0)
/-- The tile's payload at (p, q): (sum_k x[p,k] w[k,q] + b[0,q]) * d[p,0]. -/
theorem pay0_apply (x0 : Vec Ideal S5000x128 .f32) (x1 : Vec Ideal S128x128 .f32) (x2 : Vec Ideal S1x128 .f32)
    (x3 : Vec Ideal S5000x1 .f32) (p : Fin 5000) (q : Fin 128) :
    k0_pay1 x0 x1 x2 x3 (ix2 p q)
      = ((∑ k : Fin 128, x0 (ix2 p k) * x1 (ix2 k q)) + x2 (ix2 0 q)) * x3 (ix2 p 0) := by
  unfold k0_pay1
  refine congrArg₂ (· * ·) (congrArg₂ (· + ·) (mm_apply _ _ p q) ?_) ?_
  · rw [shapeCast_self]; exact bcast_row_apply _ _ p q
  · rw [shapeCast_self]; exact bcast_col_apply _ _ p q

/-! ## Region 0: from the tiles to the array -/

/-- The index maps over the grid: the tile's row block is the grid point; the matrix and the row are whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ t.val < 10 :=
  (by decide +kernel : ∀ t : Fin grid0.N, _)

section Region0
variable (V : (c : Dev nD) → (b : Ref sig .tc) → Buf (Elt Ideal) ((c : Thread nD τ).loc b)) (c : Dev nD)
  (X : FVec Ideal S50000x128 .f32) (Wt : FVec Ideal S128x128 .f32) (Bv : FVec Ideal S1x128 .f32) (Dz : FVec Ideal S50000x1 .f32)

/-- Tile t of X is rows 5000 t … 5000 t + 4999 of X. -/
theorem iblk0_0_apply (hX : V c (Pipeline.arrRef spec0 0) = X) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = X k := by
  obtain ⟨e0, e1, -⟩ := idx_facts0 t
  subst hX
  unfold iblk0
  rw [View.read_apply]
  show V c (Pipeline.arrRef spec0 0) (((cfg0.win 0).blk t).view.emb x) = V c (Pipeline.arrRef spec0 0) k
  refine congrArg _ (funext fun a => Fin.ext ?_)
  match a with
  | ⟨0, _⟩ => show win0_0.index t (0 : Fin 2) * 5000 + 1 * (x 0).val = (k 0).val; omega
  | ⟨1, _⟩ => show win0_0.index t (1 : Fin 2) * 128 + 1 * (x 1).val = (k 1).val; omega

/-- The matrix is held whole at every tile. -/
theorem iblk0_1_apply (hW : V c (Pipeline.arrRef spec0 1) = Wt) (t : Fin cfg0.N) (x : S128x128.Idx) :
    (iblk0 V c 1 t : Vec Ideal S128x128 .f32) x = Wt x := by
  obtain ⟨-, -, e0, e1, -⟩ := idx_facts0 t
  subst hW
  unfold iblk0
  rw [View.read_apply]
  show V c (Pipeline.arrRef spec0 1) (((cfg0.win 1).blk t).view.emb x) = V c (Pipeline.arrRef spec0 1) x
  refine congrArg _ (funext fun a => Fin.ext ?_)
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- The row is held whole at every tile. -/
theorem iblk0_2_apply (hB : V c (Pipeline.arrRef spec0 2) = Bv) (t : Fin cfg0.N) (x : S1x128.Idx) :
    (iblk0 V c 2 t : Vec Ideal S1x128 .f32) x = Bv x := by
  obtain ⟨-, -, -, -, e0, e1, -⟩ := idx_facts0 t
  subst hB
  unfold iblk0
  rw [View.read_apply]
  show V c (Pipeline.arrRef spec0 2) (((cfg0.win 2).blk t).view.emb x) = V c (Pipeline.arrRef spec0 2) x
  refine congrArg _ (funext fun a => Fin.ext ?_)
  match a with
  | ⟨0, _⟩ => show win0_2.index t (0 : Fin 2) * 1 + 1 * (x 0).val = (x 0).val; omega
  | ⟨1, _⟩ => show win0_2.index t (1 : Fin 2) * 128 + 1 * (x 1).val = (x 1).val; omega

/-- Tile t of the column d is rows 5000 t … 5000 t + 4999 of d. -/
theorem iblk0_3_apply (hD : V c (Pipeline.arrRef spec0 3) = Dz) (t : Fin cfg0.N) (x : S5000x1.Idx) (k : S50000x1.Idx)
    (hk0 : (k 0).val = 5000 * t.val + (x 0).val) (hk1 : (k 1).val = (x 1).val) :
    (iblk0 V c 3 t : Vec Ideal S5000x1 .f32) x = Dz k := by
  obtain ⟨-, -, -, -, -, -, e0, e1, -⟩ := idx_facts0 t
  subst hD
  unfold iblk0
  rw [View.read_apply]
  show V c (Pipeline.arrRef spec0 3) (((cfg0.win 3).blk t).view.emb x) = V c (Pipeline.arrRef spec0 3) k
  refine congrArg _ (funext fun a => Fin.ext ?_)
  match a with
  | ⟨0, _⟩ => show win0_3.index t (0 : Fin 2) * 5000 + 1 * (x 0).val = (k 0).val; omega
  | ⟨1, _⟩ => show win0_3.index t (1 : Fin 2) * 1 + 1 * (x 1).val = (k 1).val; omega

/-- WHAT TILE t WRITES BACK is block t of `G`. -/
theorem flushed0_eq (hX : V c (Pipeline.arrRef spec0 0) = X) (hW : V c (Pipeline.arrRef spec0 1) = Wt)
    (hB : V c (Pipeline.arrRef spec0 2) = Bv) (hD : V c (Pipeline.arrRef spec0 3) = Dz) (t : Fin cfg0.N) :
    (dat0 (F := Ideal) V c).flushed 4 t = ((cfg0.win 4).blk t).view.read (Elt Ideal) (G X Wt Bv Dz) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz,
    View.ld_unit_zero (S := S1x128) hz, View.ld_unit_zero (S := S5000x1) hz]
  obtain ⟨-, -, -, -, -, -, -, -, e0, e1, hlt⟩ := idx_facts0 t
  funext j
  obtain ⟨p, q, rfl⟩ : ∃ (p : Fin 5000) (q : Fin 128), j = ix2 p q := ⟨j 0, j 1, eq_ix2 j⟩
  have hr : 5000 * t.val + p.val < 50000 := by have := p.isLt; omega
  have hemb : ((cfg0.win 4).blk t).view.emb (ix2 p q) = (ix2 (⟨5000 * t.val + p.val, hr⟩ : Fin 50000) q : S50000x128.Idx) := by
    funext a; apply Fin.ext
    match a with
    | ⟨0, _⟩ => show win0_4.index t (0 : Fin 2) * 5000 + 1 * p.val = 5000 * t.val + p.val; omega
    | ⟨1, _⟩ => show win0_4.index t (1 : Fin 2) * 128 + 1 * q.val = q.val; omega
  rw [View.read_apply, hemb]
  refine (pay0_apply (iblk0 V c 0 t) (iblk0 V c 1 t) (iblk0 V c 2 t) (iblk0 V c 3 t) p q).trans ?_
  show _ = ((∑ k : Fin 128, X (ix2 (⟨5000 * t.val + p.val, hr⟩ : Fin 50000) k) * Wt (ix2 k q)) + Bv (ix2 0 q))
      * Dz (ix2 (⟨5000 * t.val + p.val, hr⟩ : Fin 50000) 0)
  rw [iblk0_2_apply V c Bv hB t (ix2 0 q),
    iblk0_3_apply V c Dz hD t (ix2 p 0) (ix2 (⟨5000 * t.val + p.val, hr⟩ : Fin 50000) 0) rfl rfl]
  refine congrArg (fun s => (s + Bv (ix2 0 q)) * Dz (ix2 (⟨5000 * t.val + p.val, hr⟩ : Fin 50000) 0)) ?_
  refine Finset.sum_congr rfl fun k _ => ?_
  rw [iblk0_0_apply V c X hX t (ix2 p k) (ix2 (⟨5000 * t.val + p.val, hr⟩ : Fin 50000) k) rfl rfl,
    iblk0_1_apply V c Wt hW t (ix2 k q)]

/-- An index of the array is in tile t's block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v20).slice (win0_4.rect t)).set ↔ _
  rw [View.set_slice_whole, Rect.mem_set_unit]
  exact Iff.rfl

/-- Row r of the array is in the block of tile r / 5000. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, e0, e1, -⟩ := idx_facts0 t
  have ht : t.val = (i 0).val / 5000 := rfl
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE ARRAY after the region. -/
theorem final0 (hX : V c (Pipeline.arrRef spec0 0) = X) (hW : V c (Pipeline.arrRef spec0 1) = Wt)
    (hB : V c (Pipeline.arrRef spec0 2) = Bv) (hD : V c (Pipeline.arrRef spec0 3) = Dz) :
    (dat0 (F := Ideal) V c).arrAt 4 cfg0.N = G X Wt Bv Dz :=
  (dat0 (F := Ideal) V c).arrAt_eq_of_cover 4 (G X Wt Bv Dz) (fun t _ => flushed0_eq V c X Wt Bv Dz hX hW hB hD t) cover0

end Region0

/-- After region 0 the output array holds, at (i, j), (sum_k X[i,k] W[k,j] + b[j]) * d[i]. -/
theorem linear0_value (V : (c : Dev nD) → (b : Ref sig .tc) → Buf (Elt Ideal) ((c : Thread nD τ).loc b)) (c : Dev nD)
    (X : FVec Ideal S50000x128 .f32) (Wt : FVec Ideal S128x128 .f32) (Bv : FVec Ideal S1x128 .f32) (Dz : FVec Ideal S50000x1 .f32)
    (hX : V c (Pipeline.arrRef spec0 0) = X) (hW : V c (Pipeline.arrRef spec0 1) = Wt) (hB : V c (Pipeline.arrRef spec0 2) = Bv) (hD : V c (Pipeline.arrRef spec0 3) = Dz)
    (i : Fin 50000) (j : Fin 128) :
    (dat0 (F := Ideal) V c).arrAt 4 cfg0.N (ix2 i j)
      = Spec.hsK (fun a => Dz (ix2 a 0)) (Spec.lin (fun a k => X (ix2 a k)) (fun k b => Wt (ix2 k b)) (fun b => Bv (ix2 0 b))) i j := by
  rw [final0 V c X Wt Bv Dz hX hW hB hD]
  rfl

/-- The tile's payload at (p, q): (sum_k x[p,k] w[k,q] + b[0,q]) * d[p,0]. -/
theorem pay3_apply (x0 : Vec Ideal S5000x128 .f32) (x1 : Vec Ideal S128x128 .f32) (x2 : Vec Ideal S1x128 .f32)
    (x3 : Vec Ideal S5000x1 .f32) (p : Fin 5000) (q : Fin 128) :
    k3_pay1 x0 x1 x2 x3 (ix2 p q)
      = ((∑ k : Fin 128, x0 (ix2 p k) * x1 (ix2 k q)) + x2 (ix2 0 q)) * x3 (ix2 p 0) := by
  unfold k3_pay1
  refine congrArg₂ (· * ·) (congrArg₂ (· + ·) ((mm_apply _ _ p q).trans ?_) ?_) ?_
  · rw [shapeCast_self] <;> rfl
  · rw [shapeCast_self]; exact bcast_row_apply _ _ p q
  · rw [shapeCast_self]; exact bcast_col_apply _ _ p q

/-! ## Region 3: from the tiles to the array -/

/-- The index maps over the grid: the tile's row block is the grid point; the matrix and the row are whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 ∧ t.val < 10 :=
  (by decide +kernel : ∀ t : Fin grid3.N, _)

section Region3
variable (V : (c : Dev nD) → (b : Ref sig .tc) → Buf (Elt Ideal) ((c : Thread nD τ).loc b)) (c : Dev nD)
  (X : FVec Ideal S50000x128 .f32) (Wt : FVec Ideal S128x128 .f32) (Bv : FVec Ideal S1x128 .f32) (Dz : FVec Ideal S50000x1 .f32)

/-- Tile t of X is rows 5000 t … 5000 t + 4999 of X. -/
theorem iblk3_0_apply (hX : V c (Pipeline.arrRef spec3 0) = X) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = X k := by
  obtain ⟨e0, e1, -⟩ := idx_facts3 t
  subst hX
  unfold iblk3
  rw [View.read_apply]
  show V c (Pipeline.arrRef spec3 0) (((cfg3.win 0).blk t).view.emb x) = V c (Pipeline.arrRef spec3 0) k
  refine congrArg _ (funext fun a => Fin.ext ?_)
  match a with
  | ⟨0, _⟩ => show win3_0.index t (0 : Fin 2) * 5000 + 1 * (x 0).val = (k 0).val; omega
  | ⟨1, _⟩ => show win3_0.index t (1 : Fin 2) * 128 + 1 * (x 1).val = (k 1).val; omega

/-- The matrix is held whole at every tile. -/
theorem iblk3_1_apply (hW : V c (Pipeline.arrRef spec3 1) = Wt) (t : Fin cfg3.N) (x : S128x128.Idx) :
    (iblk3 V c 1 t : Vec Ideal S128x128 .f32) x = Wt x := by
  obtain ⟨-, -, e0, e1, -⟩ := idx_facts3 t
  subst hW
  unfold iblk3
  rw [View.read_apply]
  show V c (Pipeline.arrRef spec3 1) (((cfg3.win 1).blk t).view.emb x) = V c (Pipeline.arrRef spec3 1) x
  refine congrArg _ (funext fun a => Fin.ext ?_)
  match a with
  | ⟨0, _⟩ => show win3_1.index t (0 : Fin 2) * 128 + 1 * (x 0).val = (x 0).val; omega
  | ⟨1, _⟩ => show win3_1.index t (1 : Fin 2) * 128 + 1 * (x 1).val = (x 1).val; omega

/-- The row is held whole at every tile. -/
theorem iblk3_2_apply (hB : V c (Pipeline.arrRef spec3 2) = Bv) (t : Fin cfg3.N) (x : S1x128.Idx) :
    (iblk3 V c 2 t : Vec Ideal S1x128 .f32) x = Bv x := by
  obtain ⟨-, -, -, -, e0, e1, -⟩ := idx_facts3 t
  subst hB
  unfold iblk3
  rw [View.read_apply]
  show V c (Pipeline.arrRef spec3 2) (((cfg3.win 2).blk t).view.emb x) = V c (Pipeline.arrRef spec3 2) x
  refine congrArg _ (funext fun a => Fin.ext ?_)
  match a with
  | ⟨0, _⟩ => show win3_2.index t (0 : Fin 2) * 1 + 1 * (x 0).val = (x 0).val; omega
  | ⟨1, _⟩ => show win3_2.index t (1 : Fin 2) * 128 + 1 * (x 1).val = (x 1).val; omega

/-- Tile t of the column d is rows 5000 t … 5000 t + 4999 of d. -/
theorem iblk3_3_apply (hD : V c (Pipeline.arrRef spec3 3) = Dz) (t : Fin cfg3.N) (x : S5000x1.Idx) (k : S50000x1.Idx)
    (hk0 : (k 0).val = 5000 * t.val + (x 0).val) (hk1 : (k 1).val = (x 1).val) :
    (iblk3 V c 3 t : Vec Ideal S5000x1 .f32) x = Dz k := by
  obtain ⟨-, -, -, -, -, -, e0, e1, -⟩ := idx_facts3 t
  subst hD
  unfold iblk3
  rw [View.read_apply]
  show V c (Pipeline.arrRef spec3 3) (((cfg3.win 3).blk t).view.emb x) = V c (Pipeline.arrRef spec3 3) k
  refine congrArg _ (funext fun a => Fin.ext ?_)
  match a with
  | ⟨0, _⟩ => show win3_3.index t (0 : Fin 2) * 5000 + 1 * (x 0).val = (k 0).val; omega
  | ⟨1, _⟩ => show win3_3.index t (1 : Fin 2) * 1 + 1 * (x 1).val = (k 1).val; omega

/-- WHAT TILE t WRITES BACK is block t of `G`. -/
theorem flushed3_eq (hX : V c (Pipeline.arrRef spec3 0) = X) (hW : V c (Pipeline.arrRef spec3 1) = Wt)
    (hB : V c (Pipeline.arrRef spec3 2) = Bv) (hD : V c (Pipeline.arrRef spec3 3) = Dz) (t : Fin cfg3.N) :
    (dat3 (F := Ideal) V c).flushed 4 t = ((cfg3.win 4).blk t).view.read (Elt Ideal) (G X Wt Bv Dz) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz,
    View.ld_unit_zero (S := S1x128) hz, View.ld_unit_zero (S := S5000x1) hz]
  obtain ⟨-, -, -, -, -, -, -, -, e0, e1, hlt⟩ := idx_facts3 t
  funext j
  obtain ⟨p, q, rfl⟩ : ∃ (p : Fin 5000) (q : Fin 128), j = ix2 p q := ⟨j 0, j 1, eq_ix2 j⟩
  have hr : 5000 * t.val + p.val < 50000 := by have := p.isLt; omega
  have hemb : ((cfg3.win 4).blk t).view.emb (ix2 p q) = (ix2 (⟨5000 * t.val + p.val, hr⟩ : Fin 50000) q : S50000x128.Idx) := by
    funext a; apply Fin.ext
    match a with
    | ⟨0, _⟩ => show win3_4.index t (0 : Fin 2) * 5000 + 1 * p.val = 5000 * t.val + p.val; omega
    | ⟨1, _⟩ => show win3_4.index t (1 : Fin 2) * 128 + 1 * q.val = q.val; omega
  rw [View.read_apply, hemb]
  refine (pay3_apply (iblk3 V c 0 t) (iblk3 V c 1 t) (iblk3 V c 2 t) (iblk3 V c 3 t) p q).trans ?_
  show _ = ((∑ k : Fin 128, X (ix2 (⟨5000 * t.val + p.val, hr⟩ : Fin 50000) k) * Wt (ix2 k q)) + Bv (ix2 0 q))
      * Dz (ix2 (⟨5000 * t.val + p.val, hr⟩ : Fin 50000) 0)
  rw [iblk3_2_apply V c Bv hB t (ix2 0 q),
    iblk3_3_apply V c Dz hD t (ix2 p 0) (ix2 (⟨5000 * t.val + p.val, hr⟩ : Fin 50000) 0) rfl rfl]
  refine congrArg (fun s => (s + Bv (ix2 0 q)) * Dz (ix2 (⟨5000 * t.val + p.val, hr⟩ : Fin 50000) 0)) ?_
  refine Finset.sum_congr rfl fun k _ => ?_
  rw [iblk3_0_apply V c X hX t (ix2 p k) (ix2 (⟨5000 * t.val + p.val, hr⟩ : Fin 50000) k) rfl rfl,
    iblk3_1_apply V c Wt hW t (ix2 k q)]

/-- An index of the array is in tile t's block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v38).slice (win3_4.rect t)).set ↔ _
  rw [View.set_slice_whole, Rect.mem_set_unit]
  exact Iff.rfl

/-- Row r of the array is in the block of tile r / 5000. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, e0, e1, -⟩ := idx_facts3 t
  have ht : t.val = (i 0).val / 5000 := rfl
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- THE ARRAY after the region. -/
theorem final3 (hX : V c (Pipeline.arrRef spec3 0) = X) (hW : V c (Pipeline.arrRef spec3 1) = Wt)
    (hB : V c (Pipeline.arrRef spec3 2) = Bv) (hD : V c (Pipeline.arrRef spec3 3) = Dz) :
    (dat3 (F := Ideal) V c).arrAt 4 cfg3.N = G X Wt Bv Dz :=
  (dat3 (F := Ideal) V c).arrAt_eq_of_cover 4 (G X Wt Bv Dz) (fun t _ => flushed3_eq V c X Wt Bv Dz hX hW hB hD t) cover3

end Region3

/-- After region 3 the output array holds, at (i, j), (sum_k X[i,k] W[k,j] + b[j]) * d[i]. -/
theorem linear3_value (V : (c : Dev nD) → (b : Ref sig .tc) → Buf (Elt Ideal) ((c : Thread nD τ).loc b)) (c : Dev nD)
    (X : FVec Ideal S50000x128 .f32) (Wt : FVec Ideal S128x128 .f32) (Bv : FVec Ideal S1x128 .f32) (Dz : FVec Ideal S50000x1 .f32)
    (hX : V c (Pipeline.arrRef spec3 0) = X) (hW : V c (Pipeline.arrRef spec3 1) = Wt) (hB : V c (Pipeline.arrRef spec3 2) = Bv) (hD : V c (Pipeline.arrRef spec3 3) = Dz)
    (i : Fin 50000) (j : Fin 128) :
    (dat3 (F := Ideal) V c).arrAt 4 cfg3.N (ix2 i j)
      = Spec.hsK (fun a => Dz (ix2 a 0)) (Spec.lin (fun a k => X (ix2 a k)) (fun k b => Wt (ix2 k b)) (fun b => Bv (ix2 0 b))) i j := by
  rw [final3 V c X Wt Bv Dz hX hW hB hD]
  rfl

/-- The tile's payload at (p, q): (sum_k x[p,k] w[k,q] + b[0,q]) * d[p,0]. -/
theorem pay6_apply (x0 : Vec Ideal S5000x128 .f32) (x1 : Vec Ideal S128x128 .f32) (x2 : Vec Ideal S1x128 .f32)
    (x3 : Vec Ideal S5000x1 .f32) (p : Fin 5000) (q : Fin 128) :
    k6_pay1 x0 x1 x2 x3 (ix2 p q)
      = ((∑ k : Fin 128, x0 (ix2 p k) * x1 (ix2 k q)) + x2 (ix2 0 q)) * x3 (ix2 p 0) := by
  unfold k6_pay1
  refine congrArg₂ (· * ·) (congrArg₂ (· + ·) ((mm_apply _ _ p q).trans ?_) ?_) ?_
  · rw [shapeCast_self] <;> rfl
  · rw [shapeCast_self]; exact bcast_row_apply _ _ p q
  · rw [shapeCast_self]; exact bcast_col_apply _ _ p q

/-! ## Region 6: from the tiles to the array -/

/-- The index maps over the grid: the tile's row block is the grid point; the matrix and the row are whole. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 ∧ t.val < 10 :=
  (by decide +kernel : ∀ t : Fin grid6.N, _)

section Region6
variable (V : (c : Dev nD) → (b : Ref sig .tc) → Buf (Elt Ideal) ((c : Thread nD τ).loc b)) (c : Dev nD)
  (X : FVec Ideal S50000x128 .f32) (Wt : FVec Ideal S128x128 .f32) (Bv : FVec Ideal S1x128 .f32) (Dz : FVec Ideal S50000x1 .f32)

/-- Tile t of X is rows 5000 t … 5000 t + 4999 of X. -/
theorem iblk6_0_apply (hX : V c (Pipeline.arrRef spec6 0) = X) (t : Fin cfg6.N) (x : S5000x128.Idx) (k : S50000x128.Idx)
    (hk0 : (k 0).val = 5000 * t.val + (x 0).val) (hk1 : (k 1).val = (x 1).val) :
    (iblk6 V c 0 t : Vec Ideal S5000x128 .f32) x = X k := by
  obtain ⟨e0, e1, -⟩ := idx_facts6 t
  subst hX
  unfold iblk6
  rw [View.read_apply]
  show V c (Pipeline.arrRef spec6 0) (((cfg6.win 0).blk t).view.emb x) = V c (Pipeline.arrRef spec6 0) k
  refine congrArg _ (funext fun a => Fin.ext ?_)
  match a with
  | ⟨0, _⟩ => show win6_0.index t (0 : Fin 2) * 5000 + 1 * (x 0).val = (k 0).val; omega
  | ⟨1, _⟩ => show win6_0.index t (1 : Fin 2) * 128 + 1 * (x 1).val = (k 1).val; omega

/-- The matrix is held whole at every tile. -/
theorem iblk6_1_apply (hW : V c (Pipeline.arrRef spec6 1) = Wt) (t : Fin cfg6.N) (x : S128x128.Idx) :
    (iblk6 V c 1 t : Vec Ideal S128x128 .f32) x = Wt x := by
  obtain ⟨-, -, e0, e1, -⟩ := idx_facts6 t
  subst hW
  unfold iblk6
  rw [View.read_apply]
  show V c (Pipeline.arrRef spec6 1) (((cfg6.win 1).blk t).view.emb x) = V c (Pipeline.arrRef spec6 1) x
  refine congrArg _ (funext fun a => Fin.ext ?_)
  match a with
  | ⟨0, _⟩ => show win6_1.index t (0 : Fin 2) * 128 + 1 * (x 0).val = (x 0).val; omega
  | ⟨1, _⟩ => show win6_1.index t (1 : Fin 2) * 128 + 1 * (x 1).val = (x 1).val; omega

/-- The row is held whole at every tile. -/
theorem iblk6_2_apply (hB : V c (Pipeline.arrRef spec6 2) = Bv) (t : Fin cfg6.N) (x : S1x128.Idx) :
    (iblk6 V c 2 t : Vec Ideal S1x128 .f32) x = Bv x := by
  obtain ⟨-, -, -, -, e0, e1, -⟩ := idx_facts6 t
  subst hB
  unfold iblk6
  rw [View.read_apply]
  show V c (Pipeline.arrRef spec6 2) (((cfg6.win 2).blk t).view.emb x) = V c (Pipeline.arrRef spec6 2) x
  refine congrArg _ (funext fun a => Fin.ext ?_)
  match a with
  | ⟨0, _⟩ => show win6_2.index t (0 : Fin 2) * 1 + 1 * (x 0).val = (x 0).val; omega
  | ⟨1, _⟩ => show win6_2.index t (1 : Fin 2) * 128 + 1 * (x 1).val = (x 1).val; omega

/-- Tile t of the column d is rows 5000 t … 5000 t + 4999 of d. -/
theorem iblk6_3_apply (hD : V c (Pipeline.arrRef spec6 3) = Dz) (t : Fin cfg6.N) (x : S5000x1.Idx) (k : S50000x1.Idx)
    (hk0 : (k 0).val = 5000 * t.val + (x 0).val) (hk1 : (k 1).val = (x 1).val) :
    (iblk6 V c 3 t : Vec Ideal S5000x1 .f32) x = Dz k := by
  obtain ⟨-, -, -, -, -, -, e0, e1, -⟩ := idx_facts6 t
  subst hD
  unfold iblk6
  rw [View.read_apply]
  show V c (Pipeline.arrRef spec6 3) (((cfg6.win 3).blk t).view.emb x) = V c (Pipeline.arrRef spec6 3) k
  refine congrArg _ (funext fun a => Fin.ext ?_)
  match a with
  | ⟨0, _⟩ => show win6_3.index t (0 : Fin 2) * 5000 + 1 * (x 0).val = (k 0).val; omega
  | ⟨1, _⟩ => show win6_3.index t (1 : Fin 2) * 1 + 1 * (x 1).val = (k 1).val; omega

/-- WHAT TILE t WRITES BACK is block t of `G`. -/
theorem flushed6_eq (hX : V c (Pipeline.arrRef spec6 0) = X) (hW : V c (Pipeline.arrRef spec6 1) = Wt)
    (hB : V c (Pipeline.arrRef spec6 2) = Bv) (hD : V c (Pipeline.arrRef spec6 3) = Dz) (t : Fin cfg6.N) :
    (dat6 (F := Ideal) V c).flushed 4 t = ((cfg6.win 4).blk t).view.read (Elt Ideal) (G X Wt Bv Dz) := by
  show (cfg6.win 4).cut (grid6.coords t) ((dat6 V c).after 4 t) = _
  rw [after6_4]
  unfold out6_4
  rw [View.canon_unit_zero hz]
  simp only [View.ld_unit_zero (S := S5000x128) hz, View.ld_unit_zero (S := S128x128) hz,
    View.ld_unit_zero (S := S1x128) hz, View.ld_unit_zero (S := S5000x1) hz]
  obtain ⟨-, -, -, -, -, -, -, -, e0, e1, hlt⟩ := idx_facts6 t
  funext j
  obtain ⟨p, q, rfl⟩ : ∃ (p : Fin 5000) (q : Fin 128), j = ix2 p q := ⟨j 0, j 1, eq_ix2 j⟩
  have hr : 5000 * t.val + p.val < 50000 := by have := p.isLt; omega
  have hemb : ((cfg6.win 4).blk t).view.emb (ix2 p q) = (ix2 (⟨5000 * t.val + p.val, hr⟩ : Fin 50000) q : S50000x128.Idx) := by
    funext a; apply Fin.ext
    match a with
    | ⟨0, _⟩ => show win6_4.index t (0 : Fin 2) * 5000 + 1 * p.val = 5000 * t.val + p.val; omega
    | ⟨1, _⟩ => show win6_4.index t (1 : Fin 2) * 128 + 1 * q.val = q.val; omega
  rw [View.read_apply, hemb]
  refine (pay6_apply (iblk6 V c 0 t) (iblk6 V c 1 t) (iblk6 V c 2 t) (iblk6 V c 3 t) p q).trans ?_
  show _ = ((∑ k : Fin 128, X (ix2 (⟨5000 * t.val + p.val, hr⟩ : Fin 50000) k) * Wt (ix2 k q)) + Bv (ix2 0 q))
      * Dz (ix2 (⟨5000 * t.val + p.val, hr⟩ : Fin 50000) 0)
  rw [iblk6_2_apply V c Bv hB t (ix2 0 q),
    iblk6_3_apply V c Dz hD t (ix2 p 0) (ix2 (⟨5000 * t.val + p.val, hr⟩ : Fin 50000) 0) rfl rfl]
  refine congrArg (fun s => (s + Bv (ix2 0 q)) * Dz (ix2 (⟨5000 * t.val + p.val, hr⟩ : Fin 50000) 0)) ?_
  refine Finset.sum_congr rfl fun k _ => ?_
  rw [iblk6_0_apply V c X hX t (ix2 p k) (ix2 (⟨5000 * t.val + p.val, hr⟩ : Fin 50000) k) rfl rfl,
    iblk6_1_apply V c Wt hW t (ix2 k q)]

/-- An index of the array is in tile t's block iff each coordinate is in the block's range on its axis. -/
theorem mem_blk6 (t : Fin cfg6.N) (i : S50000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v56).slice (win6_4.rect t)).set ↔ _
  rw [View.set_slice_whole, Rect.mem_set_unit]
  exact Iff.rfl

/-- Row r of the array is in the block of tile r / 5000. -/
theorem cover6 (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨-, -, -, -, -, -, -, -, e0, e1, -⟩ := idx_facts6 t
  have ht : t.val = (i 0).val / 5000 := rfl
  refine ⟨t, flush6_4 t, ?_⟩
  rw [mem_blk6]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

/-- THE ARRAY after the region. -/
theorem final6 (hX : V c (Pipeline.arrRef spec6 0) = X) (hW : V c (Pipeline.arrRef spec6 1) = Wt)
    (hB : V c (Pipeline.arrRef spec6 2) = Bv) (hD : V c (Pipeline.arrRef spec6 3) = Dz) :
    (dat6 (F := Ideal) V c).arrAt 4 cfg6.N = G X Wt Bv Dz :=
  (dat6 (F := Ideal) V c).arrAt_eq_of_cover 4 (G X Wt Bv Dz) (fun t _ => flushed6_eq V c X Wt Bv Dz hX hW hB hD t) cover6

end Region6

/-- After region 6 the output array holds, at (i, j), (sum_k X[i,k] W[k,j] + b[j]) * d[i]. -/
theorem linear6_value (V : (c : Dev nD) → (b : Ref sig .tc) → Buf (Elt Ideal) ((c : Thread nD τ).loc b)) (c : Dev nD)
    (X : FVec Ideal S50000x128 .f32) (Wt : FVec Ideal S128x128 .f32) (Bv : FVec Ideal S1x128 .f32) (Dz : FVec Ideal S50000x1 .f32)
    (hX : V c (Pipeline.arrRef spec6 0) = X) (hW : V c (Pipeline.arrRef spec6 1) = Wt) (hB : V c (Pipeline.arrRef spec6 2) = Bv) (hD : V c (Pipeline.arrRef spec6 3) = Dz)
    (i : Fin 50000) (j : Fin 128) :
    (dat6 (F := Ideal) V c).arrAt 4 cfg6.N (ix2 i j)
      = Spec.hsK (fun a => Dz (ix2 a 0)) (Spec.lin (fun a k => X (ix2 a k)) (fun k b => Wt (ix2 k b)) (fun b => Bv (ix2 0 b))) i j := by
  rw [final6 V c X Wt Bv Dz hX hW hB hD]
  rfl

end Cert.KernelIdeal.KLinear

end
-- ==== Proof.KStats.lean ====
/-
  The column-statistics regions of the kernel, read as mathematics. Such a region walks ten tiles of 5000 rows of
  a [50000,128] array A and of a [50000,1] column d. It keeps two [1,128] rows: the running column sums of
  A[r,j]·d[r] and of its squares. The first tile starts both rows at zero; each later tile adds its own column sums
  to what the tile before left. After the tenth tile the two rows hold the column sums over all 50000 rows.
-/
import proofs.«404543_j21388937134518_2_alg».proof.Proof.Gen.KernelIdeal.Frame
import proofs.«404543_j21388937134518_2_alg».proof.Proof.Spec
import Idealize.ShloMosaic.Lib.Pipeline.Value
import Idealize.ShloMosaic.Lib.ValueIdx
import Idealize.ShloMosaic.Lib.Tactic
import Idealize.ShloMosaic.PureOps.Ideal.Laws
import Mathlib.Algebra.BigOperators.Fin
import Mathlib.Algebra.BigOperators.Group.Finset.Basic

noncomputable section

open scoped BigOperators

namespace Cert.KernelIdeal.KStats

open Cert.KernelIdeal Cert.KernelIdeal.Gen Idealize.ShloMosaic Idealize.ShloMosaic.ValueIdx
open Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-! ## Sums over the 50000 rows, tile by tile -/

/-- A function of the 50000 rows, continued by zero to every natural number. -/
def ext0 (f : Fin 50000 → EReal) (a : ℕ) : EReal := if h : a < 50000 then f ⟨a, h⟩ else 0

/-- Summed over the first 50000 naturals, the continuation gives the sum over the rows. -/
theorem sum_ext0 (f : Fin 50000 → EReal) : ∑ a ∈ Finset.range 50000, ext0 f a = ∑ a : Fin 50000, f a := by
  rw [Finset.sum_range]
  exact Finset.sum_congr rfl fun a _ => dif_pos a.isLt

/-- A tile's sum: when g k is f at row 5000·n + k, the sum of g is the continuation summed over that stretch. -/
theorem tile_ext0 (f : Fin 50000 → EReal) (n : ℕ) (hn : n < 10) (g : Fin 5000 → EReal)
    (hg : ∀ (k : Fin 5000) (h : 5000 * n + k.val < 50000), g k = f ⟨5000 * n + k.val, h⟩) :
    ∑ k : Fin 5000, g k = ∑ r ∈ Finset.range 5000, ext0 f (5000 * n + r) := by
  rw [Finset.sum_range]
  refine Finset.sum_congr rfl fun k _ => ?_
  have h : 5000 * n + k.val < 50000 := by have := k.isLt; omega
  rw [hg k h]
  unfold ext0
  rw [dif_pos h]

/-- The first 5000·(n+1) naturals are the first 5000·n followed by one more stretch of 5000. -/
theorem range_step (g : ℕ → EReal) (n : ℕ) :
    ∑ a ∈ Finset.range (5000 * (n + 1)), g a
      = ∑ a ∈ Finset.range (5000 * n), g a + ∑ r ∈ Finset.range 5000, g (5000 * n + r) := by
  rw [show 5000 * (n + 1) = 5000 * n + 5000 from by ring]
  exact Finset.sum_range_add g (5000 * n) 5000

/-! ## Shared by the three regions -/

/-- The column index j with row k put back is (k, j). -/
theorem lift_row (h : S5000x128.Reduces [0] S128) (j : Fin 128) (k : Fin (S5000x128.size 0)) :
    h.lift (ix1 j) k = ix2 (⟨k.val, k.isLt⟩ : Fin 5000) j := by
  funext c; apply Fin.ext
  fin_cases c <;> rfl

/-- The summand of the first row at row a of the whole array, and of the second. -/
abbrev term1 (X : FVec Ideal S50000x128 .f32) (Dz : FVec Ideal S50000x1 .f32) (j : Fin 128) (a : Fin 50000) : EReal :=
  X (ix2 a j) * Dz (ix2 a 0)
abbrev term2 (X : FVec Ideal S50000x128 .f32) (Dz : FVec Ideal S50000x1 .f32) (j : Fin 128) (a : Fin 50000) : EReal :=
  (X (ix2 a j) * Dz (ix2 a 0)) * (X (ix2 a j) * Dz (ix2 a 0))

/-! ## Region 1 -/

/-- A later tile leaves, in the sums row holding acc, acc plus the tile's column sums. -/
theorem piece1_B_2 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 : Vec F S5000x1 .f32) (xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S1x128) hz]

/-- A later tile leaves, in the squares row holding acc, acc plus the tile's column sums of squares. -/
theorem piece1_B_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 : Vec F S5000x1 .f32) (xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h4.read_unread, View.ld_unit_zero (S := S5000x128) hz,
    View.ld_unit_zero (S := S5000x1) hz, View.ld_unit_zero (S := S1x128) hz]

/-- The first tile stores the zero row, then leaves zero plus the tile's column sums. -/
theorem piece1_A_2 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S5000x1 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S5000x1) hz]

/-- The first tile stores the zero row, then leaves zero plus the tile's column sums of squares. -/
theorem piece1_A_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S5000x1 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S5000x1) hz]

/-! ### The tile's arithmetic at an index, over the extended reals -/

/-- The scaled tile: entry (p, q) is A[p,q]·d[p]. -/
theorem scaled1_apply (v3 : FVec Ideal S5000x128 .f32) (v5 : FVec Ideal S5000x1 .f32) (p : Fin 5000) (q : Fin 128) :
    k1_pay3 (F := Ideal) v3 v5 (ix2 p q) = v3 (ix2 p q) * v5 (ix2 p 0) := by
  unfold k1_pay3
  show shapeCast S5000x128 v3 shapeCasts_S5000x128_S5000x128 (ix2 p q)
      * broadcastTo S5000x128 (shapeCast S5000x1 v5 shapeCasts_S5000x1_S5000x1) broadcasts_S5000x1_S5000x128 (ix2 p q) = _
  rw [shapeCast_self, shapeCast_self]
  congr 1
  exact broadcastTo_apply v5 broadcasts_S5000x1_S5000x128 (ix2 p q) (ix2 p 0)
    (fun a => by match a with | ⟨0, _⟩ => rfl | ⟨1, _⟩ => rfl)

/-- The new sums row: entry j is the old entry plus the tile's column sum of A[p,j]·d[p]. -/
theorem sums1_apply (v3 : FVec Ideal S5000x128 .f32) (v5 : FVec Ideal S5000x1 .f32) (v9 : FVec Ideal S1x128 .f32) (j : Fin 128) :
    k1_pay4 (F := Ideal) v3 v5 v9 (ix2 0 j) = v9 (ix2 0 j) + ∑ k : Fin 5000, v3 (ix2 k j) * v5 (ix2 k 0) := by
  unfold k1_pay4
  show shapeCast S1x128 v9 shapeCasts_S1x128_S1x128 (ix2 0 j)
      + shapeCast S1x128 (multiReduction (F := Ideal) .add [0] S128 (k1_pay3 v3 v5) 0x00000000#32 reduces_S5000x128_S128 (.inl rfl) rfl)
          shapeCasts_S128_S1x128 (ix2 0 j) = _
  rw [shapeCast_self]
  congr 1
  refine (shapeCast_apply _ shapeCasts_S128_S1x128 (ix2 0 j) (ix1 j) ?_).trans ?_
  · rw [Shape.rowMajor_val_one, Shape.rowMajor_val_two]; show j.val = 0 * 128 + j.val; omega
  refine (Ideal.multiReduction_add_single _ _ reduces_S5000x128_S128 _ _ (ix1 j)).trans ?_
  show (∑ k : Fin 5000, k1_pay3 (F := Ideal) v3 v5 (reduces_S5000x128_S128.lift (ix1 j) k)) = _
  refine Finset.sum_congr rfl fun k _ => ?_
  exact (congrArg (k1_pay3 (F := Ideal) v3 v5) (lift_row reduces_S5000x128_S128 j k)).trans (scaled1_apply v3 v5 k j)

/-- The new squares row: entry j is the old entry plus the tile's column sum of (A[p,j]·d[p])². -/
theorem squares1_apply (v3 : FVec Ideal S5000x128 .f32) (v5 : FVec Ideal S5000x1 .f32) (v15 : FVec Ideal S1x128 .f32) (j : Fin 128) :
    k1_pay5 (F := Ideal) v3 v5 v15 (ix2 0 j)
      = v15 (ix2 0 j) + ∑ k : Fin 5000, (v3 (ix2 k j) * v5 (ix2 k 0)) * (v3 (ix2 k j) * v5 (ix2 k 0)) := by
  unfold k1_pay5
  show shapeCast S1x128 v15 shapeCasts_S1x128_S1x128 (ix2 0 j)
      + shapeCast S1x128 (multiReduction (F := Ideal) .add [0] S128 (mulf (k1_pay3 v3 v5) (k1_pay3 v3 v5)) 0x00000000#32 reduces_S5000x128_S128 (.inl rfl) rfl)
          shapeCasts_S128_S1x128 (ix2 0 j) = _
  rw [shapeCast_self]
  congr 1
  refine (shapeCast_apply _ shapeCasts_S128_S1x128 (ix2 0 j) (ix1 j) ?_).trans ?_
  · rw [Shape.rowMajor_val_one, Shape.rowMajor_val_two]; show j.val = 0 * 128 + j.val; omega
  refine (Ideal.multiReduction_add_single _ _ reduces_S5000x128_S128 _ _ (ix1 j)).trans ?_
  show (∑ k : Fin 5000, (k1_pay3 (F := Ideal) v3 v5 (reduces_S5000x128_S128.lift (ix1 j) k)
      * k1_pay3 (F := Ideal) v3 v5 (reduces_S5000x128_S128.lift (ix1 j) k))) = _
  refine Finset.sum_congr rfl fun k _ => ?_
  have e : k1_pay3 (F := Ideal) v3 v5 (reduces_S5000x128_S128.lift (ix1 j) k) = v3 (ix2 k j) * v5 (ix2 k 0) :=
    (congrArg (k1_pay3 (F := Ideal) v3 v5) (lift_row reduces_S5000x128_S128 j k)).trans (scaled1_apply v3 v5 k j)
  exact congrArg₂ (fun a b : EReal => a * b) e e

/-- The stored zero row is zero everywhere. -/
theorem zeroA1_apply (i : S1x128.Idx) : k1_pay1 (F := Ideal) i = 0 := by
  unfold k1_pay1
  show Ideal.ofBits .f32 0x00000000#32 = 0
  exact Ideal.ofBits_zero_f32
theorem zeroB1_apply (i : S1x128.Idx) : k1_pay2 (F := Ideal) i = 0 := by
  unfold k1_pay2
  show Ideal.ofBits .f32 0x00000000#32 = 0
  exact Ideal.ofBits_zero_f32

/-! ### Tiles of the two input arrays -/

section Region1
variable (V : (c : Dev nD) → (b : Ref sig .tc) → Buf (Elt Ideal) ((c : Thread nD τ).loc b)) (c : Dev nD)

/-- The block index of both input windows at tile t is (t, 0). -/
theorem idx_in1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row r of tile t of A is row 5000·t + r of A. -/
theorem blk1_0_apply (t : Fin cfg1.N) (X : FVec Ideal S50000x128 .f32) (hX : V c (Pipeline.arrRef spec1 0) = X)
    (r : Fin 5000) (j : Fin 128) (hr : 5000 * t.val + r.val < 50000) :
    (iblk1 (F := Ideal) V c 0 t : FVec Ideal S5000x128 .f32) (ix2 r j) = X (ix2 ⟨5000 * t.val + r.val, hr⟩ j) := by
  subst hX
  unfold iblk1
  rw [View.read_apply]
  obtain ⟨e0, e1, -, -⟩ := idx_in1 t
  show V c (Pipeline.arrRef spec1 0) (((cfg1.win 0).blk t).view.emb (ix2 r j)) = _
  refine congrArg (V c (Pipeline.arrRef spec1 0)) (funext fun a => Fin.ext ?_)
  match a with
  | ⟨0, _⟩ => show win1_0.index t (0 : Fin 2) * 5000 + 1 * r.val = 5000 * t.val + r.val; rw [e0]; omega
  | ⟨1, _⟩ => show win1_0.index t (1 : Fin 2) * 128 + 1 * j.val = j.val; rw [e1]; omega

/-- Row r of tile t of d is row 5000·t + r of d. -/
theorem blk1_1_apply (t : Fin cfg1.N) (Dz : FVec Ideal S50000x1 .f32) (hD : V c (Pipeline.arrRef spec1 1) = Dz)
    (r : Fin 5000) (hr : 5000 * t.val + r.val < 50000) :
    (iblk1 (F := Ideal) V c 1 t : FVec Ideal S5000x1 .f32) (ix2 r 0) = Dz (ix2 ⟨5000 * t.val + r.val, hr⟩ 0) := by
  subst hD
  unfold iblk1
  rw [View.read_apply]
  obtain ⟨-, -, e0, e1⟩ := idx_in1 t
  show V c (Pipeline.arrRef spec1 1) (((cfg1.win 1).blk t).view.emb (ix2 r 0)) = _
  refine congrArg (V c (Pipeline.arrRef spec1 1)) (funext fun a => Fin.ext ?_)
  match a with
  | ⟨0, _⟩ => show win1_1.index t (0 : Fin 2) * 5000 + 1 * r.val = 5000 * t.val + r.val; rw [e0]; omega
  | ⟨1, _⟩ => show win1_1.index t (1 : Fin 2) * 1 + 1 * 0 = 0; rw [e1]

/-! ### What the two rows hold after a tile -/

/-- Tile t of A and of d, as arrays of extended reals. -/
abbrev xblk1 (t : Fin cfg1.N) : FVec Ideal S5000x128 .f32 := iblk1 (F := Ideal) V c 0 t
abbrev dblk1 (t : Fin cfg1.N) : FVec Ideal S5000x1 .f32 := iblk1 (F := Ideal) V c 1 t
/-- The two rows after tile n, as arrays of extended reals. -/
abbrev sumRow1 (n : ℕ) (hn : n < cfg1.N) : FVec Ideal S1x128 .f32 := (outsAt1 (F := Ideal) V c n hn).1
abbrev sqRow1 (n : ℕ) (hn : n < cfg1.N) : FVec Ideal S1x128 .f32 := (outsAt1 (F := Ideal) V c n hn).2

/-- After the first tile: the tile's column sums (the stored zero row adds nothing). -/
theorem row_first1 (t : Fin cfg1.N) (h0 : t.val % 10 = 0) (j : Fin 128) :
    sumRow1 V c t.val t.isLt (ix2 0 j) = ∑ k : Fin 5000, xblk1 V c t (ix2 k j) * dblk1 V c t (ix2 k 0)
    ∧ sqRow1 V c t.val t.isLt (ix2 0 j)
        = ∑ k : Fin 5000, (xblk1 V c t (ix2 k j) * dblk1 V c t (ix2 k 0)) * (xblk1 V c t (ix2 k j) * dblk1 V c t (ix2 k 0)) := by
  show (outsAt1 (F := Ideal) V c t.val t.isLt).1 (ix2 0 j) = _ ∧ (outsAt1 (F := Ideal) V c t.val t.isLt).2 (ix2 0 j) = _
  rw [outsAt1_A V c t h0]
  dsimp only
  constructor
  · refine (congrFun (piece1_A_2 (F := Ideal) c (grid1.coords t) (ms1_0 t) (hs1_0 t) (ms1_1 t) (hs1_1 t) (ms1_2 t) (hs1_2 t)
      (ms1_3 t) (hs1_3 t) ((hcond1_0 t).mpr h0) (iblk1 (F := Ideal) V c 0 t) (iblk1 (F := Ideal) V c 1 t)) (ix2 0 j)).trans ?_
    refine (sums1_apply (xblk1 V c t) (dblk1 V c t) (k1_pay1 (F := Ideal)) j).trans ?_
    rw [zeroA1_apply, zero_add]
  · refine (congrFun (piece1_A_3 (F := Ideal) c (grid1.coords t) (ms1_0 t) (hs1_0 t) (ms1_1 t) (hs1_1 t) (ms1_2 t) (hs1_2 t)
      (ms1_3 t) (hs1_3 t) ((hcond1_0 t).mpr h0) (iblk1 (F := Ideal) V c 0 t) (iblk1 (F := Ideal) V c 1 t)) (ix2 0 j)).trans ?_
    refine (squares1_apply (xblk1 V c t) (dblk1 V c t) (k1_pay2 (F := Ideal)) j).trans ?_
    rw [zeroB1_apply, zero_add]

/-- After a later tile: what the tile before left, plus the tile's column sums. -/
theorem row_next1 (t : Fin cfg1.N) (h0 : ¬t.val % 10 = 0) (j : Fin 128) :
    sumRow1 V c t.val t.isLt (ix2 0 j)
        = sumRow1 V c (t.val - 1) (Nat.lt_of_le_of_lt (Nat.sub_le _ _) t.isLt) (ix2 0 j)
          + ∑ k : Fin 5000, xblk1 V c t (ix2 k j) * dblk1 V c t (ix2 k 0)
    ∧ sqRow1 V c t.val t.isLt (ix2 0 j)
        = sqRow1 V c (t.val - 1) (Nat.lt_of_le_of_lt (Nat.sub_le _ _) t.isLt) (ix2 0 j)
          + ∑ k : Fin 5000, (xblk1 V c t (ix2 k j) * dblk1 V c t (ix2 k 0)) * (xblk1 V c t (ix2 k j) * dblk1 V c t (ix2 k 0)) := by
  show (outsAt1 (F := Ideal) V c t.val t.isLt).1 (ix2 0 j) = _ ∧ (outsAt1 (F := Ideal) V c t.val t.isLt).2 (ix2 0 j) = _
  rw [outsAt1_B V c t h0]
  dsimp only
  constructor
  · refine (congrFun (piece1_B_2 (F := Ideal) c (grid1.coords t) (ms1_0 t) (hs1_0 t) (ms1_1 t) (hs1_1 t) (ms1_2 t) (hs1_2 t)
      (ms1_3 t) (hs1_3 t) (fun h => h0 ((hcond1_0 t).mp h)) (iblk1 (F := Ideal) V c 0 t) (iblk1 (F := Ideal) V c 1 t)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2) (ix2 0 j)).trans ?_
    exact sums1_apply (xblk1 V c t) (dblk1 V c t) (sumRow1 V c (t.val - 1) (Nat.lt_of_le_of_lt (Nat.sub_le _ _) t.isLt)) j
  · refine (congrFun (piece1_B_3 (F := Ideal) c (grid1.coords t) (ms1_0 t) (hs1_0 t) (ms1_1 t) (hs1_1 t) (ms1_2 t) (hs1_2 t)
      (ms1_3 t) (hs1_3 t) (fun h => h0 ((hcond1_0 t).mp h)) (iblk1 (F := Ideal) V c 0 t) (iblk1 (F := Ideal) V c 1 t)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2) (ix2 0 j)).trans ?_
    exact squares1_apply (xblk1 V c t) (dblk1 V c t) (sqRow1 V c (t.val - 1) (Nat.lt_of_le_of_lt (Nat.sub_le _ _) t.isLt)) j

/-! ### The running sums -/

/-- Tile t's column sums are the sums of the whole arrays' summands over rows 5000·t … 5000·t + 4999. -/
theorem tile1 (X : FVec Ideal S50000x128 .f32) (Dz : FVec Ideal S50000x1 .f32)
    (hX : V c (Pipeline.arrRef spec1 0) = X) (hD : V c (Pipeline.arrRef spec1 1) = Dz) (j : Fin 128) (t : Fin cfg1.N) :
    (∑ k : Fin 5000, xblk1 V c t (ix2 k j) * dblk1 V c t (ix2 k 0)
        = ∑ r ∈ Finset.range 5000, ext0 (term1 X Dz j) (5000 * t.val + r))
    ∧ (∑ k : Fin 5000, (xblk1 V c t (ix2 k j) * dblk1 V c t (ix2 k 0)) * (xblk1 V c t (ix2 k j) * dblk1 V c t (ix2 k 0))
        = ∑ r ∈ Finset.range 5000, ext0 (term2 X Dz j) (5000 * t.val + r)) := by
  have ht : t.val < 10 := lt_of_lt_of_eq t.isLt (show cfg1.N = 10 from N_1)
  have ex : ∀ (k : Fin 5000) (h : 5000 * t.val + k.val < 50000), xblk1 V c t (ix2 k j) = X (ix2 ⟨5000 * t.val + k.val, h⟩ j) :=
    fun k h => blk1_0_apply V c t X hX k j h
  have ed : ∀ (k : Fin 5000) (h : 5000 * t.val + k.val < 50000), dblk1 V c t (ix2 k 0) = Dz (ix2 ⟨5000 * t.val + k.val, h⟩ 0) :=
    fun k h => blk1_1_apply V c t Dz hD k h
  constructor
  · exact tile_ext0 (term1 X Dz j) t.val ht _ fun k h => by rw [ex k h, ed k h]
  · exact tile_ext0 (term2 X Dz j) t.val ht _ fun k h => by rw [ex k h, ed k h]

/-- After tile n the two rows hold the sums over the first 5000·(n+1) rows. -/
theorem rows_after1 (X : FVec Ideal S50000x128 .f32) (Dz : FVec Ideal S50000x1 .f32)
    (hX : V c (Pipeline.arrRef spec1 0) = X) (hD : V c (Pipeline.arrRef spec1 1) = Dz) (j : Fin 128) :
    ∀ (n : ℕ) (hn : n < cfg1.N),
      sumRow1 V c n hn (ix2 0 j) = ∑ a ∈ Finset.range (5000 * (n + 1)), ext0 (term1 X Dz j) a
      ∧ sqRow1 V c n hn (ix2 0 j) = ∑ a ∈ Finset.range (5000 * (n + 1)), ext0 (term2 X Dz j) a := by
  have hN : cfg1.N = 10 := N_1
  intro n
  induction n with
  | zero =>
    intro hn
    obtain ⟨e1, e2⟩ := row_first1 V c ⟨0, hn⟩ rfl j
    obtain ⟨s1, s2⟩ := tile1 V c X Dz hX hD j ⟨0, hn⟩
    refine ⟨e1.trans (s1.trans ?_), e2.trans (s2.trans ?_)⟩
    · rw [range_step, Nat.mul_zero, Finset.range_zero, Finset.sum_empty, zero_add]
    · rw [range_step, Nat.mul_zero, Finset.range_zero, Finset.sum_empty, zero_add]
  | succ n ih =>
    intro hn
    obtain ⟨i1, i2⟩ := ih (Nat.lt_of_succ_lt hn)
    have hB : ¬(⟨n + 1, hn⟩ : Fin cfg1.N).val % 10 = 0 := by dsimp only; omega
    obtain ⟨e1, e2⟩ := row_next1 V c ⟨n + 1, hn⟩ hB j
    obtain ⟨s1, s2⟩ := tile1 V c X Dz hX hD j ⟨n + 1, hn⟩
    have e1' : sumRow1 V c (n + 1) hn (ix2 0 j) = sumRow1 V c n (Nat.lt_of_succ_lt hn) (ix2 0 j)
        + ∑ k : Fin 5000, xblk1 V c ⟨n + 1, hn⟩ (ix2 k j) * dblk1 V c ⟨n + 1, hn⟩ (ix2 k 0) := e1
    have e2' : sqRow1 V c (n + 1) hn (ix2 0 j) = sqRow1 V c n (Nat.lt_of_succ_lt hn) (ix2 0 j)
        + ∑ k : Fin 5000, (xblk1 V c ⟨n + 1, hn⟩ (ix2 k j) * dblk1 V c ⟨n + 1, hn⟩ (ix2 k 0))
            * (xblk1 V c ⟨n + 1, hn⟩ (ix2 k j) * dblk1 V c ⟨n + 1, hn⟩ (ix2 k 0)) := e2
    constructor
    · rw [e1', i1, s1, range_step (ext0 (term1 X Dz j)) (n + 1)]
    · rw [e2', i2, s2, range_step (ext0 (term2 X Dz j)) (n + 1)]

/-! ### The two result arrays after the region -/

/-- The tenth tile is a tile of the walk. -/
theorem last1 : 9 < cfg1.N := by rw [show cfg1.N = 10 from N_1]; decide

/-- What the two rows hold after the tenth tile, as contents of the two result arrays. -/
abbrev res1_2 : Buf (Elt Ideal) ((c : Thread nD τ).loc main_v25_0) := (outsAt1 (F := Ideal) V c 9 last1).1
abbrev res1_3 : Buf (Elt Ideal) ((c : Thread nD τ).loc main_v25_1) := (outsAt1 (F := Ideal) V c 9 last1).2

/-- The one write-back of the sums row, after the tenth tile, writes it: the row's one block is the whole array. -/
theorem flushed1_2 (t : Fin cfg1.N) (hf : (cfg1.win 2).flush t = true) :
    (dat1 (F := Ideal) V c).flushed 2 t = ((cfg1.win 2).blk t).view.read (Elt Ideal) (res1_2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  have hz' : (fun a => win1_2.index t1_9 a * main_v25_0.ty.shape.size a) = fun _ => 0 :=
    funext fun a => by fin_cases a <;> decide +kernel
  exact (Memref.read_access_unit_zero (Elt Ideal) main_v25_0 hz' (fun a => by rw [congrFun hz' a]; simp) (res1_2 V c)).symm

theorem flushed1_3 (t : Fin cfg1.N) (hf : (cfg1.win 3).flush t = true) :
    (dat1 (F := Ideal) V c).flushed 3 t = ((cfg1.win 3).blk t).view.read (Elt Ideal) (res1_3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 (F := Ideal) V c).after 3 t1_9) = _
  rw [after1_3]
  have hz' : (fun a => win1_3.index t1_9 a * main_v25_1.ty.shape.size a) = fun _ => 0 :=
    funext fun a => by fin_cases a <;> decide +kernel
  exact (Memref.read_access_unit_zero (Elt Ideal) main_v25_1 hz' (fun a => by rw [congrFun hz' a]; simp) (res1_3 V c)).symm

/-- So the sums array ends holding the row after the tenth tile. -/
theorem final1_2 : (dat1 (F := Ideal) V c).arrAt 2 cfg1.N = res1_2 V c :=
  (dat1 (F := Ideal) V c).arrAt_eq_of_cover 2 (res1_2 V c) (flushed1_2 V c) fun i =>
    ⟨t1_9, (flush1_2 t1_9).mpr rfl, by
      show i ∈ ((View.whole main_v25_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

theorem final1_3 : (dat1 (F := Ideal) V c).arrAt 3 cfg1.N = res1_3 V c :=
  (dat1 (F := Ideal) V c).arrAt_eq_of_cover 3 (res1_3 V c) (flushed1_3 V c) fun i =>
    ⟨t1_9, (flush1_3 t1_9).mpr rfl, by
      show i ∈ ((View.whole main_v25_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

/-- After the region, entry j of the two result arrays is the column sum over all 50000 rows of A[a,j]·d[a],
    and of its square. -/
theorem stats1_value (X : FVec Ideal S50000x128 .f32) (Dz : FVec Ideal S50000x1 .f32)
    (hX : V c (Pipeline.arrRef spec1 0) = X) (hD : V c (Pipeline.arrRef spec1 1) = Dz) (j : Fin 128) :
    (dat1 (F := Ideal) V c).arrAt 2 cfg1.N (ix2 0 j) = Spec.colSum (fun a b => X (ix2 a b) * Dz (ix2 a 0)) j
    ∧ (dat1 (F := Ideal) V c).arrAt 3 cfg1.N (ix2 0 j)
        = Spec.colSum (fun a b => (X (ix2 a b) * Dz (ix2 a 0)) * (X (ix2 a b) * Dz (ix2 a 0))) j := by
  have hN : cfg1.N = 10 := N_1
  obtain ⟨r1, r2⟩ := rows_after1 V c X Dz hX hD j 9 last1
  have e : 5000 * (9 + 1) = 50000 := by norm_num
  rw [e] at r1 r2
  have q1 := r1.trans (sum_ext0 (term1 X Dz j))
  have q2 := r2.trans (sum_ext0 (term2 X Dz j))
  clear r1 r2
  constructor
  · rw [final1_2]
    exact q1
  · rw [final1_3]
    exact q2

end Region1

/-! ## Region 4 -/

/-- A later tile leaves, in the sums row holding acc, acc plus the tile's column sums. -/
theorem piece4_B_2 (c : Dev nD) (i : grid4.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 : Vec F S5000x1 .f32) (xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S1x128) hz]

/-- A later tile leaves, in the squares row holding acc, acc plus the tile's column sums of squares. -/
theorem piece4_B_3 (c : Dev nD) (i : grid4.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 : Vec F S5000x1 .f32) (xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h4.read_unread, View.ld_unit_zero (S := S5000x128) hz,
    View.ld_unit_zero (S := S5000x1) hz, View.ld_unit_zero (S := S1x128) hz]

/-- The first tile stores the zero row, then leaves zero plus the tile's column sums. -/
theorem piece4_A_2 (c : Dev nD) (i : grid4.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S5000x1 .f32) :
    out4_A_2 c i a1 h1 a2 h2 a3 h3 a4 h4 hc x0 x1 = k4_pay4 x0 x1 (k4_pay1 (F := F)) := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S5000x1) hz]

/-- The first tile stores the zero row, then leaves zero plus the tile's column sums of squares. -/
theorem piece4_A_3 (c : Dev nD) (i : grid4.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S5000x1 .f32) :
    out4_A_3 c i a1 h1 a2 h2 a3 h3 a4 h4 hc x0 x1 = k4_pay5 x0 x1 (k4_pay2 (F := F)) := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S5000x1) hz]

/-! ### The tile's arithmetic at an index, over the extended reals -/

/-- The scaled tile: entry (p, q) is A[p,q]·d[p]. -/
theorem scaled4_apply (v3 : FVec Ideal S5000x128 .f32) (v5 : FVec Ideal S5000x1 .f32) (p : Fin 5000) (q : Fin 128) :
    k4_pay3 (F := Ideal) v3 v5 (ix2 p q) = v3 (ix2 p q) * v5 (ix2 p 0) := by
  unfold k4_pay3
  show shapeCast S5000x128 v3 shapeCasts_S5000x128_S5000x128 (ix2 p q)
      * broadcastTo S5000x128 (shapeCast S5000x1 v5 shapeCasts_S5000x1_S5000x1) broadcasts_S5000x1_S5000x128 (ix2 p q) = _
  rw [shapeCast_self, shapeCast_self]
  congr 1
  exact broadcastTo_apply v5 broadcasts_S5000x1_S5000x128 (ix2 p q) (ix2 p 0)
    (fun a => by match a with | ⟨0, _⟩ => rfl | ⟨1, _⟩ => rfl)

/-- The new sums row: entry j is the old entry plus the tile's column sum of A[p,j]·d[p]. -/
theorem sums4_apply (v3 : FVec Ideal S5000x128 .f32) (v5 : FVec Ideal S5000x1 .f32) (v9 : FVec Ideal S1x128 .f32) (j : Fin 128) :
    k4_pay4 (F := Ideal) v3 v5 v9 (ix2 0 j) = v9 (ix2 0 j) + ∑ k : Fin 5000, v3 (ix2 k j) * v5 (ix2 k 0) := by
  unfold k4_pay4
  show shapeCast S1x128 v9 shapeCasts_S1x128_S1x128 (ix2 0 j)
      + shapeCast S1x128 (multiReduction (F := Ideal) .add [0] S128 (k4_pay3 v3 v5) 0x00000000#32 reduces_S5000x128_S128 (.inl rfl) rfl)
          shapeCasts_S128_S1x128 (ix2 0 j) = _
  rw [shapeCast_self]
  congr 1
  refine (shapeCast_apply _ shapeCasts_S128_S1x128 (ix2 0 j) (ix1 j) ?_).trans ?_
  · rw [Shape.rowMajor_val_one, Shape.rowMajor_val_two]; show j.val = 0 * 128 + j.val; omega
  refine (Ideal.multiReduction_add_single _ _ reduces_S5000x128_S128 _ _ (ix1 j)).trans ?_
  show (∑ k : Fin 5000, k4_pay3 (F := Ideal) v3 v5 (reduces_S5000x128_S128.lift (ix1 j) k)) = _
  refine Finset.sum_congr rfl fun k _ => ?_
  exact (congrArg (k4_pay3 (F := Ideal) v3 v5) (lift_row reduces_S5000x128_S128 j k)).trans (scaled4_apply v3 v5 k j)

/-- The new squares row: entry j is the old entry plus the tile's column sum of (A[p,j]·d[p])². -/
theorem squares4_apply (v3 : FVec Ideal S5000x128 .f32) (v5 : FVec Ideal S5000x1 .f32) (v15 : FVec Ideal S1x128 .f32) (j : Fin 128) :
    k4_pay5 (F := Ideal) v3 v5 v15 (ix2 0 j)
      = v15 (ix2 0 j) + ∑ k : Fin 5000, (v3 (ix2 k j) * v5 (ix2 k 0)) * (v3 (ix2 k j) * v5 (ix2 k 0)) := by
  unfold k4_pay5
  show shapeCast S1x128 v15 shapeCasts_S1x128_S1x128 (ix2 0 j)
      + shapeCast S1x128 (multiReduction (F := Ideal) .add [0] S128 (mulf (k4_pay3 v3 v5) (k4_pay3 v3 v5)) 0x00000000#32 reduces_S5000x128_S128 (.inl rfl) rfl)
          shapeCasts_S128_S1x128 (ix2 0 j) = _
  rw [shapeCast_self]
  congr 1
  refine (shapeCast_apply _ shapeCasts_S128_S1x128 (ix2 0 j) (ix1 j) ?_).trans ?_
  · rw [Shape.rowMajor_val_one, Shape.rowMajor_val_two]; show j.val = 0 * 128 + j.val; omega
  refine (Ideal.multiReduction_add_single _ _ reduces_S5000x128_S128 _ _ (ix1 j)).trans ?_
  show (∑ k : Fin 5000, (k4_pay3 (F := Ideal) v3 v5 (reduces_S5000x128_S128.lift (ix1 j) k)
      * k4_pay3 (F := Ideal) v3 v5 (reduces_S5000x128_S128.lift (ix1 j) k))) = _
  refine Finset.sum_congr rfl fun k _ => ?_
  have e : k4_pay3 (F := Ideal) v3 v5 (reduces_S5000x128_S128.lift (ix1 j) k) = v3 (ix2 k j) * v5 (ix2 k 0) :=
    (congrArg (k4_pay3 (F := Ideal) v3 v5) (lift_row reduces_S5000x128_S128 j k)).trans (scaled4_apply v3 v5 k j)
  exact congrArg₂ (fun a b : EReal => a * b) e e

/-- The stored zero row is zero everywhere. -/
theorem zeroA4_apply (i : S1x128.Idx) : k4_pay1 (F := Ideal) i = 0 := by
  unfold k4_pay1
  show Ideal.ofBits .f32 0x00000000#32 = 0
  exact Ideal.ofBits_zero_f32
theorem zeroB4_apply (i : S1x128.Idx) : k4_pay2 (F := Ideal) i = 0 := by
  unfold k4_pay2
  show Ideal.ofBits .f32 0x00000000#32 = 0
  exact Ideal.ofBits_zero_f32

/-! ### Tiles of the two input arrays -/

section Region4
variable (V : (c : Dev nD) → (b : Ref sig .tc) → Buf (Elt Ideal) ((c : Thread nD τ).loc b)) (c : Dev nD)

/-- The block index of both input windows at tile t is (t, 0). -/
theorem idx_in4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Row r of tile t of A is row 5000·t + r of A. -/
theorem blk4_0_apply (t : Fin cfg4.N) (X : FVec Ideal S50000x128 .f32) (hX : V c (Pipeline.arrRef spec4 0) = X)
    (r : Fin 5000) (j : Fin 128) (hr : 5000 * t.val + r.val < 50000) :
    (iblk4 (F := Ideal) V c 0 t : FVec Ideal S5000x128 .f32) (ix2 r j) = X (ix2 ⟨5000 * t.val + r.val, hr⟩ j) := by
  subst hX
  unfold iblk4
  rw [View.read_apply]
  obtain ⟨e0, e1, -, -⟩ := idx_in4 t
  show V c (Pipeline.arrRef spec4 0) (((cfg4.win 0).blk t).view.emb (ix2 r j)) = _
  refine congrArg (V c (Pipeline.arrRef spec4 0)) (funext fun a => Fin.ext ?_)
  match a with
  | ⟨0, _⟩ => show win4_0.index t (0 : Fin 2) * 5000 + 1 * r.val = 5000 * t.val + r.val; rw [e0]; omega
  | ⟨1, _⟩ => show win4_0.index t (1 : Fin 2) * 128 + 1 * j.val = j.val; rw [e1]; omega

/-- Row r of tile t of d is row 5000·t + r of d. -/
theorem blk4_1_apply (t : Fin cfg4.N) (Dz : FVec Ideal S50000x1 .f32) (hD : V c (Pipeline.arrRef spec4 1) = Dz)
    (r : Fin 5000) (hr : 5000 * t.val + r.val < 50000) :
    (iblk4 (F := Ideal) V c 1 t : FVec Ideal S5000x1 .f32) (ix2 r 0) = Dz (ix2 ⟨5000 * t.val + r.val, hr⟩ 0) := by
  subst hD
  unfold iblk4
  rw [View.read_apply]
  obtain ⟨-, -, e0, e1⟩ := idx_in4 t
  show V c (Pipeline.arrRef spec4 1) (((cfg4.win 1).blk t).view.emb (ix2 r 0)) = _
  refine congrArg (V c (Pipeline.arrRef spec4 1)) (funext fun a => Fin.ext ?_)
  match a with
  | ⟨0, _⟩ => show win4_1.index t (0 : Fin 2) * 5000 + 1 * r.val = 5000 * t.val + r.val; rw [e0]; omega
  | ⟨1, _⟩ => show win4_1.index t (1 : Fin 2) * 1 + 1 * 0 = 0; rw [e1]

/-! ### What the two rows hold after a tile -/

/-- Tile t of A and of d, as arrays of extended reals. -/
abbrev xblk4 (t : Fin cfg4.N) : FVec Ideal S5000x128 .f32 := iblk4 (F := Ideal) V c 0 t
abbrev dblk4 (t : Fin cfg4.N) : FVec Ideal S5000x1 .f32 := iblk4 (F := Ideal) V c 1 t
/-- The two rows after tile n, as arrays of extended reals. -/
abbrev sumRow4 (n : ℕ) (hn : n < cfg4.N) : FVec Ideal S1x128 .f32 := (outsAt4 (F := Ideal) V c n hn).1
abbrev sqRow4 (n : ℕ) (hn : n < cfg4.N) : FVec Ideal S1x128 .f32 := (outsAt4 (F := Ideal) V c n hn).2

/-- After the first tile: the tile's column sums (the stored zero row adds nothing). -/
theorem row_first4 (t : Fin cfg4.N) (h0 : t.val % 10 = 0) (j : Fin 128) :
    sumRow4 V c t.val t.isLt (ix2 0 j) = ∑ k : Fin 5000, xblk4 V c t (ix2 k j) * dblk4 V c t (ix2 k 0)
    ∧ sqRow4 V c t.val t.isLt (ix2 0 j)
        = ∑ k : Fin 5000, (xblk4 V c t (ix2 k j) * dblk4 V c t (ix2 k 0)) * (xblk4 V c t (ix2 k j) * dblk4 V c t (ix2 k 0)) := by
  show (outsAt4 (F := Ideal) V c t.val t.isLt).1 (ix2 0 j) = _ ∧ (outsAt4 (F := Ideal) V c t.val t.isLt).2 (ix2 0 j) = _
  rw [outsAt4_A V c t h0]
  dsimp only
  constructor
  · refine (congrFun (piece4_A_2 (F := Ideal) c (grid4.coords t) (ms4_0 t) (hs4_0 t) (ms4_1 t) (hs4_1 t) (ms4_2 t) (hs4_2 t)
      (ms4_3 t) (hs4_3 t) ((hcond4_0 t).mpr h0) (iblk4 (F := Ideal) V c 0 t) (iblk4 (F := Ideal) V c 1 t)) (ix2 0 j)).trans ?_
    refine (sums4_apply (xblk4 V c t) (dblk4 V c t) (k4_pay1 (F := Ideal)) j).trans ?_
    rw [zeroA4_apply, zero_add]
  · refine (congrFun (piece4_A_3 (F := Ideal) c (grid4.coords t) (ms4_0 t) (hs4_0 t) (ms4_1 t) (hs4_1 t) (ms4_2 t) (hs4_2 t)
      (ms4_3 t) (hs4_3 t) ((hcond4_0 t).mpr h0) (iblk4 (F := Ideal) V c 0 t) (iblk4 (F := Ideal) V c 1 t)) (ix2 0 j)).trans ?_
    refine (squares4_apply (xblk4 V c t) (dblk4 V c t) (k4_pay2 (F := Ideal)) j).trans ?_
    rw [zeroB4_apply, zero_add]

/-- After a later tile: what the tile before left, plus the tile's column sums. -/
theorem row_next4 (t : Fin cfg4.N) (h0 : ¬t.val % 10 = 0) (j : Fin 128) :
    sumRow4 V c t.val t.isLt (ix2 0 j)
        = sumRow4 V c (t.val - 1) (Nat.lt_of_le_of_lt (Nat.sub_le _ _) t.isLt) (ix2 0 j)
          + ∑ k : Fin 5000, xblk4 V c t (ix2 k j) * dblk4 V c t (ix2 k 0)
    ∧ sqRow4 V c t.val t.isLt (ix2 0 j)
        = sqRow4 V c (t.val - 1) (Nat.lt_of_le_of_lt (Nat.sub_le _ _) t.isLt) (ix2 0 j)
          + ∑ k : Fin 5000, (xblk4 V c t (ix2 k j) * dblk4 V c t (ix2 k 0)) * (xblk4 V c t (ix2 k j) * dblk4 V c t (ix2 k 0)) := by
  show (outsAt4 (F := Ideal) V c t.val t.isLt).1 (ix2 0 j) = _ ∧ (outsAt4 (F := Ideal) V c t.val t.isLt).2 (ix2 0 j) = _
  rw [outsAt4_B V c t h0]
  dsimp only
  constructor
  · refine (congrFun (piece4_B_2 (F := Ideal) c (grid4.coords t) (ms4_0 t) (hs4_0 t) (ms4_1 t) (hs4_1 t) (ms4_2 t) (hs4_2 t)
      (ms4_3 t) (hs4_3 t) (fun h => h0 ((hcond4_0 t).mp h)) (iblk4 (F := Ideal) V c 0 t) (iblk4 (F := Ideal) V c 1 t)
      (outsAt4 (F := Ideal) V c (t.val - 1) (Nat.lt_of_le_of_lt (Nat.sub_le _ _) t.isLt)).1
      (outsAt4 (F := Ideal) V c (t.val - 1) (Nat.lt_of_le_of_lt (Nat.sub_le _ _) t.isLt)).2) (ix2 0 j)).trans ?_
    exact sums4_apply (xblk4 V c t) (dblk4 V c t) (sumRow4 V c (t.val - 1) (Nat.lt_of_le_of_lt (Nat.sub_le _ _) t.isLt)) j
  · refine (congrFun (piece4_B_3 (F := Ideal) c (grid4.coords t) (ms4_0 t) (hs4_0 t) (ms4_1 t) (hs4_1 t) (ms4_2 t) (hs4_2 t)
      (ms4_3 t) (hs4_3 t) (fun h => h0 ((hcond4_0 t).mp h)) (iblk4 (F := Ideal) V c 0 t) (iblk4 (F := Ideal) V c 1 t)
      (outsAt4 (F := Ideal) V c (t.val - 1) (Nat.lt_of_le_of_lt (Nat.sub_le _ _) t.isLt)).1
      (outsAt4 (F := Ideal) V c (t.val - 1) (Nat.lt_of_le_of_lt (Nat.sub_le _ _) t.isLt)).2) (ix2 0 j)).trans ?_
    exact squares4_apply (xblk4 V c t) (dblk4 V c t) (sqRow4 V c (t.val - 1) (Nat.lt_of_le_of_lt (Nat.sub_le _ _) t.isLt)) j

/-! ### The running sums -/

/-- Tile t's column sums are the sums of the whole arrays' summands over rows 5000·t … 5000·t + 4999. -/
theorem tile4 (X : FVec Ideal S50000x128 .f32) (Dz : FVec Ideal S50000x1 .f32)
    (hX : V c (Pipeline.arrRef spec4 0) = X) (hD : V c (Pipeline.arrRef spec4 1) = Dz) (j : Fin 128) (t : Fin cfg4.N) :
    (∑ k : Fin 5000, xblk4 V c t (ix2 k j) * dblk4 V c t (ix2 k 0)
        = ∑ r ∈ Finset.range 5000, ext0 (term1 X Dz j) (5000 * t.val + r))
    ∧ (∑ k : Fin 5000, (xblk4 V c t (ix2 k j) * dblk4 V c t (ix2 k 0)) * (xblk4 V c t (ix2 k j) * dblk4 V c t (ix2 k 0))
        = ∑ r ∈ Finset.range 5000, ext0 (term2 X Dz j) (5000 * t.val + r)) := by
  have ht : t.val < 10 := lt_of_lt_of_eq t.isLt (show cfg4.N = 10 from N_4)
  have ex : ∀ (k : Fin 5000) (h : 5000 * t.val + k.val < 50000), xblk4 V c t (ix2 k j) = X (ix2 ⟨5000 * t.val + k.val, h⟩ j) :=
    fun k h => blk4_0_apply V c t X hX k j h
  have ed : ∀ (k : Fin 5000) (h : 5000 * t.val + k.val < 50000), dblk4 V c t (ix2 k 0) = Dz (ix2 ⟨5000 * t.val + k.val, h⟩ 0) :=
    fun k h => blk4_1_apply V c t Dz hD k h
  constructor
  · exact tile_ext0 (term1 X Dz j) t.val ht _ fun k h => by rw [ex k h, ed k h]
  · exact tile_ext0 (term2 X Dz j) t.val ht _ fun k h => by rw [ex k h, ed k h]

/-- After tile n the two rows hold the sums over the first 5000·(n+1) rows. -/
theorem rows_after4 (X : FVec Ideal S50000x128 .f32) (Dz : FVec Ideal S50000x1 .f32)
    (hX : V c (Pipeline.arrRef spec4 0) = X) (hD : V c (Pipeline.arrRef spec4 1) = Dz) (j : Fin 128) :
    ∀ (n : ℕ) (hn : n < cfg4.N),
      sumRow4 V c n hn (ix2 0 j) = ∑ a ∈ Finset.range (5000 * (n + 1)), ext0 (term1 X Dz j) a
      ∧ sqRow4 V c n hn (ix2 0 j) = ∑ a ∈ Finset.range (5000 * (n + 1)), ext0 (term2 X Dz j) a := by
  have hN : cfg4.N = 10 := N_4
  intro n
  induction n with
  | zero =>
    intro hn
    obtain ⟨e1, e2⟩ := row_first4 V c ⟨0, hn⟩ rfl j
    obtain ⟨s1, s2⟩ := tile4 V c X Dz hX hD j ⟨0, hn⟩
    refine ⟨e1.trans (s1.trans ?_), e2.trans (s2.trans ?_)⟩
    · rw [range_step, Nat.mul_zero, Finset.range_zero, Finset.sum_empty, zero_add]
    · rw [range_step, Nat.mul_zero, Finset.range_zero, Finset.sum_empty, zero_add]
  | succ n ih =>
    intro hn
    obtain ⟨i1, i2⟩ := ih (Nat.lt_of_succ_lt hn)
    have hB : ¬(⟨n + 1, hn⟩ : Fin cfg4.N).val % 10 = 0 := by dsimp only; omega
    obtain ⟨e1, e2⟩ := row_next4 V c ⟨n + 1, hn⟩ hB j
    obtain ⟨s1, s2⟩ := tile4 V c X Dz hX hD j ⟨n + 1, hn⟩
    have e1' : sumRow4 V c (n + 1) hn (ix2 0 j) = sumRow4 V c n (Nat.lt_of_succ_lt hn) (ix2 0 j)
        + ∑ k : Fin 5000, xblk4 V c ⟨n + 1, hn⟩ (ix2 k j) * dblk4 V c ⟨n + 1, hn⟩ (ix2 k 0) := e1
    have e2' : sqRow4 V c (n + 1) hn (ix2 0 j) = sqRow4 V c n (Nat.lt_of_succ_lt hn) (ix2 0 j)
        + ∑ k : Fin 5000, (xblk4 V c ⟨n + 1, hn⟩ (ix2 k j) * dblk4 V c ⟨n + 1, hn⟩ (ix2 k 0))
            * (xblk4 V c ⟨n + 1, hn⟩ (ix2 k j) * dblk4 V c ⟨n + 1, hn⟩ (ix2 k 0)) := e2
    constructor
    · rw [e1', i1, s1, range_step (ext0 (term1 X Dz j)) (n + 1)]
    · rw [e2', i2, s2, range_step (ext0 (term2 X Dz j)) (n + 1)]

/-! ### The two result arrays after the region -/

/-- The tenth tile is a tile of the walk. -/
theorem last4 : 9 < cfg4.N := by rw [show cfg4.N = 10 from N_4]; decide

/-- What the two rows hold after the tenth tile, as contents of the two result arrays. -/
abbrev res4_2 : Buf (Elt Ideal) ((c : Thread nD τ).loc main_v43_0) := (outsAt4 (F := Ideal) V c 9 last4).1
abbrev res4_3 : Buf (Elt Ideal) ((c : Thread nD τ).loc main_v43_1) := (outsAt4 (F := Ideal) V c 9 last4).2

/-- The one write-back of the sums row, after the tenth tile, writes it: the row's one block is the whole array. -/
theorem flushed4_2 (t : Fin cfg4.N) (hf : (cfg4.win 2).flush t = true) :
    (dat4 (F := Ideal) V c).flushed 2 t = ((cfg4.win 2).blk t).view.read (Elt Ideal) (res4_2 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 (F := Ideal) V c).after 2 t4_9) = _
  rw [after4_2]
  have hz' : (fun a => win4_2.index t4_9 a * main_v43_0.ty.shape.size a) = fun _ => 0 :=
    funext fun a => by fin_cases a <;> decide +kernel
  exact (Memref.read_access_unit_zero (Elt Ideal) main_v43_0 hz' (fun a => by rw [congrFun hz' a]; simp) (res4_2 V c)).symm

theorem flushed4_3 (t : Fin cfg4.N) (hf : (cfg4.win 3).flush t = true) :
    (dat4 (F := Ideal) V c).flushed 3 t = ((cfg4.win 3).blk t).view.read (Elt Ideal) (res4_3 V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 (F := Ideal) V c).after 3 t4_9) = _
  rw [after4_3]
  have hz' : (fun a => win4_3.index t4_9 a * main_v43_1.ty.shape.size a) = fun _ => 0 :=
    funext fun a => by fin_cases a <;> decide +kernel
  exact (Memref.read_access_unit_zero (Elt Ideal) main_v43_1 hz' (fun a => by rw [congrFun hz' a]; simp) (res4_3 V c)).symm

/-- So the sums array ends holding the row after the tenth tile. -/
theorem final4_2 : (dat4 (F := Ideal) V c).arrAt 2 cfg4.N = res4_2 V c :=
  (dat4 (F := Ideal) V c).arrAt_eq_of_cover 2 (res4_2 V c) (flushed4_2 V c) fun i =>
    ⟨t4_9, (flush4_2 t4_9).mpr rfl, by
      show i ∈ ((View.whole main_v43_0).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

theorem final4_3 : (dat4 (F := Ideal) V c).arrAt 3 cfg4.N = res4_3 V c :=
  (dat4 (F := Ideal) V c).arrAt_eq_of_cover 3 (res4_3 V c) (flushed4_3 V c) fun i =>
    ⟨t4_9, (flush4_3 t4_9).mpr rfl, by
      show i ∈ ((View.whole main_v43_1).slice (win4_3.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 128 from by decide +kernel]; omega⟩

/-- After the region, entry j of the two result arrays is the column sum over all 50000 rows of A[a,j]·d[a],
    and of its square. -/
theorem stats4_value (X : FVec Ideal S50000x128 .f32) (Dz : FVec Ideal S50000x1 .f32)
    (hX : V c (Pipeline.arrRef spec4 0) = X) (hD : V c (Pipeline.arrRef spec4 1) = Dz) (j : Fin 128) :
    (dat4 (F := Ideal) V c).arrAt 2 cfg4.N (ix2 0 j) = Spec.colSum (fun a b => X (ix2 a b) * Dz (ix2 a 0)) j
    ∧ (dat4 (F := Ideal) V c).arrAt 3 cfg4.N (ix2 0 j)
        = Spec.colSum (fun a b => (X (ix2 a b) * Dz (ix2 a 0)) * (X (ix2 a b) * Dz (ix2 a 0))) j := by
  have hN : cfg4.N = 10 := N_4
  obtain ⟨r1, r2⟩ := rows_after4 V c X Dz hX hD j 9 last4
  have e : 5000 * (9 + 1) = 50000 := by norm_num
  rw [e] at r1 r2
  have q1 := r1.trans (sum_ext0 (term1 X Dz j))
  have q2 := r2.trans (sum_ext0 (term2 X Dz j))
  clear r1 r2
  constructor
  · rw [final4_2]
    exact q1
  · rw [final4_3]
    exact q2

end Region4

/-! ## Region 7 -/

/-- A later tile leaves, in the sums row holding acc, acc plus the tile's column sums. -/
theorem piece7_B_2 (c : Dev nD) (i : grid7.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : ¬cond7_0 i)
    (x0 : Vec F S5000x128 .f32) (x1 : Vec F S5000x1 .f32) (xo2 xo3 : Vec F S1x128 .f32) :
    out7_B_2 c i a1 h1 a2 h2 a3 h3 a4 h4 hc x0 x1 xo2 xo3 = k7_pay4 x0 x1 xo2 := by
  unfold out7_B_2
  rw [View.read_writes_eq_canon _ _ _ (cover7_B_2 c i a1 h1 a2 h2 a3 h3 a4 h4 hc x0 x1 xo2 xo3)]
  unfold kernelRun7_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S1x128) hz]

/-- A later tile leaves, in the squares row holding acc, acc plus the tile's column sums of squares. -/
theorem piece7_B_3 (c : Dev nD) (i : grid7.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : ¬cond7_0 i)
    (x0 : Vec F S5000x128 .f32) (x1 : Vec F S5000x1 .f32) (xo2 xo3 : Vec F S1x128 .f32) :
    out7_B_3 c i a1 h1 a2 h2 a3 h3 a4 h4 hc x0 x1 xo2 xo3 = k7_pay5 x0 x1 xo3 := by
  unfold out7_B_3
  rw [View.read_writes_eq_canon _ _ _ (cover7_B_3 c i a1 h1 a2 h2 a3 h3 a4 h4 hc x0 x1 xo2 xo3)]
  unfold kernelRun7_B
  dsimp only
  sl_unfold_words
  rw [View.canon_unit_zero hz]
  simp only [View.readAt_eq_ld, h1.read_unread, h2.read_unread, h4.read_unread, View.ld_unit_zero (S := S5000x128) hz,
    View.ld_unit_zero (S := S5000x1) hz, View.ld_unit_zero (S := S1x128) hz]

/-- The first tile stores the zero row, then leaves zero plus the tile's column sums. -/
theorem piece7_A_2 (c : Dev nD) (i : grid7.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : cond7_0 i)
    (x0 : Vec F S5000x128 .f32) (x1 : Vec F S5000x1 .f32) :
    out7_A_2 c i a1 h1 a2 h2 a3 h3 a4 h4 hc x0 x1 = k7_pay4 x0 x1 (k7_pay1 (F := F)) := by
  unfold out7_A_2
  rw [View.read_writes_eq_canon _ _ _ (cover7_A_2 c i a1 h1 a2 h2 a3 h3 a4 h4 hc x0 x1)]
  unfold kernelRun7_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S5000x1) hz]

/-- The first tile stores the zero row, then leaves zero plus the tile's column sums of squares. -/
theorem piece7_A_3 (c : Dev nD) (i : grid7.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (hc : cond7_0 i)
    (x0 : Vec F S5000x128 .f32) (x1 : Vec F S5000x1 .f32) :
    out7_A_3 c i a1 h1 a2 h2 a3 h3 a4 h4 hc x0 x1 = k7_pay5 x0 x1 (k7_pay2 (F := F)) := by
  unfold out7_A_3
  rw [View.read_writes_eq_canon _ _ _ (cover7_A_3 c i a1 h1 a2 h2 a3 h3 a4 h4 hc x0 x1)]
  unfold kernelRun7_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S5000x1) hz]

/-! ### The tile's arithmetic at an index, over the extended reals -/

/-- The scaled tile: entry (p, q) is A[p,q]·d[p]. -/
theorem scaled7_apply (v3 : FVec Ideal S5000x128 .f32) (v5 : FVec Ideal S5000x1 .f32) (p : Fin 5000) (q : Fin 128) :
    k7_pay3 (F := Ideal) v3 v5 (ix2 p q) = v3 (ix2 p q) * v5 (ix2 p 0) := by
  unfold k7_pay3
  show shapeCast S5000x128 v3 shapeCasts_S5000x128_S5000x128 (ix2 p q)
      * broadcastTo S5000x128 (shapeCast S5000x1 v5 shapeCasts_S5000x1_S5000x1) broadcasts_S5000x1_S5000x128 (ix2 p q) = _
  rw [shapeCast_self, shapeCast_self]
  congr 1
  exact broadcastTo_apply v5 broadcasts_S5000x1_S5000x128 (ix2 p q) (ix2 p 0)
    (fun a => by match a with | ⟨0, _⟩ => rfl | ⟨1, _⟩ => rfl)

/-- The new sums row: entry j is the old entry plus the tile's column sum of A[p,j]·d[p]. -/
theorem sums7_apply (v3 : FVec Ideal S5000x128 .f32) (v5 : FVec Ideal S5000x1 .f32) (v9 : FVec Ideal S1x128 .f32) (j : Fin 128) :
    k7_pay4 (F := Ideal) v3 v5 v9 (ix2 0 j) = v9 (ix2 0 j) + ∑ k : Fin 5000, v3 (ix2 k j) * v5 (ix2 k 0) := by
  unfold k7_pay4
  show shapeCast S1x128 v9 shapeCasts_S1x128_S1x128 (ix2 0 j)
      + shapeCast S1x128 (multiReduction (F := Ideal) .add [0] S128 (k7_pay3 v3 v5) 0x00000000#32 reduces_S5000x128_S128 (.inl rfl) rfl)
          shapeCasts_S128_S1x128 (ix2 0 j) = _
  rw [shapeCast_self]
  congr 1
  refine (shapeCast_apply _ shapeCasts_S128_S1x128 (ix2 0 j) (ix1 j) ?_).trans ?_
  · rw [Shape.rowMajor_val_one, Shape.rowMajor_val_two]; show j.val = 0 * 128 + j.val; omega
  refine (Ideal.multiReduction_add_single _ _ reduces_S5000x128_S128 _ _ (ix1 j)).trans ?_
  show (∑ k : Fin 5000, k7_pay3 (F := Ideal) v3 v5 (reduces_S5000x128_S128.lift (ix1 j) k)) = _
  refine Finset.sum_congr rfl fun k _ => ?_
  exact (congrArg (k7_pay3 (F := Ideal) v3 v5) (lift_row reduces_S5000x128_S128 j k)).trans (scaled7_apply v3 v5 k j)

/-- The new squares row: entry j is the old entry plus the tile's column sum of (A[p,j]·d[p])². -/
theorem squares7_apply (v3 : FVec Ideal S5000x128 .f32) (v5 : FVec Ideal S5000x1 .f32) (v15 : FVec Ideal S1x128 .f32) (j : Fin 128) :
    k7_pay5 (F := Ideal) v3 v5 v15 (ix2 0 j)
      = v15 (ix2 0 j) + ∑ k : Fin 5000, (v3 (ix2 k j) * v5 (ix2 k 0)) * (v3 (ix2 k j) * v5 (ix2 k 0)) := by
  unfold k7_pay5
  show shapeCast S1x128 v15 shapeCasts_S1x128_S1x128 (ix2 0 j)
      + shapeCast S1x128 (multiReduction (F := Ideal) .add [0] S128 (mulf (k7_pay3 v3 v5) (k7_pay3 v3 v5)) 0x00000000#32 reduces_S5000x128_S128 (.inl rfl) rfl)
          shapeCasts_S128_S1x128 (ix2 0 j) = _
  rw [shapeCast_self]
  congr 1
  refine (shapeCast_apply _ shapeCasts_S128_S1x128 (ix2 0 j) (ix1 j) ?_).trans ?_
  · rw [Shape.rowMajor_val_one, Shape.rowMajor_val_two]; show j.val = 0 * 128 + j.val; omega
  refine (Ideal.multiReduction_add_single _ _ reduces_S5000x128_S128 _ _ (ix1 j)).trans ?_
  show (∑ k : Fin 5000, (k7_pay3 (F := Ideal) v3 v5 (reduces_S5000x128_S128.lift (ix1 j) k)
      * k7_pay3 (F := Ideal) v3 v5 (reduces_S5000x128_S128.lift (ix1 j) k))) = _
  refine Finset.sum_congr rfl fun k _ => ?_
  have e : k7_pay3 (F := Ideal) v3 v5 (reduces_S5000x128_S128.lift (ix1 j) k) = v3 (ix2 k j) * v5 (ix2 k 0) :=
    (congrArg (k7_pay3 (F := Ideal) v3 v5) (lift_row reduces_S5000x128_S128 j k)).trans (scaled7_apply v3 v5 k j)
  exact congrArg₂ (fun a b : EReal => a * b) e e

/-- The stored zero row is zero everywhere. -/
theorem zeroA7_apply (i : S1x128.Idx) : k7_pay1 (F := Ideal) i = 0 := by
  unfold k7_pay1
  show Ideal.ofBits .f32 0x00000000#32 = 0
  exact Ideal.ofBits_zero_f32
theorem zeroB7_apply (i : S1x128.Idx) : k7_pay2 (F := Ideal) i = 0 := by
  unfold k7_pay2
  show Ideal.ofBits .f32 0x00000000#32 = 0
  exact Ideal.ofBits_zero_f32

/-! ### Tiles of the two input arrays -/

section Region7
variable (V : (c : Dev nD) → (b : Ref sig .tc) → Buf (Elt Ideal) ((c : Thread nD τ).loc b)) (c : Dev nD)

/-- The block index of both input windows at tile t is (t, 0). -/
theorem idx_in7 : ∀ t : Fin cfg7.N, win7_0.index t (0 : Fin 2) = t.val ∧ win7_0.index t (1 : Fin 2) = 0
    ∧ win7_1.index t (0 : Fin 2) = t.val ∧ win7_1.index t (1 : Fin 2) = 0 :=
  (by decide +kernel : ∀ t : Fin grid7.N, _)

/-- Row r of tile t of A is row 5000·t + r of A. -/
theorem blk7_0_apply (t : Fin cfg7.N) (X : FVec Ideal S50000x128 .f32) (hX : V c (Pipeline.arrRef spec7 0) = X)
    (r : Fin 5000) (j : Fin 128) (hr : 5000 * t.val + r.val < 50000) :
    (iblk7 (F := Ideal) V c 0 t : FVec Ideal S5000x128 .f32) (ix2 r j) = X (ix2 ⟨5000 * t.val + r.val, hr⟩ j) := by
  subst hX
  unfold iblk7
  rw [View.read_apply]
  obtain ⟨e0, e1, -, -⟩ := idx_in7 t
  show V c (Pipeline.arrRef spec7 0) (((cfg7.win 0).blk t).view.emb (ix2 r j)) = _
  refine congrArg (V c (Pipeline.arrRef spec7 0)) (funext fun a => Fin.ext ?_)
  match a with
  | ⟨0, _⟩ => show win7_0.index t (0 : Fin 2) * 5000 + 1 * r.val = 5000 * t.val + r.val; rw [e0]; omega
  | ⟨1, _⟩ => show win7_0.index t (1 : Fin 2) * 128 + 1 * j.val = j.val; rw [e1]; omega

/-- Row r of tile t of d is row 5000·t + r of d. -/
theorem blk7_1_apply (t : Fin cfg7.N) (Dz : FVec Ideal S50000x1 .f32) (hD : V c (Pipeline.arrRef spec7 1) = Dz)
    (r : Fin 5000) (hr : 5000 * t.val + r.val < 50000) :
    (iblk7 (F := Ideal) V c 1 t : FVec Ideal S5000x1 .f32) (ix2 r 0) = Dz (ix2 ⟨5000 * t.val + r.val, hr⟩ 0) := by
  subst hD
  unfold iblk7
  rw [View.read_apply]
  obtain ⟨-, -, e0, e1⟩ := idx_in7 t
  show V c (Pipeline.arrRef spec7 1) (((cfg7.win 1).blk t).view.emb (ix2 r 0)) = _
  refine congrArg (V c (Pipeline.arrRef spec7 1)) (funext fun a => Fin.ext ?_)
  match a with
  | ⟨0, _⟩ => show win7_1.index t (0 : Fin 2) * 5000 + 1 * r.val = 5000 * t.val + r.val; rw [e0]; omega
  | ⟨1, _⟩ => show win7_1.index t (1 : Fin 2) * 1 + 1 * 0 = 0; rw [e1]

/-! ### What the two rows hold after a tile -/

/-- Tile t of A and of d, as arrays of extended reals. -/
abbrev xblk7 (t : Fin cfg7.N) : FVec Ideal S5000x128 .f32 := iblk7 (F := Ideal) V c 0 t
abbrev dblk7 (t : Fin cfg7.N) : FVec Ideal S5000x1 .f32 := iblk7 (F := Ideal) V c 1 t
/-- The two rows after tile n, as arrays of extended reals. -/
abbrev sumRow7 (n : ℕ) (hn : n < cfg7.N) : FVec Ideal S1x128 .f32 := (outsAt7 (F := Ideal) V c n hn).1
abbrev sqRow7 (n : ℕ) (hn : n < cfg7.N) : FVec Ideal S1x128 .f32 := (outsAt7 (F := Ideal) V c n hn).2

/-- After the first tile: the tile's column sums (the stored zero row adds nothing). -/
theorem row_first7 (t : Fin cfg7.N) (h0 : t.val % 10 = 0) (j : Fin 128) :
    sumRow7 V c t.val t.isLt (ix2 0 j) = ∑ k : Fin 5000, xblk7 V c t (ix2 k j) * dblk7 V c t (ix2 k 0)
    ∧ sqRow7 V c t.val t.isLt (ix2 0 j)
        = ∑ k : Fin 5000, (xblk7 V c t (ix2 k j) * dblk7 V c t (ix2 k 0)) * (xblk7 V c t (ix2 k j) * dblk7 V c t (ix2 k 0)) := by
  show (outsAt7 (F := Ideal) V c t.val t.isLt).1 (ix2 0 j) = _ ∧ (outsAt7 (F := Ideal) V c t.val t.isLt).2 (ix2 0 j) = _
  rw [outsAt7_A V c t h0]
  dsimp only
  constructor
  · refine (congrFun (piece7_A_2 (F := Ideal) c (grid7.coords t) (ms7_0 t) (hs7_0 t) (ms7_1 t) (hs7_1 t) (ms7_2 t) (hs7_2 t)
      (ms7_3 t) (hs7_3 t) ((hcond7_0 t).mpr h0) (iblk7 (F := Ideal) V c 0 t) (iblk7 (F := Ideal) V c 1 t)) (ix2 0 j)).trans ?_
    refine (sums7_apply (xblk7 V c t) (dblk7 V c t) (k7_pay1 (F := Ideal)) j).trans ?_
    rw [zeroA7_apply, zero_add]
  · refine (congrFun (piece7_A_3 (F := Ideal) c (grid7.coords t) (ms7_0 t) (hs7_0 t) (ms7_1 t) (hs7_1 t) (ms7_2 t) (hs7_2 t)
      (ms7_3 t) (hs7_3 t) ((hcond7_0 t).mpr h0) (iblk7 (F := Ideal) V c 0 t) (iblk7 (F := Ideal) V c 1 t)) (ix2 0 j)).trans ?_
    refine (squares7_apply (xblk7 V c t) (dblk7 V c t) (k7_pay2 (F := Ideal)) j).trans ?_
    rw [zeroB7_apply, zero_add]

/-- After a later tile: what the tile before left, plus the tile's column sums. -/
theorem row_next7 (t : Fin cfg7.N) (h0 : ¬t.val % 10 = 0) (j : Fin 128) :
    sumRow7 V c t.val t.isLt (ix2 0 j)
        = sumRow7 V c (t.val - 1) (Nat.lt_of_le_of_lt (Nat.sub_le _ _) t.isLt) (ix2 0 j)
          + ∑ k : Fin 5000, xblk7 V c t (ix2 k j) * dblk7 V c t (ix2 k 0)
    ∧ sqRow7 V c t.val t.isLt (ix2 0 j)
        = sqRow7 V c (t.val - 1) (Nat.lt_of_le_of_lt (Nat.sub_le _ _) t.isLt) (ix2 0 j)
          + ∑ k : Fin 5000, (xblk7 V c t (ix2 k j) * dblk7 V c t (ix2 k 0)) * (xblk7 V c t (ix2 k j) * dblk7 V c t (ix2 k 0)) := by
  show (outsAt7 (F := Ideal) V c t.val t.isLt).1 (ix2 0 j) = _ ∧ (outsAt7 (F := Ideal) V c t.val t.isLt).2 (ix2 0 j) = _
  rw [outsAt7_B V c t h0]
  dsimp only
  constructor
  · refine (congrFun (piece7_B_2 (F := Ideal) c (grid7.coords t) (ms7_0 t) (hs7_0 t) (ms7_1 t) (hs7_1 t) (ms7_2 t) (hs7_2 t)
      (ms7_3 t) (hs7_3 t) (fun h => h0 ((hcond7_0 t).mp h)) (iblk7 (F := Ideal) V c 0 t) (iblk7 (F := Ideal) V c 1 t)
      (outsAt7 (F := Ideal) V c (t.val - 1) (Nat.lt_of_le_of_lt (Nat.sub_le _ _) t.isLt)).1
      (outsAt7 (F := Ideal) V c (t.val - 1) (Nat.lt_of_le_of_lt (Nat.sub_le _ _) t.isLt)).2) (ix2 0 j)).trans ?_
    exact sums7_apply (xblk7 V c t) (dblk7 V c t) (sumRow7 V c (t.val - 1) (Nat.lt_of_le_of_lt (Nat.sub_le _ _) t.isLt)) j
  · refine (congrFun (piece7_B_3 (F := Ideal) c (grid7.coords t) (ms7_0 t) (hs7_0 t) (ms7_1 t) (hs7_1 t) (ms7_2 t) (hs7_2 t)
      (ms7_3 t) (hs7_3 t) (fun h => h0 ((hcond7_0 t).mp h)) (iblk7 (F := Ideal) V c 0 t) (iblk7 (F := Ideal) V c 1 t)
      (outsAt7 (F := Ideal) V c (t.val - 1) (Nat.lt_of_le_of_lt (Nat.sub_le _ _) t.isLt)).1
      (outsAt7 (F := Ideal) V c (t.val - 1) (Nat.lt_of_le_of_lt (Nat.sub_le _ _) t.isLt)).2) (ix2 0 j)).trans ?_
    exact squares7_apply (xblk7 V c t) (dblk7 V c t) (sqRow7 V c (t.val - 1) (Nat.lt_of_le_of_lt (Nat.sub_le _ _) t.isLt)) j

/-! ### The running sums -/

/-- Tile t's column sums are the sums of the whole arrays' summands over rows 5000·t … 5000·t + 4999. -/
theorem tile7 (X : FVec Ideal S50000x128 .f32) (Dz : FVec Ideal S50000x1 .f32)
    (hX : V c (Pipeline.arrRef spec7 0) = X) (hD : V c (Pipeline.arrRef spec7 1) = Dz) (j : Fin 128) (t : Fin cfg7.N) :
    (∑ k : Fin 5000, xblk7 V c t (ix2 k j) * dblk7 V c t (ix2 k 0)
        = ∑ r ∈ Finset.range 5000, ext0 (term1 X Dz j) (5000 * t.val + r))
    ∧ (∑ k : Fin 5000, (xblk7 V c t (ix2 k j) * dblk7 V c t (ix2 k 0)) * (xblk7 V c t (ix2 k j) * dblk7 V c t (ix2 k 0))
        = ∑ r ∈ Finset.range 5000, ext0 (term2 X Dz j) (5000 * t.val + r)) := by
  have ht : t.val < 10 := lt_of_lt_of_eq t.isLt (show cfg7.N = 10 from N_7)
  have ex : ∀ (k : Fin 5000) (h : 5000 * t.val + k.val < 50000), xblk7 V c t (ix2 k j) = X (ix2 ⟨5000 * t.val + k.val, h⟩ j) :=
    fun k h => blk7_0_apply V c t X hX k j h
  have ed : ∀ (k : Fin 5000) (h : 5000 * t.val + k.val < 50000), dblk7 V c t (ix2 k 0) = Dz (ix2 ⟨5000 * t.val + k.val, h⟩ 0) :=
    fun k h => blk7_1_apply V c t Dz hD k h
  constructor
  · exact tile_ext0 (term1 X Dz j) t.val ht _ fun k h => by rw [ex k h, ed k h]
  · exact tile_ext0 (term2 X Dz j) t.val ht _ fun k h => by rw [ex k h, ed k h]

/-- After tile n the two rows hold the sums over the first 5000·(n+1) rows. -/
theorem rows_after7 (X : FVec Ideal S50000x128 .f32) (Dz : FVec Ideal S50000x1 .f32)
    (hX : V c (Pipeline.arrRef spec7 0) = X) (hD : V c (Pipeline.arrRef spec7 1) = Dz) (j : Fin 128) :
    ∀ (n : ℕ) (hn : n < cfg7.N),
      sumRow7 V c n hn (ix2 0 j) = ∑ a ∈ Finset.range (5000 * (n + 1)), ext0 (term1 X Dz j) a
      ∧ sqRow7 V c n hn (ix2 0 j) = ∑ a ∈ Finset.range (5000 * (n + 1)), ext0 (term2 X Dz j) a := by
  have hN : cfg7.N = 10 := N_7
  intro n
  induction n with
  | zero =>
    intro hn
    obtain ⟨e1, e2⟩ := row_first7 V c ⟨0, hn⟩ rfl j
    obtain ⟨s1, s2⟩ := tile7 V c X Dz hX hD j ⟨0, hn⟩
    refine ⟨e1.trans (s1.trans ?_), e2.trans (s2.trans ?_)⟩
    · rw [range_step, Nat.mul_zero, Finset.range_zero, Finset.sum_empty, zero_add]
    · rw [range_step, Nat.mul_zero, Finset.range_zero, Finset.sum_empty, zero_add]
  | succ n ih =>
    intro hn
    obtain ⟨i1, i2⟩ := ih (Nat.lt_of_succ_lt hn)
    have hB : ¬(⟨n + 1, hn⟩ : Fin cfg7.N).val % 10 = 0 := by dsimp only; omega
    obtain ⟨e1, e2⟩ := row_next7 V c ⟨n + 1, hn⟩ hB j
    obtain ⟨s1, s2⟩ := tile7 V c X Dz hX hD j ⟨n + 1, hn⟩
    have e1' : sumRow7 V c (n + 1) hn (ix2 0 j) = sumRow7 V c n (Nat.lt_of_succ_lt hn) (ix2 0 j)
        + ∑ k : Fin 5000, xblk7 V c ⟨n + 1, hn⟩ (ix2 k j) * dblk7 V c ⟨n + 1, hn⟩ (ix2 k 0) := e1
    have e2' : sqRow7 V c (n + 1) hn (ix2 0 j) = sqRow7 V c n (Nat.lt_of_succ_lt hn) (ix2 0 j)
        + ∑ k : Fin 5000, (xblk7 V c ⟨n + 1, hn⟩ (ix2 k j) * dblk7 V c ⟨n + 1, hn⟩ (ix2 k 0))
            * (xblk7 V c ⟨n + 1, hn⟩ (ix2 k j) * dblk7 V c ⟨n + 1, hn⟩ (ix2 k 0)) := e2
    constructor
    · rw [e1', i1, s1, range_step (ext0 (term1 X Dz j)) (n + 1)]
    · rw [e2', i2, s2, range_step (ext0 (term2 X Dz j)) (n + 1)]

/-! ### The two result arrays after the region -/

/-- The tenth tile is a tile of the walk. -/
theorem last7 : 9 < cfg7.N := by rw [show cfg7.N = 10 from N_7]; decide

/-- What the two rows hold after the tenth tile, as contents of the two result arrays. -/
abbrev res7_2 : Buf (Elt Ideal) ((c : Thread nD τ).loc main_v61_0) := (outsAt7 (F := Ideal) V c 9 last7).1
abbrev res7_3 : Buf (Elt Ideal) ((c : Thread nD τ).loc main_v61_1) := (outsAt7 (F := Ideal) V c 9 last7).2

/-- The one write-back of the sums row, after the tenth tile, writes it: the row's one block is the whole array. -/
theorem flushed7_2 (t : Fin cfg7.N) (hf : (cfg7.win 2).flush t = true) :
    (dat7 (F := Ideal) V c).flushed 2 t = ((cfg7.win 2).blk t).view.read (Elt Ideal) (res7_2 V c) := by
  have hN : cfg7.N = 10 := N_7
  have h9 : t.val = 9 := by have := (flush7_2 t).mp hf; have := t.isLt; omega
  obtain rfl : t = t7_9 := Fin.ext h9
  show (cfg7.win 2).cut (grid7.coords t7_9) ((dat7 (F := Ideal) V c).after 2 t7_9) = _
  rw [after7_2]
  have hz' : (fun a => win7_2.index t7_9 a * main_v61_0.ty.shape.size a) = fun _ => 0 :=
    funext fun a => by fin_cases a <;> decide +kernel
  exact (Memref.read_access_unit_zero (Elt Ideal) main_v61_0 hz' (fun a => by rw [congrFun hz' a]; simp) (res7_2 V c)).symm

theorem flushed7_3 (t : Fin cfg7.N) (hf : (cfg7.win 3).flush t = true) :
    (dat7 (F := Ideal) V c).flushed 3 t = ((cfg7.win 3).blk t).view.read (Elt Ideal) (res7_3 V c) := by
  have hN : cfg7.N = 10 := N_7
  have h9 : t.val = 9 := by have := (flush7_3 t).mp hf; have := t.isLt; omega
  obtain rfl : t = t7_9 := Fin.ext h9
  show (cfg7.win 3).cut (grid7.coords t7_9) ((dat7 (F := Ideal) V c).after 3 t7_9) = _
  rw [after7_3]
  have hz' : (fun a => win7_3.index t7_9 a * main_v61_1.ty.shape.size a) = fun _ => 0 :=
    funext fun a => by fin_cases a <;> decide +kernel
  exact (Memref.read_access_unit_zero (Elt Ideal) main_v61_1 hz' (fun a => by rw [congrFun hz' a]; simp) (res7_3 V c)).symm

/-- So the sums array ends holding the row after the tenth tile. -/
theorem final7_2 : (dat7 (F := Ideal) V c).arrAt 2 cfg7.N = res7_2 V c :=
  (dat7 (F := Ideal) V c).arrAt_eq_of_cover 2 (res7_2 V c) (flushed7_2 V c) fun i =>
    ⟨t7_9, (flush7_2 t7_9).mpr rfl, by
      show i ∈ ((View.whole main_v61_0).slice (win7_2.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_2.index t7_9 0 * win7_2.size 0 ≤ (i 0 : Nat) ∧ (i 0 : Nat) < win7_2.index t7_9 0 * win7_2.size 0 + win7_2.xsize (grid7.coords t7_9) 0
                  rw [show win7_2.index t7_9 0 * win7_2.size 0 = 0 from by decide +kernel, show win7_2.xsize (grid7.coords t7_9) 0 = 1 from by decide +kernel]; omega
      | ⟨1, _⟩ => show win7_2.index t7_9 1 * win7_2.size 1 ≤ (i 1 : Nat) ∧ (i 1 : Nat) < win7_2.index t7_9 1 * win7_2.size 1 + win7_2.xsize (grid7.coords t7_9) 1
                  rw [show win7_2.index t7_9 1 * win7_2.size 1 = 0 from by decide +kernel, show win7_2.xsize (grid7.coords t7_9) 1 = 128 from by decide +kernel]; omega⟩

theorem final7_3 : (dat7 (F := Ideal) V c).arrAt 3 cfg7.N = res7_3 V c :=
  (dat7 (F := Ideal) V c).arrAt_eq_of_cover 3 (res7_3 V c) (flushed7_3 V c) fun i =>
    ⟨t7_9, (flush7_3 t7_9).mpr rfl, by
      show i ∈ ((View.whole main_v61_1).slice (win7_3.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_3.index t7_9 0 * win7_3.size 0 ≤ (i 0 : Nat) ∧ (i 0 : Nat) < win7_3.index t7_9 0 * win7_3.size 0 + win7_3.xsize (grid7.coords t7_9) 0
                  rw [show win7_3.index t7_9 0 * win7_3.size 0 = 0 from by decide +kernel, show win7_3.xsize (grid7.coords t7_9) 0 = 1 from by decide +kernel]; omega
      | ⟨1, _⟩ => show win7_3.index t7_9 1 * win7_3.size 1 ≤ (i 1 : Nat) ∧ (i 1 : Nat) < win7_3.index t7_9 1 * win7_3.size 1 + win7_3.xsize (grid7.coords t7_9) 1
                  rw [show win7_3.index t7_9 1 * win7_3.size 1 = 0 from by decide +kernel, show win7_3.xsize (grid7.coords t7_9) 1 = 128 from by decide +kernel]; omega⟩

/-- After the region, entry j of the two result arrays is the column sum over all 50000 rows of A[a,j]·d[a],
    and of its square. -/
theorem stats7_value (X : FVec Ideal S50000x128 .f32) (Dz : FVec Ideal S50000x1 .f32)
    (hX : V c (Pipeline.arrRef spec7 0) = X) (hD : V c (Pipeline.arrRef spec7 1) = Dz) (j : Fin 128) :
    (dat7 (F := Ideal) V c).arrAt 2 cfg7.N (ix2 0 j) = Spec.colSum (fun a b => X (ix2 a b) * Dz (ix2 a 0)) j
    ∧ (dat7 (F := Ideal) V c).arrAt 3 cfg7.N (ix2 0 j)
        = Spec.colSum (fun a b => (X (ix2 a b) * Dz (ix2 a 0)) * (X (ix2 a b) * Dz (ix2 a 0))) j := by
  have hN : cfg7.N = 10 := N_7
  obtain ⟨r1, r2⟩ := rows_after7 V c X Dz hX hD j 9 last7
  have e : 5000 * (9 + 1) = 50000 := by norm_num
  rw [e] at r1 r2
  have q1 := r1.trans (sum_ext0 (term1 X Dz j))
  have q2 := r2.trans (sum_ext0 (term2 X Dz j))
  clear r1 r2
  constructor
  · rw [final7_2]
    exact q1
  · rw [final7_3]
    exact q2

end Region7

end Cert.KernelIdeal.KStats
-- ==== Proof.KNorm.lean ====
/-
  The normalise-and-slope regions of the kernel program (regions 2, 5 and 8), read as one function of their input
  arrays.  Each of the ten grid points takes 5000 rows of the aggregate and of the per-row factor, and the four
  per-lane rows whole; at every element it scales the row by its factor, subtracts the lane's mean, multiplies by
  the inverse square root of the lane's variance plus the small constant, by the lane's gain, adds the lane's shift
  and applies the leaky slope.  Point `t` writes rows `5000 t … 5000 t + 4999` of the output, so row `r` is written
  by point `r / 5000`, the ten blocks tile the array, and the array ends holding the normalised value at every index.
-/
import proofs.«404543_j21388937134518_2_alg».proof.Proof.Gen.KernelIdeal.Frame
import proofs.«404543_j21388937134518_2_alg».proof.Proof.Spec
import Idealize.ShloMosaic.Lib.ValueIdx
import Idealize.ShloMosaic.Lib.Pipeline.Value

noncomputable section

namespace Cert.KernelIdeal.KNorm

open Cert.KernelIdeal Cert.KernelIdeal.Gen Idealize.ShloMosaic Idealize.ShloMosaic.ValueIdx
open Idealize.ShloMosaic.TcCoe Idealize.SL.Sem
open Idealize.ShloMosaic.Pipeline (Dat)

theorem hz : (![0, 0] : Fin 2 → Nat) = fun _ => 0 := funext fun a => by fin_cases a <;> rfl

/-- A column of per-row factors spread along the lanes reads its row. -/
theorem bcastCol_apply (x : FVec Ideal S5000x1 .f32) (p : Fin 5000) (q : Fin 128) :
    broadcastTo S5000x128 x broadcasts_S5000x1_S5000x128 (ix2 p q) = x (ix2 p 0) := by
  refine broadcastTo_apply x _ (ix2 p q) (ix2 p 0) fun a => ?_
  match a with
  | ⟨0, _⟩ => rfl
  | ⟨1, _⟩ => rfl

/-- A row of per-lane values spread along the rows reads its lane. -/
theorem bcastRow_apply (x : FVec Ideal S1x128 .f32) (p : Fin 5000) (q : Fin 128) :
    broadcastTo S5000x128 x broadcasts_S1x128_S5000x128 (ix2 p q) = x (ix2 0 q) := by
  refine broadcastTo_apply x _ (ix2 p q) (ix2 0 q) fun a => ?_
  match a with
  | ⟨0, _⟩ => rfl
  | ⟨1, _⟩ => rfl

/-- The normalised, sloped value at an index of the [50000,128] array, from the six input arrays. -/
abbrev normAt (X : FVec Ideal S50000x128 .f32) (Dz : FVec Ideal S50000x1 .f32) (Mu Va G Be : FVec Ideal S1x128 .f32) :
    S50000x128.Idx → EReal :=
  fun i => Spec.bn (fun a b => X (ix2 a b) * Dz (ix2 a 0)) (fun b => Mu (ix2 0 b)) (fun b => Va (ix2 0 b)) (fun b => G (ix2 0 b))
    (fun b => Be (ix2 0 b)) (i 0) (i 1)

/-- The body of region 2 at one element of its block: scale the row, centre, scale by the inverse root of the
variance plus the small constant, the lane's gain and shift, then the leaky slope. -/
theorem pay2_at (v0 : Vec Ideal S5000x128 .f32) (v2 : Vec Ideal S5000x1 .f32) (v6 v8 v10 v12 : Vec Ideal S1x128 .f32)
    (p : Fin 5000) (q : Fin 128) :
    k2_pay1 (F := Ideal) v0 v2 v6 v8 v10 v12 (ix2 p q)
      = Spec.leaky ((v0 (ix2 p q) * v2 (ix2 p 0) - v6 (ix2 0 q)) * Ideal.rsqrt (v8 (ix2 0 q) + Spec.cEps) * v10 (ix2 0 q) + v12 (ix2 0 q)) := by
  unfold k2_pay1
  simp only [shapeCast_self]
  rw [select_apply, cmpf_apply, mulf_apply, broadcast_apply, broadcast_apply, addf_apply, mulf_apply, mulf_apply, subf_apply, mulf_apply]
  rw [bcastCol_apply, bcastRow_apply, bcastRow_apply, bcastRow_apply, bcastRow_apply]
  rfl

/-- The body of region 5 at one element of its block: scale the row, centre, scale by the inverse root of the
variance plus the small constant, the lane's gain and shift, then the leaky slope. -/
theorem pay5_at (v0 : Vec Ideal S5000x128 .f32) (v2 : Vec Ideal S5000x1 .f32) (v6 v8 v10 v12 : Vec Ideal S1x128 .f32)
    (p : Fin 5000) (q : Fin 128) :
    k5_pay1 (F := Ideal) v0 v2 v6 v8 v10 v12 (ix2 p q)
      = Spec.leaky ((v0 (ix2 p q) * v2 (ix2 p 0) - v6 (ix2 0 q)) * Ideal.rsqrt (v8 (ix2 0 q) + Spec.cEps) * v10 (ix2 0 q) + v12 (ix2 0 q)) := by
  unfold k5_pay1
  simp only [shapeCast_self]
  rw [select_apply, cmpf_apply, mulf_apply, broadcast_apply, broadcast_apply, addf_apply, mulf_apply, mulf_apply, subf_apply, mulf_apply]
  rw [bcastCol_apply, bcastRow_apply, bcastRow_apply, bcastRow_apply, bcastRow_apply]
  rfl

/-- The body of region 8 at one element of its block: scale the row, centre, scale by the inverse root of the
variance plus the small constant, the lane's gain and shift, then the leaky slope. -/
theorem pay8_at (v0 : Vec Ideal S5000x128 .f32) (v2 : Vec Ideal S5000x1 .f32) (v6 v8 v10 v12 : Vec Ideal S1x128 .f32)
    (p : Fin 5000) (q : Fin 128) :
    k8_pay1 (F := Ideal) v0 v2 v6 v8 v10 v12 (ix2 p q)
      = Spec.leaky ((v0 (ix2 p q) * v2 (ix2 p 0) - v6 (ix2 0 q)) * Ideal.rsqrt (v8 (ix2 0 q) + Spec.cEps) * v10 (ix2 0 q) + v12 (ix2 0 q)) := by
  unfold k8_pay1
  simp only [shapeCast_self]
  rw [select_apply, cmpf_apply, mulf_apply, broadcast_apply, broadcast_apply, addf_apply, mulf_apply, mulf_apply, subf_apply, mulf_apply]
  rw [bcastCol_apply, bcastRow_apply, bcastRow_apply, bcastRow_apply, bcastRow_apply]
  rfl

variable (V : (c : Dev nD) → (b : Ref sig .tc) → Buf (Elt Ideal) ((c : Thread nD τ).loc b))

/-! ## Region 2 -/

/-- The printed block indices of region 2, decided over its ten grid points: the two row-blocked inputs and the
output move with the point along the rows; the four per-lane rows stay at block zero. -/
theorem idx_facts2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = 0 ∧ win2_5.index t (1 : Fin 2) = 0
  ∧ win2_6.index t (0 : Fin 2) = t.val ∧ win2_6.index t (1 : Fin 2) = 0 :=
  (by decide +kernel : ∀ t : Fin grid2.N, _)

/-- Block `t` of the aggregate is rows `5000 t … 5000 t + 4999` of its array. -/
theorem blk2_0_at (c : Dev nD) (t : Fin cfg2.N) (X : FVec Ideal S50000x128 .f32) (hX : V c (Pipeline.arrRef spec2 0) = X)
    (y : S5000x128.Idx) (k : S50000x128.Idx)
    (hk0 : (k 0).val = t.val * 5000 + (y 0).val) (hk1 : (k 1).val = (y 1).val) :
    (iblk2 (F := Ideal) V c 0 t : Vec Ideal S5000x128 .f32) y = X k := by
  obtain ⟨e0, e1, -⟩ := idx_facts2 t
  unfold iblk2
  rw [View.read_apply, hX]
  show X (((cfg2.win 0).blk t).view.emb y) = X k
  refine congrArg X (funext fun a => Fin.ext ?_)
  match a with
  | ⟨0, _⟩ => show win2_0.index t (0 : Fin 2) * 5000 + 1 * (y 0).val = (k 0).val; rw [e0, hk0]; omega
  | ⟨1, _⟩ => show win2_0.index t (1 : Fin 2) * 128 + 1 * (y 1).val = (k 1).val; rw [e1, hk1]; omega

/-- Block `t` of the per-row factor is rows `5000 t … 5000 t + 4999` of its column. -/
theorem blk2_1_at (c : Dev nD) (t : Fin cfg2.N) (Dz : FVec Ideal S50000x1 .f32) (hD : V c (Pipeline.arrRef spec2 1) = Dz)
    (y : S5000x1.Idx) (k : S50000x1.Idx)
    (hk0 : (k 0).val = t.val * 5000 + (y 0).val) (hk1 : (k 1).val = (y 1).val) :
    (iblk2 (F := Ideal) V c 1 t : Vec Ideal S5000x1 .f32) y = Dz k := by
  obtain ⟨-, -, e0, e1, -⟩ := idx_facts2 t
  unfold iblk2
  rw [View.read_apply, hD]
  show Dz (((cfg2.win 1).blk t).view.emb y) = Dz k
  refine congrArg Dz (funext fun a => Fin.ext ?_)
  match a with
  | ⟨0, _⟩ => show win2_1.index t (0 : Fin 2) * 5000 + 1 * (y 0).val = (k 0).val; rw [e0, hk0]; omega
  | ⟨1, _⟩ => show win2_1.index t (1 : Fin 2) * 1 + 1 * (y 1).val = (k 1).val; rw [e1, hk1]; omega

/-- The block of per-lane row 2 is the whole row at every point. -/
theorem blk2_2_at (c : Dev nD) (t : Fin cfg2.N) (R : FVec Ideal S1x128 .f32) (hR : V c (Pipeline.arrRef spec2 2) = R)
    (y : S1x128.Idx) :
    (iblk2 (F := Ideal) V c 2 t : Vec Ideal S1x128 .f32) y = R y := by
  obtain ⟨-, -, -, -, e0, e1, -⟩ := idx_facts2 t
  unfold iblk2
  rw [View.read_apply, hR]
  show R (((cfg2.win 2).blk t).view.emb y) = R y
  refine congrArg R (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The block of per-lane row 3 is the whole row at every point. -/
theorem blk2_3_at (c : Dev nD) (t : Fin cfg2.N) (R : FVec Ideal S1x128 .f32) (hR : V c (Pipeline.arrRef spec2 3) = R)
    (y : S1x128.Idx) :
    (iblk2 (F := Ideal) V c 3 t : Vec Ideal S1x128 .f32) y = R y := by
  obtain ⟨-, -, -, -, -, -, e0, e1, -⟩ := idx_facts2 t
  unfold iblk2
  rw [View.read_apply, hR]
  show R (((cfg2.win 3).blk t).view.emb y) = R y
  refine congrArg R (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The block of per-lane row 4 is the whole row at every point. -/
theorem blk2_4_at (c : Dev nD) (t : Fin cfg2.N) (R : FVec Ideal S1x128 .f32) (hR : V c (Pipeline.arrRef spec2 4) = R)
    (y : S1x128.Idx) :
    (iblk2 (F := Ideal) V c 4 t : Vec Ideal S1x128 .f32) y = R y := by
  obtain ⟨-, -, -, -, -, -, -, -, e0, e1, -⟩ := idx_facts2 t
  unfold iblk2
  rw [View.read_apply, hR]
  show R (((cfg2.win 4).blk t).view.emb y) = R y
  refine congrArg R (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The block of per-lane row 5 is the whole row at every point. -/
theorem blk2_5_at (c : Dev nD) (t : Fin cfg2.N) (R : FVec Ideal S1x128 .f32) (hR : V c (Pipeline.arrRef spec2 5) = R)
    (y : S1x128.Idx) :
    (iblk2 (F := Ideal) V c 5 t : Vec Ideal S1x128 .f32) y = R y := by
  obtain ⟨-, -, -, -, -, -, -, -, -, -, e0, e1, -⟩ := idx_facts2 t
  unfold iblk2
  rw [View.read_apply, hR]
  show R (((cfg2.win 5).blk t).view.emb y) = R y
  refine congrArg R (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The body's result at one element of point `t`'s block is the normalised, sloped value at the array element
the block's element sits on. -/
theorem point2_val (c : Dev nD) (t : Fin cfg2.N)
    (X : FVec Ideal S50000x128 .f32) (Dz : FVec Ideal S50000x1 .f32) (Mu Va G Be : FVec Ideal S1x128 .f32)
    (hX : V c (Pipeline.arrRef spec2 0) = X) (hD : V c (Pipeline.arrRef spec2 1) = Dz) (hM : V c (Pipeline.arrRef spec2 2) = Mu)
    (hV : V c (Pipeline.arrRef spec2 3) = Va) (hG : V c (Pipeline.arrRef spec2 4) = G) (hBe : V c (Pipeline.arrRef spec2 5) = Be)
    (y : S5000x128.Idx) (k : S50000x128.Idx)
    (hk0 : (k 0).val = t.val * 5000 + (y 0).val) (hk1 : (k 1).val = (y 1).val) :
    k2_pay1 (F := Ideal) (iblk2 V c 0 t) (iblk2 V c 1 t) (iblk2 V c 2 t) (iblk2 V c 3 t) (iblk2 V c 4 t) (iblk2 V c 5 t) y
      = normAt X Dz Mu Va G Be k := by
  obtain ⟨p, q, rfl⟩ : ∃ (p : Fin 5000) (q : Fin 128), y = ix2 p q := ⟨y 0, y 1, eq_ix2 y⟩
  obtain ⟨a, b, rfl⟩ : ∃ (a : Fin 50000) (b : Fin 128), k = ix2 a b := ⟨k 0, k 1, eq_ix2 k⟩
  have hb : b = q := Fin.ext hk1
  subst hb
  refine (pay2_at (iblk2 V c 0 t) (iblk2 V c 1 t) (iblk2 V c 2 t) (iblk2 V c 3 t) (iblk2 V c 4 t) (iblk2 V c 5 t) p b).trans ?_
  rw [blk2_0_at V c t X hX (ix2 p b) (ix2 a b) hk0 rfl, blk2_1_at V c t Dz hD (ix2 p 0) (ix2 a 0) hk0 rfl,
    blk2_2_at V c t Mu hM (ix2 0 b), blk2_3_at V c t Va hV (ix2 0 b), blk2_4_at V c t G hG (ix2 0 b), blk2_5_at V c t Be hBe (ix2 0 b)]
  rfl

/-- What point `t` writes back is block `t` of the normalised array. -/
theorem flushed2_eq (c : Dev nD)
    (X : FVec Ideal S50000x128 .f32) (Dz : FVec Ideal S50000x1 .f32) (Mu Va G Be : FVec Ideal S1x128 .f32)
    (hX : V c (Pipeline.arrRef spec2 0) = X) (hD : V c (Pipeline.arrRef spec2 1) = Dz) (hM : V c (Pipeline.arrRef spec2 2) = Mu)
    (hV : V c (Pipeline.arrRef spec2 3) = Va) (hG : V c (Pipeline.arrRef spec2 4) = G) (hBe : V c (Pipeline.arrRef spec2 5) = Be)
    (t : Fin cfg2.N) :
    (dat2 (F := Ideal) V c).flushed 6 t = ((cfg2.win 6).blk t).view.read (Elt Ideal) (normAt X Dz Mu Va G Be) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S5000x1) hz, View.ld_unit_zero (S := S1x128) hz]
  obtain ⟨-, -, -, -, -, -, -, -, -, -, -, -, e0, e1⟩ := idx_facts2 t
  funext j
  refine point2_val V c t X Dz Mu Va G Be hX hD hM hV hG hBe j (((cfg2.win 6).blk t).view.emb j) ?_ ?_
  · show win2_6.index t (0 : Fin 2) * 5000 + 1 * (j 0).val = t.val * 5000 + (j 0).val; rw [e0]; omega
  · show win2_6.index t (1 : Fin 2) * 128 + 1 * (j 1).val = (j 1).val; rw [e1]; omega

/-- An index of the output array is in point `t`'s block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v36).slice (win2_6.rect t)).set ↔ _
  rw [View.set_slice_whole, Rect.mem_set_unit]
  exact Iff.rfl

/-- Row `r` of the output array is written by point `r / 5000`. -/
theorem covered2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e0, e1⟩ := idx_facts2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 128 ≤ (i 1).val ∧ (i 1).val < win2_6.index t (1 : Fin 2) * 128 + 128; rw [e1]; omega

/-- The output array of region 2 after the region: the normalised, sloped aggregate, index by index. -/
theorem norm2_value (c : Dev nD)
    (X : FVec Ideal S50000x128 .f32) (Dz : FVec Ideal S50000x1 .f32) (Mu Va G Be : FVec Ideal S1x128 .f32)
    (hX : V c (Pipeline.arrRef spec2 0) = X) (hD : V c (Pipeline.arrRef spec2 1) = Dz) (hM : V c (Pipeline.arrRef spec2 2) = Mu)
    (hV : V c (Pipeline.arrRef spec2 3) = Va) (hG : V c (Pipeline.arrRef spec2 4) = G) (hBe : V c (Pipeline.arrRef spec2 5) = Be)
    (i : Fin 50000) (j : Fin 128) :
    (dat2 (F := Ideal) V c).arrAt 6 cfg2.N (ix2 i j)
      = Spec.bn (fun a b => X (ix2 a b) * Dz (ix2 a 0)) (fun b => Mu (ix2 0 b)) (fun b => Va (ix2 0 b)) (fun b => G (ix2 0 b)) (fun b => Be (ix2 0 b)) i j :=
  congrFun ((dat2 (F := Ideal) V c).arrAt_eq_of_cover 6 (normAt X Dz Mu Va G Be)
    (fun t _ => flushed2_eq V c X Dz Mu Va G Be hX hD hM hV hG hBe t) covered2) (ix2 i j)

/-! ## Region 5 -/

/-- The printed block indices of region 5, decided over its ten grid points: the two row-blocked inputs and the
output move with the point along the rows; the four per-lane rows stay at block zero. -/
theorem idx_facts5 : ∀ t : Fin cfg5.N,
    win5_0.index t (0 : Fin 2) = t.val ∧ win5_0.index t (1 : Fin 2) = 0
  ∧ win5_1.index t (0 : Fin 2) = t.val ∧ win5_1.index t (1 : Fin 2) = 0
  ∧ win5_2.index t (0 : Fin 2) = 0 ∧ win5_2.index t (1 : Fin 2) = 0
  ∧ win5_3.index t (0 : Fin 2) = 0 ∧ win5_3.index t (1 : Fin 2) = 0
  ∧ win5_4.index t (0 : Fin 2) = 0 ∧ win5_4.index t (1 : Fin 2) = 0
  ∧ win5_5.index t (0 : Fin 2) = 0 ∧ win5_5.index t (1 : Fin 2) = 0
  ∧ win5_6.index t (0 : Fin 2) = t.val ∧ win5_6.index t (1 : Fin 2) = 0 :=
  (by decide +kernel : ∀ t : Fin grid5.N, _)

/-- Block `t` of the aggregate is rows `5000 t … 5000 t + 4999` of its array. -/
theorem blk5_0_at (c : Dev nD) (t : Fin cfg5.N) (X : FVec Ideal S50000x128 .f32) (hX : V c (Pipeline.arrRef spec5 0) = X)
    (y : S5000x128.Idx) (k : S50000x128.Idx)
    (hk0 : (k 0).val = t.val * 5000 + (y 0).val) (hk1 : (k 1).val = (y 1).val) :
    (iblk5 (F := Ideal) V c 0 t : Vec Ideal S5000x128 .f32) y = X k := by
  obtain ⟨e0, e1, -⟩ := idx_facts5 t
  unfold iblk5
  rw [View.read_apply, hX]
  show X (((cfg5.win 0).blk t).view.emb y) = X k
  refine congrArg X (funext fun a => Fin.ext ?_)
  match a with
  | ⟨0, _⟩ => show win5_0.index t (0 : Fin 2) * 5000 + 1 * (y 0).val = (k 0).val; rw [e0, hk0]; omega
  | ⟨1, _⟩ => show win5_0.index t (1 : Fin 2) * 128 + 1 * (y 1).val = (k 1).val; rw [e1, hk1]; omega

/-- Block `t` of the per-row factor is rows `5000 t … 5000 t + 4999` of its column. -/
theorem blk5_1_at (c : Dev nD) (t : Fin cfg5.N) (Dz : FVec Ideal S50000x1 .f32) (hD : V c (Pipeline.arrRef spec5 1) = Dz)
    (y : S5000x1.Idx) (k : S50000x1.Idx)
    (hk0 : (k 0).val = t.val * 5000 + (y 0).val) (hk1 : (k 1).val = (y 1).val) :
    (iblk5 (F := Ideal) V c 1 t : Vec Ideal S5000x1 .f32) y = Dz k := by
  obtain ⟨-, -, e0, e1, -⟩ := idx_facts5 t
  unfold iblk5
  rw [View.read_apply, hD]
  show Dz (((cfg5.win 1).blk t).view.emb y) = Dz k
  refine congrArg Dz (funext fun a => Fin.ext ?_)
  match a with
  | ⟨0, _⟩ => show win5_1.index t (0 : Fin 2) * 5000 + 1 * (y 0).val = (k 0).val; rw [e0, hk0]; omega
  | ⟨1, _⟩ => show win5_1.index t (1 : Fin 2) * 1 + 1 * (y 1).val = (k 1).val; rw [e1, hk1]; omega

/-- The block of per-lane row 2 is the whole row at every point. -/
theorem blk5_2_at (c : Dev nD) (t : Fin cfg5.N) (R : FVec Ideal S1x128 .f32) (hR : V c (Pipeline.arrRef spec5 2) = R)
    (y : S1x128.Idx) :
    (iblk5 (F := Ideal) V c 2 t : Vec Ideal S1x128 .f32) y = R y := by
  obtain ⟨-, -, -, -, e0, e1, -⟩ := idx_facts5 t
  unfold iblk5
  rw [View.read_apply, hR]
  show R (((cfg5.win 2).blk t).view.emb y) = R y
  refine congrArg R (funext fun a => Fin.ext ?_)
  match a with
  | ⟨0, _⟩ => show win5_2.index t (0 : Fin 2) * 1 + 1 * (y 0).val = (y 0).val; rw [e0]; omega
  | ⟨1, _⟩ => show win5_2.index t (1 : Fin 2) * 128 + 1 * (y 1).val = (y 1).val; rw [e1]; omega

/-- The block of per-lane row 3 is the whole row at every point. -/
theorem blk5_3_at (c : Dev nD) (t : Fin cfg5.N) (R : FVec Ideal S1x128 .f32) (hR : V c (Pipeline.arrRef spec5 3) = R)
    (y : S1x128.Idx) :
    (iblk5 (F := Ideal) V c 3 t : Vec Ideal S1x128 .f32) y = R y := by
  obtain ⟨-, -, -, -, -, -, e0, e1, -⟩ := idx_facts5 t
  unfold iblk5
  rw [View.read_apply, hR]
  show R (((cfg5.win 3).blk t).view.emb y) = R y
  refine congrArg R (funext fun a => Fin.ext ?_)
  match a with
  | ⟨0, _⟩ => show win5_3.index t (0 : Fin 2) * 1 + 1 * (y 0).val = (y 0).val; rw [e0]; omega
  | ⟨1, _⟩ => show win5_3.index t (1 : Fin 2) * 128 + 1 * (y 1).val = (y 1).val; rw [e1]; omega

/-- The block of per-lane row 4 is the whole row at every point. -/
theorem blk5_4_at (c : Dev nD) (t : Fin cfg5.N) (R : FVec Ideal S1x128 .f32) (hR : V c (Pipeline.arrRef spec5 4) = R)
    (y : S1x128.Idx) :
    (iblk5 (F := Ideal) V c 4 t : Vec Ideal S1x128 .f32) y = R y := by
  obtain ⟨-, -, -, -, -, -, -, -, e0, e1, -⟩ := idx_facts5 t
  unfold iblk5
  rw [View.read_apply, hR]
  show R (((cfg5.win 4).blk t).view.emb y) = R y
  refine congrArg R (funext fun a => Fin.ext ?_)
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

/-- The block of per-lane row 5 is the whole row at every point. -/
theorem blk5_5_at (c : Dev nD) (t : Fin cfg5.N) (R : FVec Ideal S1x128 .f32) (hR : V c (Pipeline.arrRef spec5 5) = R)
    (y : S1x128.Idx) :
    (iblk5 (F := Ideal) V c 5 t : Vec Ideal S1x128 .f32) y = R y := by
  obtain ⟨-, -, -, -, -, -, -, -, -, -, e0, e1, -⟩ := idx_facts5 t
  unfold iblk5
  rw [View.read_apply, hR]
  show R (((cfg5.win 5).blk t).view.emb y) = R y
  refine congrArg R (funext fun a => Fin.ext ?_)
  match a with
  | ⟨0, _⟩ => show win5_5.index t (0 : Fin 2) * 1 + 1 * (y 0).val = (y 0).val; rw [e0]; omega
  | ⟨1, _⟩ => show win5_5.index t (1 : Fin 2) * 128 + 1 * (y 1).val = (y 1).val; rw [e1]; omega

/-- The body's result at one element of point `t`'s block is the normalised, sloped value at the array element
the block's element sits on. -/
theorem point5_val (c : Dev nD) (t : Fin cfg5.N)
    (X : FVec Ideal S50000x128 .f32) (Dz : FVec Ideal S50000x1 .f32) (Mu Va G Be : FVec Ideal S1x128 .f32)
    (hX : V c (Pipeline.arrRef spec5 0) = X) (hD : V c (Pipeline.arrRef spec5 1) = Dz) (hM : V c (Pipeline.arrRef spec5 2) = Mu)
    (hV : V c (Pipeline.arrRef spec5 3) = Va) (hG : V c (Pipeline.arrRef spec5 4) = G) (hBe : V c (Pipeline.arrRef spec5 5) = Be)
    (y : S5000x128.Idx) (k : S50000x128.Idx)
    (hk0 : (k 0).val = t.val * 5000 + (y 0).val) (hk1 : (k 1).val = (y 1).val) :
    k5_pay1 (F := Ideal) (iblk5 V c 0 t) (iblk5 V c 1 t) (iblk5 V c 2 t) (iblk5 V c 3 t) (iblk5 V c 4 t) (iblk5 V c 5 t) y
      = normAt X Dz Mu Va G Be k := by
  obtain ⟨p, q, rfl⟩ : ∃ (p : Fin 5000) (q : Fin 128), y = ix2 p q := ⟨y 0, y 1, eq_ix2 y⟩
  obtain ⟨a, b, rfl⟩ : ∃ (a : Fin 50000) (b : Fin 128), k = ix2 a b := ⟨k 0, k 1, eq_ix2 k⟩
  have hb : b = q := Fin.ext hk1
  subst hb
  refine (pay5_at (iblk5 V c 0 t) (iblk5 V c 1 t) (iblk5 V c 2 t) (iblk5 V c 3 t) (iblk5 V c 4 t) (iblk5 V c 5 t) p b).trans ?_
  rw [blk5_0_at V c t X hX (ix2 p b) (ix2 a b) hk0 rfl, blk5_1_at V c t Dz hD (ix2 p 0) (ix2 a 0) hk0 rfl,
    blk5_2_at V c t Mu hM (ix2 0 b), blk5_3_at V c t Va hV (ix2 0 b), blk5_4_at V c t G hG (ix2 0 b), blk5_5_at V c t Be hBe (ix2 0 b)]
  rfl

/-- What point `t` writes back is block `t` of the normalised array. -/
theorem flushed5_eq (c : Dev nD)
    (X : FVec Ideal S50000x128 .f32) (Dz : FVec Ideal S50000x1 .f32) (Mu Va G Be : FVec Ideal S1x128 .f32)
    (hX : V c (Pipeline.arrRef spec5 0) = X) (hD : V c (Pipeline.arrRef spec5 1) = Dz) (hM : V c (Pipeline.arrRef spec5 2) = Mu)
    (hV : V c (Pipeline.arrRef spec5 3) = Va) (hG : V c (Pipeline.arrRef spec5 4) = G) (hBe : V c (Pipeline.arrRef spec5 5) = Be)
    (t : Fin cfg5.N) :
    (dat5 (F := Ideal) V c).flushed 6 t = ((cfg5.win 6).blk t).view.read (Elt Ideal) (normAt X Dz Mu Va G Be) := by
  show (cfg5.win 6).cut (grid5.coords t) ((dat5 (F := Ideal) V c).after 6 t) = _
  rw [after5_6]
  unfold out5_6
  rw [View.canon_unit_zero hz]
  simp only [View.ld_unit_zero (S := S5000x128) hz, View.ld_unit_zero (S := S5000x1) hz, View.ld_unit_zero (S := S1x128) hz]
  obtain ⟨-, -, -, -, -, -, -, -, -, -, -, -, e0, e1⟩ := idx_facts5 t
  funext j
  refine point5_val V c t X Dz Mu Va G Be hX hD hM hV hG hBe j (((cfg5.win 6).blk t).view.emb j) ?_ ?_
  · show win5_6.index t (0 : Fin 2) * 5000 + 1 * (j 0).val = t.val * 5000 + (j 0).val; rw [e0]; omega
  · show win5_6.index t (1 : Fin 2) * 128 + 1 * (j 1).val = (j 1).val; rw [e1]; omega

/-- An index of the output array is in point `t`'s block iff each coordinate is in the block's range on its axis. -/
theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v54).slice (win5_6.rect t)).set ↔ _
  rw [View.set_slice_whole, Rect.mem_set_unit]
  exact Iff.rfl

/-- Row `r` of the output array is written by point `r / 5000`. -/
theorem covered5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, -, -, e0, e1⟩ := idx_facts5 t
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; rw [e0, ht]; omega
  | ⟨1, _⟩ => show win5_6.index t (1 : Fin 2) * 128 ≤ (i 1).val ∧ (i 1).val < win5_6.index t (1 : Fin 2) * 128 + 128; rw [e1]; omega

/-- The output array of region 5 after the region: the normalised, sloped aggregate, index by index. -/
theorem norm5_value (c : Dev nD)
    (X : FVec Ideal S50000x128 .f32) (Dz : FVec Ideal S50000x1 .f32) (Mu Va G Be : FVec Ideal S1x128 .f32)
    (hX : V c (Pipeline.arrRef spec5 0) = X) (hD : V c (Pipeline.arrRef spec5 1) = Dz) (hM : V c (Pipeline.arrRef spec5 2) = Mu)
    (hV : V c (Pipeline.arrRef spec5 3) = Va) (hG : V c (Pipeline.arrRef spec5 4) = G) (hBe : V c (Pipeline.arrRef spec5 5) = Be)
    (i : Fin 50000) (j : Fin 128) :
    (dat5 (F := Ideal) V c).arrAt 6 cfg5.N (ix2 i j)
      = Spec.bn (fun a b => X (ix2 a b) * Dz (ix2 a 0)) (fun b => Mu (ix2 0 b)) (fun b => Va (ix2 0 b)) (fun b => G (ix2 0 b)) (fun b => Be (ix2 0 b)) i j :=
  congrFun ((dat5 (F := Ideal) V c).arrAt_eq_of_cover 6 (normAt X Dz Mu Va G Be)
    (fun t _ => flushed5_eq V c X Dz Mu Va G Be hX hD hM hV hG hBe t) covered5) (ix2 i j)

/-! ## Region 8 -/

/-- The printed block indices of region 8, decided over its ten grid points: the two row-blocked inputs and the
output move with the point along the rows; the four per-lane rows stay at block zero. -/
theorem idx_facts8 : ∀ t : Fin cfg8.N,
    win8_0.index t (0 : Fin 2) = t.val ∧ win8_0.index t (1 : Fin 2) = 0
  ∧ win8_1.index t (0 : Fin 2) = t.val ∧ win8_1.index t (1 : Fin 2) = 0
  ∧ win8_2.index t (0 : Fin 2) = 0 ∧ win8_2.index t (1 : Fin 2) = 0
  ∧ win8_3.index t (0 : Fin 2) = 0 ∧ win8_3.index t (1 : Fin 2) = 0
  ∧ win8_4.index t (0 : Fin 2) = 0 ∧ win8_4.index t (1 : Fin 2) = 0
  ∧ win8_5.index t (0 : Fin 2) = 0 ∧ win8_5.index t (1 : Fin 2) = 0
  ∧ win8_6.index t (0 : Fin 2) = t.val ∧ win8_6.index t (1 : Fin 2) = 0 :=
  (by decide +kernel : ∀ t : Fin grid8.N, _)

/-- Block `t` of the aggregate is rows `5000 t … 5000 t + 4999` of its array. -/
theorem blk8_0_at (c : Dev nD) (t : Fin cfg8.N) (X : FVec Ideal S50000x128 .f32) (hX : V c (Pipeline.arrRef spec8 0) = X)
    (y : S5000x128.Idx) (k : S50000x128.Idx)
    (hk0 : (k 0).val = t.val * 5000 + (y 0).val) (hk1 : (k 1).val = (y 1).val) :
    (iblk8 (F := Ideal) V c 0 t : Vec Ideal S5000x128 .f32) y = X k := by
  obtain ⟨e0, e1, -⟩ := idx_facts8 t
  unfold iblk8
  rw [View.read_apply, hX]
  show X (((cfg8.win 0).blk t).view.emb y) = X k
  refine congrArg X (funext fun a => Fin.ext ?_)
  match a with
  | ⟨0, _⟩ => show win8_0.index t (0 : Fin 2) * 5000 + 1 * (y 0).val = (k 0).val; rw [e0, hk0]; omega
  | ⟨1, _⟩ => show win8_0.index t (1 : Fin 2) * 128 + 1 * (y 1).val = (k 1).val; rw [e1, hk1]; omega

/-- Block `t` of the per-row factor is rows `5000 t … 5000 t + 4999` of its column. -/
theorem blk8_1_at (c : Dev nD) (t : Fin cfg8.N) (Dz : FVec Ideal S50000x1 .f32) (hD : V c (Pipeline.arrRef spec8 1) = Dz)
    (y : S5000x1.Idx) (k : S50000x1.Idx)
    (hk0 : (k 0).val = t.val * 5000 + (y 0).val) (hk1 : (k 1).val = (y 1).val) :
    (iblk8 (F := Ideal) V c 1 t : Vec Ideal S5000x1 .f32) y = Dz k := by
  obtain ⟨-, -, e0, e1, -⟩ := idx_facts8 t
  unfold iblk8
  rw [View.read_apply, hD]
  show Dz (((cfg8.win 1).blk t).view.emb y) = Dz k
  refine congrArg Dz (funext fun a => Fin.ext ?_)
  match a with
  | ⟨0, _⟩ => show win8_1.index t (0 : Fin 2) * 5000 + 1 * (y 0).val = (k 0).val; rw [e0, hk0]; omega
  | ⟨1, _⟩ => show win8_1.index t (1 : Fin 2) * 1 + 1 * (y 1).val = (k 1).val; rw [e1, hk1]; omega

/-- The block of per-lane row 2 is the whole row at every point. -/
theorem blk8_2_at (c : Dev nD) (t : Fin cfg8.N) (R : FVec Ideal S1x128 .f32) (hR : V c (Pipeline.arrRef spec8 2) = R)
    (y : S1x128.Idx) :
    (iblk8 (F := Ideal) V c 2 t : Vec Ideal S1x128 .f32) y = R y := by
  obtain ⟨-, -, -, -, e0, e1, -⟩ := idx_facts8 t
  unfold iblk8
  rw [View.read_apply, hR]
  show R (((cfg8.win 2).blk t).view.emb y) = R y
  refine congrArg R (funext fun a => Fin.ext ?_)
  match a with
  | ⟨0, _⟩ => show win8_2.index t (0 : Fin 2) * 1 + 1 * (y 0).val = (y 0).val; rw [e0]; omega
  | ⟨1, _⟩ => show win8_2.index t (1 : Fin 2) * 128 + 1 * (y 1).val = (y 1).val; rw [e1]; omega

/-- The block of per-lane row 3 is the whole row at every point. -/
theorem blk8_3_at (c : Dev nD) (t : Fin cfg8.N) (R : FVec Ideal S1x128 .f32) (hR : V c (Pipeline.arrRef spec8 3) = R)
    (y : S1x128.Idx) :
    (iblk8 (F := Ideal) V c 3 t : Vec Ideal S1x128 .f32) y = R y := by
  obtain ⟨-, -, -, -, -, -, e0, e1, -⟩ := idx_facts8 t
  unfold iblk8
  rw [View.read_apply, hR]
  show R (((cfg8.win 3).blk t).view.emb y) = R y
  refine congrArg R (funext fun a => Fin.ext ?_)
  match a with
  | ⟨0, _⟩ => show win8_3.index t (0 : Fin 2) * 1 + 1 * (y 0).val = (y 0).val; rw [e0]; omega
  | ⟨1, _⟩ => show win8_3.index t (1 : Fin 2) * 128 + 1 * (y 1).val = (y 1).val; rw [e1]; omega

/-- The block of per-lane row 4 is the whole row at every point. -/
theorem blk8_4_at (c : Dev nD) (t : Fin cfg8.N) (R : FVec Ideal S1x128 .f32) (hR : V c (Pipeline.arrRef spec8 4) = R)
    (y : S1x128.Idx) :
    (iblk8 (F := Ideal) V c 4 t : Vec Ideal S1x128 .f32) y = R y := by
  obtain ⟨-, -, -, -, -, -, -, -, e0, e1, -⟩ := idx_facts8 t
  unfold iblk8
  rw [View.read_apply, hR]
  show R (((cfg8.win 4).blk t).view.emb y) = R y
  refine congrArg R (funext fun a => Fin.ext ?_)
  match a with
  | ⟨0, _⟩ => show win8_4.index t (0 : Fin 2) * 1 + 1 * (y 0).val = (y 0).val; rw [e0]; omega
  | ⟨1, _⟩ => show win8_4.index t (1 : Fin 2) * 128 + 1 * (y 1).val = (y 1).val; rw [e1]; omega

/-- The block of per-lane row 5 is the whole row at every point. -/
theorem blk8_5_at (c : Dev nD) (t : Fin cfg8.N) (R : FVec Ideal S1x128 .f32) (hR : V c (Pipeline.arrRef spec8 5) = R)
    (y : S1x128.Idx) :
    (iblk8 (F := Ideal) V c 5 t : Vec Ideal S1x128 .f32) y = R y := by
  obtain ⟨-, -, -, -, -, -, -, -, -, -, e0, e1, -⟩ := idx_facts8 t
  unfold iblk8
  rw [View.read_apply, hR]
  show R (((cfg8.win 5).blk t).view.emb y) = R y
  refine congrArg R (funext fun a => Fin.ext ?_)
  match a with
  | ⟨0, _⟩ => show win8_5.index t (0 : Fin 2) * 1 + 1 * (y 0).val = (y 0).val; rw [e0]; omega
  | ⟨1, _⟩ => show win8_5.index t (1 : Fin 2) * 128 + 1 * (y 1).val = (y 1).val; rw [e1]; omega

/-- The body's result at one element of point `t`'s block is the normalised, sloped value at the array element
the block's element sits on. -/
theorem point8_val (c : Dev nD) (t : Fin cfg8.N)
    (X : FVec Ideal S50000x128 .f32) (Dz : FVec Ideal S50000x1 .f32) (Mu Va G Be : FVec Ideal S1x128 .f32)
    (hX : V c (Pipeline.arrRef spec8 0) = X) (hD : V c (Pipeline.arrRef spec8 1) = Dz) (hM : V c (Pipeline.arrRef spec8 2) = Mu)
    (hV : V c (Pipeline.arrRef spec8 3) = Va) (hG : V c (Pipeline.arrRef spec8 4) = G) (hBe : V c (Pipeline.arrRef spec8 5) = Be)
    (y : S5000x128.Idx) (k : S50000x128.Idx)
    (hk0 : (k 0).val = t.val * 5000 + (y 0).val) (hk1 : (k 1).val = (y 1).val) :
    k8_pay1 (F := Ideal) (iblk8 V c 0 t) (iblk8 V c 1 t) (iblk8 V c 2 t) (iblk8 V c 3 t) (iblk8 V c 4 t) (iblk8 V c 5 t) y
      = normAt X Dz Mu Va G Be k := by
  obtain ⟨p, q, rfl⟩ : ∃ (p : Fin 5000) (q : Fin 128), y = ix2 p q := ⟨y 0, y 1, eq_ix2 y⟩
  obtain ⟨a, b, rfl⟩ : ∃ (a : Fin 50000) (b : Fin 128), k = ix2 a b := ⟨k 0, k 1, eq_ix2 k⟩
  have hb : b = q := Fin.ext hk1
  subst hb
  refine (pay8_at (iblk8 V c 0 t) (iblk8 V c 1 t) (iblk8 V c 2 t) (iblk8 V c 3 t) (iblk8 V c 4 t) (iblk8 V c 5 t) p b).trans ?_
  rw [blk8_0_at V c t X hX (ix2 p b) (ix2 a b) hk0 rfl, blk8_1_at V c t Dz hD (ix2 p 0) (ix2 a 0) hk0 rfl,
    blk8_2_at V c t Mu hM (ix2 0 b), blk8_3_at V c t Va hV (ix2 0 b), blk8_4_at V c t G hG (ix2 0 b), blk8_5_at V c t Be hBe (ix2 0 b)]
  rfl

/-- What point `t` writes back is block `t` of the normalised array. -/
theorem flushed8_eq (c : Dev nD)
    (X : FVec Ideal S50000x128 .f32) (Dz : FVec Ideal S50000x1 .f32) (Mu Va G Be : FVec Ideal S1x128 .f32)
    (hX : V c (Pipeline.arrRef spec8 0) = X) (hD : V c (Pipeline.arrRef spec8 1) = Dz) (hM : V c (Pipeline.arrRef spec8 2) = Mu)
    (hV : V c (Pipeline.arrRef spec8 3) = Va) (hG : V c (Pipeline.arrRef spec8 4) = G) (hBe : V c (Pipeline.arrRef spec8 5) = Be)
    (t : Fin cfg8.N) :
    (dat8 (F := Ideal) V c).flushed 6 t = ((cfg8.win 6).blk t).view.read (Elt Ideal) (normAt X Dz Mu Va G Be) := by
  show (cfg8.win 6).cut (grid8.coords t) ((dat8 (F := Ideal) V c).after 6 t) = _
  rw [after8_6]
  unfold out8_6
  rw [View.canon_unit_zero hz]
  simp only [View.ld_unit_zero (S := S5000x128) hz, View.ld_unit_zero (S := S5000x1) hz, View.ld_unit_zero (S := S1x128) hz]
  obtain ⟨-, -, -, -, -, -, -, -, -, -, -, -, e0, e1⟩ := idx_facts8 t
  funext j
  refine point8_val V c t X Dz Mu Va G Be hX hD hM hV hG hBe j (((cfg8.win 6).blk t).view.emb j) ?_ ?_
  · show win8_6.index t (0 : Fin 2) * 5000 + 1 * (j 0).val = t.val * 5000 + (j 0).val; rw [e0]; omega
  · show win8_6.index t (1 : Fin 2) * 128 + 1 * (j 1).val = (j 1).val; rw [e1]; omega

/-- An index of the output array is in point `t`'s block iff each coordinate is in the block's range on its axis. -/
theorem mem_blk8 (t : Fin cfg8.N) (i : S50000x128.Idx) :
    i ∈ ((cfg8.win 6).blk t).view.set ↔ ∀ a : Fin 2, win8_6.index t a * S5000x128.size a ≤ (i a).val ∧ (i a).val < win8_6.index t a * S5000x128.size a + S5000x128.size a := by
  show i ∈ ((View.whole main_v72).slice (win8_6.rect t)).set ↔ _
  rw [View.set_slice_whole, Rect.mem_set_unit]
  exact Iff.rfl

/-- Row `r` of the output array is written by point `r / 5000`. -/
theorem covered8 (i : S50000x128.Idx) :
    ∃ t : Fin cfg8.N, (cfg8.win 6).flush t = true ∧ i ∈ ((cfg8.win 6).blk t).view.set := by
  have hi0 : (i 0).val < 50000 := (i 0).isLt
  have hi1 : (i 1).val < 128 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, -, -, -, -, -, -, -, -, e0, e1⟩ := idx_facts8 t
  refine ⟨t, flush8_6 t, ?_⟩
  rw [mem_blk8]
  intro a
  match a with
  | ⟨0, _⟩ => show win8_6.index t (0 : Fin 2) * 5000 ≤ (i 0).val ∧ (i 0).val < win8_6.index t (0 : Fin 2) * 5000 + 5000; rw [e0, ht]; omega
  | ⟨1, _⟩ => show win8_6.index t (1 : Fin 2) * 128 ≤ (i 1).val ∧ (i 1).val < win8_6.index t (1 : Fin 2) * 128 + 128; rw [e1]; omega

/-- The output array of region 8 after the region: the normalised, sloped aggregate, index by index. -/
theorem norm8_value (c : Dev nD)
    (X : FVec Ideal S50000x128 .f32) (Dz : FVec Ideal S50000x1 .f32) (Mu Va G Be : FVec Ideal S1x128 .f32)
    (hX : V c (Pipeline.arrRef spec8 0) = X) (hD : V c (Pipeline.arrRef spec8 1) = Dz) (hM : V c (Pipeline.arrRef spec8 2) = Mu)
    (hV : V c (Pipeline.arrRef spec8 3) = Va) (hG : V c (Pipeline.arrRef spec8 4) = G) (hBe : V c (Pipeline.arrRef spec8 5) = Be)
    (i : Fin 50000) (j : Fin 128) :
    (dat8 (F := Ideal) V c).arrAt 6 cfg8.N (ix2 i j)
      = Spec.bn (fun a b => X (ix2 a b) * Dz (ix2 a 0)) (fun b => Mu (ix2 0 b)) (fun b => Va (ix2 0 b)) (fun b => G (ix2 0 b)) (fun b => Be (ix2 0 b)) i j :=
  congrFun ((dat8 (F := Ideal) V c).arrAt_eq_of_cover 6 (normAt X Dz Mu Va G Be)
    (fun t _ => flushed8_eq V c X Dz Mu Va G Be hX hD hM hV hG hBe t) covered8) (ix2 i j)

end Cert.KernelIdeal.KNorm

end
-- ==== Proof.KDecode.lean ====
/-
  The decode region's output array, row by row.

  The region has two grid points. At point t it holds rows 2048 t … 2048 t + 2047 of two [4096,128] arrays
  (call them a and bb) and the whole of a [128,128] matrix m, and writes rows 2048 t … 2048 t + 2047 of a
  [4096,1] array. Over the extended reals the body's result at row p of its block is
      sum over j of (sum over k of a[p,k] * m[k,j]) * bb[p,j]:
  the block product into the zero accumulator is the sum over the shared index, the narrowing of the two
  factors is the identity on the extended reals, the product with the second block is entrywise, and the lane
  sum is a sum over the 128 lanes. A block's coordinate is its block index times the block's extent plus the
  coordinate inside the block; the two output blocks tile the 4096 rows (row r lies in block r / 2048), so the
  array ends holding that double sum at every row.
-/
import proofs.«404543_j21388937134518_2_alg».proof.Proof.Gen.KernelIdeal.Frame
import proofs.«404543_j21388937134518_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KDecode

open Cert.KernelIdeal Cert.KernelIdeal.Gen Idealize.ShloMosaic Idealize.ShloMosaic.ValueIdx Idealize.ShloMosaic.TcCoe

/-! ## The block product at an index -/

theorem lhs_dec_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_dec_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_dec_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_dec_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Entry (p, q) of the product of a [2048,128] block with a [128,128] matrix into the zero accumulator:
    the sum over the shared index of the products of the entries. -/
theorem matmul_dec_apply {φ₁ φ₂ : FTy} (a : FVec Ideal S2048x128 φ₁) (m : FVec Ideal S128x128 φ₂) (p : Fin 2048) (q : Fin 128) :
    matmul dot_S2048x128_S128x128_S2048x128_1_0_0_1_n_n none a m (constant (F := Ideal) S2048x128 .f32 0x00000000#32) (ix2 p q)
      = ∑ k : Fin 128, a (ix2 p k) * m (ix2 k q) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact lhs_dec_0 _ _
    | ⟨1, _⟩ => exact (lhs_dec_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (rhs_dec_0 _ _).trans hk
    | ⟨1, _⟩ => exact rhs_dec_1 _ _)
  rw [el, er]

/-! ## The body's result at a row -/

/-- Row p of the body's [2048,1] result: the lane sum of the product block times the second block, entry by entry. -/
theorem pay_dec_apply (a : Vec Ideal S2048x128 .f32) (m : Vec Ideal S128x128 .f32) (bb : Vec Ideal S2048x128 .f32) (p : Fin 2048) :
    k9_pay1 (F := Ideal) a m bb (ix2 p 0) = ∑ j : Fin 128, (∑ k : Fin 128, a (ix2 p k) * m (ix2 k j)) * bb (ix2 p j) := by
  unfold k9_pay1
  simp only [shapeCast_self]
  refine (shapeCast_apply _ shapeCasts_S2048_S2048x1 (ix2 p 0) (ix1 p) (by
    rw [Shape.rowMajor_val_two, Shape.rowMajor_val_one]; show p.val = p.val * 1 + 0; omega)).trans ?_
  refine (Ideal.multiReduction_add_single _ _ reduces_S2048x128_S2048 (.inl rfl) rfl (ix1 p)).trans ?_
  refine Finset.sum_congr rfl fun j _ => ?_
  have e : reduces_S2048x128_S2048.lift (ix1 p) j = ix2 p j := funext fun d => Fin.ext (by
    match d with
    | ⟨0, _⟩ => rfl
    | ⟨1, _⟩ => rfl)
  rw [e]
  exact congrArg (· * bb (ix2 p j)) (matmul_dec_apply _ _ p j)

/-! ## From the blocks to the array -/

theorem hz : (![0, 0] : Fin 2 → Nat) = fun _ => 0 := funext fun a => by fin_cases a <;> rfl

/-- The block index of each window at the two grid points: the two row-blocked inputs and the output sit at
    block (t, 0); the matrix is whole at every point. -/
theorem idx_dec : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

section
variable (V : (c : Dev nD) → (b : Ref sig .tc) → Buf (Elt Ideal) ((c : Thread nD τ).loc b)) (c : Dev nD)

/-- The three input blocks at a point, at their literal types. -/
abbrev ablk (t : Fin cfg9.N) : Vec Ideal S2048x128 .f32 := iblk9 (F := Ideal) V c 0 t
abbrev bblk (t : Fin cfg9.N) : Vec Ideal S2048x128 .f32 := iblk9 (F := Ideal) V c 1 t
abbrev mblk (t : Fin cfg9.N) : Vec Ideal S128x128 .f32 := iblk9 (F := Ideal) V c 2 t

/-- Row p of the first input's block at point t is row 2048 t + p of its array. -/
theorem ablk_apply (A : FVec Ideal S4096x128 .f32) (hA : V c (Pipeline.arrRef spec9 0) = A) (t : Fin cfg9.N)
    (p : Fin 2048) (k : Fin 128) (r : Fin 4096) (hr : r.val = t.val * 2048 + p.val) :
    ablk V c t (ix2 p k) = A (ix2 r k) := by
  obtain ⟨e0, e1, -⟩ := idx_dec t
  unfold ablk iblk9
  rw [View.read_apply]
  show V c (Pipeline.arrRef spec9 0) (((cfg9.win 0).blk t).view.emb (ix2 p k)) = A (ix2 r k)
  rw [hA]
  refine congrArg A (funext fun a => Fin.ext ?_)
  match a with
  | ⟨0, _⟩ => show win9_0.index t (0 : Fin 2) * 2048 + 1 * p.val = r.val; omega
  | ⟨1, _⟩ => show win9_0.index t (1 : Fin 2) * 128 + 1 * k.val = k.val; omega

/-- Likewise the second input's. -/
theorem bblk_apply (Bb : FVec Ideal S4096x128 .f32) (hB : V c (Pipeline.arrRef spec9 1) = Bb) (t : Fin cfg9.N)
    (p : Fin 2048) (k : Fin 128) (r : Fin 4096) (hr : r.val = t.val * 2048 + p.val) :
    bblk V c t (ix2 p k) = Bb (ix2 r k) := by
  obtain ⟨-, -, e0, e1, -⟩ := idx_dec t
  unfold bblk iblk9
  rw [View.read_apply]
  show V c (Pipeline.arrRef spec9 1) (((cfg9.win 1).blk t).view.emb (ix2 p k)) = Bb (ix2 r k)
  rw [hB]
  refine congrArg Bb (funext fun a => Fin.ext ?_)
  match a with
  | ⟨0, _⟩ => show win9_1.index t (0 : Fin 2) * 2048 + 1 * p.val = r.val; omega
  | ⟨1, _⟩ => show win9_1.index t (1 : Fin 2) * 128 + 1 * k.val = k.val; omega

/-- The matrix's block is the matrix, at every point. -/
theorem mblk_apply (M : FVec Ideal S128x128 .f32) (hM : V c (Pipeline.arrRef spec9 2) = M) (t : Fin cfg9.N)
    (k : Fin 128) (j : Fin 128) :
    mblk V c t (ix2 k j) = M (ix2 k j) := by
  obtain ⟨-, -, -, -, e0, e1, -⟩ := idx_dec t
  unfold mblk iblk9
  rw [View.read_apply]
  show V c (Pipeline.arrRef spec9 2) (((cfg9.win 2).blk t).view.emb (ix2 k j)) = M (ix2 k j)
  rw [hM]
  refine congrArg M (funext fun a => Fin.ext ?_)
  match a with
  | ⟨0, _⟩ => show win9_2.index t (0 : Fin 2) * 128 + 1 * k.val = k.val; omega
  | ⟨1, _⟩ => show win9_2.index t (1 : Fin 2) * 128 + 1 * j.val = j.val; omega

/-- What the output array ends holding, row by row: the lane sum of (row of the first array times the matrix)
    times the same row of the second array. -/
abbrev decArr (A Bb : FVec Ideal S4096x128 .f32) (M : FVec Ideal S128x128 .f32) : S4096x1.Idx → Elt Ideal .f32 :=
  fun i => ∑ j : Fin 128, (∑ k : Fin 128, A (ix2 (i 0) k) * M (ix2 k j)) * Bb (ix2 (i 0) j)

/-- What point t writes back is block t of that function of the input arrays. -/
theorem flushed_dec (A Bb : FVec Ideal S4096x128 .f32) (M : FVec Ideal S128x128 .f32)
    (hA : V c (Pipeline.arrRef spec9 0) = A) (hB : V c (Pipeline.arrRef spec9 1) = Bb) (hM : V c (Pipeline.arrRef spec9 2) = M)
    (t : Fin cfg9.N) :
    (dat9 (F := Ideal) V c).flushed 3 t = ((cfg9.win 3).blk t).view.read (Elt Ideal) (decArr A Bb M) := by
  show (cfg9.win 3).cut (grid9.coords t) ((dat9 (F := Ideal) V c).after 3 t) = _
  rw [after9_3]
  unfold out9_3
  rw [View.canon_unit_zero hz]
  simp only [View.ld_unit_zero (S := S2048x128) hz, View.ld_unit_zero (S := S128x128) hz]
  obtain ⟨-, -, -, -, -, -, e0, e1⟩ := idx_dec t
  have hN : cfg9.N = 2 := N_9
  have ht : t.val < 2 := hN ▸ t.isLt
  funext y
  obtain ⟨p, q, rfl⟩ : ∃ (p : Fin 2048) (q : Fin 1), y = ix2 p q := ⟨y 0, y 1, eq_ix2 y⟩
  obtain rfl : q = 0 := Subsingleton.elim _ _
  have hr : t.val * 2048 + p.val < 4096 := by have := p.isLt; omega
  have hi : ((cfg9.win 3).blk t).view.emb (ix2 p 0) = (ix2 ⟨t.val * 2048 + p.val, hr⟩ 0 : S4096x1.Idx) := by
    funext a; apply Fin.ext
    match a with
    | ⟨0, _⟩ => show win9_3.index t (0 : Fin 2) * 2048 + 1 * p.val = t.val * 2048 + p.val; omega
    | ⟨1, _⟩ => show win9_3.index t (1 : Fin 2) * 1 + 1 * 0 = 0; omega
  show k9_pay1 (F := Ideal) (ablk V c t) (mblk V c t) (bblk V c t) (ix2 p 0) = decArr A Bb M (((cfg9.win 3).blk t).view.emb (ix2 p 0))
  rw [hi]
  refine (pay_dec_apply (ablk V c t) (mblk V c t) (bblk V c t) p).trans ?_
  refine Finset.sum_congr rfl fun j _ => ?_
  refine congrArg₂ (· * ·) (Finset.sum_congr rfl fun k _ => ?_) (bblk_apply V c Bb hB t p j ⟨t.val * 2048 + p.val, hr⟩ rfl)
  exact congrArg₂ (· * ·) (ablk_apply V c A hA t p k ⟨t.val * 2048 + p.val, hr⟩ rfl) (mblk_apply V c M hM t k j)

/-- An index of the output array is in point t's block iff each coordinate is in the block's range. -/
theorem mem_blk_dec (t : Fin cfg9.N) (i : S4096x1.Idx) :
    i ∈ ((cfg9.win 3).blk t).view.set ↔ ∀ a : Fin 2, win9_3.index t a * S2048x1.size a ≤ (i a).val ∧ (i a).val < win9_3.index t a * S2048x1.size a + S2048x1.size a := by
  show i ∈ ((View.whole main_v98).slice (win9_3.rect t)).set ↔ _
  rw [View.set_slice_whole, Rect.mem_set_unit]
  exact Iff.rfl

/-- Row r of the array is in block r / 2048. -/
theorem cover_dec (i : S4096x1.Idx) : ∃ t : Fin cfg9.N, (cfg9.win 3).flush t = true ∧ i ∈ ((cfg9.win 3).blk t).view.set := by
  have hN : cfg9.N = 2 := N_9
  have hi0 : (i 0).val < 4096 := (i 0).isLt
  have hi1 : (i 1).val < 1 := (i 1).isLt
  refine ⟨⟨(i 0).val / 2048, by rw [hN]; omega⟩, flush9_3 _, ?_⟩
  rw [mem_blk_dec]
  obtain ⟨-, -, -, -, -, -, e0, e1⟩ := idx_dec ⟨(i 0).val / 2048, by rw [hN]; omega⟩
  intro a
  match a with
  | ⟨0, _⟩ => show win9_3.index _ (0 : Fin 2) * 2048 ≤ (i 0).val ∧ (i 0).val < win9_3.index _ (0 : Fin 2) * 2048 + 2048; rw [e0]; show (i 0).val / 2048 * 2048 ≤ _ ∧ _ < (i 0).val / 2048 * 2048 + 2048; omega
  | ⟨1, _⟩ => show win9_3.index _ (1 : Fin 2) * 1 ≤ (i 1).val ∧ (i 1).val < win9_3.index _ (1 : Fin 2) * 1 + 1; rw [e1]; omega

/-- THE OUTPUT ARRAY after the region, row r: the decode of row r of the two row arrays through the matrix. -/
theorem decode9_value (A Bb : FVec Ideal S4096x128 .f32) (M : FVec Ideal S128x128 .f32)
    (hA : V c (Pipeline.arrRef spec9 0) = A) (hB : V c (Pipeline.arrRef spec9 1) = Bb) (hM : V c (Pipeline.arrRef spec9 2) = M)
    (r : Fin 4096) :
    (dat9 (F := Ideal) V c).arrAt 3 cfg9.N (ix2 r 0)
      = Spec.decK (fun a k => A (ix2 a k)) (fun a k => Bb (ix2 a k)) (fun k b => M (ix2 k b)) r :=
  congrFun ((dat9 (F := Ideal) V c).arrAt_eq_of_cover 3 (decArr A Bb M)
    (fun t _ => flushed_dec V c A Bb M hA hB hM t) cover_dec) (ix2 r 0)

end

end Cert.KernelIdeal.KDecode

end
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.KHost0.lean ====
/-
  The first host stretch of the kernel program, read as mathematics.

  From the edge table (row 0 the sources, row 1 the targets, 800000 columns) it builds the two lists of edge ends,
  each the table's row followed by the node numbers 0 … 49999 (one self loop per node), 850000 entries.
  It then counts, for every node, the edges whose target it is — a sum of ones into zeros along the target list,
  a negative word first counted from the end — and raises the count to the power -1/2: the node factor, stored as
  a column.  Last, the first bias vector is viewed as a row.
-/
import proofs.«404543_j21388937134518_2_alg».proof.Proof.Gen.KernelIdeal.Launch
import proofs.«404543_j21388937134518_2_alg».proof.Proof.Spec
import proofs.«404543_j21388937134518_2_alg».proof.Proof.SpecGraph
import proofs.«404543_j21388937134518_2_alg».proof.Proof.LibGatherScatter
import Idealize.ShloMosaic.Lib.Pipeline.Value
import Idealize.ShloMosaic.Lib.ValueIdx
import Idealize.ShloMosaic.Lib.StableHlo.Run
import Idealize.ShloMosaic.Lib.StableHlo.Predicate
import Idealize.ShloMosaic.PureOps.Ideal.Laws

set_option maxRecDepth 16384

noncomputable section

open scoped BigOperators

namespace Cert.KernelIdeal.KHost0

open Cert.KernelIdeal Cert.KernelIdeal.Gen Idealize.ShloMosaic Idealize.ShloMosaic.ValueIdx

/-- The list of edge ends on side `s`: the table's row `s` as a vector, followed by the node numbers. -/
def ends (ei : IVec S2x800000 32) (s : Fin 2) (hs : S2x800000.Slices ![s.val, 0] S1x800000) : IVec S850000 32 :=
  concatenate S850000 0 [⟨S800000, shapeCast S800000 (extractStridedSlice S1x800000 ![s.val, 0] ei hs) shapeCasts_S1x800000_S800000⟩,
    ⟨S50000, iotaInDim S50000 32 0⟩] concatenates_S800000_S50000_S850000_d0

/-- Entry `e` of the list: below 800000 the table's entry in row `s`, from there on the node number `e - 800000`. -/
theorem ends_apply (ei : IVec Spec.SEdge 32) (s : Fin 2) (hs : S2x800000.Slices ![s.val, 0] S1x800000) (e : Fin 850000) :
    ends ei s hs (ix1 e) = Spec.endW ei s e := by
  unfold ends Spec.endW
  by_cases h : e.val < 800000
  · rw [dif_pos h]
    refine (concatenate_pair_apply_left (t := S850000) (s₁ := S800000) (s₂ := S50000) (0 : Fin 1) _ _
      concatenates_S800000_S50000_S850000_d0 (ix1 e) rfl (ix1 (⟨e.val, h⟩ : Fin 800000)) ?_).trans ?_
    · intro b; match b with | ⟨0, _⟩ => rfl
    refine (shapeCast_apply (s := S1x800000) (t := S800000) _ shapeCasts_S1x800000_S800000 (ix1 (⟨e.val, h⟩ : Fin 800000))
      (ix2 (0 : Fin 1) (⟨e.val, h⟩ : Fin 800000)) ?_).trans ?_
    · rw [Shape.rowMajor_val_one, Shape.rowMajor_val_two]
      show 0 * 800000 + e.val = e.val
      omega
    refine extractStridedSlice_apply (s := S2x800000) (t := S1x800000) _ ei hs _ (ix2 s (⟨e.val, h⟩ : Fin 800000)) ?_
    intro a; match a with
    | ⟨0, _⟩ => show s.val = s.val + 0; omega
    | ⟨1, _⟩ => show e.val = 0 + e.val; omega
  · rw [dif_neg h]
    have h2 : e.val - 800000 < 50000 := by have := e.isLt; omega
    refine (concatenate_pair_apply_right (t := S850000) (s₁ := S800000) (s₂ := S50000) (0 : Fin 1) _ _
      concatenates_S800000_S50000_S850000_d0 (ix1 e) rfl rfl (ix1 (⟨e.val - 800000, h2⟩ : Fin 50000)) ?_ ?_).trans ?_
    · intro b hb; exact absurd (Subsingleton.elim (α := Fin 1) _ _) hb
    · show e.val - 800000 + 800000 = e.val
      omega
    rfl

/-- After the stretch the source list holds the edges' source ends. -/
theorem host0_row (W : Valuation τ sig (Elt Ideal)) (ei : IVec Spec.SEdge 32)
    (hW1 : W (Proc.devRef .tc main_arg1) = ei) (e : Fin 850000) :
    StableHlo.after hostOps0 W (Proc.devRef .tc main_v3) (ix1 e) = Spec.endW ei 0 e := by
  have H : StableHlo.after hostOps0 W (Proc.devRef .tc main_v3)
      = ends (W (Proc.devRef .tc main_arg1)) 0 slices_S2x800000_S1x800000_0_0 := by
    unfold hostOps0
    after_results
    rfl
  rw [H, hW1]
  exact ends_apply ei 0 slices_S2x800000_S1x800000_0_0 e

/-- After the stretch the target list holds the edges' target ends. -/
theorem host0_col (W : Valuation τ sig (Elt Ideal)) (ei : IVec Spec.SEdge 32)
    (hW1 : W (Proc.devRef .tc main_arg1) = ei) (e : Fin 850000) :
    StableHlo.after hostOps0 W (Proc.devRef .tc main_v6) (ix1 e) = Spec.endW ei 1 e := by
  have H : StableHlo.after hostOps0 W (Proc.devRef .tc main_v6)
      = ends (W (Proc.devRef .tc main_arg1)) 1 slices_S2x800000_S1x800000_1_0 := by
    unfold hostOps0
    after_results
    rfl
  rw [H, hW1]
  exact ends_apply ei 1 slices_S2x800000_S1x800000_1_0 e

/-- The target list as a column, a negative word counted from the end. -/
def wrapped (ei : IVec S2x800000 32) : IVec S850000x1 32 :=
  broadcastInDim S850000x1 ![0] bcast_S850000_S850000x1_0
    (select (cmpi .slt (ends ei 1 slices_S2x800000_S1x800000_1_0)
        (broadcastInDim S850000 ![] bcast_S_S850000 (constantI S_ 32 0#32)))
      (addi (ends ei 1 slices_S2x800000_S1x800000_1_0)
        (broadcastInDim S850000 ![] bcast_S_S850000 (constantI S_ 32 50000#32)))
      (ends ei 1 slices_S2x800000_S1x800000_1_0))

/-- A word below 2^31 is not below zero as a signed word. -/
theorem slt_zero_of_lt (w : BitVec 32) (hw : w.toNat < 2 ^ 31) : IntOp.cmpi .slt w 0#32 = 0#1 := by
  show BitVec.ofBool (w.slt 0#32) = 0#1
  cases hb : w.slt 0#32
  · rfl
  · exfalso
    have := (StableHlo.Predicate.slt_bool_iff_toNat (a := w) (b := 0#32) hw (by decide)).1 (by rw [hb]; rfl)
    exact absurd this (Nat.not_lt_zero _)

/-- When every table entry is below 50000 no end is negative, so the wrapped column holds the target ends themselves. -/
theorem wrapped_apply (ei : IVec Spec.SEdge 32) (hei : ∀ i, (ei i).toNat < 50000) (e : Fin 850000) :
    wrapped ei (ix2 e (0 : Fin 1)) = Spec.endW ei 1 e := by
  have hw := Spec.endW_lt ei hei 1 e
  have h1 : wrapped ei (ix2 e (0 : Fin 1))
      = Scalar.select (IntOp.cmpi .slt (ends ei 1 slices_S2x800000_S1x800000_1_0 (ix1 e)) 0#32)
          (IntOp.addi (ends ei 1 slices_S2x800000_S1x800000_1_0 (ix1 e)) 50000#32)
          (ends ei 1 slices_S2x800000_S1x800000_1_0 (ix1 e)) := by
    unfold wrapped
    refine (broadcastInDim_apply (s := S850000) (t := S850000x1) ![0] bcast_S850000_S850000x1_0 _ (ix2 e (0 : Fin 1)) (ix1 e) ?_).trans rfl
    intro a
    match a with
    | ⟨0, _⟩ =>
      show e.val = if (850000 : Nat) = 1 then 0 else e.val
      rw [if_neg (by decide)]
  rw [h1, ends_apply, slt_zero_of_lt _ (by omega), select_zero]

/-- The scatter of ones into zeros along the wrapped target list counts the edges arriving at each node; its power is the factor. -/
theorem dis_value (ei : IVec Spec.SEdge 32) (hei : ∀ i, (ei i).toNat < 50000) (c : Fin 50000) :
    Host.powf
      (Host.scatterAdd scatter_S50000_S850000x1_S850000_n_0_0_1
        (broadcastInDim S50000 ![] bcast_S_S50000 (constant (F := Ideal) S_ .f32 0x00000000#32))
        (wrapped ei)
        (broadcastInDim S850000 ![] bcast_S_S850000 (constant (F := Ideal) S_ .f32 0x3F800000#32)))
      (broadcastInDim S50000 ![] bcast_S_S50000 (constant (F := Ideal) S_ .f32 0xBF000000#32)) (ix1 c)
      = Spec.dis (Spec.C ei) c := by
  have hp : ∀ (A B : FVec Ideal S50000 .f32) (i : S50000.Idx), Host.powf A B i = Ideal.pow (A i) (B i) := fun _ _ _ => rfl
  rw [hp, Cert.LibGatherScatter.scatterAdd_vec scatter_S50000_S850000x1_S850000_n_0_0_1 rfl rfl rfl rfl _ _ _ c]
  unfold Spec.dis Spec.deg
  refine congrArg₂ Ideal.pow ?_ rfl
  have hz : (broadcastInDim S50000 ![] bcast_S_S50000 (constant (F := Ideal) S_ .f32 0x00000000#32)) (ix1 c) = 0 :=
    Ideal.ofBits_zero_f32
  rw [hz, zero_add]
  refine Finset.sum_congr (Finset.filter_congr fun e _ => ?_) (fun e _ => rfl)
  have hw := Spec.endW_lt ei hei 1 e
  rw [wrapped_apply ei hei e, StableHlo.Predicate.toInt_eq_toNat_of_lt (by omega)]
  unfold Spec.C
  constructor
  · intro h
    apply Fin.ext
    rw [Spec.nodeOf_val _ hw]
    exact_mod_cast h
  · intro h
    rw [← h, Spec.nodeOf_val _ hw]

set_option maxHeartbeats 4000000 in
/-- After the stretch the factor column holds, at node `c`, the number of edges arriving at `c` to the power -1/2. -/
theorem host0_dis (W : Valuation τ sig (Elt Ideal)) (ei : IVec Spec.SEdge 32)
    (hW1 : W (Proc.devRef .tc main_arg1) = ei) (hei : ∀ i, (ei i).toNat < 50000) (c : Fin 50000) :
    StableHlo.after hostOps0 W (Proc.devRef .tc main_v18) (ix2 c 0) = Spec.dis (Spec.C ei) c := by
  have H : StableHlo.after hostOps0 W (Proc.devRef .tc main_v18)
      = shapeCast S50000x1 (Host.powf
          (Host.scatterAdd scatter_S50000_S850000x1_S850000_n_0_0_1
            (broadcastInDim S50000 ![] bcast_S_S50000 (constant (F := Ideal) S_ .f32 0x00000000#32))
            (wrapped (W (Proc.devRef .tc main_arg1)))
            (broadcastInDim S850000 ![] bcast_S_S850000 (constant (F := Ideal) S_ .f32 0x3F800000#32)))
          (broadcastInDim S50000 ![] bcast_S_S50000 (constant (F := Ideal) S_ .f32 0xBF000000#32))) shapeCasts_S50000_S50000x1 := by
    unfold hostOps0
    after_results
    rfl
  rw [H, hW1]
  refine (shapeCast_apply (s := S50000) (t := S50000x1) _ shapeCasts_S50000_S50000x1 (ix2 c 0) (ix1 c) ?_).trans ?_
  · rw [Shape.rowMajor_val_one, Shape.rowMajor_val_two]
    show c.val = c.val * 1 + 0
    omega
  exact dis_value ei hei c

/-- After the stretch the bias row holds the first bias vector. -/
theorem host0_bias (W : Valuation τ sig (Elt Ideal)) (b1 : FVec Ideal S128 .f32)
    (hW4 : W (Proc.devRef .tc main_arg4) = b1) (j : Fin 128) :
    StableHlo.after hostOps0 W (Proc.devRef .tc main_v19) (ix2 0 j) = b1 (ix1 j) := by
  have H : StableHlo.after hostOps0 W (Proc.devRef .tc main_v19) = shapeCast S1x128 (W (Proc.devRef .tc main_arg4)) shapeCasts_S128_S1x128 := by
    unfold hostOps0
    after_results
    rfl
  rw [H, hW4]
  refine shapeCast_apply b1 shapeCasts_S128_S1x128 (ix2 0 j) (ix1 j) ?_
  rw [Shape.rowMajor_val_one, Shape.rowMajor_val_two]
  show j.val = 0 * 128 + j.val
  omega

end Cert.KernelIdeal.KHost0

end
-- ==== Proof.KAgg.lean ====
/-
  The aggregation stretches of the kernel's host program, read at one element.

  Each of the three layers sends rows along the edges in two steps.  First the rows of a [50000 × 128] array HS are taken at
  the list of 850000 source words: a negative word is wrapped by 50000, a mask records which wrapped words lie in
  [0, 49999], the rows are gathered at the wrapped words clamped into range, and a fill replaces the rows whose mask is 0.
  Then the taken rows are accumulated, from a zero matrix, at the list of 850000 target words.

  When both lists are the edge ends of a graph whose every table entry is below 50000, no word is negative, every mask bit
  is 1, every clamp is the identity, and element (c, j) of the result is the sum, over the edges e arriving at c, of
  HS (source of e, j): the segment sum of the specification.
-/
import proofs.«404543_j21388937134518_2_alg».proof.Proof.Gen.KernelIdeal.Launch
import proofs.«404543_j21388937134518_2_alg».proof.Proof.LibGatherScatter
import proofs.«404543_j21388937134518_2_alg».proof.Proof.SpecGraph
import Idealize.ShloMosaic.Lib.StableHlo.Run
import Idealize.ShloMosaic.Lib.StableHlo.Predicate
import Idealize.ShloMosaic.PureOps.Ideal.Laws

noncomputable section

namespace Cert.KernelIdeal.KAgg

open Cert.KernelIdeal Cert.KernelIdeal.Gen Idealize.ShloMosaic Idealize.ShloMosaic.ValueIdx
open Cert.LibGatherScatter
open Idealize.ShloMosaic.StableHlo.Predicate (slt_iff_toNat sge_iff_toNat sle_iff_toNat toInt_eq_toNat_of_lt)

/-! ## Words -/

/-- A word below 50000 is not negative: the wrap-around of negative positions leaves it alone. -/
theorem wrap_id (w : BitVec 32) (hw : w.toNat < 50000) :
    Scalar.select (IntOp.cmpi .slt w 0#32) (IntOp.addi w 50000#32) w = w := by
  have h0 : IntOp.cmpi .slt w 0#32 = 0#1 := eq_zero_of_ne_one fun h => by
    have := (slt_iff_toNat (a := w) (b := 0#32) (by omega) (by decide)).1 h
    simp at this
  rw [h0, select_zero]

/-- A word below 50000 lies in [0, 49999] as a signed number. -/
theorem inrange_one (w : BitVec 32) (hw : w.toNat < 50000) :
    IntOp.andi (IntOp.cmpi .sge w 0#32) (IntOp.cmpi .sle w 49999#32) = 1#1 := by
  have h1 : IntOp.cmpi .sge w 0#32 = 1#1 := (sge_iff_toNat (a := w) (b := 0#32) (by omega) (by decide)).2 (by simp)
  have h2 : IntOp.cmpi .sle w 49999#32 = 1#1 :=
    (sle_iff_toNat (a := w) (b := 49999#32) (by omega) (by decide)).2 (by simp; omega)
  rw [h1, h2]; rfl

/-- Its clamp into [0, 49999] is the word's own number. -/
theorem clamp_id (w : BitVec 32) (hw : w.toNat < 50000) : min w.toInt.toNat (50000 - 1) = w.toNat := by
  rw [toInt_eq_toNat_of_lt (by omega), Int.toNat_natCast]; omega

/-! ## The take of rows at a list of node words, as printed -/

/-- The list of words, negative ones wrapped by 50000, as a column. -/
abbrev takeIdx (rowA : IVec S850000 32) : IVec S850000x1 32 :=
  broadcastInDim S850000x1 ![0] bcast_S850000_S850000x1_0
    (select (cmpi .slt rowA (broadcastInDim S850000 ![] bcast_S_S850000 (constantI S_ 32 0#32)))
      (addi rowA (broadcastInDim S850000 ![] bcast_S_S850000 (constantI S_ 32 50000#32))) rowA)

/-- Per entry: the wrapped word lies in [0, 49999]. -/
abbrev takeMask (v5 : IVec S850000x1 32) : IVec S850000 1 :=
  Host.reduce IntOp.andi
    (andi (cmpi .sge v5 (broadcastInDim S850000x1 ![] bcast_S_S850000x1 (constantI S_ 32 0#32)))
      (cmpi .sle v5 (broadcastInDim S850000x1 ![0, 1] bcast_S1x1_S850000x1_0_1
        (broadcastInDim S1x1 ![1] bcast_S1_S1x1_1 (constantI S1 32 49999#32)))))
    (constantI S_ 1 1#1) reducesTo_S850000x1_S850000_d1 h_S_

/-- The rows of HS at the wrapped words where in range, a fill elsewhere. -/
abbrev takeTerm (HS : FVec Ideal S50000x128 .f32) (rowA : IVec S850000 32) : FVec Ideal S850000x128 .f32 :=
  select (broadcastInDim S850000x128 ![0] bcast_S850000_S850000x128_0 (takeMask (takeIdx rowA)))
    (Host.gather gather_S50000x128_S850000x1_S850000x128_1_0_n_n_0_1_1128 HS (takeIdx rowA))
    (broadcastInDim S850000x128 ![] bcast_S_S850000x128 (constant S_ .f32 0x7FC00000#32))

/-- A vector laid out as a column reads, at any index, the vector at the index's first coordinate. -/
theorem col_apply {α : Type} (v : S850000.Idx → α) (i : S850000x1.Idx) :
    broadcastInDim S850000x1 ![0] bcast_S850000_S850000x1_0 v i = v (ix1 (i 0)) := by
  simp only [broadcastInDim]
  congr 1
  funext a
  match a with
  | ⟨0, _⟩ => rfl

/-- A vector laid along the rows of a matrix reads, at (e, j), the vector at e. -/
theorem rows_apply {α : Type} (v : S850000.Idx → α) (e : Fin 850000) (j : Fin 128) :
    broadcastInDim S850000x128 ![0] bcast_S850000_S850000x128_0 v (ix2 e j) = v (ix1 e) := by
  simp only [broadcastInDim]
  congr 1
  funext a
  match a with
  | ⟨0, _⟩ => rfl

/-- The wrapped word at entry e is the word itself when it is below 50000. -/
theorem takeIdx_apply (rowA : IVec S850000 32) (hA : ∀ e : Fin 850000, (rowA (ix1 e)).toNat < 50000) (i : S850000x1.Idx) :
    takeIdx rowA i = rowA (ix1 (i 0)) := by
  unfold takeIdx
  rw [col_apply]
  exact wrap_id _ (hA _)

/-- A conjunction folded from 1 over bits that are all 1 is 1. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize (List.finRange s.numel).filter (fun n => h.drop (s.rowMajor.symm n) = j) = l
  induction l with
  | nil => rfl
  | cons n l ih => rw [List.foldl_cons, hx]; exact ih

/-- The mask is 1 at every entry when every word is below 50000. -/
theorem takeMask_apply (rowA : IVec S850000 32) (hA : ∀ e : Fin 850000, (rowA (ix1 e)).toNat < 50000) (j : S850000.Idx) :
    takeMask (takeIdx rowA) j = 1#1 := by
  unfold takeMask
  apply reduce_andi_ones
  · intro i
    show IntOp.andi (IntOp.cmpi .sge (takeIdx rowA i) 0#32) (IntOp.cmpi .sle (takeIdx rowA i) 49999#32) = 1#1
    rw [takeIdx_apply rowA hA]
    exact inrange_one _ (hA _)
  · rfl

/-- The take reads row (the node of word e) of HS when every word is below 50000. -/
theorem takeTerm_apply (HS : FVec Ideal S50000x128 .f32) (rowA : IVec S850000 32)
    (hA : ∀ e : Fin 850000, (rowA (ix1 e)).toNat < 50000) (e : Fin 850000) (j : Fin 128) :
    takeTerm HS rowA (ix2 e j) = HS (ix2 (Spec.nodeOf (rowA (ix1 e))) j) := by
  show Scalar.select (broadcastInDim S850000x128 ![0] bcast_S850000_S850000x128_0 (takeMask (takeIdx rowA)) (ix2 e j))
      (Host.gather gather_S50000x128_S850000x1_S850000x128_1_0_n_n_0_1_1128 HS (takeIdx rowA) (ix2 e j)) _ = _
  rw [rows_apply, takeMask_apply rowA hA, select_one,
    gather_rows gather_S50000x128_S850000x1_S850000x128_1_0_n_n_0_1_1128 rfl rfl rfl rfl rfl rfl HS (takeIdx rowA) e j
      (by norm_num)]
  congr 2
  apply Fin.ext
  show min (takeIdx rowA (ix2 e (0 : Fin 1))).toInt.toNat (50000 - 1) = (Spec.nodeOf (rowA (ix1 e))).val
  rw [takeIdx_apply rowA hA]
  show min (rowA (ix1 e)).toInt.toNat (50000 - 1) = _
  rw [clamp_id _ (hA e), Spec.nodeOf_val _ (hA e)]

/-- The printed scatter term, from a zero matrix, at the target list as a column: element (c, j) is the sum of U (e, j) over
    the entries e whose word, read signed, is c. -/
theorem scat_term (colA : IVec S850000 32) (U : FVec Ideal S850000x128 .f32) (c : Fin 50000) (j : Fin 128) :
    (Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 colA) U (ix2 c j) : EReal)
      = ∑ e ∈ Finset.univ.filter (fun e : Fin 850000 => (colA (ix1 e)).toInt = (c.val : ℤ)), U (ix2 e j) := by
  rw [scatterAdd_rows scatter_S50000x128_S850000x1_S850000x128_1_0_0_1 rfl rfl rfl rfl]
  have hz : broadcastInDim S50000x128 ![] bcast_S_S50000x128 (constant (F := Ideal) S_ FTy.f32 0#32) (ix2 c j) = 0 :=
    Ideal.ofBits_zero_f32
  rw [hz]
  rw [zero_add]
  show (_ : EReal) = _
  refine Finset.sum_congr (Finset.filter_congr fun e _ => ?_) fun _ _ => rfl
  rw [col_apply]

/-- With the two lists the edge ends: the sum over the entries whose target word is c of the taken rows is the segment sum of
    HS over the graph. -/
theorem agg_of (ei : IVec Spec.SEdge 32) (hei : ∀ i, (ei i).toNat < 50000)
    (HS : FVec Ideal S50000x128 .f32) (rowA colA : IVec S850000 32)
    (hr : ∀ e : Fin 850000, rowA (ix1 e) = Spec.endW ei 0 e) (hc : ∀ e : Fin 850000, colA (ix1 e) = Spec.endW ei 1 e)
    (c : Fin 50000) (j : Fin 128) :
    (∑ e ∈ Finset.univ.filter (fun e : Fin 850000 => (colA (ix1 e)).toInt = (c.val : ℤ)), takeTerm HS rowA (ix2 e j) : EReal)
      = Spec.seg (Spec.R ei) (Spec.C ei) (fun a b => HS (ix2 a b)) c j := by
  have hA : ∀ e : Fin 850000, (rowA (ix1 e)).toNat < 50000 := fun e => by rw [hr]; exact Spec.endW_lt ei hei 0 e
  have hB : ∀ e : Fin 850000, (colA (ix1 e)).toNat < 50000 := fun e => by rw [hc]; exact Spec.endW_lt ei hei 1 e
  unfold Spec.seg
  refine Finset.sum_congr (Finset.filter_congr fun e _ => ?_) fun e _ => ?_
  · unfold Spec.C
    rw [← hc e, toInt_eq_toNat_of_lt (by have := hB e; omega)]
    constructor
    · intro h
      apply Fin.ext
      rw [Spec.nodeOf_val _ (hB e)]
      exact_mod_cast h
    · intro h
      rw [← h, Spec.nodeOf_val _ (hB e)]
  · rw [takeTerm_apply HS rowA hA]
    unfold Spec.R
    rw [← hr e]

/-! ## Aggregation 1: the take of the rows of buffer main_v20 at the source list, then the scatter at the target list -/

/-- The take's result buffer holds the printed take of the two arrays read. -/
theorem take1 (W : Valuation τ sig (Elt Ideal)) (HS : FVec Ideal S50000x128 .f32) (rowA : IVec S850000 32)
    (hHS : W (Proc.devRef .tc main_v20) = HS) (hrow : W (Proc.devRef .tc main_v3) = rowA) :
    StableHlo.after hostOps1 W (Proc.devRef .tc main_v21) = takeTerm HS rowA := by
  simp only [hostOps1, StableHlo.TRef.nullary, StableHlo.TRef.unary, StableHlo.TRef.binary, StableHlo.TRef.ternary,
    StableHlo.TRef.ofBuf, StableHlo.TRef.toBuf, cast_eq]
  after_results_simp
  rw [hHS, hrow]

/-- The take leaves the target list alone. -/
theorem keep1 (W : Valuation τ sig (Elt Ideal)) :
    StableHlo.after hostOps1 W (Proc.devRef .tc main_v6) = W (Proc.devRef .tc main_v6) := by
  simp only [hostOps1]
  after_results_simp

/-- The accumulating scatter of rows U at a list of target words, from zero: element (c, j) is the sum of U (e, j) over the
    entries e whose word, read signed, is c. -/
theorem scat1 (V : Valuation τ sig (Elt Ideal)) (colA : IVec S850000 32) (U : FVec Ideal S850000x128 .f32)
    (hcol : V (Proc.devRef .tc main_v6) = colA) (hU : V (Proc.devRef .tc main_v21) = U) (c : Fin 50000) (j : Fin 128) :
    (StableHlo.after hostOps1_1 V (Proc.devRef .tc main_v24) (ix2 c j) : EReal)
      = ∑ e ∈ Finset.univ.filter (fun e : Fin 850000 => (colA (ix1 e)).toInt = (c.val : ℤ)), U (ix2 e j) := by
  simp only [hostOps1_1]
  after_results
  rw [hcol, hU]
  exact scat_term colA U c j

/-- After both stretches the result buffer holds, at (c, j), the sum over the edges arriving at c of the source rows. -/
theorem agg1_value (W : Valuation τ sig (Elt Ideal)) (ei : IVec Spec.SEdge 32) (hei : ∀ i, (ei i).toNat < 50000)
    (HS : FVec Ideal S50000x128 .f32) (rowA colA : IVec S850000 32)
    (hHS : W (Proc.devRef .tc main_v20) = HS) (hrow : W (Proc.devRef .tc main_v3) = rowA) (hcol : W (Proc.devRef .tc main_v6) = colA)
    (hr : ∀ e : Fin 850000, rowA (ix1 e) = Spec.endW ei 0 e) (hc : ∀ e : Fin 850000, colA (ix1 e) = Spec.endW ei 1 e)
    (c : Fin 50000) (j : Fin 128) :
    StableHlo.after hostOps1_1 (StableHlo.after hostOps1 W) (Proc.devRef .tc main_v24) (ix2 c j)
      = Spec.seg (Spec.R ei) (Spec.C ei) (fun a b => HS (ix2 a b)) c j :=
  (scat1 (StableHlo.after hostOps1 W) colA (takeTerm HS rowA) ((keep1 W).trans hcol) (take1 W HS rowA hHS hrow) c j).trans
    (agg_of ei hei HS rowA colA hr hc c j)

/-! ## Aggregation 2: the take of the rows of buffer main_v38 at the source list, then the scatter at the target list -/

/-- The take's result buffer holds the printed take of the two arrays read. -/
theorem take2 (W : Valuation τ sig (Elt Ideal)) (HS : FVec Ideal S50000x128 .f32) (rowA : IVec S850000 32)
    (hHS : W (Proc.devRef .tc main_v38) = HS) (hrow : W (Proc.devRef .tc main_v3) = rowA) :
    StableHlo.after hostOps4 W (Proc.devRef .tc main_v39) = takeTerm HS rowA := by
  simp only [hostOps4, StableHlo.TRef.nullary, StableHlo.TRef.unary, StableHlo.TRef.binary, StableHlo.TRef.ternary,
    StableHlo.TRef.ofBuf, StableHlo.TRef.toBuf, cast_eq]
  after_results_simp
  rw [hHS, hrow]

/-- The take leaves the target list alone. -/
theorem keep2 (W : Valuation τ sig (Elt Ideal)) :
    StableHlo.after hostOps4 W (Proc.devRef .tc main_v6) = W (Proc.devRef .tc main_v6) := by
  simp only [hostOps4]
  after_results_simp

/-- The accumulating scatter of rows U at a list of target words, from zero: element (c, j) is the sum of U (e, j) over the
    entries e whose word, read signed, is c. -/
theorem scat2 (V : Valuation τ sig (Elt Ideal)) (colA : IVec S850000 32) (U : FVec Ideal S850000x128 .f32)
    (hcol : V (Proc.devRef .tc main_v6) = colA) (hU : V (Proc.devRef .tc main_v39) = U) (c : Fin 50000) (j : Fin 128) :
    (StableHlo.after hostOps4_1 V (Proc.devRef .tc main_v42) (ix2 c j) : EReal)
      = ∑ e ∈ Finset.univ.filter (fun e : Fin 850000 => (colA (ix1 e)).toInt = (c.val : ℤ)), U (ix2 e j) := by
  simp only [hostOps4_1]
  after_results
  rw [hcol, hU]
  exact scat_term colA U c j

/-- After both stretches the result buffer holds, at (c, j), the sum over the edges arriving at c of the source rows. -/
theorem agg2_value (W : Valuation τ sig (Elt Ideal)) (ei : IVec Spec.SEdge 32) (hei : ∀ i, (ei i).toNat < 50000)
    (HS : FVec Ideal S50000x128 .f32) (rowA colA : IVec S850000 32)
    (hHS : W (Proc.devRef .tc main_v38) = HS) (hrow : W (Proc.devRef .tc main_v3) = rowA) (hcol : W (Proc.devRef .tc main_v6) = colA)
    (hr : ∀ e : Fin 850000, rowA (ix1 e) = Spec.endW ei 0 e) (hc : ∀ e : Fin 850000, colA (ix1 e) = Spec.endW ei 1 e)
    (c : Fin 50000) (j : Fin 128) :
    StableHlo.after hostOps4_1 (StableHlo.after hostOps4 W) (Proc.devRef .tc main_v42) (ix2 c j)
      = Spec.seg (Spec.R ei) (Spec.C ei) (fun a b => HS (ix2 a b)) c j :=
  (scat2 (StableHlo.after hostOps4 W) colA (takeTerm HS rowA) ((keep2 W).trans hcol) (take2 W HS rowA hHS hrow) c j).trans
    (agg_of ei hei HS rowA colA hr hc c j)

/-! ## Aggregation 3: the take of the rows of buffer main_v56 at the source list, then the scatter at the target list -/

/-- The take's result buffer holds the printed take of the two arrays read. -/
theorem take3 (W : Valuation τ sig (Elt Ideal)) (HS : FVec Ideal S50000x128 .f32) (rowA : IVec S850000 32)
    (hHS : W (Proc.devRef .tc main_v56) = HS) (hrow : W (Proc.devRef .tc main_v3) = rowA) :
    StableHlo.after hostOps7 W (Proc.devRef .tc main_v57) = takeTerm HS rowA := by
  simp only [hostOps7, StableHlo.TRef.nullary, StableHlo.TRef.unary, StableHlo.TRef.binary, StableHlo.TRef.ternary,
    StableHlo.TRef.ofBuf, StableHlo.TRef.toBuf, cast_eq]
  after_results_simp
  rw [hHS, hrow]

/-- The take leaves the target list alone. -/
theorem keep3 (W : Valuation τ sig (Elt Ideal)) :
    StableHlo.after hostOps7 W (Proc.devRef .tc main_v6) = W (Proc.devRef .tc main_v6) := by
  simp only [hostOps7]
  after_results_simp

/-- The accumulating scatter of rows U at a list of target words, from zero: element (c, j) is the sum of U (e, j) over the
    entries e whose word, read signed, is c. -/
theorem scat3 (V : Valuation τ sig (Elt Ideal)) (colA : IVec S850000 32) (U : FVec Ideal S850000x128 .f32)
    (hcol : V (Proc.devRef .tc main_v6) = colA) (hU : V (Proc.devRef .tc main_v57) = U) (c : Fin 50000) (j : Fin 128) :
    (StableHlo.after hostOps7_1 V (Proc.devRef .tc main_v60) (ix2 c j) : EReal)
      = ∑ e ∈ Finset.univ.filter (fun e : Fin 850000 => (colA (ix1 e)).toInt = (c.val : ℤ)), U (ix2 e j) := by
  simp only [hostOps7_1]
  after_results
  rw [hcol, hU]
  exact scat_term colA U c j

/-- After both stretches the result buffer holds, at (c, j), the sum over the edges arriving at c of the source rows. -/
theorem agg3_value (W : Valuation τ sig (Elt Ideal)) (ei : IVec Spec.SEdge 32) (hei : ∀ i, (ei i).toNat < 50000)
    (HS : FVec Ideal S50000x128 .f32) (rowA colA : IVec S850000 32)
    (hHS : W (Proc.devRef .tc main_v56) = HS) (hrow : W (Proc.devRef .tc main_v3) = rowA) (hcol : W (Proc.devRef .tc main_v6) = colA)
    (hr : ∀ e : Fin 850000, rowA (ix1 e) = Spec.endW ei 0 e) (hc : ∀ e : Fin 850000, colA (ix1 e) = Spec.endW ei 1 e)
    (c : Fin 50000) (j : Fin 128) :
    StableHlo.after hostOps7_1 (StableHlo.after hostOps7 W) (Proc.devRef .tc main_v60) (ix2 c j)
      = Spec.seg (Spec.R ei) (Spec.C ei) (fun a b => HS (ix2 a b)) c j :=
  (scat3 (StableHlo.after hostOps7 W) colA (takeTerm HS rowA) ((keep3 W).trans hcol) (take3 W HS rowA hHS hrow) c j).trans
    (agg_of ei hei HS rowA colA hr hc c j)

end Cert.KernelIdeal.KAgg

end
-- ==== Proof.KMoments.lean ====
/-
  The short host stretches between a layer's column-statistics region and its normalise region, read at an index.

  The statistics region leaves two [1,128] rows: S, the column sums of the aggregated array, and Q, the column sums of
  its squares. The stretch divides each by 50000.0 (giving the mean row and the mean-of-squares row), subtracts the
  square of the mean from the mean of squares, and takes the maximum with 0.0: the clamped one-pass variance. It also
  views the layer's scale and shift vectors of length 128 as [1,128] rows. A one-operation stretch views the next
  layer's bias vector as a row in the same way.

  Every operation here is elementwise or a broadcast of a single word, so entry (0, j) of each result is the scalar
  expression over entry (0, j) of S and Q; viewing a vector of length 128 as a [1,128] row keeps entry j at (0, j)
  because both have the same row-major position j.
-/
import proofs.«404543_j21388937134518_2_alg».proof.Proof.Gen.KernelIdeal.Launch
import proofs.«404543_j21388937134518_2_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

set_option pp.maxSteps 5000
set_option pp.deepTerms false
set_option maxRecDepth 16384

noncomputable section

open scoped BigOperators

namespace Cert.KernelIdeal.KMoments

open Cert.KernelIdeal Cert.KernelIdeal.Gen Idealize.ShloMosaic.StableHlo Idealize.ShloMosaic Idealize.ShloMosaic.ValueIdx

/-- A vector of length 128 viewed as a [1,128] row: entry (0, j) is entry j, both at row-major position j. -/
theorem row_apply (x : FVec Ideal S128 .f32) (j : Fin 128) :
    shapeCast S1x128 x shapeCasts_S128_S1x128 (ix2 0 j) = x (ix1 j) := by
  refine shapeCast_apply _ shapeCasts_S128_S1x128 (ix2 0 j) (ix1 j) ?_
  rw [Shape.rowMajor_val_one, Shape.rowMajor_val_two]; show j.val = 0 * 128 + j.val; omega

/-- Layer 1: from the row S of column sums and the row Q of column sums of squares, entry j of the mean row is
    S[j] / 50000, entry j of the variance row is max (Q[j] / 50000 - mean[j] * mean[j]) 0, and the scale and shift
    vectors reappear unchanged as rows. -/
theorem moments1 (W : Valuation τ sig (Elt Ideal)) (S Q : FVec Ideal S1x128 .f32) (g be : FVec Ideal S128 .f32)
    (hS : W (Proc.devRef .tc main_v25_0) = S) (hQ : W (Proc.devRef .tc main_v25_1) = Q)
    (hg : W (Proc.devRef .tc main_arg9) = g) (hbe : W (Proc.devRef .tc main_arg10) = be) (j : Fin 128) :
    StableHlo.after hostOps2 W (Proc.devRef .tc main_v27) (ix2 0 j) = Ideal.div (S (ix2 0 j)) Spec.cN
    ∧ StableHlo.after hostOps2 W (Proc.devRef .tc main_v33) (ix2 0 j)
        = max (Ideal.div (Q (ix2 0 j)) Spec.cN - Ideal.div (S (ix2 0 j)) Spec.cN * Ideal.div (S (ix2 0 j)) Spec.cN) Spec.cZero
    ∧ StableHlo.after hostOps2 W (Proc.devRef .tc main_v34) (ix2 0 j) = g (ix1 j)
    ∧ StableHlo.after hostOps2 W (Proc.devRef .tc main_v35) (ix2 0 j) = be (ix1 j) := by
  subst hS hQ hg hbe
  refine ⟨?_, ?_, ?_, ?_⟩
  · -- a quotient by the constant row, entry by entry
    after_results_simp
    rfl
  · -- quotient, product, difference and maximum, each entry by entry; both constant rows are one word everywhere
    after_results_simp
    rfl
  · after_results
    exact row_apply _ j
  · after_results
    exact row_apply _ j

/-- Layer 2: the bias vector reappears unchanged as a row. -/
theorem bias2 (W : Valuation τ sig (Elt Ideal)) (b : FVec Ideal S128 .f32)
    (hb : W (Proc.devRef .tc main_arg6) = b) (j : Fin 128) :
    StableHlo.after hostOps3 W (Proc.devRef .tc main_v37) (ix2 0 j) = b (ix1 j) := by
  subst hb
  after_results_simp
  exact row_apply _ j

/-- Layer 2: from the row S of column sums and the row Q of column sums of squares, entry j of the mean row is
    S[j] / 50000, entry j of the variance row is max (Q[j] / 50000 - mean[j] * mean[j]) 0, and the scale and shift
    vectors reappear unchanged as rows. -/
theorem moments2 (W : Valuation τ sig (Elt Ideal)) (S Q : FVec Ideal S1x128 .f32) (g be : FVec Ideal S128 .f32)
    (hS : W (Proc.devRef .tc main_v43_0) = S) (hQ : W (Proc.devRef .tc main_v43_1) = Q)
    (hg : W (Proc.devRef .tc main_arg11) = g) (hbe : W (Proc.devRef .tc main_arg12) = be) (j : Fin 128) :
    StableHlo.after hostOps5 W (Proc.devRef .tc main_v45) (ix2 0 j) = Ideal.div (S (ix2 0 j)) Spec.cN
    ∧ StableHlo.after hostOps5 W (Proc.devRef .tc main_v51) (ix2 0 j)
        = max (Ideal.div (Q (ix2 0 j)) Spec.cN - Ideal.div (S (ix2 0 j)) Spec.cN * Ideal.div (S (ix2 0 j)) Spec.cN) Spec.cZero
    ∧ StableHlo.after hostOps5 W (Proc.devRef .tc main_v52) (ix2 0 j) = g (ix1 j)
    ∧ StableHlo.after hostOps5 W (Proc.devRef .tc main_v53) (ix2 0 j) = be (ix1 j) := by
  subst hS hQ hg hbe
  refine ⟨?_, ?_, ?_, ?_⟩
  · -- a quotient by the constant row, entry by entry
    after_results_simp
    rfl
  · -- quotient, product, difference and maximum, each entry by entry; both constant rows are one word everywhere
    after_results_simp
    rfl
  · after_results
    exact row_apply _ j
  · after_results
    exact row_apply _ j

/-- Layer 3: the bias vector reappears unchanged as a row. -/
theorem bias3 (W : Valuation τ sig (Elt Ideal)) (b : FVec Ideal S128 .f32)
    (hb : W (Proc.devRef .tc main_arg8) = b) (j : Fin 128) :
    StableHlo.after hostOps6 W (Proc.devRef .tc main_v55) (ix2 0 j) = b (ix1 j) := by
  subst hb
  after_results_simp
  exact row_apply _ j

/-- Layer 3: from the row S of column sums and the row Q of column sums of squares, entry j of the mean row is
    S[j] / 50000, entry j of the variance row is max (Q[j] / 50000 - mean[j] * mean[j]) 0, and the scale and shift
    vectors reappear unchanged as rows. -/
theorem moments3 (W : Valuation τ sig (Elt Ideal)) (S Q : FVec Ideal S1x128 .f32) (g be : FVec Ideal S128 .f32)
    (hS : W (Proc.devRef .tc main_v61_0) = S) (hQ : W (Proc.devRef .tc main_v61_1) = Q)
    (hg : W (Proc.devRef .tc main_arg13) = g) (hbe : W (Proc.devRef .tc main_arg14) = be) (j : Fin 128) :
    StableHlo.after hostOps8 W (Proc.devRef .tc main_v63) (ix2 0 j) = Ideal.div (S (ix2 0 j)) Spec.cN
    ∧ StableHlo.after hostOps8 W (Proc.devRef .tc main_v69) (ix2 0 j)
        = max (Ideal.div (Q (ix2 0 j)) Spec.cN - Ideal.div (S (ix2 0 j)) Spec.cN * Ideal.div (S (ix2 0 j)) Spec.cN) Spec.cZero
    ∧ StableHlo.after hostOps8 W (Proc.devRef .tc main_v70) (ix2 0 j) = g (ix1 j)
    ∧ StableHlo.after hostOps8 W (Proc.devRef .tc main_v71) (ix2 0 j) = be (ix1 j) := by
  subst hS hQ hg hbe
  refine ⟨?_, ?_, ?_, ?_⟩
  · -- a quotient by the constant row, entry by entry
    after_results_simp
    rfl
  · -- quotient, product, difference and maximum, each entry by entry; both constant rows are one word everywhere
    after_results_simp
    rfl
  · after_results
    exact row_apply _ j
  · after_results
    exact row_apply _ j

end Cert.KernelIdeal.KMoments
-- ==== Proof.KTail.lean ====
/-
  The last host stretch of the kernel program before the decode, read as mathematics.

  From the pair table (4096 pairs, two sides) each side's column is taken as a vector, one is subtracted (the table
  counts rows from one), 50000 is added where the result is negative, and the rows of the last layer at those
  row numbers (read signed, clamped into the 50000 rows) are collected: block `a` for side 0, block `bb` for side 1.
  The two parameter matrices are multiplied once for all pairs: `m = (p1 p2) p1ᵀ`.
  Each of the three results is stated at an index, in the words of the specification: the gathered blocks are the
  last layer at row `drugNode di s r`, the product is `mK p1 p2`.
-/
import proofs.«404543_j21388937134518_2_alg».proof.Proof.Gen.KernelIdeal.Launch
import proofs.«404543_j21388937134518_2_alg».proof.Proof.Spec
import proofs.«404543_j21388937134518_2_alg».proof.Proof.SpecGraph
import proofs.«404543_j21388937134518_2_alg».proof.Proof.LibGatherScatter
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.KTail

open Cert.KernelIdeal Cert.KernelIdeal.Gen Idealize.ShloMosaic Idealize.ShloMosaic.ValueIdx

/-! ## The two gathered blocks -/

/-- The column of row numbers the program prepares from one side of the pair table: the side's column as a vector,
    less one, plus 50000 where that is negative, as a one-column matrix. -/
def idxCol (off : Fin 2 → Nat) (h : S4096x2.Slices off S4096x1) (di : IVec S4096x2 32) : IVec S4096x1 32 :=
  broadcastInDim S4096x1 ![0] bcast_S4096_S4096x1_0
    (select
      (cmpi .slt
        (subi (shapeCast S4096 (extractStridedSlice S4096x1 off di h) shapeCasts_S4096x1_S4096)
          (broadcastInDim S4096 ![] bcast_S_S4096 (constantI S_ 32 1#32)))
        (broadcastInDim S4096 ![] bcast_S_S4096 (constantI S_ 32 0#32)))
      (addi
        (subi (shapeCast S4096 (extractStridedSlice S4096x1 off di h) shapeCasts_S4096x1_S4096)
          (broadcastInDim S4096 ![] bcast_S_S4096 (constantI S_ 32 1#32)))
        (broadcastInDim S4096 ![] bcast_S_S4096 (constantI S_ 32 50000#32)))
      (subi (shapeCast S4096 (extractStridedSlice S4096x1 off di h) shapeCasts_S4096x1_S4096)
        (broadcastInDim S4096 ![] bcast_S_S4096 (constantI S_ 32 1#32))))

/-- After the stretch the first gathered block is the rows of the last layer at side 0's column. -/
theorem tail_a_e (W : Valuation τ sig (Elt Ideal)) :
    StableHlo.after hostOps9 W (Proc.devRef .tc main_v83)
      = Host.gather gather_S50000x128_S4096x1_S4096x128_1_0_n_n_0_1_1128 (W (Proc.devRef .tc main_v72))
          (idxCol ![0, 0] slices_S4096x2_S4096x1_0_0 (W (Proc.devRef .tc main_arg2))) := by
  unfold idxCol
  after_results_simp
  rfl

/-- A vector as a one-column matrix reads, at (r, 0), the vector at r. -/
theorem col1_apply {α : Type} (v : S4096.Idx → α) (r : Fin 4096) :
    broadcastInDim S4096x1 ![0] bcast_S4096_S4096x1_0 v (ix2 r 0) = v (ix1 r) := by
  simp only [broadcastInDim]
  congr 1
  funext a
  match a with
  | ⟨0, _⟩ =>
    apply Fin.ext
    split
    · next h1 => exact absurd (show (4096 : Nat) = 1 from h1) (by decide)
    · rfl

/-- A word spread over the vector reads that word everywhere. -/
theorem splat_apply (c : BitVec 32) (i : S4096.Idx) :
    broadcastInDim S4096 ![] bcast_S_S4096 (constantI S_ 32 c) i = c := rfl

/-- One side's column of the pair table, cut out and laid as a vector, reads at r the table at (r, c). -/
theorem side_apply (off : Fin 2 → Nat) (h : S4096x2.Slices off S4096x1) (c : Fin 2) (h0 : off 0 = 0) (h1 : off 1 = c.val)
    (di : IVec S4096x2 32) (r : Fin 4096) :
    shapeCast S4096 (extractStridedSlice S4096x1 off di h) shapeCasts_S4096x1_S4096 (ix1 r) = di (ix2 r c) := by
  refine (shapeCast_apply _ shapeCasts_S4096x1_S4096 (ix1 r) (ix2 r 0) ?_).trans ?_
  · rw [Shape.rowMajor_val_one, Shape.rowMajor_val_two]; show r.val * 1 + 0 = r.val; omega
  refine extractStridedSlice_apply off di h (ix2 r 0) (ix2 r c) fun a => ?_
  match a with
  | ⟨0, _⟩ => show r.val = off 0 + r.val; omega
  | ⟨1, _⟩ => show c.val = off 1 + 0; omega

/-- The prepared column at (r, 0) is the specification's word for pair r on side c. -/
theorem idxCol_apply (off : Fin 2 → Nat) (h : S4096x2.Slices off S4096x1) (c : Fin 2) (h0 : off 0 = 0) (h1 : off 1 = c.val)
    (di : IVec Spec.SDrug 32) (r : Fin 4096) :
    idxCol off h di (ix2 r 0) = Spec.drugW di c r := by
  unfold idxCol Spec.drugW
  rw [col1_apply]
  show Scalar.select (IntOp.cmpi .slt
        (shapeCast S4096 (extractStridedSlice S4096x1 off di h) shapeCasts_S4096x1_S4096 (ix1 r)
          - broadcastInDim S4096 ![] bcast_S_S4096 (constantI S_ 32 1#32) (ix1 r))
        (broadcastInDim S4096 ![] bcast_S_S4096 (constantI S_ 32 0#32) (ix1 r)))
      (shapeCast S4096 (extractStridedSlice S4096x1 off di h) shapeCasts_S4096x1_S4096 (ix1 r)
          - broadcastInDim S4096 ![] bcast_S_S4096 (constantI S_ 32 1#32) (ix1 r)
        + broadcastInDim S4096 ![] bcast_S_S4096 (constantI S_ 32 50000#32) (ix1 r))
      (shapeCast S4096 (extractStridedSlice S4096x1 off di h) shapeCasts_S4096x1_S4096 (ix1 r)
          - broadcastInDim S4096 ![] bcast_S_S4096 (constantI S_ 32 1#32) (ix1 r)) = _
  rw [side_apply off h c h0 h1 di r, splat_apply, splat_apply, splat_apply]

/-- After the stretch the first gathered block holds, at (r, k), the last layer at row `drugNode di 0 r`. -/
theorem tail_a (W : Valuation τ sig (Elt Ideal)) (H : FVec Ideal S50000x128 .f32) (di : IVec Spec.SDrug 32)
    (hH : W (Proc.devRef .tc main_v72) = H) (hdi : W (Proc.devRef .tc main_arg2) = di) (r : Fin 4096) (k : Fin 128) :
    StableHlo.after hostOps9 W (Proc.devRef .tc main_v83) (ix2 r k) = H (ix2 (Spec.drugNode di 0 r) k) := by
  rw [tail_a_e, hH, hdi,
    LibGatherScatter.gather_rows gather_S50000x128_S4096x1_S4096x128_1_0_n_n_0_1_1128 rfl rfl rfl rfl rfl rfl H
      (idxCol ![0, 0] slices_S4096x2_S4096x1_0_0 di) r k (by norm_num)]
  refine congrArg (fun i : Fin 50000 => H (ix2 i k)) (Fin.ext ?_)
  show min (idxCol ![0, 0] slices_S4096x2_S4096x1_0_0 di (ix2 r 0)).toInt.toNat (50000 - 1)
    = min (Spec.drugW di 0 r).toInt.toNat 49999
  rw [idxCol_apply ![0, 0] slices_S4096x2_S4096x1_0_0 0 rfl rfl di r]

/-- After the stretch the second gathered block is the rows of the last layer at side 1's column. -/
theorem tail_bb_e (W : Valuation τ sig (Elt Ideal)) :
    StableHlo.after hostOps9 W (Proc.devRef .tc main_v94)
      = Host.gather gather_S50000x128_S4096x1_S4096x128_1_0_n_n_0_1_1128 (W (Proc.devRef .tc main_v72))
          (idxCol ![0, 1] slices_S4096x2_S4096x1_0_1 (W (Proc.devRef .tc main_arg2))) := by
  unfold idxCol
  after_results_simp
  rfl

/-- After the stretch the second gathered block holds, at (r, k), the last layer at row `drugNode di 1 r`. -/
theorem tail_bb (W : Valuation τ sig (Elt Ideal)) (H : FVec Ideal S50000x128 .f32) (di : IVec Spec.SDrug 32)
    (hH : W (Proc.devRef .tc main_v72) = H) (hdi : W (Proc.devRef .tc main_arg2) = di) (r : Fin 4096) (k : Fin 128) :
    StableHlo.after hostOps9 W (Proc.devRef .tc main_v94) (ix2 r k) = H (ix2 (Spec.drugNode di 1 r) k) := by
  rw [tail_bb_e, hH, hdi,
    LibGatherScatter.gather_rows gather_S50000x128_S4096x1_S4096x128_1_0_n_n_0_1_1128 rfl rfl rfl rfl rfl rfl H
      (idxCol ![0, 1] slices_S4096x2_S4096x1_0_1 di) r k (by norm_num)]
  refine congrArg (fun i : Fin 50000 => H (ix2 i k)) (Fin.ext ?_)
  show min (idxCol ![0, 1] slices_S4096x2_S4096x1_0_1 di (ix2 r 0)).toInt.toNat (50000 - 1)
    = min (Spec.drugW di 1 r).toInt.toNat 49999
  rw [idxCol_apply ![0, 1] slices_S4096x2_S4096x1_0_1 1 rfl rfl di r]

/-! ## The product of the parameter matrices -/

/-- The product (p1 p2) p1ᵀ as the program spells it: two host products and a transpose. -/
def mTerm (p1 p2 : FVec Ideal S128x128 .f32) : FVec Ideal S128x128 .f32 :=
  Host.dotGeneral (φ₁ := .f32) (φ₂ := .f32) dot_S128x128_S128x128_S128x128_1_0_0_1_n_n (some .fp32)
    (Host.dotGeneral (φ₁ := .f32) (φ₂ := .f32) dot_S128x128_S128x128_S128x128_1_0_0_1_n_n (some .fp32) p1 p2)
    (transpose S128x128 [1, 0] p1 transposes_S128x128_S128x128_1_0)

/-- After the stretch the product buffer holds that term of the two parameter matrices. -/
theorem tail_m_e (W : Valuation τ sig (Elt Ideal)) :
    StableHlo.after hostOps9 W (Proc.devRef .tc main_v97)
      = mTerm (W (Proc.devRef .tc main_arg15)) (W (Proc.devRef .tc main_arg16)) := by
  unfold mTerm
  after_results_simp

/-- A 128 by 128 host product at (a, b): the sum over the contracted coordinate of the entries' products. -/
theorem dot_apply (A B : FVec Ideal S128x128 .f32) (a b : Fin 128) :
    Host.dotGeneral (φ₁ := .f32) (φ₂ := .f32) dot_S128x128_S128x128_S128x128_1_0_0_1_n_n (some .fp32) A B (ix2 a b)
      = ∑ c : Fin 128, A (ix2 a c) * B (ix2 c b) := by
  show FloatOps.dotGeneral _ _ _ A B (ix2 a b) = _
  rw [Ideal.dotGeneral_apply,
    ← Equiv.sum_comp (contrEquiv1 dot_S128x128_S128x128_S128x128_1_0_0_1_n_n 128 rfl rfl).symm]
  refine Finset.sum_congr rfl fun c _ => ?_
  have c2 := contrEquiv1_symm_val dot_S128x128_S128x128_S128x128_1_0_0_1_n_n 128 rfl rfl c
  have l2 : dot_S128x128_S128x128_S128x128_1_0_0_1_n_n.lhsIdx (ix2 a b)
      ((contrEquiv1 dot_S128x128_S128x128_S128x128_1_0_0_1_n_n 128 rfl rfl).symm c) = ix2 a c := by
    funext ax; apply Fin.ext
    match ax with
    | ⟨0, _⟩ => simp [DotDims.lhsIdx, dot_S128x128_S128x128_S128x128_1_0_0_1_n_n]; rfl
    | ⟨1, _⟩ => simp [DotDims.lhsIdx, dot_S128x128_S128x128_S128x128_1_0_0_1_n_n]; exact c2
  have r2 : dot_S128x128_S128x128_S128x128_1_0_0_1_n_n.rhsIdx (ix2 a b)
      ((contrEquiv1 dot_S128x128_S128x128_S128x128_1_0_0_1_n_n 128 rfl rfl).symm c) = ix2 c b := by
    funext ax; apply Fin.ext
    match ax with
    | ⟨0, _⟩ => simp [DotDims.rhsIdx, dot_S128x128_S128x128_S128x128_1_0_0_1_n_n]; exact c2
    | ⟨1, _⟩ => simp [DotDims.rhsIdx, dot_S128x128_S128x128_S128x128_1_0_0_1_n_n]; rfl
  rw [l2, r2]

/-- The transpose at (a, b) is the matrix at (b, a). -/
theorem tr_apply (A : FVec Ideal S128x128 .f32) (a b : Fin 128) :
    transpose S128x128 [1, 0] A transposes_S128x128_S128x128_1_0 (ix2 a b) = A (ix2 b a) := by
  refine transpose_apply [1, 0] A transposes_S128x128_S128x128_1_0 (ix2 a b) (ix2 b a) fun c => ?_
  match c with
  | ⟨0, _⟩ => rfl
  | ⟨1, _⟩ => rfl

/-- After the stretch the product buffer holds (p1 p2) p1ᵀ. -/
theorem tail_m (W : Valuation τ sig (Elt Ideal)) (p1 p2 : FVec Ideal S128x128 .f32)
    (h15 : W (Proc.devRef .tc main_arg15) = p1) (h16 : W (Proc.devRef .tc main_arg16) = p2) (k j : Fin 128) :
    StableHlo.after hostOps9 W (Proc.devRef .tc main_v97) (ix2 k j)
      = Spec.mK (fun a b => p1 (ix2 a b)) (fun a b => p2 (ix2 a b)) k j := by
  rw [tail_m_e, h15, h16]
  show (mTerm p1 p2 (ix2 k j) : EReal) = _
  unfold mTerm Spec.mK
  rw [dot_apply]
  refine Finset.sum_congr rfl fun l _ => ?_
  rw [dot_apply, tr_apply]

end Cert.KernelIdeal.KTail

end
-- ==== Proof.KChain.lean ====
/- Read-back facts for the buffer contents at the segment boundaries of the program: a buffer that no host
   operation of a stretch writes keeps its contents through the stretch; a buffer that is not among a region's
   arrays keeps its contents through the region; a buffer that a region only reads (an input window) is left
   by the region as it was entered.  Chaining these steps, each fact below says that a buffer read at a later
   boundary holds what it held at an earlier one (for the arguments: what the launch memory holds). -/
import proofs.«404543_j21388937134518_2_alg».proof.Proof.Gen.KernelIdeal.Frame

set_option maxRecDepth 16384

noncomputable section

namespace Cert.KernelIdeal.KChain

open Cert.KernelIdeal Cert.KernelIdeal.Gen Idealize.ShloMosaic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One host stretch leaves the buffer `b` alone: none of the stretch's operations has `b` among the buffers it
    writes (each operation writes one literal buffer, and that buffer is a different reference). -/
macro "host_step " h:ident b:ident : term =>
  `(StableHlo.after_of_forall_not_mem (b := Proc.devRef .tc $b) _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, StableHlo.TRef.nullary, StableHlo.TRef.unary, StableHlo.TRef.binary,
        StableHlo.TRef.ternary, StableHlo.TRef.of, Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg) (c : Dev nD)

/-! ## The per-node scale column `main_v18`: every region only reads it, no host stretch writes it -/

theorem v18_W4 : W4 m ρ c (Proc.devRef .tc main_v18) = W1 m ρ c (Proc.devRef .tc main_v18) :=
  calc W4 m ρ c (Proc.devRef .tc main_v18)
    _ = W3 m ρ c (Proc.devRef .tc main_v18) := host_step hostOps1_1 main_v18
    _ = W2 m ρ c (Proc.devRef .tc main_v18) := host_step hostOps1 main_v18
    _ = W1 m ρ c (Proc.devRef .tc main_v18) := (W2_arr m ρ c 3).trans (((dat0 (V1 m ρ) c).arrAt_in 3 rfl _).trans (A_eq0 (V1 m ρ) c 3))

theorem v18_W6 : W6 m ρ c (Proc.devRef .tc main_v18) = W4 m ρ c (Proc.devRef .tc main_v18) :=
  calc W6 m ρ c (Proc.devRef .tc main_v18)
    _ = W5 m ρ c (Proc.devRef .tc main_v18) := host_step hostOps2 main_v18
    _ = W4 m ρ c (Proc.devRef .tc main_v18) := (W5_arr m ρ c 1).trans (((dat1 (V4 m ρ) c).arrAt_in 1 rfl _).trans (A_eq1 (V4 m ρ) c 1))

theorem v18_W8 : W8 m ρ c (Proc.devRef .tc main_v18) = W6 m ρ c (Proc.devRef .tc main_v18) :=
  calc W8 m ρ c (Proc.devRef .tc main_v18)
    _ = W7 m ρ c (Proc.devRef .tc main_v18) := host_step hostOps3 main_v18
    _ = W6 m ρ c (Proc.devRef .tc main_v18) := (W7_arr m ρ c 1).trans (((dat2 (V6 m ρ) c).arrAt_in 1 rfl _).trans (A_eq2 (V6 m ρ) c 1))

theorem v18_W11 : W11 m ρ c (Proc.devRef .tc main_v18) = W8 m ρ c (Proc.devRef .tc main_v18) :=
  calc W11 m ρ c (Proc.devRef .tc main_v18)
    _ = W10 m ρ c (Proc.devRef .tc main_v18) := host_step hostOps4_1 main_v18
    _ = W9 m ρ c (Proc.devRef .tc main_v18) := host_step hostOps4 main_v18
    _ = W8 m ρ c (Proc.devRef .tc main_v18) := (W9_arr m ρ c 3).trans (((dat3 (V8 m ρ) c).arrAt_in 3 rfl _).trans (A_eq3 (V8 m ρ) c 3))

theorem v18_W13 : W13 m ρ c (Proc.devRef .tc main_v18) = W11 m ρ c (Proc.devRef .tc main_v18) :=
  calc W13 m ρ c (Proc.devRef .tc main_v18)
    _ = W12 m ρ c (Proc.devRef .tc main_v18) := host_step hostOps5 main_v18
    _ = W11 m ρ c (Proc.devRef .tc main_v18) := (W12_arr m ρ c 1).trans (((dat4 (V11 m ρ) c).arrAt_in 1 rfl _).trans (A_eq4 (V11 m ρ) c 1))

theorem v18_W15 : W15 m ρ c (Proc.devRef .tc main_v18) = W13 m ρ c (Proc.devRef .tc main_v18) :=
  calc W15 m ρ c (Proc.devRef .tc main_v18)
    _ = W14 m ρ c (Proc.devRef .tc main_v18) := host_step hostOps6 main_v18
    _ = W13 m ρ c (Proc.devRef .tc main_v18) := (W14_arr m ρ c 1).trans (((dat5 (V13 m ρ) c).arrAt_in 1 rfl _).trans (A_eq5 (V13 m ρ) c 1))

theorem v18_W18 : W18 m ρ c (Proc.devRef .tc main_v18) = W15 m ρ c (Proc.devRef .tc main_v18) :=
  calc W18 m ρ c (Proc.devRef .tc main_v18)
    _ = W17 m ρ c (Proc.devRef .tc main_v18) := host_step hostOps7_1 main_v18
    _ = W16 m ρ c (Proc.devRef .tc main_v18) := host_step hostOps7 main_v18
    _ = W15 m ρ c (Proc.devRef .tc main_v18) := (W16_arr m ρ c 3).trans (((dat6 (V15 m ρ) c).arrAt_in 3 rfl _).trans (A_eq6 (V15 m ρ) c 3))

theorem v18_W20 : W20 m ρ c (Proc.devRef .tc main_v18) = W18 m ρ c (Proc.devRef .tc main_v18) :=
  calc W20 m ρ c (Proc.devRef .tc main_v18)
    _ = W19 m ρ c (Proc.devRef .tc main_v18) := host_step hostOps8 main_v18
    _ = W18 m ρ c (Proc.devRef .tc main_v18) := (W19_arr m ρ c 1).trans (((dat7 (V18 m ρ) c).arrAt_in 1 rfl _).trans (A_eq7 (V18 m ρ) c 1))

/-! ## The source list `main_v3` and the target list `main_v6`: no region has them among its arrays -/

theorem v3_W2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem v3_W9 : W9 m ρ c (Proc.devRef .tc main_v3) = W2 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := host_step hostOps3 main_v3
    _ = W6 m ρ c (Proc.devRef .tc main_v3) := W7_of_ne m ρ c main_v3 (by decide)
    _ = W5 m ρ c (Proc.devRef .tc main_v3) := host_step hostOps2 main_v3
    _ = W4 m ρ c (Proc.devRef .tc main_v3) := W5_of_ne m ρ c main_v3 (by decide)
    _ = W3 m ρ c (Proc.devRef .tc main_v3) := host_step hostOps1_1 main_v3
    _ = W2 m ρ c (Proc.devRef .tc main_v3) := host_step hostOps1 main_v3

theorem v3_W16 : W16 m ρ c (Proc.devRef .tc main_v3) = W9 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := host_step hostOps6 main_v3
    _ = W13 m ρ c (Proc.devRef .tc main_v3) := W14_of_ne m ρ c main_v3 (by decide)
    _ = W12 m ρ c (Proc.devRef .tc main_v3) := host_step hostOps5 main_v3
    _ = W11 m ρ c (Proc.devRef .tc main_v3) := W12_of_ne m ρ c main_v3 (by decide)
    _ = W10 m ρ c (Proc.devRef .tc main_v3) := host_step hostOps4_1 main_v3
    _ = W9 m ρ c (Proc.devRef .tc main_v3) := host_step hostOps4 main_v3

theorem v6_W3 : W3 m ρ c (Proc.devRef .tc main_v6) = W1 m ρ c (Proc.devRef .tc main_v6) :=
  calc W3 m ρ c (Proc.devRef .tc main_v6)
    _ = W2 m ρ c (Proc.devRef .tc main_v6) := host_step hostOps1 main_v6
    _ = W1 m ρ c (Proc.devRef .tc main_v6) := W2_of_ne m ρ c main_v6 (by decide)

theorem v6_W10 : W10 m ρ c (Proc.devRef .tc main_v6) = W3 m ρ c (Proc.devRef .tc main_v6) :=
  calc W10 m ρ c (Proc.devRef .tc main_v6)
    _ = W9 m ρ c (Proc.devRef .tc main_v6) := host_step hostOps4 main_v6
    _ = W8 m ρ c (Proc.devRef .tc main_v6) := W9_of_ne m ρ c main_v6 (by decide)
    _ = W7 m ρ c (Proc.devRef .tc main_v6) := host_step hostOps3 main_v6
    _ = W6 m ρ c (Proc.devRef .tc main_v6) := W7_of_ne m ρ c main_v6 (by decide)
    _ = W5 m ρ c (Proc.devRef .tc main_v6) := host_step hostOps2 main_v6
    _ = W4 m ρ c (Proc.devRef .tc main_v6) := W5_of_ne m ρ c main_v6 (by decide)
    _ = W3 m ρ c (Proc.devRef .tc main_v6) := host_step hostOps1_1 main_v6

theorem v6_W17 : W17 m ρ c (Proc.devRef .tc main_v6) = W10 m ρ c (Proc.devRef .tc main_v6) :=
  calc W17 m ρ c (Proc.devRef .tc main_v6)
    _ = W16 m ρ c (Proc.devRef .tc main_v6) := host_step hostOps7 main_v6
    _ = W15 m ρ c (Proc.devRef .tc main_v6) := W16_of_ne m ρ c main_v6 (by decide)
    _ = W14 m ρ c (Proc.devRef .tc main_v6) := host_step hostOps6 main_v6
    _ = W13 m ρ c (Proc.devRef .tc main_v6) := W14_of_ne m ρ c main_v6 (by decide)
    _ = W12 m ρ c (Proc.devRef .tc main_v6) := host_step hostOps5 main_v6
    _ = W11 m ρ c (Proc.devRef .tc main_v6) := W12_of_ne m ρ c main_v6 (by decide)
    _ = W10 m ρ c (Proc.devRef .tc main_v6) := host_step hostOps4_1 main_v6

theorem v6_W2 : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem v6_W9 : W9 m ρ c (Proc.devRef .tc main_v6) = W2 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := host_step hostOps3 main_v6
    _ = W6 m ρ c (Proc.devRef .tc main_v6) := W7_of_ne m ρ c main_v6 (by decide)
    _ = W5 m ρ c (Proc.devRef .tc main_v6) := host_step hostOps2 main_v6
    _ = W4 m ρ c (Proc.devRef .tc main_v6) := W5_of_ne m ρ c main_v6 (by decide)
    _ = W3 m ρ c (Proc.devRef .tc main_v6) := host_step hostOps1_1 main_v6
    _ = W2 m ρ c (Proc.devRef .tc main_v6) := host_step hostOps1 main_v6

theorem v6_W16 : W16 m ρ c (Proc.devRef .tc main_v6) = W9 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := host_step hostOps6 main_v6
    _ = W13 m ρ c (Proc.devRef .tc main_v6) := W14_of_ne m ρ c main_v6 (by decide)
    _ = W12 m ρ c (Proc.devRef .tc main_v6) := host_step hostOps5 main_v6
    _ = W11 m ρ c (Proc.devRef .tc main_v6) := W12_of_ne m ρ c main_v6 (by decide)
    _ = W10 m ρ c (Proc.devRef .tc main_v6) := host_step hostOps4_1 main_v6
    _ = W9 m ρ c (Proc.devRef .tc main_v6) := host_step hostOps4 main_v6

/-! ## Two one-step facts: a bias row is not written by the short stretch before the next region -/

theorem v36_W8 : W8 m ρ c (Proc.devRef .tc main_v36) = W7 m ρ c (Proc.devRef .tc main_v36) :=
  calc W8 m ρ c (Proc.devRef .tc main_v36)
    _ = W7 m ρ c (Proc.devRef .tc main_v36) := host_step hostOps3 main_v36

theorem v54_W15 : W15 m ρ c (Proc.devRef .tc main_v54) = W14 m ρ c (Proc.devRef .tc main_v54) :=
  calc W15 m ρ c (Proc.devRef .tc main_v54)
    _ = W14 m ρ c (Proc.devRef .tc main_v54) := host_step hostOps6 main_v54

/-! ## The aggregates, each read by two consecutive regions as their first input -/

theorem v24_W6 : W6 m ρ c (Proc.devRef .tc main_v24) = W4 m ρ c (Proc.devRef .tc main_v24) :=
  calc W6 m ρ c (Proc.devRef .tc main_v24)
    _ = W5 m ρ c (Proc.devRef .tc main_v24) := host_step hostOps2 main_v24
    _ = W4 m ρ c (Proc.devRef .tc main_v24) := (W5_arr m ρ c 0).trans (((dat1 (V4 m ρ) c).arrAt_in 0 rfl _).trans (A_eq1 (V4 m ρ) c 0))

theorem v42_W13 : W13 m ρ c (Proc.devRef .tc main_v42) = W11 m ρ c (Proc.devRef .tc main_v42) :=
  calc W13 m ρ c (Proc.devRef .tc main_v42)
    _ = W12 m ρ c (Proc.devRef .tc main_v42) := host_step hostOps5 main_v42
    _ = W11 m ρ c (Proc.devRef .tc main_v42) := (W12_arr m ρ c 0).trans (((dat4 (V11 m ρ) c).arrAt_in 0 rfl _).trans (A_eq4 (V11 m ρ) c 0))

theorem v60_W20 : W20 m ρ c (Proc.devRef .tc main_v60) = W18 m ρ c (Proc.devRef .tc main_v60) :=
  calc W20 m ρ c (Proc.devRef .tc main_v60)
    _ = W19 m ρ c (Proc.devRef .tc main_v60) := host_step hostOps8 main_v60
    _ = W18 m ρ c (Proc.devRef .tc main_v60) := (W19_arr m ρ c 0).trans (((dat7 (V18 m ρ) c).arrAt_in 0 rfl _).trans (A_eq7 (V18 m ρ) c 0))

/-! ## The arguments, each read back to the launch memory from the boundary where it is used -/

theorem arg0_W1 : W1 m ρ c (Proc.devRef .tc main_arg0) = m ((c : Thread nD τ).loc main_arg0) :=
  calc W1 m ρ c (Proc.devRef .tc main_arg0)
    _ = W0 m ρ c (Proc.devRef .tc main_arg0) := host_step hostOps0 main_arg0
    _ = m ((c : Thread nD τ).loc main_arg0) := rfl

theorem arg3_W1 : W1 m ρ c (Proc.devRef .tc main_arg3) = m ((c : Thread nD τ).loc main_arg3) :=
  calc W1 m ρ c (Proc.devRef .tc main_arg3)
    _ = W0 m ρ c (Proc.devRef .tc main_arg3) := host_step hostOps0 main_arg3
    _ = m ((c : Thread nD τ).loc main_arg3) := rfl

theorem arg9_W5 : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := host_step hostOps1_1 main_arg9
    _ = W2 m ρ c (Proc.devRef .tc main_arg9) := host_step hostOps1 main_arg9
    _ = W1 m ρ c (Proc.devRef .tc main_arg9) := W2_of_ne m ρ c main_arg9 (by decide)
    _ = W0 m ρ c (Proc.devRef .tc main_arg9) := host_step hostOps0 main_arg9
    _ = m ((c : Thread nD τ).loc main_arg9) := rfl

theorem arg10_W5 : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := host_step hostOps1_1 main_arg10
    _ = W2 m ρ c (Proc.devRef .tc main_arg10) := host_step hostOps1 main_arg10
    _ = W1 m ρ c (Proc.devRef .tc main_arg10) := W2_of_ne m ρ c main_arg10 (by decide)
    _ = W0 m ρ c (Proc.devRef .tc main_arg10) := host_step hostOps0 main_arg10
    _ = m ((c : Thread nD τ).loc main_arg10) := rfl

theorem arg6_W7 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := host_step hostOps2 main_arg6
    _ = W4 m ρ c (Proc.devRef .tc main_arg6) := W5_of_ne m ρ c main_arg6 (by decide)
    _ = W3 m ρ c (Proc.devRef .tc main_arg6) := host_step hostOps1_1 main_arg6
    _ = W2 m ρ c (Proc.devRef .tc main_arg6) := host_step hostOps1 main_arg6
    _ = W1 m ρ c (Proc.devRef .tc main_arg6) := W2_of_ne m ρ c main_arg6 (by decide)
    _ = W0 m ρ c (Proc.devRef .tc main_arg6) := host_step hostOps0 main_arg6
    _ = m ((c : Thread nD τ).loc main_arg6) := rfl

theorem arg5_W8 : W8 m ρ c (Proc.devRef .tc main_arg5) = m ((c : Thread nD τ).loc main_arg5) :=
  calc W8 m ρ c (Proc.devRef .tc main_arg5)
    _ = W7 m ρ c (Proc.devRef .tc main_arg5) := host_step hostOps3 main_arg5
    _ = W6 m ρ c (Proc.devRef .tc main_arg5) := W7_of_ne m ρ c main_arg5 (by decide)
    _ = W5 m ρ c (Proc.devRef .tc main_arg5) := host_step hostOps2 main_arg5
    _ = W4 m ρ c (Proc.devRef .tc main_arg5) := W5_of_ne m ρ c main_arg5 (by decide)
    _ = W3 m ρ c (Proc.devRef .tc main_arg5) := host_step hostOps1_1 main_arg5
    _ = W2 m ρ c (Proc.devRef .tc main_arg5) := host_step hostOps1 main_arg5
    _ = W1 m ρ c (Proc.devRef .tc main_arg5) := W2_of_ne m ρ c main_arg5 (by decide)
    _ = W0 m ρ c (Proc.devRef .tc main_arg5) := host_step hostOps0 main_arg5
    _ = m ((c : Thread nD τ).loc main_arg5) := rfl

theorem arg11_W12 : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := host_step hostOps4_1 main_arg11
    _ = W9 m ρ c (Proc.devRef .tc main_arg11) := host_step hostOps4 main_arg11
    _ = W8 m ρ c (Proc.devRef .tc main_arg11) := W9_of_ne m ρ c main_arg11 (by decide)
    _ = W7 m ρ c (Proc.devRef .tc main_arg11) := host_step hostOps3 main_arg11
    _ = W6 m ρ c (Proc.devRef .tc main_arg11) := W7_of_ne m ρ c main_arg11 (by decide)
    _ = W5 m ρ c (Proc.devRef .tc main_arg11) := host_step hostOps2 main_arg11
    _ = W4 m ρ c (Proc.devRef .tc main_arg11) := W5_of_ne m ρ c main_arg11 (by decide)
    _ = W3 m ρ c (Proc.devRef .tc main_arg11) := host_step hostOps1_1 main_arg11
    _ = W2 m ρ c (Proc.devRef .tc main_arg11) := host_step hostOps1 main_arg11
    _ = W1 m ρ c (Proc.devRef .tc main_arg11) := W2_of_ne m ρ c main_arg11 (by decide)
    _ = W0 m ρ c (Proc.devRef .tc main_arg11) := host_step hostOps0 main_arg11
    _ = m ((c : Thread nD τ).loc main_arg11) := rfl

theorem arg12_W12 : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := host_step hostOps4_1 main_arg12
    _ = W9 m ρ c (Proc.devRef .tc main_arg12) := host_step hostOps4 main_arg12
    _ = W8 m ρ c (Proc.devRef .tc main_arg12) := W9_of_ne m ρ c main_arg12 (by decide)
    _ = W7 m ρ c (Proc.devRef .tc main_arg12) := host_step hostOps3 main_arg12
    _ = W6 m ρ c (Proc.devRef .tc main_arg12) := W7_of_ne m ρ c main_arg12 (by decide)
    _ = W5 m ρ c (Proc.devRef .tc main_arg12) := host_step hostOps2 main_arg12
    _ = W4 m ρ c (Proc.devRef .tc main_arg12) := W5_of_ne m ρ c main_arg12 (by decide)
    _ = W3 m ρ c (Proc.devRef .tc main_arg12) := host_step hostOps1_1 main_arg12
    _ = W2 m ρ c (Proc.devRef .tc main_arg12) := host_step hostOps1 main_arg12
    _ = W1 m ρ c (Proc.devRef .tc main_arg12) := W2_of_ne m ρ c main_arg12 (by decide)
    _ = W0 m ρ c (Proc.devRef .tc main_arg12) := host_step hostOps0 main_arg12
    _ = m ((c : Thread nD τ).loc main_arg12) := rfl

theorem arg8_W14 : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := host_step hostOps5 main_arg8
    _ = W11 m ρ c (Proc.devRef .tc main_arg8) := W12_of_ne m ρ c main_arg8 (by decide)
    _ = W10 m ρ c (Proc.devRef .tc main_arg8) := host_step hostOps4_1 main_arg8
    _ = W9 m ρ c (Proc.devRef .tc main_arg8) := host_step hostOps4 main_arg8
    _ = W8 m ρ c (Proc.devRef .tc main_arg8) := W9_of_ne m ρ c main_arg8 (by decide)
    _ = W7 m ρ c (Proc.devRef .tc main_arg8) := host_step hostOps3 main_arg8
    _ = W6 m ρ c (Proc.devRef .tc main_arg8) := W7_of_ne m ρ c main_arg8 (by decide)
    _ = W5 m ρ c (Proc.devRef .tc main_arg8) := host_step hostOps2 main_arg8
    _ = W4 m ρ c (Proc.devRef .tc main_arg8) := W5_of_ne m ρ c main_arg8 (by decide)
    _ = W3 m ρ c (Proc.devRef .tc main_arg8) := host_step hostOps1_1 main_arg8
    _ = W2 m ρ c (Proc.devRef .tc main_arg8) := host_step hostOps1 main_arg8
    _ = W1 m ρ c (Proc.devRef .tc main_arg8) := W2_of_ne m ρ c main_arg8 (by decide)
    _ = W0 m ρ c (Proc.devRef .tc main_arg8) := host_step hostOps0 main_arg8
    _ = m ((c : Thread nD τ).loc main_arg8) := rfl

theorem arg7_W15 : W15 m ρ c (Proc.devRef .tc main_arg7) = m ((c : Thread nD τ).loc main_arg7) :=
  calc W15 m ρ c (Proc.devRef .tc main_arg7)
    _ = W14 m ρ c (Proc.devRef .tc main_arg7) := host_step hostOps6 main_arg7
    _ = W13 m ρ c (Proc.devRef .tc main_arg7) := W14_of_ne m ρ c main_arg7 (by decide)
    _ = W12 m ρ c (Proc.devRef .tc main_arg7) := host_step hostOps5 main_arg7
    _ = W11 m ρ c (Proc.devRef .tc main_arg7) := W12_of_ne m ρ c main_arg7 (by decide)
    _ = W10 m ρ c (Proc.devRef .tc main_arg7) := host_step hostOps4_1 main_arg7
    _ = W9 m ρ c (Proc.devRef .tc main_arg7) := host_step hostOps4 main_arg7
    _ = W8 m ρ c (Proc.devRef .tc main_arg7) := W9_of_ne m ρ c main_arg7 (by decide)
    _ = W7 m ρ c (Proc.devRef .tc main_arg7) := host_step hostOps3 main_arg7
    _ = W6 m ρ c (Proc.devRef .tc main_arg7) := W7_of_ne m ρ c main_arg7 (by decide)
    _ = W5 m ρ c (Proc.devRef .tc main_arg7) := host_step hostOps2 main_arg7
    _ = W4 m ρ c (Proc.devRef .tc main_arg7) := W5_of_ne m ρ c main_arg7 (by decide)
    _ = W3 m ρ c (Proc.devRef .tc main_arg7) := host_step hostOps1_1 main_arg7
    _ = W2 m ρ c (Proc.devRef .tc main_arg7) := host_step hostOps1 main_arg7
    _ = W1 m ρ c (Proc.devRef .tc main_arg7) := W2_of_ne m ρ c main_arg7 (by decide)
    _ = W0 m ρ c (Proc.devRef .tc main_arg7) := host_step hostOps0 main_arg7
    _ = m ((c : Thread nD τ).loc main_arg7) := rfl

theorem arg13_W19 : W19 m ρ c (Proc.devRef .tc main_arg13) = m ((c : Thread nD τ).loc main_arg13) :=
  calc W19 m ρ c (Proc.devRef .tc main_arg13)
    _ = W18 m ρ c (Proc.devRef .tc main_arg13) := W19_of_ne m ρ c main_arg13 (by decide)
    _ = W17 m ρ c (Proc.devRef .tc main_arg13) := host_step hostOps7_1 main_arg13
    _ = W16 m ρ c (Proc.devRef .tc main_arg13) := host_step hostOps7 main_arg13
    _ = W15 m ρ c (Proc.devRef .tc main_arg13) := W16_of_ne m ρ c main_arg13 (by decide)
    _ = W14 m ρ c (Proc.devRef .tc main_arg13) := host_step hostOps6 main_arg13
    _ = W13 m ρ c (Proc.devRef .tc main_arg13) := W14_of_ne m ρ c main_arg13 (by decide)
    _ = W12 m ρ c (Proc.devRef .tc main_arg13) := host_step hostOps5 main_arg13
    _ = W11 m ρ c (Proc.devRef .tc main_arg13) := W12_of_ne m ρ c main_arg13 (by decide)
    _ = W10 m ρ c (Proc.devRef .tc main_arg13) := host_step hostOps4_1 main_arg13
    _ = W9 m ρ c (Proc.devRef .tc main_arg13) := host_step hostOps4 main_arg13
    _ = W8 m ρ c (Proc.devRef .tc main_arg13) := W9_of_ne m ρ c main_arg13 (by decide)
    _ = W7 m ρ c (Proc.devRef .tc main_arg13) := host_step hostOps3 main_arg13
    _ = W6 m ρ c (Proc.devRef .tc main_arg13) := W7_of_ne m ρ c main_arg13 (by decide)
    _ = W5 m ρ c (Proc.devRef .tc main_arg13) := host_step hostOps2 main_arg13
    _ = W4 m ρ c (Proc.devRef .tc main_arg13) := W5_of_ne m ρ c main_arg13 (by decide)
    _ = W3 m ρ c (Proc.devRef .tc main_arg13) := host_step hostOps1_1 main_arg13
    _ = W2 m ρ c (Proc.devRef .tc main_arg13) := host_step hostOps1 main_arg13
    _ = W1 m ρ c (Proc.devRef .tc main_arg13) := W2_of_ne m ρ c main_arg13 (by decide)
    _ = W0 m ρ c (Proc.devRef .tc main_arg13) := host_step hostOps0 main_arg13
    _ = m ((c : Thread nD τ).loc main_arg13) := rfl

theorem arg14_W19 : W19 m ρ c (Proc.devRef .tc main_arg14) = m ((c : Thread nD τ).loc main_arg14) :=
  calc W19 m ρ c (Proc.devRef .tc main_arg14)
    _ = W18 m ρ c (Proc.devRef .tc main_arg14) := W19_of_ne m ρ c main_arg14 (by decide)
    _ = W17 m ρ c (Proc.devRef .tc main_arg14) := host_step hostOps7_1 main_arg14
    _ = W16 m ρ c (Proc.devRef .tc main_arg14) := host_step hostOps7 main_arg14
    _ = W15 m ρ c (Proc.devRef .tc main_arg14) := W16_of_ne m ρ c main_arg14 (by decide)
    _ = W14 m ρ c (Proc.devRef .tc main_arg14) := host_step hostOps6 main_arg14
    _ = W13 m ρ c (Proc.devRef .tc main_arg14) := W14_of_ne m ρ c main_arg14 (by decide)
    _ = W12 m ρ c (Proc.devRef .tc main_arg14) := host_step hostOps5 main_arg14
    _ = W11 m ρ c (Proc.devRef .tc main_arg14) := W12_of_ne m ρ c main_arg14 (by decide)
    _ = W10 m ρ c (Proc.devRef .tc main_arg14) := host_step hostOps4_1 main_arg14
    _ = W9 m ρ c (Proc.devRef .tc main_arg14) := host_step hostOps4 main_arg14
    _ = W8 m ρ c (Proc.devRef .tc main_arg14) := W9_of_ne m ρ c main_arg14 (by decide)
    _ = W7 m ρ c (Proc.devRef .tc main_arg14) := host_step hostOps3 main_arg14
    _ = W6 m ρ c (Proc.devRef .tc main_arg14) := W7_of_ne m ρ c main_arg14 (by decide)
    _ = W5 m ρ c (Proc.devRef .tc main_arg14) := host_step hostOps2 main_arg14
    _ = W4 m ρ c (Proc.devRef .tc main_arg14) := W5_of_ne m ρ c main_arg14 (by decide)
    _ = W3 m ρ c (Proc.devRef .tc main_arg14) := host_step hostOps1_1 main_arg14
    _ = W2 m ρ c (Proc.devRef .tc main_arg14) := host_step hostOps1 main_arg14
    _ = W1 m ρ c (Proc.devRef .tc main_arg14) := W2_of_ne m ρ c main_arg14 (by decide)
    _ = W0 m ρ c (Proc.devRef .tc main_arg14) := host_step hostOps0 main_arg14
    _ = m ((c : Thread nD τ).loc main_arg14) := rfl

theorem arg2_W21 : W21 m ρ c (Proc.devRef .tc main_arg2) = m ((c : Thread nD τ).loc main_arg2) :=
  calc W21 m ρ c (Proc.devRef .tc main_arg2)
    _ = W20 m ρ c (Proc.devRef .tc main_arg2) := W21_of_ne m ρ c main_arg2 (by decide)
    _ = W19 m ρ c (Proc.devRef .tc main_arg2) := host_step hostOps8 main_arg2
    _ = W18 m ρ c (Proc.devRef .tc main_arg2) := W19_of_ne m ρ c main_arg2 (by decide)
    _ = W17 m ρ c (Proc.devRef .tc main_arg2) := host_step hostOps7_1 main_arg2
    _ = W16 m ρ c (Proc.devRef .tc main_arg2) := host_step hostOps7 main_arg2
    _ = W15 m ρ c (Proc.devRef .tc main_arg2) := W16_of_ne m ρ c main_arg2 (by decide)
    _ = W14 m ρ c (Proc.devRef .tc main_arg2) := host_step hostOps6 main_arg2
    _ = W13 m ρ c (Proc.devRef .tc main_arg2) := W14_of_ne m ρ c main_arg2 (by decide)
    _ = W12 m ρ c (Proc.devRef .tc main_arg2) := host_step hostOps5 main_arg2
    _ = W11 m ρ c (Proc.devRef .tc main_arg2) := W12_of_ne m ρ c main_arg2 (by decide)
    _ = W10 m ρ c (Proc.devRef .tc main_arg2) := host_step hostOps4_1 main_arg2
    _ = W9 m ρ c (Proc.devRef .tc main_arg2) := host_step hostOps4 main_arg2
    _ = W8 m ρ c (Proc.devRef .tc main_arg2) := W9_of_ne m ρ c main_arg2 (by decide)
    _ = W7 m ρ c (Proc.devRef .tc main_arg2) := host_step hostOps3 main_arg2
    _ = W6 m ρ c (Proc.devRef .tc main_arg2) := W7_of_ne m ρ c main_arg2 (by decide)
    _ = W5 m ρ c (Proc.devRef .tc main_arg2) := host_step hostOps2 main_arg2
    _ = W4 m ρ c (Proc.devRef .tc main_arg2) := W5_of_ne m ρ c main_arg2 (by decide)
    _ = W3 m ρ c (Proc.devRef .tc main_arg2) := host_step hostOps1_1 main_arg2
    _ = W2 m ρ c (Proc.devRef .tc main_arg2) := host_step hostOps1 main_arg2
    _ = W1 m ρ c (Proc.devRef .tc main_arg2) := W2_of_ne m ρ c main_arg2 (by decide)
    _ = W0 m ρ c (Proc.devRef .tc main_arg2) := host_step hostOps0 main_arg2
    _ = m ((c : Thread nD τ).loc main_arg2) := rfl

theorem arg15_W21 : W21 m ρ c (Proc.devRef .tc main_arg15) = m ((c : Thread nD τ).loc main_arg15) :=
  calc W21 m ρ c (Proc.devRef .tc main_arg15)
    _ = W20 m ρ c (Proc.devRef .tc main_arg15) := W21_of_ne m ρ c main_arg15 (by decide)
    _ = W19 m ρ c (Proc.devRef .tc main_arg15) := host_step hostOps8 main_arg15
    _ = W18 m ρ c (Proc.devRef .tc main_arg15) := W19_of_ne m ρ c main_arg15 (by decide)
    _ = W17 m ρ c (Proc.devRef .tc main_arg15) := host_step hostOps7_1 main_arg15
    _ = W16 m ρ c (Proc.devRef .tc main_arg15) := host_step hostOps7 main_arg15
    _ = W15 m ρ c (Proc.devRef .tc main_arg15) := W16_of_ne m ρ c main_arg15 (by decide)
    _ = W14 m ρ c (Proc.devRef .tc main_arg15) := host_step hostOps6 main_arg15
    _ = W13 m ρ c (Proc.devRef .tc main_arg15) := W14_of_ne m ρ c main_arg15 (by decide)
    _ = W12 m ρ c (Proc.devRef .tc main_arg15) := host_step hostOps5 main_arg15
    _ = W11 m ρ c (Proc.devRef .tc main_arg15) := W12_of_ne m ρ c main_arg15 (by decide)
    _ = W10 m ρ c (Proc.devRef .tc main_arg15) := host_step hostOps4_1 main_arg15
    _ = W9 m ρ c (Proc.devRef .tc main_arg15) := host_step hostOps4 main_arg15
    _ = W8 m ρ c (Proc.devRef .tc main_arg15) := W9_of_ne m ρ c main_arg15 (by decide)
    _ = W7 m ρ c (Proc.devRef .tc main_arg15) := host_step hostOps3 main_arg15
    _ = W6 m ρ c (Proc.devRef .tc main_arg15) := W7_of_ne m ρ c main_arg15 (by decide)
    _ = W5 m ρ c (Proc.devRef .tc main_arg15) := host_step hostOps2 main_arg15
    _ = W4 m ρ c (Proc.devRef .tc main_arg15) := W5_of_ne m ρ c main_arg15 (by decide)
    _ = W3 m ρ c (Proc.devRef .tc main_arg15) := host_step hostOps1_1 main_arg15
    _ = W2 m ρ c (Proc.devRef .tc main_arg15) := host_step hostOps1 main_arg15
    _ = W1 m ρ c (Proc.devRef .tc main_arg15) := W2_of_ne m ρ c main_arg15 (by decide)
    _ = W0 m ρ c (Proc.devRef .tc main_arg15) := host_step hostOps0 main_arg15
    _ = m ((c : Thread nD τ).loc main_arg15) := rfl

theorem arg16_W21 : W21 m ρ c (Proc.devRef .tc main_arg16) = m ((c : Thread nD τ).loc main_arg16) :=
  calc W21 m ρ c (Proc.devRef .tc main_arg16)
    _ = W20 m ρ c (Proc.devRef .tc main_arg16) := W21_of_ne m ρ c main_arg16 (by decide)
    _ = W19 m ρ c (Proc.devRef .tc main_arg16) := host_step hostOps8 main_arg16
    _ = W18 m ρ c (Proc.devRef .tc main_arg16) := W19_of_ne m ρ c main_arg16 (by decide)
    _ = W17 m ρ c (Proc.devRef .tc main_arg16) := host_step hostOps7_1 main_arg16
    _ = W16 m ρ c (Proc.devRef .tc main_arg16) := host_step hostOps7 main_arg16
    _ = W15 m ρ c (Proc.devRef .tc main_arg16) := W16_of_ne m ρ c main_arg16 (by decide)
    _ = W14 m ρ c (Proc.devRef .tc main_arg16) := host_step hostOps6 main_arg16
    _ = W13 m ρ c (Proc.devRef .tc main_arg16) := W14_of_ne m ρ c main_arg16 (by decide)
    _ = W12 m ρ c (Proc.devRef .tc main_arg16) := host_step hostOps5 main_arg16
    _ = W11 m ρ c (Proc.devRef .tc main_arg16) := W12_of_ne m ρ c main_arg16 (by decide)
    _ = W10 m ρ c (Proc.devRef .tc main_arg16) := host_step hostOps4_1 main_arg16
    _ = W9 m ρ c (Proc.devRef .tc main_arg16) := host_step hostOps4 main_arg16
    _ = W8 m ρ c (Proc.devRef .tc main_arg16) := W9_of_ne m ρ c main_arg16 (by decide)
    _ = W7 m ρ c (Proc.devRef .tc main_arg16) := host_step hostOps3 main_arg16
    _ = W6 m ρ c (Proc.devRef .tc main_arg16) := W7_of_ne m ρ c main_arg16 (by decide)
    _ = W5 m ρ c (Proc.devRef .tc main_arg16) := host_step hostOps2 main_arg16
    _ = W4 m ρ c (Proc.devRef .tc main_arg16) := W5_of_ne m ρ c main_arg16 (by decide)
    _ = W3 m ρ c (Proc.devRef .tc main_arg16) := host_step hostOps1_1 main_arg16
    _ = W2 m ρ c (Proc.devRef .tc main_arg16) := host_step hostOps1 main_arg16
    _ = W1 m ρ c (Proc.devRef .tc main_arg16) := W2_of_ne m ρ c main_arg16 (by decide)
    _ = W0 m ρ c (Proc.devRef .tc main_arg16) := host_step hostOps0 main_arg16
    _ = m ((c : Thread nD τ).loc main_arg16) := rfl

end Cert.KernelIdeal.KChain
-- ==== Proof.KValue.lean ====
/- The value of the kernel program's result array.

  The result buffer ends at the fold `W23` of @main's segments over the launch memory.  Walking the segments in order:
  the first host stretch leaves the node factors `dis` as a column, the edge lists and the first bias as a row; then
  per layer the linear region leaves `(h W + b) · dis` row by row, the take-and-scatter stretch its segment sum over the
  edges' targets, the statistics region the column sums of `aggregate · dis` and of its squares, the next stretch the
  mean and the clamped variance, and the normalise region the layer's rows `layerK`; the last stretch gathers the two
  rows of each pair and forms `(p1 p2) p1ᵀ`, and the decode region leaves `decK` of them.  So the result is the
  specification's kernel-side network `netK` decoded. -/
import proofs.«404543_j21388937134518_2_alg».proof.Proof.Gen.KernelIdeal.Frame
import proofs.«404543_j21388937134518_2_alg».proof.Proof.SpecGraph
import proofs.«404543_j21388937134518_2_alg».proof.Proof.SpecCongr
import proofs.«404543_j21388937134518_2_alg».proof.Proof.NetAlgebra
import proofs.«404543_j21388937134518_2_alg».proof.Proof.KLinear
import proofs.«404543_j21388937134518_2_alg».proof.Proof.KStats
import proofs.«404543_j21388937134518_2_alg».proof.Proof.KNorm
import proofs.«404543_j21388937134518_2_alg».proof.Proof.KDecode
import proofs.«404543_j21388937134518_2_alg».proof.Proof.KHost0
import proofs.«404543_j21388937134518_2_alg».proof.Proof.KAgg
import proofs.«404543_j21388937134518_2_alg».proof.Proof.KMoments
import proofs.«404543_j21388937134518_2_alg».proof.Proof.KTail
import proofs.«404543_j21388937134518_2_alg».proof.Proof.KChain

set_option maxRecDepth 16384

noncomputable section

namespace Cert.KernelIdeal

open Cert.KernelIdeal Cert.KernelIdeal.Gen Idealize.ShloMosaic Idealize.ShloMosaic.TcCoe Idealize.ShloMosaic.ValueIdx Idealize.SL.Sem

namespace KValue

variable (m : (ℓ : Loc nD τ sig) → Buf (Elt Ideal) ℓ) (ρ : Dev nD → PrngReg) (c : Dev nD)

/-! ## The argument arrays, and their coordinates -/

abbrev xA : FVec Ideal S50000x128 .f32 := m ((c : Thread nD τ).loc main_arg0)
abbrev eiA : IVec Spec.SEdge 32 := m ((c : Thread nD τ).loc main_arg1)
abbrev diA : IVec Spec.SDrug 32 := m ((c : Thread nD τ).loc main_arg2)
abbrev w1A : FVec Ideal S128x128 .f32 := m ((c : Thread nD τ).loc main_arg3)
abbrev b1A : FVec Ideal S128 .f32 := m ((c : Thread nD τ).loc main_arg4)
abbrev w2A : FVec Ideal S128x128 .f32 := m ((c : Thread nD τ).loc main_arg5)
abbrev b2A : FVec Ideal S128 .f32 := m ((c : Thread nD τ).loc main_arg6)
abbrev w3A : FVec Ideal S128x128 .f32 := m ((c : Thread nD τ).loc main_arg7)
abbrev b3A : FVec Ideal S128 .f32 := m ((c : Thread nD τ).loc main_arg8)
abbrev g1A : FVec Ideal S128 .f32 := m ((c : Thread nD τ).loc main_arg9)
abbrev be1A : FVec Ideal S128 .f32 := m ((c : Thread nD τ).loc main_arg10)
abbrev g2A : FVec Ideal S128 .f32 := m ((c : Thread nD τ).loc main_arg11)
abbrev be2A : FVec Ideal S128 .f32 := m ((c : Thread nD τ).loc main_arg12)
abbrev g3A : FVec Ideal S128 .f32 := m ((c : Thread nD τ).loc main_arg13)
abbrev be3A : FVec Ideal S128 .f32 := m ((c : Thread nD τ).loc main_arg14)
abbrev p1A : FVec Ideal S128x128 .f32 := m ((c : Thread nD τ).loc main_arg15)
abbrev p2A : FVec Ideal S128x128 .f32 := m ((c : Thread nD τ).loc main_arg16)

abbrev X : Spec.Mat 50000 128 := fun a k => xA m c (ix2 a k)
abbrev Wm1 : Spec.Mat 128 128 := fun k q => w1A m c (ix2 k q)
abbrev Bv1 : Spec.Vc 128 := fun q => b1A m c (ix1 q)
abbrev Gv1 : Spec.Vc 128 := fun q => g1A m c (ix1 q)
abbrev Bev1 : Spec.Vc 128 := fun q => be1A m c (ix1 q)
abbrev Wm2 : Spec.Mat 128 128 := fun k q => w2A m c (ix2 k q)
abbrev Bv2 : Spec.Vc 128 := fun q => b2A m c (ix1 q)
abbrev Gv2 : Spec.Vc 128 := fun q => g2A m c (ix1 q)
abbrev Bev2 : Spec.Vc 128 := fun q => be2A m c (ix1 q)
abbrev Wm3 : Spec.Mat 128 128 := fun k q => w3A m c (ix2 k q)
abbrev Bv3 : Spec.Vc 128 := fun q => b3A m c (ix1 q)
abbrev Gv3 : Spec.Vc 128 := fun q => g3A m c (ix1 q)
abbrev Bev3 : Spec.Vc 128 := fun q => be3A m c (ix1 q)
abbrev P1 : Spec.Mat 128 128 := fun k q => p1A m c (ix2 k q)
abbrev P2 : Spec.Mat 128 128 := fun k q => p2A m c (ix2 k q)
/-- The edges' sources and targets, and the node factors. -/
abbrev Rr : Fin 850000 → Fin 50000 := Spec.R (eiA m c)
abbrev Cc : Fin 850000 → Fin 50000 := Spec.C (eiA m c)
abbrev dd : Spec.Vc 50000 := Spec.dis (Cc m c)
/-- The three layers' rows, the kernel's way. -/
abbrev H1 : Spec.Mat 50000 128 := Spec.layerK (Rr m c) (Cc m c) (dd m c) (X m c) (Wm1 m c) (Bv1 m c) (Gv1 m c) (Bev1 m c)
abbrev H2 : Spec.Mat 50000 128 := Spec.layerK (Rr m c) (Cc m c) (dd m c) (H1 m c) (Wm2 m c) (Bv2 m c) (Gv2 m c) (Bev2 m c)
abbrev H3 : Spec.Mat 50000 128 := Spec.layerK (Rr m c) (Cc m c) (dd m c) (H2 m c) (Wm3 m c) (Bv3 m c) (Gv3 m c) (Bev3 m c)

/-! ## The first stretch, and what no later segment changes -/

theorem dis1 (hei : ∀ i, (eiA m c i).toNat < 50000) (a : Fin 50000) : (W1 m ρ c (Proc.devRef .tc main_v18) : FVec Ideal S50000x1 .f32) (ix2 a 0) = dd m c a :=
  KHost0.host0_dis (W0 m ρ c) (eiA m c) rfl hei a
theorem dis4 (hei : ∀ i, (eiA m c i).toNat < 50000) (a : Fin 50000) : (W4 m ρ c (Proc.devRef .tc main_v18) : FVec Ideal S50000x1 .f32) (ix2 a 0) = dd m c a :=
  (congrFun (KChain.v18_W4 m ρ c) (ix2 a 0)).trans (dis1 m ρ c hei a)
theorem dis6 (hei : ∀ i, (eiA m c i).toNat < 50000) (a : Fin 50000) : (W6 m ρ c (Proc.devRef .tc main_v18) : FVec Ideal S50000x1 .f32) (ix2 a 0) = dd m c a :=
  (congrFun (KChain.v18_W6 m ρ c) (ix2 a 0)).trans (dis4 m ρ c hei a)
theorem dis8 (hei : ∀ i, (eiA m c i).toNat < 50000) (a : Fin 50000) : (W8 m ρ c (Proc.devRef .tc main_v18) : FVec Ideal S50000x1 .f32) (ix2 a 0) = dd m c a :=
  (congrFun (KChain.v18_W8 m ρ c) (ix2 a 0)).trans (dis6 m ρ c hei a)
theorem dis11 (hei : ∀ i, (eiA m c i).toNat < 50000) (a : Fin 50000) : (W11 m ρ c (Proc.devRef .tc main_v18) : FVec Ideal S50000x1 .f32) (ix2 a 0) = dd m c a :=
  (congrFun (KChain.v18_W11 m ρ c) (ix2 a 0)).trans (dis8 m ρ c hei a)
theorem dis13 (hei : ∀ i, (eiA m c i).toNat < 50000) (a : Fin 50000) : (W13 m ρ c (Proc.devRef .tc main_v18) : FVec Ideal S50000x1 .f32) (ix2 a 0) = dd m c a :=
  (congrFun (KChain.v18_W13 m ρ c) (ix2 a 0)).trans (dis11 m ρ c hei a)
theorem dis15 (hei : ∀ i, (eiA m c i).toNat < 50000) (a : Fin 50000) : (W15 m ρ c (Proc.devRef .tc main_v18) : FVec Ideal S50000x1 .f32) (ix2 a 0) = dd m c a :=
  (congrFun (KChain.v18_W15 m ρ c) (ix2 a 0)).trans (dis13 m ρ c hei a)
theorem dis18 (hei : ∀ i, (eiA m c i).toNat < 50000) (a : Fin 50000) : (W18 m ρ c (Proc.devRef .tc main_v18) : FVec Ideal S50000x1 .f32) (ix2 a 0) = dd m c a :=
  (congrFun (KChain.v18_W18 m ρ c) (ix2 a 0)).trans (dis15 m ρ c hei a)
theorem dis20 (hei : ∀ i, (eiA m c i).toNat < 50000) (a : Fin 50000) : (W20 m ρ c (Proc.devRef .tc main_v18) : FVec Ideal S50000x1 .f32) (ix2 a 0) = dd m c a :=
  (congrFun (KChain.v18_W20 m ρ c) (ix2 a 0)).trans (dis18 m ρ c hei a)
theorem row1 (e : Fin 850000) : (W1 m ρ c (Proc.devRef .tc main_v3) : IVec S850000 32) (ix1 e) = Spec.endW (eiA m c) 0 e :=
  KHost0.host0_row (W0 m ρ c) (eiA m c) rfl e
theorem col1 (e : Fin 850000) : (W1 m ρ c (Proc.devRef .tc main_v6) : IVec S850000 32) (ix1 e) = Spec.endW (eiA m c) 1 e :=
  KHost0.host0_col (W0 m ρ c) (eiA m c) rfl e
theorem row2 (e : Fin 850000) : (W2 m ρ c (Proc.devRef .tc main_v3) : IVec S850000 32) (ix1 e) = Spec.endW (eiA m c) 0 e :=
  (congrFun (KChain.v3_W2 m ρ c) (ix1 e)).trans (row1 m ρ c e)
theorem col2 (e : Fin 850000) : (W2 m ρ c (Proc.devRef .tc main_v6) : IVec S850000 32) (ix1 e) = Spec.endW (eiA m c) 1 e :=
  (congrFun (KChain.v6_W2 m ρ c) (ix1 e)).trans (col1 m ρ c e)
theorem row9 (e : Fin 850000) : (W9 m ρ c (Proc.devRef .tc main_v3) : IVec S850000 32) (ix1 e) = Spec.endW (eiA m c) 0 e :=
  (congrFun (KChain.v3_W9 m ρ c) (ix1 e)).trans (row2 m ρ c e)
theorem col9 (e : Fin 850000) : (W9 m ρ c (Proc.devRef .tc main_v6) : IVec S850000 32) (ix1 e) = Spec.endW (eiA m c) 1 e :=
  (congrFun (KChain.v6_W9 m ρ c) (ix1 e)).trans (col2 m ρ c e)
theorem row16 (e : Fin 850000) : (W16 m ρ c (Proc.devRef .tc main_v3) : IVec S850000 32) (ix1 e) = Spec.endW (eiA m c) 0 e :=
  (congrFun (KChain.v3_W16 m ρ c) (ix1 e)).trans (row9 m ρ c e)
theorem col16 (e : Fin 850000) : (W16 m ρ c (Proc.devRef .tc main_v6) : IVec S850000 32) (ix1 e) = Spec.endW (eiA m c) 1 e :=
  (congrFun (KChain.v6_W16 m ρ c) (ix1 e)).trans (col9 m ρ c e)

/-! ## Layer 1 -/

/-- Layer 1's linear region: the rows of the linear map scaled by the source's factor. -/
theorem hs1 (hei : ∀ i, (eiA m c i).toNat < 50000) (i : Fin 50000) (j : Fin 128) :
    (W2 m ρ c (Proc.devRef .tc main_v20) : FVec Ideal S50000x128 .f32) (ix2 i j) = Spec.hsK (dd m c) (Spec.lin (X m c) (Wm1 m c) (Bv1 m c)) i j :=
  ((congrFun (W2_arr m ρ c 4) (ix2 i j)).trans (KLinear.linear0_value (V1 m ρ) c _ _ _ _ rfl rfl rfl rfl i j)).trans
    (Spec.hsK_congr (fun a => dis1 m ρ c hei a) (fun a q => Spec.lin_congr (fun a k => congrFun (KChain.arg0_W1 m ρ c) (ix2 a k)) (fun k q => congrFun (KChain.arg3_W1 m ρ c) (ix2 k q)) (fun q => KHost0.host0_bias (W0 m ρ c) _ rfl q) a q) i j)

/-- Its aggregate: at each target node the sum of the scaled rows of the edges arriving there. -/
theorem agg1 (hei : ∀ i, (eiA m c i).toNat < 50000) (a : Fin 50000) (j : Fin 128) :
    (W4 m ρ c (Proc.devRef .tc main_v24) : FVec Ideal S50000x128 .f32) (ix2 a j) = Spec.seg (Rr m c) (Cc m c) (Spec.hsK (dd m c) (Spec.lin (X m c) (Wm1 m c) (Bv1 m c))) a j :=
  (KAgg.agg1_value (W2 m ρ c) (eiA m c) hei _ _ _ rfl rfl rfl (row2 m ρ c) (col2 m ρ c) a j).trans
    (Spec.seg_congr _ _ (fun i q => hs1 m ρ c hei i q) a j)

/-- The statistics region: the column sums of the scaled aggregate and of its squares. -/
theorem sums1 (hei : ∀ i, (eiA m c i).toNat < 50000) (j : Fin 128) :
    (W5 m ρ c (Proc.devRef .tc main_v25_0) : FVec Ideal S1x128 .f32) (ix2 0 j) = Spec.colSum (Spec.xK (Rr m c) (Cc m c) (dd m c) (Spec.lin (X m c) (Wm1 m c) (Bv1 m c))) j
    ∧ (W5 m ρ c (Proc.devRef .tc main_v25_1) : FVec Ideal S1x128 .f32) (ix2 0 j) = Spec.colSum (fun a q => Spec.xK (Rr m c) (Cc m c) (dd m c) (Spec.lin (X m c) (Wm1 m c) (Bv1 m c)) a q * Spec.xK (Rr m c) (Cc m c) (dd m c) (Spec.lin (X m c) (Wm1 m c) (Bv1 m c)) a q) j := by
  have h := KStats.stats1_value (V4 m ρ) c _ _ rfl rfl j
  exact ⟨((congrFun (W5_arr m ρ c 2) (ix2 0 j)).trans h.1).trans (Spec.colSum_congr (fun a q => Spec.xK_of _ _ (fun a' q' => agg1 m ρ c hei a' q') (fun a' => dis4 m ρ c hei a') a q) j),
    ((congrFun (W5_arr m ρ c 3) (ix2 0 j)).trans h.2).trans (Spec.colSum_congr (fun a q => Spec.xK_sq_of _ _ (fun a' q' => agg1 m ρ c hei a' q') (fun a' => dis4 m ρ c hei a') a q) j)⟩

/-- The mean and the clamped variance rows, and the scale and shift rows. -/
theorem mom1 (hei : ∀ i, (eiA m c i).toNat < 50000) (j : Fin 128) :
    (W6 m ρ c (Proc.devRef .tc main_v27) : FVec Ideal S1x128 .f32) (ix2 0 j) = Spec.mean (Spec.xK (Rr m c) (Cc m c) (dd m c) (Spec.lin (X m c) (Wm1 m c) (Bv1 m c))) j
    ∧ (W6 m ρ c (Proc.devRef .tc main_v33) : FVec Ideal S1x128 .f32) (ix2 0 j) = Spec.varK (Spec.xK (Rr m c) (Cc m c) (dd m c) (Spec.lin (X m c) (Wm1 m c) (Bv1 m c))) j
    ∧ (W6 m ρ c (Proc.devRef .tc main_v34) : FVec Ideal S1x128 .f32) (ix2 0 j) = Gv1 m c j ∧ (W6 m ρ c (Proc.devRef .tc main_v35) : FVec Ideal S1x128 .f32) (ix2 0 j) = Bev1 m c j := by
  have h := KMoments.moments1 (W5 m ρ c) _ _ _ _ rfl rfl (KChain.arg9_W5 m ρ c) (KChain.arg10_W5 m ρ c) j
  have s := sums1 m ρ c hei j
  refine ⟨h.1.trans ?_, h.2.1.trans ?_, h.2.2.1, h.2.2.2⟩
  · rw [s.1]; rfl
  · rw [s.1, s.2]; rfl

/-- The normalise region: the layer's rows. -/
theorem out1 (hei : ∀ i, (eiA m c i).toNat < 50000) (i : Fin 50000) (j : Fin 128) :
    (W7 m ρ c (Proc.devRef .tc main_v36) : FVec Ideal S50000x128 .f32) (ix2 i j) = H1 m c i j :=
  ((congrFun (W7_arr m ρ c 6) (ix2 i j)).trans (KNorm.norm2_value (V6 m ρ) c _ _ _ _ _ _ rfl rfl rfl rfl rfl rfl i j)).trans
    (Spec.bn_congr (fun a q => Spec.xK_of _ _ (fun a' q' => (congrFun (KChain.v24_W6 m ρ c) (ix2 a' q')).trans (agg1 m ρ c hei a' q')) (fun a' => dis6 m ρ c hei a') a q)
      (fun q => (mom1 m ρ c hei q).1) (fun q => (mom1 m ρ c hei q).2.1) (fun q => (mom1 m ρ c hei q).2.2.1) (fun q => (mom1 m ρ c hei q).2.2.2) i j)

/-! ## Layer 2 -/

/-- Layer 2's linear region: the rows of the linear map scaled by the source's factor. -/
theorem hs2 (hei : ∀ i, (eiA m c i).toNat < 50000) (i : Fin 50000) (j : Fin 128) :
    (W9 m ρ c (Proc.devRef .tc main_v38) : FVec Ideal S50000x128 .f32) (ix2 i j) = Spec.hsK (dd m c) (Spec.lin (H1 m c) (Wm2 m c) (Bv2 m c)) i j :=
  ((congrFun (W9_arr m ρ c 4) (ix2 i j)).trans (KLinear.linear3_value (V8 m ρ) c _ _ _ _ rfl rfl rfl rfl i j)).trans
    (Spec.hsK_congr (fun a => dis8 m ρ c hei a) (fun a q => Spec.lin_congr (fun a k => (congrFun (KChain.v36_W8 m ρ c) (ix2 a k)).trans (out1 m ρ c hei a k)) (fun k q => congrFun (KChain.arg5_W8 m ρ c) (ix2 k q)) (fun q => KMoments.bias2 (W7 m ρ c) _ (KChain.arg6_W7 m ρ c) q) a q) i j)

/-- Its aggregate: at each target node the sum of the scaled rows of the edges arriving there. -/
theorem agg2 (hei : ∀ i, (eiA m c i).toNat < 50000) (a : Fin 50000) (j : Fin 128) :
    (W11 m ρ c (Proc.devRef .tc main_v42) : FVec Ideal S50000x128 .f32) (ix2 a j) = Spec.seg (Rr m c) (Cc m c) (Spec.hsK (dd m c) (Spec.lin (H1 m c) (Wm2 m c) (Bv2 m c))) a j :=
  (KAgg.agg2_value (W9 m ρ c) (eiA m c) hei _ _ _ rfl rfl rfl (row9 m ρ c) (col9 m ρ c) a j).trans
    (Spec.seg_congr _ _ (fun i q => hs2 m ρ c hei i q) a j)

/-- The statistics region: the column sums of the scaled aggregate and of its squares. -/
theorem sums2 (hei : ∀ i, (eiA m c i).toNat < 50000) (j : Fin 128) :
    (W12 m ρ c (Proc.devRef .tc main_v43_0) : FVec Ideal S1x128 .f32) (ix2 0 j) = Spec.colSum (Spec.xK (Rr m c) (Cc m c) (dd m c) (Spec.lin (H1 m c) (Wm2 m c) (Bv2 m c))) j
    ∧ (W12 m ρ c (Proc.devRef .tc main_v43_1) : FVec Ideal S1x128 .f32) (ix2 0 j) = Spec.colSum (fun a q => Spec.xK (Rr m c) (Cc m c) (dd m c) (Spec.lin (H1 m c) (Wm2 m c) (Bv2 m c)) a q * Spec.xK (Rr m c) (Cc m c) (dd m c) (Spec.lin (H1 m c) (Wm2 m c) (Bv2 m c)) a q) j := by
  have h := KStats.stats4_value (V11 m ρ) c _ _ rfl rfl j
  exact ⟨((congrFun (W12_arr m ρ c 2) (ix2 0 j)).trans h.1).trans (Spec.colSum_congr (fun a q => Spec.xK_of _ _ (fun a' q' => agg2 m ρ c hei a' q') (fun a' => dis11 m ρ c hei a') a q) j),
    ((congrFun (W12_arr m ρ c 3) (ix2 0 j)).trans h.2).trans (Spec.colSum_congr (fun a q => Spec.xK_sq_of _ _ (fun a' q' => agg2 m ρ c hei a' q') (fun a' => dis11 m ρ c hei a') a q) j)⟩

/-- The mean and the clamped variance rows, and the scale and shift rows. -/
theorem mom2 (hei : ∀ i, (eiA m c i).toNat < 50000) (j : Fin 128) :
    (W13 m ρ c (Proc.devRef .tc main_v45) : FVec Ideal S1x128 .f32) (ix2 0 j) = Spec.mean (Spec.xK (Rr m c) (Cc m c) (dd m c) (Spec.lin (H1 m c) (Wm2 m c) (Bv2 m c))) j
    ∧ (W13 m ρ c (Proc.devRef .tc main_v51) : FVec Ideal S1x128 .f32) (ix2 0 j) = Spec.varK (Spec.xK (Rr m c) (Cc m c) (dd m c) (Spec.lin (H1 m c) (Wm2 m c) (Bv2 m c))) j
    ∧ (W13 m ρ c (Proc.devRef .tc main_v52) : FVec Ideal S1x128 .f32) (ix2 0 j) = Gv2 m c j ∧ (W13 m ρ c (Proc.devRef .tc main_v53) : FVec Ideal S1x128 .f32) (ix2 0 j) = Bev2 m c j := by
  have h := KMoments.moments2 (W12 m ρ c) _ _ _ _ rfl rfl (KChain.arg11_W12 m ρ c) (KChain.arg12_W12 m ρ c) j
  have s := sums2 m ρ c hei j
  refine ⟨h.1.trans ?_, h.2.1.trans ?_, h.2.2.1, h.2.2.2⟩
  · rw [s.1]; rfl
  · rw [s.1, s.2]; rfl

/-- The normalise region: the layer's rows. -/
theorem out2 (hei : ∀ i, (eiA m c i).toNat < 50000) (i : Fin 50000) (j : Fin 128) :
    (W14 m ρ c (Proc.devRef .tc main_v54) : FVec Ideal S50000x128 .f32) (ix2 i j) = H2 m c i j :=
  ((congrFun (W14_arr m ρ c 6) (ix2 i j)).trans (KNorm.norm5_value (V13 m ρ) c _ _ _ _ _ _ rfl rfl rfl rfl rfl rfl i j)).trans
    (Spec.bn_congr (fun a q => Spec.xK_of _ _ (fun a' q' => (congrFun (KChain.v42_W13 m ρ c) (ix2 a' q')).trans (agg2 m ρ c hei a' q')) (fun a' => dis13 m ρ c hei a') a q)
      (fun q => (mom2 m ρ c hei q).1) (fun q => (mom2 m ρ c hei q).2.1) (fun q => (mom2 m ρ c hei q).2.2.1) (fun q => (mom2 m ρ c hei q).2.2.2) i j)

/-! ## Layer 3 -/

/-- Layer 3's linear region: the rows of the linear map scaled by the source's factor. -/
theorem hs3 (hei : ∀ i, (eiA m c i).toNat < 50000) (i : Fin 50000) (j : Fin 128) :
    (W16 m ρ c (Proc.devRef .tc main_v56) : FVec Ideal S50000x128 .f32) (ix2 i j) = Spec.hsK (dd m c) (Spec.lin (H2 m c) (Wm3 m c) (Bv3 m c)) i j :=
  ((congrFun (W16_arr m ρ c 4) (ix2 i j)).trans (KLinear.linear6_value (V15 m ρ) c _ _ _ _ rfl rfl rfl rfl i j)).trans
    (Spec.hsK_congr (fun a => dis15 m ρ c hei a) (fun a q => Spec.lin_congr (fun a k => (congrFun (KChain.v54_W15 m ρ c) (ix2 a k)).trans (out2 m ρ c hei a k)) (fun k q => congrFun (KChain.arg7_W15 m ρ c) (ix2 k q)) (fun q => KMoments.bias3 (W14 m ρ c) _ (KChain.arg8_W14 m ρ c) q) a q) i j)

/-- Its aggregate: at each target node the sum of the scaled rows of the edges arriving there. -/
theorem agg3 (hei : ∀ i, (eiA m c i).toNat < 50000) (a : Fin 50000) (j : Fin 128) :
    (W18 m ρ c (Proc.devRef .tc main_v60) : FVec Ideal S50000x128 .f32) (ix2 a j) = Spec.seg (Rr m c) (Cc m c) (Spec.hsK (dd m c) (Spec.lin (H2 m c) (Wm3 m c) (Bv3 m c))) a j :=
  (KAgg.agg3_value (W16 m ρ c) (eiA m c) hei _ _ _ rfl rfl rfl (row16 m ρ c) (col16 m ρ c) a j).trans
    (Spec.seg_congr _ _ (fun i q => hs3 m ρ c hei i q) a j)

/-- The statistics region: the column sums of the scaled aggregate and of its squares. -/
theorem sums3 (hei : ∀ i, (eiA m c i).toNat < 50000) (j : Fin 128) :
    (W19 m ρ c (Proc.devRef .tc main_v61_0) : FVec Ideal S1x128 .f32) (ix2 0 j) = Spec.colSum (Spec.xK (Rr m c) (Cc m c) (dd m c) (Spec.lin (H2 m c) (Wm3 m c) (Bv3 m c))) j
    ∧ (W19 m ρ c (Proc.devRef .tc main_v61_1) : FVec Ideal S1x128 .f32) (ix2 0 j) = Spec.colSum (fun a q => Spec.xK (Rr m c) (Cc m c) (dd m c) (Spec.lin (H2 m c) (Wm3 m c) (Bv3 m c)) a q * Spec.xK (Rr m c) (Cc m c) (dd m c) (Spec.lin (H2 m c) (Wm3 m c) (Bv3 m c)) a q) j := by
  have h := KStats.stats7_value (V18 m ρ) c _ _ rfl rfl j
  exact ⟨((congrFun (W19_arr m ρ c 2) (ix2 0 j)).trans h.1).trans (Spec.colSum_congr (fun a q => Spec.xK_of _ _ (fun a' q' => agg3 m ρ c hei a' q') (fun a' => dis18 m ρ c hei a') a q) j),
    ((congrFun (W19_arr m ρ c 3) (ix2 0 j)).trans h.2).trans (Spec.colSum_congr (fun a q => Spec.xK_sq_of _ _ (fun a' q' => agg3 m ρ c hei a' q') (fun a' => dis18 m ρ c hei a') a q) j)⟩

/-- The mean and the clamped variance rows, and the scale and shift rows. -/
theorem mom3 (hei : ∀ i, (eiA m c i).toNat < 50000) (j : Fin 128) :
    (W20 m ρ c (Proc.devRef .tc main_v63) : FVec Ideal S1x128 .f32) (ix2 0 j) = Spec.mean (Spec.xK (Rr m c) (Cc m c) (dd m c) (Spec.lin (H2 m c) (Wm3 m c) (Bv3 m c))) j
    ∧ (W20 m ρ c (Proc.devRef .tc main_v69) : FVec Ideal S1x128 .f32) (ix2 0 j) = Spec.varK (Spec.xK (Rr m c) (Cc m c) (dd m c) (Spec.lin (H2 m c) (Wm3 m c) (Bv3 m c))) j
    ∧ (W20 m ρ c (Proc.devRef .tc main_v70) : FVec Ideal S1x128 .f32) (ix2 0 j) = Gv3 m c j ∧ (W20 m ρ c (Proc.devRef .tc main_v71) : FVec Ideal S1x128 .f32) (ix2 0 j) = Bev3 m c j := by
  have h := KMoments.moments3 (W19 m ρ c) _ _ _ _ rfl rfl (KChain.arg13_W19 m ρ c) (KChain.arg14_W19 m ρ c) j
  have s := sums3 m ρ c hei j
  refine ⟨h.1.trans ?_, h.2.1.trans ?_, h.2.2.1, h.2.2.2⟩
  · rw [s.1]; rfl
  · rw [s.1, s.2]; rfl

/-- The normalise region: the layer's rows. -/
theorem out3 (hei : ∀ i, (eiA m c i).toNat < 50000) (i : Fin 50000) (j : Fin 128) :
    (W21 m ρ c (Proc.devRef .tc main_v72) : FVec Ideal S50000x128 .f32) (ix2 i j) = H3 m c i j :=
  ((congrFun (W21_arr m ρ c 6) (ix2 i j)).trans (KNorm.norm8_value (V20 m ρ) c _ _ _ _ _ _ rfl rfl rfl rfl rfl rfl i j)).trans
    (Spec.bn_congr (fun a q => Spec.xK_of _ _ (fun a' q' => (congrFun (KChain.v60_W20 m ρ c) (ix2 a' q')).trans (agg3 m ρ c hei a' q')) (fun a' => dis20 m ρ c hei a') a q)
      (fun q => (mom3 m ρ c hei q).1) (fun q => (mom3 m ρ c hei q).2.1) (fun q => (mom3 m ρ c hei q).2.2.1) (fun q => (mom3 m ρ c hei q).2.2.2) i j)

/-! ## The decode -/

/-- The result array: the decode of the third layer's rows at the pairs' two nodes against `(p1 p2) p1ᵀ`. -/
theorem result (hei : ∀ i, (eiA m c i).toNat < 50000) (r : Fin 4096) :
    (W23 m ρ c (Proc.devRef .tc main_v98) : FVec Ideal S4096x1 .f32) (ix2 r 0)
      = Spec.decK (fun a k => H3 m c (Spec.drugNode (diA m c) 0 a) k) (fun a k => H3 m c (Spec.drugNode (diA m c) 1 a) k) (Spec.mK (P1 m c) (P2 m c)) r :=
  ((congrFun (W23_arr m ρ c 3) (ix2 r 0)).trans (KDecode.decode9_value (V22 m ρ) c _ _ _ rfl rfl rfl r)).trans
    (Spec.decK_congr
      (fun a k => (KTail.tail_a (W21 m ρ c) _ (diA m c) rfl (KChain.arg2_W21 m ρ c) a k).trans (out3 m ρ c hei _ k))
      (fun a k => (KTail.tail_bb (W21 m ρ c) _ (diA m c) rfl (KChain.arg2_W21 m ρ c) a k).trans (out3 m ρ c hei _ k))
      (fun k q => KTail.tail_m (W21 m ρ c) (p1A m c) (p2A m c) (KChain.arg15_W21 m ρ c) (KChain.arg16_W21 m ρ c) k q) r)

/-- The same, over the argument arrays by name. -/
theorem result' (x : FVec Ideal S50000x128 .f32) (ei : IVec Spec.SEdge 32) (di : IVec Spec.SDrug 32)
    (w1 : FVec Ideal S128x128 .f32) (b1 : FVec Ideal S128 .f32) (w2 : FVec Ideal S128x128 .f32) (b2 : FVec Ideal S128 .f32) (w3 : FVec Ideal S128x128 .f32) (b3 : FVec Ideal S128 .f32)
    (g1 be1 g2 be2 g3 be3 : FVec Ideal S128 .f32) (p1 p2 : FVec Ideal S128x128 .f32)
    (h0 : m ((c : Thread nD τ).loc main_arg0) = x) (h1 : m ((c : Thread nD τ).loc main_arg1) = ei) (h2 : m ((c : Thread nD τ).loc main_arg2) = di) (h3 : m ((c : Thread nD τ).loc main_arg3) = w1) (h4 : m ((c : Thread nD τ).loc main_arg4) = b1) (h5 : m ((c : Thread nD τ).loc main_arg5) = w2) (h6 : m ((c : Thread nD τ).loc main_arg6) = b2) (h7 : m ((c : Thread nD τ).loc main_arg7) = w3) (h8 : m ((c : Thread nD τ).loc main_arg8) = b3) (h9 : m ((c : Thread nD τ).loc main_arg9) = g1) (h10 : m ((c : Thread nD τ).loc main_arg10) = be1) (h11 : m ((c : Thread nD τ).loc main_arg11) = g2) (h12 : m ((c : Thread nD τ).loc main_arg12) = be2) (h13 : m ((c : Thread nD τ).loc main_arg13) = g3) (h14 : m ((c : Thread nD τ).loc main_arg14) = be3) (h15 : m ((c : Thread nD τ).loc main_arg15) = p1) (h16 : m ((c : Thread nD τ).loc main_arg16) = p2)
    (hei : ∀ i, (ei i).toNat < 50000) (r : Fin 4096) :
    (W23 m ρ c (Proc.devRef .tc main_v98) : FVec Ideal S4096x1 .f32) (ix2 r 0)
      = Spec.decK (fun a k => Spec.netK (Spec.R ei) (Spec.C ei) (fun a k => x (ix2 a k)) (fun k q => w1 (ix2 k q)) (fun q => b1 (ix1 q)) (fun k q => w2 (ix2 k q)) (fun q => b2 (ix1 q)) (fun k q => w3 (ix2 k q)) (fun q => b3 (ix1 q)) (fun q => g1 (ix1 q)) (fun q => be1 (ix1 q)) (fun q => g2 (ix1 q)) (fun q => be2 (ix1 q)) (fun q => g3 (ix1 q)) (fun q => be3 (ix1 q)) (Spec.drugNode di 0 a) k) (fun a k => Spec.netK (Spec.R ei) (Spec.C ei) (fun a k => x (ix2 a k)) (fun k q => w1 (ix2 k q)) (fun q => b1 (ix1 q)) (fun k q => w2 (ix2 k q)) (fun q => b2 (ix1 q)) (fun k q => w3 (ix2 k q)) (fun q => b3 (ix1 q)) (fun q => g1 (ix1 q)) (fun q => be1 (ix1 q)) (fun q => g2 (ix1 q)) (fun q => be2 (ix1 q)) (fun q => g3 (ix1 q)) (fun q => be3 (ix1 q)) (Spec.drugNode di 1 a) k) (Spec.mK (fun k q => p1 (ix2 k q)) (fun k q => p2 (ix2 k q))) r := by
  subst h0 h1 h2 h3 h4 h5 h6 h7 h8 h9 h10 h11 h12 h13 h14 h15 h16
  exact result m ρ c hei r

end KValue

end Cert.KernelIdeal

end
-- ==== Proof.RefAgg.lean ====
/-
  The reference's edge lists and one layer's aggregate, read at an index.

  The edge lists are the edge table's two rows, each followed by the positions 0 … 49999 (one self loop per node).
  A layer's aggregate: the linear map of the rows (a matrix product plus the bias along every row); the number of edges
  arriving at each node, as ones accumulated at the targets, and its power -1/2; per edge the product of that power at its two
  ends, times the source's row of the linear map, accumulated at the target.  Every end of every edge is below 50000, so
  the wrap of a negative word and the clamp into the rows both leave it as it is, and "the word, read signed, is c"
  says "the node it names is c".
-/
import proofs.«404543_j21388937134518_2_alg».proof.Proof.RefRun
import proofs.«404543_j21388937134518_2_alg».proof.Proof.SpecGraph
import proofs.«404543_j21388937134518_2_alg».proof.Proof.LibGatherScatter
import Idealize.ShloMosaic.Lib.StableHlo.Predicate
import Idealize.ShloMosaic.Lib.Pipeline.Value
import Idealize.ShloMosaic.Lib.ValueIdx
import Idealize.ShloMosaic.PureOps.Ideal.Laws

noncomputable section

open scoped BigOperators

namespace Cert.ReferenceIdeal.RefAgg

open Cert.ReferenceIdeal Cert.ReferenceIdeal.Gen Cert.ReferenceIdeal.ValueP Idealize.ShloMosaic Idealize.ShloMosaic.ValueIdx Idealize.ShloMosaic.StableHlo

/-! ## The edge lists -/

/-- Row 0 of the edge table, cut out and flattened, read at position `p`. -/
theorem slice_row0 (ei : IVec Spec.SEdge 32) (p : Fin 800000) :
    shapeCast S800000 (extractStridedSlice S1x800000 ![0, 0] ei slices_S2x800000_S1x800000_0_0) shapeCasts_S1x800000_S800000 (ix1 p)
      = ei (ix2 (0 : Fin 2) p) := by
  refine (shapeCast_apply _ shapeCasts_S1x800000_S800000 (ix1 p) (ix2 (0 : Fin 1) p)
    (by rw [Shape.rowMajor_val_two, Shape.rowMajor_val_one]; show 0 * 800000 + p.val = p.val; omega)).trans ?_
  exact extractStridedSlice_apply ![0, 0] ei slices_S2x800000_S1x800000_0_0 _ (ix2 (0 : Fin 2) p) (fun a => match a with
    | ⟨0, _⟩ => by show (0 : Nat) = 0 + 0; omega
    | ⟨1, _⟩ => by show p.val = 0 + p.val; omega)

/-- Row 1 likewise. -/
theorem slice_row1 (ei : IVec Spec.SEdge 32) (p : Fin 800000) :
    shapeCast S800000 (extractStridedSlice S1x800000 ![1, 0] ei slices_S2x800000_S1x800000_1_0) shapeCasts_S1x800000_S800000 (ix1 p)
      = ei (ix2 (1 : Fin 2) p) := by
  refine (shapeCast_apply _ shapeCasts_S1x800000_S800000 (ix1 p) (ix2 (0 : Fin 1) p)
    (by rw [Shape.rowMajor_val_two, Shape.rowMajor_val_one]; show 0 * 800000 + p.val = p.val; omega)).trans ?_
  exact extractStridedSlice_apply ![1, 0] ei slices_S2x800000_S1x800000_1_0 _ (ix2 (1 : Fin 2) p) (fun a => match a with
    | ⟨0, _⟩ => by show (1 : Nat) = 1 + 0; omega
    | ⟨1, _⟩ => by show p.val = 0 + p.val; omega)

/-- A table row of 800000 words followed by the positions 0 … 49999, read at entry `e`. -/
theorem cat_apply (x : IVec S800000 32) (e : Fin 850000) :
    concatenate S850000 0 [⟨S800000, x⟩, ⟨S50000, iotaInDim S50000 32 0⟩] concatenates_S800000_S50000_S850000_d0 (ix1 e)
      = if h : e.val < 800000 then x (ix1 (⟨e.val, h⟩ : Fin 800000)) else BitVec.ofNat 32 (e.val - 800000) := by
  split
  · rename_i h
    exact concatenate_pair_apply_left 0 _ _ concatenates_S800000_S50000_S850000_d0 (ix1 e) rfl (ix1 ⟨e.val, h⟩)
      (fun b => match b with | ⟨0, _⟩ => rfl)
  · rename_i h
    have he : e.val - 800000 < 50000 := by have := e.isLt; omega
    refine (concatenate_pair_apply_right 0 _ _ concatenates_S800000_S50000_S850000_d0 (ix1 e) rfl rfl (ix1 ⟨e.val - 800000, he⟩)
      (fun b hb => absurd (Subsingleton.elim (α := Fin 1) _ _) hb) (by show e.val - 800000 + 800000 = e.val; omega)).trans ?_
    rfl

/-- The list of sources: the table's row 0, then one self loop per node. -/
theorem refA_row (U : Valuation τ sig (Elt Ideal)) (ei : IVec Spec.SEdge 32) (hU1 : U (Proc.devRef .tc main_arg1) = ei) (e : Fin 850000) :
    after opsA U (Proc.devRef .tc main_v3) (ix1 e) = Spec.endW ei 0 e := by
  after_results
  rw [hU1]
  refine (cat_apply _ e).trans ?_
  unfold Spec.endW
  split
  · rename_i h; exact slice_row0 ei ⟨e.val, h⟩
  · rfl

/-- The list of targets: the table's row 1, then one self loop per node. -/
theorem refA_col (U : Valuation τ sig (Elt Ideal)) (ei : IVec Spec.SEdge 32) (hU1 : U (Proc.devRef .tc main_arg1) = ei) (e : Fin 850000) :
    after opsA U (Proc.devRef .tc main_v6) (ix1 e) = Spec.endW ei 1 e := by
  after_results
  rw [hU1]
  refine (cat_apply _ e).trans ?_
  unfold Spec.endW
  split
  · rename_i h; exact slice_row1 ei ⟨e.val, h⟩
  · rfl

/-! ## One layer's aggregate, on arrays -/

/-- The wrap of a list of edge ends — `w + 50000` where `w` is negative as a signed word, else `w` — laid as one column. -/
def wrapCol (w : IVec S850000 32) : IVec S850000x1 32 :=
  broadcastInDim S850000x1 ![0] bcast_S850000_S850000x1_0
    (select (cmpi CmpIPredicate.slt w (broadcastInDim S850000 ![] bcast_S_S850000 (constantI S_ 32 0#32)))
      (addi w (broadcastInDim S850000 ![] bcast_S_S850000 (constantI S_ 32 50000#32))) w)

/-- A vector laid as one column reads, at row `e`, the vector at `e`. -/
theorem col_apply {α : Type} (v : S850000.Idx → α) (e : Fin 850000) :
    broadcastInDim S850000x1 ![0] bcast_S850000_S850000x1_0 v (ix2 e (0 : Fin 1)) = v (ix1 e) :=
  broadcastInDim_apply _ bcast_S850000_S850000x1_0 v (ix2 e (0 : Fin 1)) (ix1 e) (fun a => match a with
    | ⟨0, _⟩ => by show e.val = if (850000 : Nat) = 1 then 0 else e.val; rw [if_neg (by decide)])

/-- A word below 50000 is not negative, so the wrap keeps it. -/
theorem wrapCol_apply (w : IVec S850000 32) (e : Fin 850000) (hw : (w (ix1 e)).toNat < 50000) :
    wrapCol w (ix2 e (0 : Fin 1)) = w (ix1 e) := by
  unfold wrapCol
  refine (col_apply _ e).trans ?_
  show Scalar.select (IntOp.cmpi .slt (w (ix1 e)) 0#32) (IntOp.addi (w (ix1 e)) 50000#32) (w (ix1 e)) = w (ix1 e)
  have h0 : IntOp.cmpi .slt (w (ix1 e)) 0#32 = 0#1 := by
    apply eq_zero_of_ne_one
    rw [Predicate.slt_iff_toNat (by omega) (by decide)]
    exact Nat.not_lt_zero _
  rw [h0, select_zero]

/-- A word below 50000, read signed, is node `c`'s number exactly when it names node `c`. -/
theorem toInt_eq_iff_nodeOf (w : BitVec 32) (hw : w.toNat < 50000) (c : Fin 50000) :
    w.toInt = (c.val : ℤ) ↔ Spec.nodeOf w = c := by
  rw [Predicate.toInt_eq_toNat_of_lt (by omega)]
  constructor
  · intro h; exact Fin.ext (by rw [Spec.nodeOf_val w hw]; exact_mod_cast h)
  · intro h; rw [← h, Spec.nodeOf_val w hw]

/-- The clamp of a wrapped end into the rows is the node the end names. -/
theorem clamp_wrap (w : IVec S850000 32) (e : Fin 850000) (hw : (w (ix1 e)).toNat < 50000)
    (h : min (wrapCol w (ix2 e (0 : Fin 1))).toInt.toNat (50000 - 1) < 50000) :
    (⟨min (wrapCol w (ix2 e (0 : Fin 1))).toInt.toNat (50000 - 1), h⟩ : Fin 50000) = Spec.nodeOf (w (ix1 e)) := by
  apply Fin.ext
  rw [Spec.nodeOf_val _ hw]
  show min (wrapCol w (ix2 e (0 : Fin 1))).toInt.toNat (50000 - 1) = (w (ix1 e)).toNat
  rw [wrapCol_apply w e hw, Predicate.toInt_eq_toNat_of_lt (by omega), Int.toNat_natCast]
  omega

/-- The two spellings of a rank-1 index, and of a column's row. -/
theorem ofFin_eq_ix1 {n : Nat} (k : Fin n) : Shape.Idx.ofFin k = ix1 k := by
  funext d; match d with | ⟨0, _⟩ => rfl
theorem ixP_eq_ix2 {n : Nat} (p : Fin n) : Predicate.ixP p = ix2 p (0 : Fin 1) := by
  funext d; match d with | ⟨0, _⟩ => rfl | ⟨1, _⟩ => rfl

/-- The number of edges arriving at each node: ones accumulated into zeros at the wrapped targets. -/
def degA (colA : IVec S850000 32) : FVec Ideal S50000 .f32 :=
  Host.scatterAdd scatter_S50000_S850000x1_S850000_n_0_0_1
    (broadcastInDim S50000 ![] bcast_S_S50000 (constant S_ FTy.f32 0x00000000#32))
    (wrapCol colA)
    (broadcastInDim S850000 ![] bcast_S_S850000 (constant S_ FTy.f32 0x3F800000#32))

theorem degA_apply (ei : IVec Spec.SEdge 32) (hei : ∀ i, (ei i).toNat < 50000) (colA : IVec S850000 32)
    (hc : ∀ e : Fin 850000, colA (ix1 e) = Spec.endW ei 1 e) (c : Fin 50000) :
    degA colA (ix1 c) = Spec.deg (Spec.C ei) c := by
  unfold degA
  rw [LibGatherScatter.scatterAdd_vec scatter_S50000_S850000x1_S850000_n_0_0_1 rfl rfl rfl rfl]
  show Ideal.ofBits .f32 0x00000000#32 + ∑ e ∈ _, Ideal.ofBits .f32 0x3F800000#32 = _
  rw [Ideal.ofBits_zero_f32, zero_add]
  unfold Spec.deg
  refine Finset.sum_congr (Finset.filter_congr fun e _ => ?_) (fun _ _ => rfl)
  have hw : (colA (ix1 e)).toNat < 50000 := by rw [hc]; exact Spec.endW_lt ei hei 1 e
  rw [wrapCol_apply colA e hw, toInt_eq_iff_nodeOf _ hw, hc]
  rfl

/-- The host's power at an entry, and a scalar word spread over the nodes. -/
theorem powf_apply (x y : FVec Ideal S50000 .f32) (i : S50000.Idx) : Host.powf x y i = Ideal.pow (x i) (y i) := rfl
theorem scalar50000_apply (b : BitVec 32) (i : S50000.Idx) :
    broadcastInDim S50000 ![] bcast_S_S50000 (constant (F := Ideal) S_ FTy.f32 b) i = Ideal.ofBits .f32 b := rfl

/-- Its power `-1/2`. -/
def disA (colA : IVec S850000 32) : FVec Ideal S50000 .f32 :=
  Host.powf (degA colA) (broadcastInDim S50000 ![] bcast_S_S50000 (constant S_ FTy.f32 0xBF000000#32))

theorem disA_apply (ei : IVec Spec.SEdge 32) (hei : ∀ i, (ei i).toNat < 50000) (colA : IVec S850000 32)
    (hc : ∀ e : Fin 850000, colA (ix1 e) = Spec.endW ei 1 e) (c : Fin 50000) :
    disA colA (ix1 c) = Spec.dis (Spec.C ei) c := by
  unfold disA Spec.dis Spec.cNegHalf
  rw [powf_apply, scalar50000_apply, degA_apply ei hei colA hc c]

/-- A vector over the nodes taken at the wrapped ends of the edges: entry `e` is the vector at the node the end names. -/
theorem take_apply (X : FVec Ideal S50000 .f32) (w : IVec S850000 32) (e : Fin 850000) (hw : (w (ix1 e)).toNat < 50000) :
    Host.gather gather_S50000_S850000x1_S850000_n_0_n_n_0_1_1 X (wrapCol w) (ix1 e) = X (ix1 (Spec.nodeOf (w (ix1 e)))) := by
  have h := Predicate.gather_take gather_S50000_S850000x1_S850000_n_0_n_n_0_1_1 rfl rfl rfl rfl X (wrapCol w) e (by decide)
  rw [ofFin_eq_ix1, ofFin_eq_ix1] at h
  refine h.trans (congrArg X (congrArg ix1 (Fin.ext ?_)))
  show min (wrapCol w (Predicate.ixP e)).toInt.toNat (50000 - 1) = _
  rw [ixP_eq_ix2]
  exact congrArg Fin.val (clamp_wrap w e hw (by omega))

/-- Rows of a matrix over the nodes taken at the wrapped ends of the edges. -/
theorem takeRows_apply (X : FVec Ideal S50000x128 .f32) (w : IVec S850000 32) (e : Fin 850000) (j : Fin 128) (hw : (w (ix1 e)).toNat < 50000) :
    Host.gather gather_S50000x128_S850000x1_S850000x128_1_0_n_n_0_1_1128 X (wrapCol w) (ix2 e j) = X (ix2 (Spec.nodeOf (w (ix1 e))) j) := by
  rw [LibGatherScatter.gather_rows gather_S50000x128_S850000x1_S850000x128_1_0_n_n_0_1_1128 rfl rfl rfl rfl rfl rfl X (wrapCol w) e j (by decide)]
  exact congrArg X (congrArg (fun t => ix2 t j) (clamp_wrap w e hw _))

/-- The linear map: the rows times the weights, plus the bias along every row. -/
def linA (H : FVec Ideal S50000x128 .f32) (Wt : FVec Ideal S128x128 .f32) (b : FVec Ideal S128 .f32) : FVec Ideal S50000x128 .f32 :=
  addf (Host.dotGeneral dot_S50000x128_S128x128_S50000x128_1_0_0_1_n_n none H Wt)
    (broadcastInDim S50000x128 ![0, 1] bcast_S1x128_S50000x128_0_1 (broadcastInDim S1x128 ![1] bcast_S128_S1x128_1 b))

/-- The product's left operand is read at (row of the result, contraction position). -/
theorem dot_lhs (i : S50000x128.Idx) (k : Fin 128) :
    dot_S50000x128_S128x128_S50000x128_1_0_0_1_n_n.lhsIdx i ((contrEquiv1 dot_S50000x128_S128x128_S50000x128_1_0_0_1_n_n 128 rfl rfl).symm k)
      = ix2 (i 0) k := by
  have hk := contrEquiv1_symm_val dot_S50000x128_S128x128_S50000x128_1_0_0_1_n_n 128 rfl rfl k
  funext a
  apply Fin.ext
  match a with
  | ⟨0, _⟩ =>
    show (dot_S50000x128_S128x128_S50000x128_1_0_0_1_n_n.lhsIdx i _ 0).val = (i 0).val
    unfold DotDims.lhsIdx
    rw [dif_neg (show ¬(0 : Fin S50000x128.rank) ∈ dot_S50000x128_S128x128_S50000x128_1_0_0_1_n_n.lhsBatch by decide),
      dif_pos (show (0 : Fin S50000x128.rank) ∈ dot_S50000x128_S128x128_S50000x128_1_0_0_1_n_n.lhsNonContracting by decide)]
    rfl
  | ⟨1, _⟩ =>
    exact (dot_S50000x128_S128x128_S50000x128_1_0_0_1_n_n.lhsIdx_val_of_single rfl i _).trans hk

/-- The right operand at (contraction position, column of the result). -/
theorem dot_rhs (i : S50000x128.Idx) (k : Fin 128) :
    dot_S50000x128_S128x128_S50000x128_1_0_0_1_n_n.rhsIdx i ((contrEquiv1 dot_S50000x128_S128x128_S50000x128_1_0_0_1_n_n 128 rfl rfl).symm k)
      = ix2 k (i 1) := by
  have hk := contrEquiv1_symm_val dot_S50000x128_S128x128_S50000x128_1_0_0_1_n_n 128 rfl rfl k
  funext a
  apply Fin.ext
  match a with
  | ⟨0, _⟩ =>
    exact (dot_S50000x128_S128x128_S50000x128_1_0_0_1_n_n.rhsIdx_val_of_single rfl i _).trans hk
  | ⟨1, _⟩ =>
    show (dot_S50000x128_S128x128_S50000x128_1_0_0_1_n_n.rhsIdx i _ 1).val = (i 1).val
    unfold DotDims.rhsIdx
    rw [dif_neg (show ¬(1 : Fin S128x128.rank) ∈ dot_S50000x128_S128x128_S50000x128_1_0_0_1_n_n.rhsBatch by decide),
      dif_pos (show (1 : Fin S128x128.rank) ∈ dot_S50000x128_S128x128_S50000x128_1_0_0_1_n_n.rhsNonContracting by decide)]
    rfl

/-- The product at (i, j) is the sum over the contraction position. -/
theorem dot_apply (H : FVec Ideal S50000x128 .f32) (Wt : FVec Ideal S128x128 .f32) (i : Fin 50000) (j : Fin 128) :
    Host.dotGeneral dot_S50000x128_S128x128_S50000x128_1_0_0_1_n_n none H Wt (ix2 i j) = ∑ k : Fin 128, H (ix2 i k) * Wt (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  rw [dot_lhs, dot_rhs]
  rfl

/-- A vector along every row of a matrix: entry (i, j) is the vector at j. -/
theorem rowvec_apply {α : Type} (v : S128.Idx → α) (i : Fin 50000) (j : Fin 128) :
    broadcastInDim S50000x128 ![0, 1] bcast_S1x128_S50000x128_0_1 (broadcastInDim S1x128 ![1] bcast_S128_S1x128_1 v) (ix2 i j) = v (ix1 j) := by
  refine (broadcastInDim_apply _ bcast_S1x128_S50000x128_0_1 _ (ix2 i j) (ix2 (0 : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])).trans ?_
  exact broadcastInDim_apply _ bcast_S128_S1x128_1 v (ix2 (0 : Fin 1) j) (ix1 j) (fun a => match a with
    | ⟨0, _⟩ => by show j.val = if (128 : Nat) = 1 then 0 else j.val; rw [if_neg (by decide)])

theorem linA_apply (H : FVec Ideal S50000x128 .f32) (Wt : FVec Ideal S128x128 .f32) (b : FVec Ideal S128 .f32) (i : Fin 50000) (j : Fin 128) :
    linA H Wt b (ix2 i j) = Spec.lin (fun a k => H (ix2 a k)) (fun k q => Wt (ix2 k q)) (fun q => b (ix1 q)) i j := by
  unfold linA Spec.lin
  rw [addf_apply, dot_apply, rowvec_apply]

/-- A column laid along every row of a wide matrix: entry (e, j) is the vector at e. -/
theorem colmat_apply {α : Type} (v : S850000.Idx → α) (e : Fin 850000) (j : Fin 128) :
    broadcastInDim S850000x128 ![0, 1] bcast_S850000x1_S850000x128_0_1 (broadcastInDim S850000x1 ![0] bcast_S850000_S850000x1_0 v) (ix2 e j)
      = v (ix1 e) := by
  refine (broadcastInDim_apply _ bcast_S850000x1_S850000x128_0_1 _ (ix2 e j) (ix2 e (0 : Fin 1)) (fun a => match a with
    | ⟨0, _⟩ => by show e.val = if (850000 : Nat) = 1 then 0 else e.val; rw [if_neg (by decide)]
    | ⟨1, _⟩ => by show 0 = if (1 : Nat) = 1 then 0 else j.val; rw [if_pos rfl])).trans ?_
  exact col_apply v e

/-- The aggregate: every edge carries the product of the two ends' factors times the source's row of the linear map to its
    target, accumulated into zeros. -/
def aggA (H : FVec Ideal S50000x128 .f32) (Wt : FVec Ideal S128x128 .f32) (b : FVec Ideal S128 .f32) (rowA colA : IVec S850000 32) :
    FVec Ideal S50000x128 .f32 :=
  Host.scatterAdd scatter_S50000x128_S850000x1_S850000x128_1_0_0_1
    (broadcastInDim S50000x128 ![] bcast_S_S50000x128 (constant S_ FTy.f32 0x00000000#32))
    (broadcastInDim S850000x1 ![0] bcast_S850000_S850000x1_0 colA)
    (mulf
      (broadcastInDim S850000x128 ![0, 1] bcast_S850000x1_S850000x128_0_1
        (broadcastInDim S850000x1 ![0] bcast_S850000_S850000x1_0
          (mulf (Host.gather gather_S50000_S850000x1_S850000_n_0_n_n_0_1_1 (disA colA) (wrapCol rowA))
            (Host.gather gather_S50000_S850000x1_S850000_n_0_n_n_0_1_1 (disA colA) (wrapCol colA)))))
      (Host.gather gather_S50000x128_S850000x1_S850000x128_1_0_n_n_0_1_1128 (linA H Wt b) (wrapCol rowA)))

theorem zero50000x128_apply (i : S50000x128.Idx) :
    broadcastInDim S50000x128 ![] bcast_S_S50000x128 (constant (F := Ideal) S_ FTy.f32 0x00000000#32) i = 0 :=
  Ideal.ofBits_zero_f32

theorem aggA_apply (ei : IVec Spec.SEdge 32) (hei : ∀ i, (ei i).toNat < 50000)
    (H : FVec Ideal S50000x128 .f32) (Wt : FVec Ideal S128x128 .f32) (b : FVec Ideal S128 .f32) (rowA colA : IVec S850000 32)
    (hr : ∀ e : Fin 850000, rowA (ix1 e) = Spec.endW ei 0 e) (hc : ∀ e : Fin 850000, colA (ix1 e) = Spec.endW ei 1 e)
    (c : Fin 50000) (j : Fin 128) :
    aggA H Wt b rowA colA (ix2 c j)
      = Spec.aggR (Spec.R ei) (Spec.C ei) (Spec.dis (Spec.C ei)) (Spec.lin (fun a k => H (ix2 a k)) (fun k q => Wt (ix2 k q)) (fun q => b (ix1 q))) c j := by
  unfold aggA
  rw [LibGatherScatter.scatterAdd_rows scatter_S50000x128_S850000x1_S850000x128_1_0_0_1 rfl rfl rfl rfl, zero50000x128_apply, zero_add]
  unfold Spec.aggR
  refine Finset.sum_congr (Finset.filter_congr fun e _ => ?_) (fun e _ => ?_)
  · have hw : (colA (ix1 e)).toNat < 50000 := by rw [hc]; exact Spec.endW_lt ei hei 1 e
    rw [col_apply colA e, toInt_eq_iff_nodeOf _ hw, hc]
    rfl
  · have hwr : (rowA (ix1 e)).toNat < 50000 := by rw [hr]; exact Spec.endW_lt ei hei 0 e
    have hwc : (colA (ix1 e)).toNat < 50000 := by rw [hc]; exact Spec.endW_lt ei hei 1 e
    rw [mulf_apply, colmat_apply, mulf_apply, take_apply _ rowA e hwr, take_apply _ colA e hwc, takeRows_apply _ rowA e j hwr,
      disA_apply ei hei colA hc, disA_apply ei hei colA hc, linA_apply, hr, hc]
    rfl

/-! ## The three layers' aggregates -/

/-- The first layer's aggregate, from the input rows. -/
theorem refAgg1 (U : Valuation τ sig (Elt Ideal)) (ei : IVec Spec.SEdge 32) (hei : ∀ i, (ei i).toNat < 50000)
    (H : FVec Ideal S50000x128 .f32) (Wt : FVec Ideal S128x128 .f32) (b : FVec Ideal S128 .f32) (rowA colA : IVec S850000 32)
    (hH : U (Proc.devRef .tc main_arg0) = H) (hW : U (Proc.devRef .tc main_arg3) = Wt) (hb : U (Proc.devRef .tc main_arg4) = b)
    (hrow : U (Proc.devRef .tc main_v3) = rowA) (hcol : U (Proc.devRef .tc main_v6) = colA)
    (hr : ∀ e : Fin 850000, rowA (ix1 e) = Spec.endW ei 0 e) (hc : ∀ e : Fin 850000, colA (ix1 e) = Spec.endW ei 1 e)
    (c : Fin 50000) (j : Fin 128) :
    after opsL1a U (Proc.devRef .tc main_v49) (ix2 c j)
      = Spec.aggR (Spec.R ei) (Spec.C ei) (Spec.dis (Spec.C ei)) (Spec.lin (fun a k => H (ix2 a k)) (fun k q => Wt (ix2 k q)) (fun q => b (ix1 q))) c j := by
  after_results_simp
  rw [hH, hW, hb, hrow, hcol]
  exact aggA_apply ei hei H Wt b rowA colA hr hc c j

/-- The second layer's, from the first layer's result. -/
theorem refAgg2 (U : Valuation τ sig (Elt Ideal)) (ei : IVec Spec.SEdge 32) (hei : ∀ i, (ei i).toNat < 50000)
    (H : FVec Ideal S50000x128 .f32) (Wt : FVec Ideal S128x128 .f32) (b : FVec Ideal S128 .f32) (rowA colA : IVec S850000 32)
    (hH : U (Proc.devRef .tc main_v79) = H) (hW : U (Proc.devRef .tc main_arg5) = Wt) (hb : U (Proc.devRef .tc main_arg6) = b)
    (hrow : U (Proc.devRef .tc main_v3) = rowA) (hcol : U (Proc.devRef .tc main_v6) = colA)
    (hr : ∀ e : Fin 850000, rowA (ix1 e) = Spec.endW ei 0 e) (hc : ∀ e : Fin 850000, colA (ix1 e) = Spec.endW ei 1 e)
    (c : Fin 50000) (j : Fin 128) :
    after opsL2a U (Proc.devRef .tc main_v122) (ix2 c j)
      = Spec.aggR (Spec.R ei) (Spec.C ei) (Spec.dis (Spec.C ei)) (Spec.lin (fun a k => H (ix2 a k)) (fun k q => Wt (ix2 k q)) (fun q => b (ix1 q))) c j := by
  after_results_simp
  rw [hH, hW, hb, hrow, hcol]
  exact aggA_apply ei hei H Wt b rowA colA hr hc c j

/-- The third layer's, from the second layer's result. -/
theorem refAgg3 (U : Valuation τ sig (Elt Ideal)) (ei : IVec Spec.SEdge 32) (hei : ∀ i, (ei i).toNat < 50000)
    (H : FVec Ideal S50000x128 .f32) (Wt : FVec Ideal S128x128 .f32) (b : FVec Ideal S128 .f32) (rowA colA : IVec S850000 32)
    (hH : U (Proc.devRef .tc main_v152) = H) (hW : U (Proc.devRef .tc main_arg7) = Wt) (hb : U (Proc.devRef .tc main_arg8) = b)
    (hrow : U (Proc.devRef .tc main_v3) = rowA) (hcol : U (Proc.devRef .tc main_v6) = colA)
    (hr : ∀ e : Fin 850000, rowA (ix1 e) = Spec.endW ei 0 e) (hc : ∀ e : Fin 850000, colA (ix1 e) = Spec.endW ei 1 e)
    (c : Fin 50000) (j : Fin 128) :
    after opsL3a U (Proc.devRef .tc main_v195) (ix2 c j)
      = Spec.aggR (Spec.R ei) (Spec.C ei) (Spec.dis (Spec.C ei)) (Spec.lin (fun a k => H (ix2 a k)) (fun k q => Wt (ix2 k q)) (fun q => b (ix1 q))) c j := by
  after_results_simp
  rw [hH, hW, hb, hrow, hcol]
  exact aggA_apply ei hei H Wt b rowA colA hr hc c j

end Cert.ReferenceIdeal.RefAgg

end
-- ==== Proof.RefNorm.lean ====
/-
  A layer's normalisation in the reference program, read at an index.

  From the aggregate `A` (50000 rows, 128 columns) the program forms the column sums, divides them by the
  number of rows (the mean), subtracts the mean from every row, sums the squared deviations down each column and
  divides by the number of rows again (the variance), multiplies the deviations by `rsqrt (variance + eps)`, by
  the scale `g`, adds the shift `be`, and applies the leaky slope.  At row `c` and column `j` that is
  `Spec.bn A (mean A) (varR A) g be c j`: each elementwise step reads at its own index, a vector spread down the
  rows reads its lane, a scalar spread reads the scalar, and a sum over the first axis at column `j` is the
  initial `0` plus the sum down column `j`.
-/
import proofs.«404543_j21388937134518_2_alg».proof.Proof.RefRun
import proofs.«404543_j21388937134518_2_alg».proof.Proof.Spec
import Idealize.ShloMosaic.Lib.ValueIdx
import Idealize.ShloMosaic.Lib.StableHlo.Predicate
import Idealize.ShloMosaic.PureOps.Ideal.Laws

noncomputable section

namespace Cert.ReferenceIdeal.RefNorm

open Cert.ReferenceIdeal Cert.ReferenceIdeal.Gen Cert.ReferenceIdeal.ValueP Idealize.ShloMosaic Idealize.ShloMosaic.ValueIdx Idealize.ShloMosaic.StableHlo
open scoped BigOperators

/-! ## The single steps at an index -/

/-- The sum over the first axis, at column `j`, is the initial value plus the sum down the column. -/
theorem redCol (x : FVec Ideal S50000x128 .f32) (v : FVec Ideal S_ .f32) (j : Fin 128) :
    Host.reduceAdd x v reducesTo_S50000x128_S128_d0 h_S_ (ix1 j)
      = v (Shape.Idx.first h_S_) + ∑ c : Fin 50000, x (ix2 c j) := by
  simp only [Host.reduceAdd, Ideal.hostReduceAdd_def]
  rw [Ideal.hostReduceAdd_single reducesTo_S50000x128_S128_d0 (by decide)]
  refine congrArg (_ + ·) (Finset.sum_congr rfl fun k _ => ?_)
  exact congrArg x (funext fun a => Fin.ext (by match a with | ⟨0, _⟩ => rfl | ⟨1, _⟩ => rfl))

/-- A vector spread down the rows. -/
def rowsOf (v : FVec Ideal S128 .f32) : FVec Ideal S50000x128 .f32 :=
  broadcastInDim S50000x128 ![0, 1] bcast_S1x128_S50000x128_0_1 (broadcastInDim S1x128 ![1] bcast_S128_S1x128_1 v)

/-- It reads its lane. -/
theorem rowsOf_apply (v : FVec Ideal S128 .f32) (c : Fin 50000) (j : Fin 128) : rowsOf v (ix2 c j) = v (ix1 j) := by
  unfold rowsOf
  have h := StableHlo.Predicate.bcast_cols (n := 50000) (m := 128) bcast_S128_S1x128_1 bcast_S1x128_S50000x128_0_1 v c j
  refine Eq.trans ?_ (h.trans ?_)
  · exact congrArg _ (funext fun a => by match a with | ⟨0, _⟩ => rfl | ⟨1, _⟩ => rfl)
  · exact congrArg v (funext fun a => by match a with | ⟨0, _⟩ => rfl)

/-- A scalar spread along a vector reads the scalar. -/
theorem bcastS1 (v : FVec Ideal S_ .f32) (j : S128.Idx) :
    broadcastInDim S128 ![] bcast_S_S128 v j = v (Shape.Idx.first h_S_) :=
  StableHlo.Predicate.bcast_scalar bcast_S_S128 h_S_ v j

/-- A scalar spread over the rectangle reads the scalar. -/
theorem bcastS2 (v : FVec Ideal S_ .f32) (j : S50000x128.Idx) :
    broadcastInDim S50000x128 ![] bcast_S_S50000x128 v j = v (Shape.Idx.first h_S_) :=
  StableHlo.Predicate.bcast_scalar bcast_S_S50000x128 h_S_ v j

theorem hdiv_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl

/-! ## The arrays of the normalisation -/

/-- The column means: the column sums from `0`, over the number of rows. -/
def meanArr (x : FVec Ideal S50000x128 .f32) : FVec Ideal S128 .f32 :=
  Host.divf (Host.reduceAdd x (constant S_ .f32 0x00000000#32) reducesTo_S50000x128_S128_d0 h_S_)
    (broadcastInDim S128 ![] bcast_S_S128 (constant S_ .f32 0x47435000#32))

theorem meanArr_apply (x : FVec Ideal S50000x128 .f32) (j : Fin 128) :
    meanArr x (ix1 j) = Spec.mean (fun a q => x (ix2 a q)) j := by
  unfold meanArr
  rw [hdiv_apply, redCol, bcastS1, constant_apply, constant_apply, Ideal.ofBits_zero_f32, zero_add]
  rfl

/-- The deviations from the column means. -/
def devArr (x : FVec Ideal S50000x128 .f32) : FVec Ideal S50000x128 .f32 := subf x (rowsOf (meanArr x))

theorem devArr_apply (x : FVec Ideal S50000x128 .f32) (c : Fin 50000) (j : Fin 128) :
    devArr x (ix2 c j) = x (ix2 c j) - Spec.mean (fun a q => x (ix2 a q)) j := by
  unfold devArr
  rw [subf_apply, rowsOf_apply, meanArr_apply]

/-- The variance: the column means of the squared deviations. -/
def varArr (x : FVec Ideal S50000x128 .f32) : FVec Ideal S128 .f32 := meanArr (mulf (devArr x) (devArr x))

theorem varArr_apply (x : FVec Ideal S50000x128 .f32) (j : Fin 128) :
    varArr x (ix1 j) = Spec.varR (fun a q => x (ix2 a q)) j := by
  unfold varArr
  rw [meanArr_apply]
  unfold Spec.varR Spec.mean
  refine congrArg (Ideal.div · Spec.cN) ?_
  unfold Spec.colSum
  refine Finset.sum_congr rfl fun c _ => ?_
  show mulf (devArr x) (devArr x) (ix2 c j)
    = (x (ix2 c j) - Spec.mean (fun a q => x (ix2 a q)) j) * (x (ix2 c j) - Spec.mean (fun a q => x (ix2 a q)) j)
  rw [mulf_apply, devArr_apply]

/-- Centred, scaled by `rsqrt (variance + eps)` and `g`, shifted by `be`. -/
def preArr (x : FVec Ideal S50000x128 .f32) (g be : FVec Ideal S128 .f32) : FVec Ideal S50000x128 .f32 :=
  addf (mulf (mulf (devArr x)
      (rowsOf (Host.rsqrt (addf (varArr x) (broadcastInDim S128 ![] bcast_S_S128 (constant S_ .f32 0x3727C5AC#32))))))
      (rowsOf g)) (rowsOf be)

theorem preArr_apply (x : FVec Ideal S50000x128 .f32) (g be : FVec Ideal S128 .f32) (c : Fin 50000) (j : Fin 128) :
    preArr x g be (ix2 c j)
      = (x (ix2 c j) - Spec.mean (fun a q => x (ix2 a q)) j)
          * Ideal.rsqrt (Spec.varR (fun a q => x (ix2 a q)) j + Spec.cEps) * g (ix1 j) + be (ix1 j) := by
  unfold preArr
  rw [addf_apply, mulf_apply, mulf_apply, rowsOf_apply, rowsOf_apply, rowsOf_apply, devArr_apply, hrsqrt_apply, addf_apply,
    varArr_apply, bcastS1, constant_apply]
  rfl

/-- The leaky slope on top. -/
def outArr (x : FVec Ideal S50000x128 .f32) (g be : FVec Ideal S128 .f32) : FVec Ideal S50000x128 .f32 :=
  select (cmpf .oge (preArr x g be) (broadcastInDim S50000x128 ![] bcast_S_S50000x128 (constant S_ .f32 0x00000000#32)))
    (preArr x g be)
    (mulf (broadcastInDim S50000x128 ![] bcast_S_S50000x128 (constant S_ .f32 0x3DCCCCCD#32)) (preArr x g be))

theorem outArr_apply (x : FVec Ideal S50000x128 .f32) (g be : FVec Ideal S128 .f32) (c : Fin 50000) (j : Fin 128) :
    outArr x g be (ix2 c j)
      = Spec.bn (fun a q => x (ix2 a q)) (Spec.mean (fun a q => x (ix2 a q))) (Spec.varR (fun a q => x (ix2 a q)))
          (fun q => g (ix1 q)) (fun q => be (ix1 q)) c j := by
  unfold outArr
  rw [select_apply, cmpf_apply, mulf_apply, bcastS2, bcastS2, constant_apply, constant_apply, preArr_apply]
  rfl

/-! ## The three layers

Each stretch's result buffer holds `outArr` of the aggregate, the scale and the shift it reads. -/

theorem refNorm1 (U : Valuation τ sig (Elt Ideal)) (A : FVec Ideal S50000x128 .f32) (g be : FVec Ideal S128 .f32)
    (hA : U (Proc.devRef .tc main_v49) = A) (hg : U (Proc.devRef .tc main_arg9) = g) (hbe : U (Proc.devRef .tc main_arg10) = be)
    (c : Fin 50000) (j : Fin 128) :
    after opsL1b U (Proc.devRef .tc main_v79) (ix2 c j)
      = Spec.bn (fun a q => A (ix2 a q)) (Spec.mean (fun a q => A (ix2 a q))) (Spec.varR (fun a q => A (ix2 a q))) (fun q => g (ix1 q)) (fun q => be (ix1 q)) c j := by
  have h : after opsL1b U (Proc.devRef .tc main_v79) = outArr A g be := by
    simp only [opsL1b]
    after_results_simp
    simp only [StableHlo.TRef.ofBuf, StableHlo.TRef.toBuf, cast_eq, hA, hg, hbe]
    rfl
  rw [h, outArr_apply]

theorem refNorm2 (U : Valuation τ sig (Elt Ideal)) (A : FVec Ideal S50000x128 .f32) (g be : FVec Ideal S128 .f32)
    (hA : U (Proc.devRef .tc main_v122) = A) (hg : U (Proc.devRef .tc main_arg11) = g) (hbe : U (Proc.devRef .tc main_arg12) = be)
    (c : Fin 50000) (j : Fin 128) :
    after opsL2b U (Proc.devRef .tc main_v152) (ix2 c j)
      = Spec.bn (fun a q => A (ix2 a q)) (Spec.mean (fun a q => A (ix2 a q))) (Spec.varR (fun a q => A (ix2 a q))) (fun q => g (ix1 q)) (fun q => be (ix1 q)) c j := by
  have h : after opsL2b U (Proc.devRef .tc main_v152) = outArr A g be := by
    simp only [opsL2b]
    after_results_simp
    simp only [StableHlo.TRef.ofBuf, StableHlo.TRef.toBuf, cast_eq, hA, hg, hbe]
    rfl
  rw [h, outArr_apply]

theorem refNorm3 (U : Valuation τ sig (Elt Ideal)) (A : FVec Ideal S50000x128 .f32) (g be : FVec Ideal S128 .f32)
    (hA : U (Proc.devRef .tc main_v195) = A) (hg : U (Proc.devRef .tc main_arg13) = g) (hbe : U (Proc.devRef .tc main_arg14) = be)
    (c : Fin 50000) (j : Fin 128) :
    after opsL3b U (Proc.devRef .tc main_v225) (ix2 c j)
      = Spec.bn (fun a q => A (ix2 a q)) (Spec.mean (fun a q => A (ix2 a q))) (Spec.varR (fun a q => A (ix2 a q))) (fun q => g (ix1 q)) (fun q => be (ix1 q)) c j := by
  have h : after opsL3b U (Proc.devRef .tc main_v225) = outArr A g be := by
    simp only [opsL3b]
    after_results_simp
    simp only [StableHlo.TRef.ofBuf, StableHlo.TRef.toBuf, cast_eq, hA, hg, hbe]
    rfl
  rw [h, outArr_apply]

end Cert.ReferenceIdeal.RefNorm

end
-- ==== Proof.RefTail.lean ====
/-
  The decode of the reference program, read at one pair.

  From the last layer's [50000 × 128] array `H` and the [4096 × 2] table of 1-based row numbers: each column of the
  table is cut out, flattened, lessened by one, a negative result counted from the end (plus 50000), and set as a
  [4096 × 1] column of positions; the rows of `H` at those positions, read signed and clamped into the rows, make the
  two gathered blocks `a` and `bb`. The result at pair `r` is `∑ j, (((a p1) p2) p1ᵀ)[r, j] * bb[r, j]`: three
  matrix products (each entry a finite sum over the shared axis), the entrywise product with `bb`, and the sum along
  each row on top of an initial 0.0, which is the extended reals' zero.

  Each operation is first read at one element — a product's entry is the row-by-column sum, the row sum is the initial
  value plus the sum over the row, a column made from a vector reads the vector, a transpose swaps the coordinates, the
  integer operations act word by word — and the whole stretch is then these readings composed.
-/
import proofs.«404543_j21388937134518_2_alg».proof.Proof.RefRun
import proofs.«404543_j21388937134518_2_alg».proof.Proof.SpecGraph
import proofs.«404543_j21388937134518_2_alg».proof.Proof.LibGatherScatter
import Idealize.ShloMosaic.Lib.Pipeline.Value
import Idealize.ShloMosaic.Lib.ValueIdx
import Idealize.ShloMosaic.PureOps.Ideal.Laws

noncomputable section

open scoped BigOperators

namespace Cert.ReferenceIdeal.RefTail

open Cert.ReferenceIdeal Cert.ReferenceIdeal.Gen Cert.ReferenceIdeal.ValueP Idealize.ShloMosaic Idealize.ShloMosaic.ValueIdx Idealize.ShloMosaic.StableHlo

/-! ## Single operations read at one element -/

/-- Where a [4096 × 128] by [128 × 128] product reads its operands: the left at the output's row … -/
theorem dot_lhs0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
/-- … and the right at the output's column. -/
theorem dot_rhs1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- One entry of a [4096 × 128] by [128 × 128] product: row `r` of the left against column `j` of the right. -/
theorem dotAt (y : FVec Ideal S4096x128 .f32) (x : FVec Ideal S128x128 .f32) (r : Fin 4096) (j : Fin 128) :
    Host.dotGeneral dot_S4096x128_S128x128_S4096x128_1_0_0_1_n_n none y x (ix2 r j)
      = ∑ k : Fin 128, y (ix2 r k) * x (ix2 k j) := by
  simp only [Host.dotGeneral]
  rw [Ideal.dotGeneral_apply,
    ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r j)
      ((contrEquiv1 dot_S4096x128_S128x128_S4096x128_1_0_0_1_n_n 128 rfl rfl).symm k) = ix2 r k :=
    funext fun a => Fin.ext (by
      match a with
      | ⟨0, _⟩ => exact dot_lhs0 _ _
      | ⟨1, _⟩ => exact (dot_S4096x128_S128x128_S4096x128_1_0_0_1_n_n.lhsIdx_val_of_single rfl _ _).trans hk)
  have er : dot_S4096x128_S128x128_S4096x128_1_0_0_1_n_n.rhsIdx (ix2 r j)
      ((contrEquiv1 dot_S4096x128_S128x128_S4096x128_1_0_0_1_n_n 128 rfl rfl).symm k) = ix2 k j :=
    funext fun a => Fin.ext (by
      match a with
      | ⟨0, _⟩ => exact (dot_S4096x128_S128x128_S4096x128_1_0_0_1_n_n.rhsIdx_val_of_single rfl _ _).trans hk
      | ⟨1, _⟩ => exact dot_rhs1 _ _)
  rw [el, er]

/-- The sum along the second axis of a [4096 × 128] array, on top of the initial value. -/
theorem reduceAt (y : FVec Ideal S4096x128 .f32) (c : FVec Ideal S_ .f32) (r : Fin 4096) :
    Host.reduceAdd y c reducesTo_S4096x128_S4096_d1 h_S_ (ix1 r)
      = c (Shape.Idx.first h_S_) + ∑ k : Fin 128, y (ix2 r k) := by
  simp only [Host.reduceAdd, Ideal.hostReduceAdd_def]
  rw [Ideal.hostReduceAdd_single reducesTo_S4096x128_S4096_d1 (by decide)]
  refine congrArg (_ + ·) (Finset.sum_congr rfl fun k _ => ?_)
  exact congrArg y (funext fun a => Fin.ext (by match a with | ⟨0, _⟩ => rfl | ⟨1, _⟩ => rfl))

/-- A vector of length 4096 set as a column reads, at row `r`, its entry `r`. -/
theorem colAt {α : Type} (v : S4096.Idx → α) (r : Fin 4096) :
    broadcastInDim S4096x1 ![0] bcast_S4096_S4096x1_0 v (ix2 r 0) = v (ix1 r) :=
  broadcastInDim_apply _ bcast_S4096_S4096x1_0 v (ix2 r 0) (ix1 r) (fun a => match a with
    | ⟨0, _⟩ => by show r.val = if (4096 : Nat) = 1 then 0 else r.val; rw [if_neg (by decide)])

/-- A scalar spread over a vector of length 4096 reads the scalar everywhere. -/
theorem spreadAt {α : Type} (v : S_.Idx → α) (i : S4096.Idx) :
    broadcastInDim S4096 ![] bcast_S_S4096 v i = v (fun a => a.elim0) :=
  broadcastInDim_apply _ bcast_S_S4096 v i (fun a => a.elim0) (fun a => a.elim0)

/-- The transposed [128 × 128] array at (a, b) is the array at (b, a). -/
theorem transposeAt {α : Type} (x : S128x128.Idx → α) (a b : Fin 128) :
    transpose S128x128 [1, 0] x transposes_S128x128_S128x128_1_0 (ix2 a b) = x (ix2 b a) :=
  transpose_apply [1, 0] x transposes_S128x128_S128x128_1_0 (ix2 a b) (ix2 b a) (fun c => match c with
    | ⟨0, _⟩ => rfl
    | ⟨1, _⟩ => rfl)

/-- Column `k` of the pair table, cut out and flattened, reads at `r` the table at (r, k). -/
theorem sliceAt0 (di : IVec Spec.SDrug 32) (r : Fin 4096) :
    shapeCast S4096 (extractStridedSlice S4096x1 ![0, 0] di slices_S4096x2_S4096x1_0_0) shapeCasts_S4096x1_S4096 (ix1 r)
      = di (ix2 r 0) := by
  rw [shapeCast_apply _ shapeCasts_S4096x1_S4096 (ix1 r) (ix2 r 0)
    (by rewrite [Shape.rowMajor_val_two, Shape.rowMajor_val_one]; show r.val * 1 + 0 = r.val; omega)]
  exact extractStridedSlice_apply ![0, 0] di slices_S4096x2_S4096x1_0_0 (ix2 r 0) (ix2 r 0) (fun a => match a with
    | ⟨0, _⟩ => by show r.val = 0 + r.val; omega
    | ⟨1, _⟩ => by show (0 : Nat) = 0 + 0; rfl)

theorem sliceAt1 (di : IVec Spec.SDrug 32) (r : Fin 4096) :
    shapeCast S4096 (extractStridedSlice S4096x1 ![0, 1] di slices_S4096x2_S4096x1_0_1) shapeCasts_S4096x1_S4096 (ix1 r)
      = di (ix2 r 1) := by
  rw [shapeCast_apply _ shapeCasts_S4096x1_S4096 (ix1 r) (ix2 r 0)
    (by rewrite [Shape.rowMajor_val_two, Shape.rowMajor_val_one]; show r.val * 1 + 0 = r.val; omega)]
  exact extractStridedSlice_apply ![0, 1] di slices_S4096x2_S4096x1_0_1 (ix2 r 0) (ix2 r 1) (fun a => match a with
    | ⟨0, _⟩ => by show r.val = 0 + r.val; omega
    | ⟨1, _⟩ => by show (1 : Nat) = 1 + 0; rfl)

/-! ## The rows the decode reads -/

/-- The prepared column of row numbers: a flat column `w` of table words, less one, with 50000 added where that is
    negative, set as a [4096 × 1] column. At row `r` it is the specification's word when `w` holds the table's entry. -/
theorem wordAt (di : IVec Spec.SDrug 32) (k : Fin 2) (w : IVec S4096 32) (r : Fin 4096) (hw : w (ix1 r) = di (ix2 r k)) :
    broadcastInDim S4096x1 ![0] bcast_S4096_S4096x1_0
        (select
          (cmpi CmpIPredicate.slt (subi w (broadcastInDim S4096 ![] bcast_S_S4096 (constantI S_ 32 1#32)))
            (broadcastInDim S4096 ![] bcast_S_S4096 (constantI S_ 32 0#32)))
          (addi (subi w (broadcastInDim S4096 ![] bcast_S_S4096 (constantI S_ 32 1#32)))
            (broadcastInDim S4096 ![] bcast_S_S4096 (constantI S_ 32 50000#32)))
          (subi w (broadcastInDim S4096 ![] bcast_S_S4096 (constantI S_ 32 1#32)))) (ix2 r 0)
      = Spec.drugW di k r := by
  rw [colAt]
  unfold Spec.drugW
  rw [← hw]
  rfl

/-- A row gather from the [50000 × 128] array at a [4096 × 1] column of positions: entry (r, q) is the array at
    (the position of r, read signed and clamped into the rows; q). -/
theorem gatherAt (H : FVec Ideal S50000x128 .f32) (idx : IVec S4096x1 32) (r : Fin 4096) (q : Fin 128) :
    Host.gather gather_S50000x128_S4096x1_S4096x128_1_0_n_n_0_1_1128 H idx (ix2 r q)
      = H (ix2 ⟨min (idx (ix2 r (0 : Fin 1))).toInt.toNat (50000 - 1), by omega⟩ q) :=
  Cert.LibGatherScatter.gather_rows gather_S50000x128_S4096x1_S4096x128_1_0_n_n_0_1_1128 rfl rfl rfl rfl rfl rfl H idx r q
    (by decide)

/-- When the column holds the specification's word, the gathered row is the specification's row. -/
theorem rowAt (H : FVec Ideal S50000x128 .f32) (di : IVec Spec.SDrug 32) (k : Fin 2) (idx : IVec S4096x1 32)
    (hidx : ∀ r : Fin 4096, idx (ix2 r (0 : Fin 1)) = Spec.drugW di k r) (r : Fin 4096) (q : Fin 128) :
    Host.gather gather_S50000x128_S4096x1_S4096x128_1_0_n_n_0_1_1128 H idx (ix2 r q)
      = H (ix2 (Spec.drugNode di k r) q) := by
  rw [gatherAt]
  exact congrArg (fun n : Fin 50000 => H (ix2 n q)) (Fin.ext (by
    show min (idx (ix2 r (0 : Fin 1))).toInt.toNat (50000 - 1) = min (Spec.drugW di k r).toInt.toNat 49999
    rw [hidx]))

/-! ## The decode on gathered rows -/

/-- The three products, the row-wise product with the second gather and the row sum, read at pair `r`:
    `∑ j, (((a p1) p2) p1ᵀ)[r, j] * bb[r, j]` with `a`, `bb` the two gathered blocks. -/
theorem decodeAt (H : FVec Ideal S50000x128 .f32) (p1 p2 : FVec Ideal S128x128 .f32) (idx0 idx1 : IVec S4096x1 32)
    (c : FVec Ideal S_ .f32) (n0 n1 : Fin 4096 → Fin 50000)
    (h0 : ∀ r q, Host.gather gather_S50000x128_S4096x1_S4096x128_1_0_n_n_0_1_1128 H idx0 (ix2 r q) = H (ix2 (n0 r) q))
    (h1 : ∀ r q, Host.gather gather_S50000x128_S4096x1_S4096x128_1_0_n_n_0_1_1128 H idx1 (ix2 r q) = H (ix2 (n1 r) q))
    (hc : c (Shape.Idx.first h_S_) = 0) (r : Fin 4096) :
    broadcastInDim S4096x1 ![0] bcast_S4096_S4096x1_0
        (Host.reduceAdd
          (mulf
            (Host.dotGeneral dot_S4096x128_S128x128_S4096x128_1_0_0_1_n_n none
              (Host.dotGeneral dot_S4096x128_S128x128_S4096x128_1_0_0_1_n_n none
                (Host.dotGeneral dot_S4096x128_S128x128_S4096x128_1_0_0_1_n_n none
                  (Host.gather gather_S50000x128_S4096x1_S4096x128_1_0_n_n_0_1_1128 H idx0) p1) p2)
              (transpose S128x128 [1, 0] p1 transposes_S128x128_S128x128_1_0))
            (Host.gather gather_S50000x128_S4096x1_S4096x128_1_0_n_n_0_1_1128 H idx1))
          c reducesTo_S4096x128_S4096_d1 h_S_) (ix2 r 0)
      = Spec.decR (fun a k => H (ix2 (n0 a) k)) (fun a k => H (ix2 (n1 a) k)) (fun a q => p1 (ix2 a q))
          (fun a q => p2 (ix2 a q)) r := by
  rw [colAt, reduceAt, hc, zero_add]
  unfold Spec.decR
  refine Finset.sum_congr rfl fun j _ => ?_
  rw [mulf_apply, h1, dotAt]
  refine congrArg (· * _) (Finset.sum_congr rfl fun l _ => ?_)
  rw [transposeAt, dotAt]
  refine congrArg (· * _) (Finset.sum_congr rfl fun i _ => ?_)
  rw [dotAt]
  refine congrArg (· * _) (Finset.sum_congr rfl fun k _ => ?_)
  rw [h0]

/-! ## The stretch -/

/-- After the decode's operations the result column holds, at pair `r`, the reference's decode of the last layer's rows
    named by the pair table. -/
theorem refTail (U : Valuation τ sig (Elt Ideal)) (H : FVec Ideal S50000x128 .f32) (di : IVec Spec.SDrug 32) (p1 p2 : FVec Ideal S128x128 .f32)
    (hH : U (Proc.devRef .tc main_v225) = H) (hdi : U (Proc.devRef .tc main_arg2) = di)
    (h15 : U (Proc.devRef .tc main_arg15) = p1) (h16 : U (Proc.devRef .tc main_arg16) = p2) (r : Fin 4096) :
    after opsT U (Proc.devRef .tc main_v254) (ix2 r 0)
      = Spec.decR (fun a k => H (ix2 (Spec.drugNode di 0 a) k)) (fun a k => H (ix2 (Spec.drugNode di 1 a) k)) (fun a q => p1 (ix2 a q)) (fun a q => p2 (ix2 a q)) r := by
  after_results_simp
  rw [hH, hdi, h15, h16]
  exact decodeAt H p1 p2 _ _ _ (Spec.drugNode di 0) (Spec.drugNode di 1)
    (rowAt H di 0 _ fun a => wordAt di 0 _ a (sliceAt0 di a))
    (rowAt H di 1 _ fun a => wordAt di 1 _ a (sliceAt1 di a))
    (by rw [constant_apply]; exact Ideal.ofBits_zero_f32) r

end Cert.ReferenceIdeal.RefTail

end
-- ==== Proof.RValue.lean ====
/- The value of the reference program's result array.

  The result buffer ends at the fold of @main's 319 operations over the launch memory.  The fold is taken in eight
  consecutive pieces: the edge lists; per layer the aggregate `aggR` of the linear map of the rows the layer before
  left, then its normalisation `bn` with the mean and the two-pass variance, which together are the specification's
  `layerR`; and the decode `decR` of the last layer's rows at the pairs' two nodes.  No piece writes an argument, and
  the edge lists are written once, so each piece reads them as the first piece left them. -/
import proofs.«404543_j21388937134518_2_alg».proof.Proof.RefRun
import proofs.«404543_j21388937134518_2_alg».proof.Proof.RefAgg
import proofs.«404543_j21388937134518_2_alg».proof.Proof.RefNorm
import proofs.«404543_j21388937134518_2_alg».proof.Proof.RefTail
import proofs.«404543_j21388937134518_2_alg».proof.Proof.SpecGraph
import proofs.«404543_j21388937134518_2_alg».proof.Proof.SpecCongr
import proofs.«404543_j21388937134518_2_alg».proof.Proof.NetAlgebra

set_option maxRecDepth 16384

noncomputable section

namespace Cert.ReferenceIdeal

open Cert.ReferenceIdeal Cert.ReferenceIdeal.Gen Cert.ReferenceIdeal.ValueP Idealize.ShloMosaic Idealize.ShloMosaic.TcCoe
open Idealize.ShloMosaic.ValueIdx Idealize.SL.Sem Idealize.ShloMosaic.StableHlo

namespace RValue

variable (m : (ℓ : Loc nD τ sig) → Buf (Elt Ideal) ℓ) (c : Dev nD)

/-! ## The argument arrays, and their coordinates -/

abbrev xA : FVec Ideal S50000x128 .f32 := m ((c.tc : Thread nD τ).loc main_arg0)
abbrev eiA : IVec Spec.SEdge 32 := m ((c.tc : Thread nD τ).loc main_arg1)
abbrev diA : IVec Spec.SDrug 32 := m ((c.tc : Thread nD τ).loc main_arg2)
abbrev w1A : FVec Ideal S128x128 .f32 := m ((c.tc : Thread nD τ).loc main_arg3)
abbrev b1A : FVec Ideal S128 .f32 := m ((c.tc : Thread nD τ).loc main_arg4)
abbrev w2A : FVec Ideal S128x128 .f32 := m ((c.tc : Thread nD τ).loc main_arg5)
abbrev b2A : FVec Ideal S128 .f32 := m ((c.tc : Thread nD τ).loc main_arg6)
abbrev w3A : FVec Ideal S128x128 .f32 := m ((c.tc : Thread nD τ).loc main_arg7)
abbrev b3A : FVec Ideal S128 .f32 := m ((c.tc : Thread nD τ).loc main_arg8)
abbrev g1A : FVec Ideal S128 .f32 := m ((c.tc : Thread nD τ).loc main_arg9)
abbrev be1A : FVec Ideal S128 .f32 := m ((c.tc : Thread nD τ).loc main_arg10)
abbrev g2A : FVec Ideal S128 .f32 := m ((c.tc : Thread nD τ).loc main_arg11)
abbrev be2A : FVec Ideal S128 .f32 := m ((c.tc : Thread nD τ).loc main_arg12)
abbrev g3A : FVec Ideal S128 .f32 := m ((c.tc : Thread nD τ).loc main_arg13)
abbrev be3A : FVec Ideal S128 .f32 := m ((c.tc : Thread nD τ).loc main_arg14)
abbrev p1A : FVec Ideal S128x128 .f32 := m ((c.tc : Thread nD τ).loc main_arg15)
abbrev p2A : FVec Ideal S128x128 .f32 := m ((c.tc : Thread nD τ).loc main_arg16)

abbrev X : Spec.Mat 50000 128 := fun a k => xA m c (ix2 a k)
abbrev Wm1 : Spec.Mat 128 128 := fun k q => w1A m c (ix2 k q)
abbrev Bv1 : Spec.Vc 128 := fun q => b1A m c (ix1 q)
abbrev Gv1 : Spec.Vc 128 := fun q => g1A m c (ix1 q)
abbrev Bev1 : Spec.Vc 128 := fun q => be1A m c (ix1 q)
abbrev Wm2 : Spec.Mat 128 128 := fun k q => w2A m c (ix2 k q)
abbrev Bv2 : Spec.Vc 128 := fun q => b2A m c (ix1 q)
abbrev Gv2 : Spec.Vc 128 := fun q => g2A m c (ix1 q)
abbrev Bev2 : Spec.Vc 128 := fun q => be2A m c (ix1 q)
abbrev Wm3 : Spec.Mat 128 128 := fun k q => w3A m c (ix2 k q)
abbrev Bv3 : Spec.Vc 128 := fun q => b3A m c (ix1 q)
abbrev Gv3 : Spec.Vc 128 := fun q => g3A m c (ix1 q)
abbrev Bev3 : Spec.Vc 128 := fun q => be3A m c (ix1 q)
abbrev P1 : Spec.Mat 128 128 := fun k q => p1A m c (ix2 k q)
abbrev P2 : Spec.Mat 128 128 := fun k q => p2A m c (ix2 k q)
/-- The edges' sources and targets, and the node factors. -/
abbrev Rr : Fin 850000 → Fin 50000 := Spec.R (eiA m c)
abbrev Cc : Fin 850000 → Fin 50000 := Spec.C (eiA m c)
abbrev dd : Spec.Vc 50000 := Spec.dis (Cc m c)
/-- The three layers' rows, the reference's way. -/
abbrev H1 : Spec.Mat 50000 128 := Spec.layerR (Rr m c) (Cc m c) (dd m c) (X m c) (Wm1 m c) (Bv1 m c) (Gv1 m c) (Bev1 m c)
abbrev H2 : Spec.Mat 50000 128 := Spec.layerR (Rr m c) (Cc m c) (dd m c) (H1 m c) (Wm2 m c) (Bv2 m c) (Gv2 m c) (Bev2 m c)
abbrev H3 : Spec.Mat 50000 128 := Spec.layerR (Rr m c) (Cc m c) (dd m c) (H2 m c) (Wm3 m c) (Bv3 m c) (Gv3 m c) (Bev3 m c)

/-! ## The contents after each piece -/

abbrev U0 : Valuation τ sig (Elt Ideal) := launchContents m c
abbrev U1 : Valuation τ sig (Elt Ideal) := after opsA (U0 m c)
abbrev U2 : Valuation τ sig (Elt Ideal) := after opsL1a (U1 m c)
abbrev U3 : Valuation τ sig (Elt Ideal) := after opsL1b (U2 m c)
abbrev U4 : Valuation τ sig (Elt Ideal) := after opsL2a (U3 m c)
abbrev U5 : Valuation τ sig (Elt Ideal) := after opsL2b (U4 m c)
abbrev U6 : Valuation τ sig (Elt Ideal) := after opsL3a (U5 m c)
abbrev U7 : Valuation τ sig (Elt Ideal) := after opsL3b (U6 m c)
abbrev U8 : Valuation τ sig (Elt Ideal) := after opsT (U7 m c)

/-- The fold of all 319 operations is the fold piece by piece. -/
theorem fold_eq : after (ops (F := Ideal)) (launchContents m c) = U8 m c := by
  simp only [ops, after_app]

theorem keepU1 (b : Ref sig .tc) (h : b ∉ opsA_W) : U1 m c (Proc.devRef .tc b) = U0 m c (Proc.devRef .tc b) :=
  after_of_writes_sub opsA _ opsA_writes h
theorem keepU2 (b : Ref sig .tc) (h : b ∉ opsL1a_W) : U2 m c (Proc.devRef .tc b) = U1 m c (Proc.devRef .tc b) :=
  after_of_writes_sub opsL1a _ opsL1a_writes h
theorem keepU3 (b : Ref sig .tc) (h : b ∉ opsL1b_W) : U3 m c (Proc.devRef .tc b) = U2 m c (Proc.devRef .tc b) :=
  after_of_writes_sub opsL1b _ opsL1b_writes h
theorem keepU4 (b : Ref sig .tc) (h : b ∉ opsL2a_W) : U4 m c (Proc.devRef .tc b) = U3 m c (Proc.devRef .tc b) :=
  after_of_writes_sub opsL2a _ opsL2a_writes h
theorem keepU5 (b : Ref sig .tc) (h : b ∉ opsL2b_W) : U5 m c (Proc.devRef .tc b) = U4 m c (Proc.devRef .tc b) :=
  after_of_writes_sub opsL2b _ opsL2b_writes h
theorem keepU6 (b : Ref sig .tc) (h : b ∉ opsL3a_W) : U6 m c (Proc.devRef .tc b) = U5 m c (Proc.devRef .tc b) :=
  after_of_writes_sub opsL3a _ opsL3a_writes h
theorem keepU7 (b : Ref sig .tc) (h : b ∉ opsL3b_W) : U7 m c (Proc.devRef .tc b) = U6 m c (Proc.devRef .tc b) :=
  after_of_writes_sub opsL3b _ opsL3b_writes h
theorem keepU8 (b : Ref sig .tc) (h : b ∉ opsT_W) : U8 m c (Proc.devRef .tc b) = U7 m c (Proc.devRef .tc b) :=
  after_of_writes_sub opsT _ opsT_writes h

/-! ## The edge lists -/

theorem row1 (e : Fin 850000) : (U1 m c (Proc.devRef .tc main_v3) : IVec S850000 32) (ix1 e) = Spec.endW (eiA m c) 0 e :=
  RefAgg.refA_row (U0 m c) (eiA m c) rfl e
theorem col1 (e : Fin 850000) : (U1 m c (Proc.devRef .tc main_v6) : IVec S850000 32) (ix1 e) = Spec.endW (eiA m c) 1 e :=
  RefAgg.refA_col (U0 m c) (eiA m c) rfl e
theorem row3 (e : Fin 850000) : (U3 m c (Proc.devRef .tc main_v3) : IVec S850000 32) (ix1 e) = Spec.endW (eiA m c) 0 e :=
  (congrFun ((keepU3 m c main_v3 (by decide)).trans (keepU2 m c main_v3 (by decide))) (ix1 e)).trans (row1 m c e)
theorem col3 (e : Fin 850000) : (U3 m c (Proc.devRef .tc main_v6) : IVec S850000 32) (ix1 e) = Spec.endW (eiA m c) 1 e :=
  (congrFun ((keepU3 m c main_v6 (by decide)).trans (keepU2 m c main_v6 (by decide))) (ix1 e)).trans (col1 m c e)
theorem row5 (e : Fin 850000) : (U5 m c (Proc.devRef .tc main_v3) : IVec S850000 32) (ix1 e) = Spec.endW (eiA m c) 0 e :=
  (congrFun ((keepU5 m c main_v3 (by decide)).trans (keepU4 m c main_v3 (by decide))) (ix1 e)).trans (row3 m c e)
theorem col5 (e : Fin 850000) : (U5 m c (Proc.devRef .tc main_v6) : IVec S850000 32) (ix1 e) = Spec.endW (eiA m c) 1 e :=
  (congrFun ((keepU5 m c main_v6 (by decide)).trans (keepU4 m c main_v6 (by decide))) (ix1 e)).trans (col3 m c e)

/-! ## Layer 1 -/

/-- Layer 1's aggregate. -/
theorem agg1 (hei : ∀ i, (eiA m c i).toNat < 50000) (a : Fin 50000) (j : Fin 128) :
    (U2 m c (Proc.devRef .tc main_v49) : FVec Ideal S50000x128 .f32) (ix2 a j) = Spec.aggR (Rr m c) (Cc m c) (dd m c) (Spec.lin (X m c) (Wm1 m c) (Bv1 m c)) a j :=
  (RefAgg.refAgg1 (U1 m c) (eiA m c) hei _ _ _ _ _ rfl rfl rfl rfl rfl (row1 m c) (col1 m c) a j).trans
    (Spec.aggR_congr _ _ (fun _ => rfl) (fun i q => Spec.lin_congr (fun i k => congrFun ((keepU1 m c main_arg0 (by decide)) : U1 m c (Proc.devRef .tc main_arg0) = m ((c.tc : Thread nD τ).loc main_arg0)) (ix2 i k))
      (fun k q' => congrFun ((keepU1 m c main_arg3 (by decide)) : U1 m c (Proc.devRef .tc main_arg3) = m ((c.tc : Thread nD τ).loc main_arg3)) (ix2 k q')) (fun q' => congrFun ((keepU1 m c main_arg4 (by decide)) : U1 m c (Proc.devRef .tc main_arg4) = m ((c.tc : Thread nD τ).loc main_arg4)) (ix1 q')) i q) a j)

/-- Layer 1's rows. -/
theorem out1 (hei : ∀ i, (eiA m c i).toNat < 50000) (i : Fin 50000) (j : Fin 128) :
    (U3 m c (Proc.devRef .tc main_v79) : FVec Ideal S50000x128 .f32) (ix2 i j) = H1 m c i j := by
  have h := RefNorm.refNorm1 (U2 m c) _ _ _ rfl rfl rfl i j
  have eA : (fun a q => (U2 m c (Proc.devRef .tc main_v49) : FVec Ideal S50000x128 .f32) (ix2 a q)) = Spec.aggR (Rr m c) (Cc m c) (dd m c) (Spec.lin (X m c) (Wm1 m c) (Bv1 m c)) :=
    funext fun a => funext fun q => agg1 m c hei a q
  have eg : (fun q => (U2 m c (Proc.devRef .tc main_arg9) : FVec Ideal S128 .f32) (ix1 q)) = Gv1 m c := funext fun q => congrFun (((keepU2 m c main_arg9 (by decide)).trans (keepU1 m c main_arg9 (by decide))) : U2 m c (Proc.devRef .tc main_arg9) = m ((c.tc : Thread nD τ).loc main_arg9)) (ix1 q)
  have ebe : (fun q => (U2 m c (Proc.devRef .tc main_arg10) : FVec Ideal S128 .f32) (ix1 q)) = Bev1 m c := funext fun q => congrFun (((keepU2 m c main_arg10 (by decide)).trans (keepU1 m c main_arg10 (by decide))) : U2 m c (Proc.devRef .tc main_arg10) = m ((c.tc : Thread nD τ).loc main_arg10)) (ix1 q)
  rw [eA, eg, ebe] at h
  exact h

/-! ## Layer 2 -/

/-- Layer 2's aggregate. -/
theorem agg2 (hei : ∀ i, (eiA m c i).toNat < 50000) (a : Fin 50000) (j : Fin 128) :
    (U4 m c (Proc.devRef .tc main_v122) : FVec Ideal S50000x128 .f32) (ix2 a j) = Spec.aggR (Rr m c) (Cc m c) (dd m c) (Spec.lin (H1 m c) (Wm2 m c) (Bv2 m c)) a j :=
  (RefAgg.refAgg2 (U3 m c) (eiA m c) hei _ _ _ _ _ rfl rfl rfl rfl rfl (row3 m c) (col3 m c) a j).trans
    (Spec.aggR_congr _ _ (fun _ => rfl) (fun i q => Spec.lin_congr (fun i k => out1 m c hei i k)
      (fun k q' => congrFun ((((keepU3 m c main_arg5 (by decide)).trans (keepU2 m c main_arg5 (by decide))).trans (keepU1 m c main_arg5 (by decide))) : U3 m c (Proc.devRef .tc main_arg5) = m ((c.tc : Thread nD τ).loc main_arg5)) (ix2 k q')) (fun q' => congrFun ((((keepU3 m c main_arg6 (by decide)).trans (keepU2 m c main_arg6 (by decide))).trans (keepU1 m c main_arg6 (by decide))) : U3 m c (Proc.devRef .tc main_arg6) = m ((c.tc : Thread nD τ).loc main_arg6)) (ix1 q')) i q) a j)

/-- Layer 2's rows. -/
theorem out2 (hei : ∀ i, (eiA m c i).toNat < 50000) (i : Fin 50000) (j : Fin 128) :
    (U5 m c (Proc.devRef .tc main_v152) : FVec Ideal S50000x128 .f32) (ix2 i j) = H2 m c i j := by
  have h := RefNorm.refNorm2 (U4 m c) _ _ _ rfl rfl rfl i j
  have eA : (fun a q => (U4 m c (Proc.devRef .tc main_v122) : FVec Ideal S50000x128 .f32) (ix2 a q)) = Spec.aggR (Rr m c) (Cc m c) (dd m c) (Spec.lin (H1 m c) (Wm2 m c) (Bv2 m c)) :=
    funext fun a => funext fun q => agg2 m c hei a q
  have eg : (fun q => (U4 m c (Proc.devRef .tc main_arg11) : FVec Ideal S128 .f32) (ix1 q)) = Gv2 m c := funext fun q => congrFun (((((keepU4 m c main_arg11 (by decide)).trans (keepU3 m c main_arg11 (by decide))).trans (keepU2 m c main_arg11 (by decide))).trans (keepU1 m c main_arg11 (by decide))) : U4 m c (Proc.devRef .tc main_arg11) = m ((c.tc : Thread nD τ).loc main_arg11)) (ix1 q)
  have ebe : (fun q => (U4 m c (Proc.devRef .tc main_arg12) : FVec Ideal S128 .f32) (ix1 q)) = Bev2 m c := funext fun q => congrFun (((((keepU4 m c main_arg12 (by decide)).trans (keepU3 m c main_arg12 (by decide))).trans (keepU2 m c main_arg12 (by decide))).trans (keepU1 m c main_arg12 (by decide))) : U4 m c (Proc.devRef .tc main_arg12) = m ((c.tc : Thread nD τ).loc main_arg12)) (ix1 q)
  rw [eA, eg, ebe] at h
  exact h

/-! ## Layer 3 -/

/-- Layer 3's aggregate. -/
theorem agg3 (hei : ∀ i, (eiA m c i).toNat < 50000) (a : Fin 50000) (j : Fin 128) :
    (U6 m c (Proc.devRef .tc main_v195) : FVec Ideal S50000x128 .f32) (ix2 a j) = Spec.aggR (Rr m c) (Cc m c) (dd m c) (Spec.lin (H2 m c) (Wm3 m c) (Bv3 m c)) a j :=
  (RefAgg.refAgg3 (U5 m c) (eiA m c) hei _ _ _ _ _ rfl rfl rfl rfl rfl (row5 m c) (col5 m c) a j).trans
    (Spec.aggR_congr _ _ (fun _ => rfl) (fun i q => Spec.lin_congr (fun i k => out2 m c hei i k)
      (fun k q' => congrFun ((((((keepU5 m c main_arg7 (by decide)).trans (keepU4 m c main_arg7 (by decide))).trans (keepU3 m c main_arg7 (by decide))).trans (keepU2 m c main_arg7 (by decide))).trans (keepU1 m c main_arg7 (by decide))) : U5 m c (Proc.devRef .tc main_arg7) = m ((c.tc : Thread nD τ).loc main_arg7)) (ix2 k q')) (fun q' => congrFun ((((((keepU5 m c main_arg8 (by decide)).trans (keepU4 m c main_arg8 (by decide))).trans (keepU3 m c main_arg8 (by decide))).trans (keepU2 m c main_arg8 (by decide))).trans (keepU1 m c main_arg8 (by decide))) : U5 m c (Proc.devRef .tc main_arg8) = m ((c.tc : Thread nD τ).loc main_arg8)) (ix1 q')) i q) a j)

/-- Layer 3's rows. -/
theorem out3 (hei : ∀ i, (eiA m c i).toNat < 50000) (i : Fin 50000) (j : Fin 128) :
    (U7 m c (Proc.devRef .tc main_v225) : FVec Ideal S50000x128 .f32) (ix2 i j) = H3 m c i j := by
  have h := RefNorm.refNorm3 (U6 m c) _ _ _ rfl rfl rfl i j
  have eA : (fun a q => (U6 m c (Proc.devRef .tc main_v195) : FVec Ideal S50000x128 .f32) (ix2 a q)) = Spec.aggR (Rr m c) (Cc m c) (dd m c) (Spec.lin (H2 m c) (Wm3 m c) (Bv3 m c)) :=
    funext fun a => funext fun q => agg3 m c hei a q
  have eg : (fun q => (U6 m c (Proc.devRef .tc main_arg13) : FVec Ideal S128 .f32) (ix1 q)) = Gv3 m c := funext fun q => congrFun (((((((keepU6 m c main_arg13 (by decide)).trans (keepU5 m c main_arg13 (by decide))).trans (keepU4 m c main_arg13 (by decide))).trans (keepU3 m c main_arg13 (by decide))).trans (keepU2 m c main_arg13 (by decide))).trans (keepU1 m c main_arg13 (by decide))) : U6 m c (Proc.devRef .tc main_arg13) = m ((c.tc : Thread nD τ).loc main_arg13)) (ix1 q)
  have ebe : (fun q => (U6 m c (Proc.devRef .tc main_arg14) : FVec Ideal S128 .f32) (ix1 q)) = Bev3 m c := funext fun q => congrFun (((((((keepU6 m c main_arg14 (by decide)).trans (keepU5 m c main_arg14 (by decide))).trans (keepU4 m c main_arg14 (by decide))).trans (keepU3 m c main_arg14 (by decide))).trans (keepU2 m c main_arg14 (by decide))).trans (keepU1 m c main_arg14 (by decide))) : U6 m c (Proc.devRef .tc main_arg14) = m ((c.tc : Thread nD τ).loc main_arg14)) (ix1 q)
  rw [eA, eg, ebe] at h
  exact h

/-! ## The decode -/

/-- The result array: the decode of the third layer's rows at the pairs' two nodes. -/
theorem result (hei : ∀ i, (eiA m c i).toNat < 50000) (r : Fin 4096) :
    (after (ops (F := Ideal)) (launchContents m c) (Proc.devRef .tc main_v254) : FVec Ideal S4096x1 .f32) (ix2 r 0)
      = Spec.decR (fun a k => H3 m c (Spec.drugNode (diA m c) 0 a) k) (fun a k => H3 m c (Spec.drugNode (diA m c) 1 a) k) (P1 m c) (P2 m c) r := by
  rw [fold_eq]
  exact (RefTail.refTail (U7 m c) _ (diA m c) (p1A m c) (p2A m c) rfl ((((((((keepU7 m c main_arg2 (by decide)).trans (keepU6 m c main_arg2 (by decide))).trans (keepU5 m c main_arg2 (by decide))).trans (keepU4 m c main_arg2 (by decide))).trans (keepU3 m c main_arg2 (by decide))).trans (keepU2 m c main_arg2 (by decide))).trans (keepU1 m c main_arg2 (by decide))) : U7 m c (Proc.devRef .tc main_arg2) = m ((c.tc : Thread nD τ).loc main_arg2)) ((((((((keepU7 m c main_arg15 (by decide)).trans (keepU6 m c main_arg15 (by decide))).trans (keepU5 m c main_arg15 (by decide))).trans (keepU4 m c main_arg15 (by decide))).trans (keepU3 m c main_arg15 (by decide))).trans (keepU2 m c main_arg15 (by decide))).trans (keepU1 m c main_arg15 (by decide))) : U7 m c (Proc.devRef .tc main_arg15) = m ((c.tc : Thread nD τ).loc main_arg15)) ((((((((keepU7 m c main_arg16 (by decide)).trans (keepU6 m c main_arg16 (by decide))).trans (keepU5 m c main_arg16 (by decide))).trans (keepU4 m c main_arg16 (by decide))).trans (keepU3 m c main_arg16 (by decide))).trans (keepU2 m c main_arg16 (by decide))).trans (keepU1 m c main_arg16 (by decide))) : U7 m c (Proc.devRef .tc main_arg16) = m ((c.tc : Thread nD τ).loc main_arg16)) r).trans
    (Spec.decR_congr _ _ (fun a k => out3 m c hei _ k) (fun a k => out3 m c hei _ k) r)

/-- The same, over the argument arrays by name. -/
theorem result' (x : FVec Ideal S50000x128 .f32) (ei : IVec Spec.SEdge 32) (di : IVec Spec.SDrug 32)
    (w1 : FVec Ideal S128x128 .f32) (b1 : FVec Ideal S128 .f32) (w2 : FVec Ideal S128x128 .f32) (b2 : FVec Ideal S128 .f32) (w3 : FVec Ideal S128x128 .f32) (b3 : FVec Ideal S128 .f32)
    (g1 be1 g2 be2 g3 be3 : FVec Ideal S128 .f32) (p1 p2 : FVec Ideal S128x128 .f32)
    (h0 : m ((c.tc : Thread nD τ).loc main_arg0) = x) (h1 : m ((c.tc : Thread nD τ).loc main_arg1) = ei) (h2 : m ((c.tc : Thread nD τ).loc main_arg2) = di) (h3 : m ((c.tc : Thread nD τ).loc main_arg3) = w1) (h4 : m ((c.tc : Thread nD τ).loc main_arg4) = b1) (h5 : m ((c.tc : Thread nD τ).loc main_arg5) = w2) (h6 : m ((c.tc : Thread nD τ).loc main_arg6) = b2) (h7 : m ((c.tc : Thread nD τ).loc main_arg7) = w3) (h8 : m ((c.tc : Thread nD τ).loc main_arg8) = b3) (h9 : m ((c.tc : Thread nD τ).loc main_arg9) = g1) (h10 : m ((c.tc : Thread nD τ).loc main_arg10) = be1) (h11 : m ((c.tc : Thread nD τ).loc main_arg11) = g2) (h12 : m ((c.tc : Thread nD τ).loc main_arg12) = be2) (h13 : m ((c.tc : Thread nD τ).loc main_arg13) = g3) (h14 : m ((c.tc : Thread nD τ).loc main_arg14) = be3) (h15 : m ((c.tc : Thread nD τ).loc main_arg15) = p1) (h16 : m ((c.tc : Thread nD τ).loc main_arg16) = p2)
    (hei : ∀ i, (ei i).toNat < 50000) (r : Fin 4096) :
    (after (ops (F := Ideal)) (launchContents m c) (Proc.devRef .tc main_v254) : FVec Ideal S4096x1 .f32) (ix2 r 0)
      = Spec.decR (fun a k => Spec.netR (Spec.R ei) (Spec.C ei) (fun a k => x (ix2 a k)) (fun k q => w1 (ix2 k q)) (fun q => b1 (ix1 q)) (fun k q => w2 (ix2 k q)) (fun q => b2 (ix1 q)) (fun k q => w3 (ix2 k q)) (fun q => b3 (ix1 q)) (fun q => g1 (ix1 q)) (fun q => be1 (ix1 q)) (fun q => g2 (ix1 q)) (fun q => be2 (ix1 q)) (fun q => g3 (ix1 q)) (fun q => be3 (ix1 q)) (Spec.drugNode di 0 a) k) (fun a k => Spec.netR (Spec.R ei) (Spec.C ei) (fun a k => x (ix2 a k)) (fun k q => w1 (ix2 k q)) (fun q => b1 (ix1 q)) (fun k q => w2 (ix2 k q)) (fun q => b2 (ix1 q)) (fun k q => w3 (ix2 k q)) (fun q => b3 (ix1 q)) (fun q => g1 (ix1 q)) (fun q => be1 (ix1 q)) (fun q => g2 (ix1 q)) (fun q => be2 (ix1 q)) (fun q => g3 (ix1 q)) (fun q => be3 (ix1 q)) (Spec.drugNode di 1 a) k) (fun k q => p1 (ix2 k q)) (fun k q => p2 (ix2 k q)) r := by
  subst h0 h1 h2 h3 h4 h5 h6 h7 h8 h9 h10 h11 h12 h13 h14 h15 h16
  exact result m c hei r

end RValue

end Cert.ReferenceIdeal

end
-- ==== Proof.PreFacts.lean ====
/-
  The precondition, read back. The precondition is one bit: for each of the fifteen float inputs the
  conjunction over all entries of "|entry| < +∞", and for the integer edge table the conjunctions over all
  entries of "entry ≥ 0" and "entry < 50000" (both signed), all joined by "and". When the bit is 1, every
  conjunct is 1, so every float entry is a real number and every edge word, read unsigned, is below 50000.
-/
import proofs.«404543_j21388937134518_2_alg».proof.Pre_finite_inputs
import proofs.«404543_j21388937134518_2_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

/-- The rank-0 shape has exactly one index. -/
instance : Subsingleton S_.Idx := ⟨fun a b => funext fun d => d.elim0⟩

/-- The f32 word 0x7F800000 denotes +∞. -/
theorem inf_word : Ideal.ofBits .f32 0x7F800000#32 = (⊤ : EReal) := by
  simp [Ideal.ofBits, Ideal.ieee]

/-- An extended real whose absolute value max(v, -v) lies strictly below +∞ is a real number. -/
theorem real_of_abs_lt_top (v : EReal) (h : max v (-v) < (⊤ : EReal)) : ∃ r : ℝ, v = (r : EReal) := by
  induction v using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- "All |a| < +∞" is 1 for a float array of any shape: every entry of the array is a real number. -/
theorem all_lt_top {S : Shape} {axes : List (Fin S.rank)} (a : FVec Ideal S .f32)
    (hb : S_.BroadcastsInDim S (![] : Fin 0 → Fin S.rank)) (hr : S.ReducesTo axes S_) (h0 : 0 < S_.numel)
    (h : Host.reduce IntOp.andi
          (cmpf .olt (Host.absf a) (broadcastInDim S ![] hb (constant (F := Ideal) S_ .f32 0x7F800000#32)))
          (constantI S_ 1 1#1) hr h0 ix0 = 1#1) :
    ∀ i, ∃ r : ℝ, a i = (r : EReal) := by
  intro i
  have e := Host.reduce_andi_all _ _ hr h0 _ h i
  have e' : BitVec.ofBool (decide (max (a i) (-(a i)) < Ideal.ofBits .f32 0x7F800000#32)) = 1#1 := e
  rw [ofBool_eq_one, decide_eq_true_eq, inf_word] at e'
  exact real_of_abs_lt_top _ e'

/-- A 32-bit word that is ≥ 0 and < 50000 as a signed number is below 50000 as an unsigned number. -/
theorem toNat_lt_of_signed (w : BitVec 32) (hge : IntOp.cmpi .sge w 0#32 = 1#1)
    (hlt : IntOp.cmpi .slt w 50000#32 = 1#1) : w.toNat < 50000 := by
  rw [IntOp.cmpi_sge, show (0#32 : BitVec 32).toInt = 0 from by decide, BitVec.toInt_pos_iff] at hge
  rw [IntOp.cmpi_slt, show (50000#32 : BitVec 32).toInt = 50000 from by decide,
    BitVec.toInt_eq_toNat_of_lt hge] at hlt
  omega

/-- Both signed range checks on an integer table are 1: every word, read unsigned, is below 50000. -/
theorem all_in_range {S : Shape} {axes : List (Fin S.rank)} (t : IVec S 32)
    (hb : S_.BroadcastsInDim S (![] : Fin 0 → Fin S.rank)) (hr : S.ReducesTo axes S_) (h0 : 0 < S_.numel)
    (hge : Host.reduce IntOp.andi (cmpi .sge t (broadcastInDim S ![] hb (constantI S_ 32 0#32)))
          (constantI S_ 1 1#1) hr h0 ix0 = 1#1)
    (hlt : Host.reduce IntOp.andi (cmpi .slt t (broadcastInDim S ![] hb (constantI S_ 32 50000#32)))
          (constantI S_ 1 1#1) hr h0 ix0 = 1#1) :
    ∀ i, (t i).toNat < 50000 := by
  intro i
  have e1 := Host.reduce_andi_all _ _ hr h0 _ hge i
  have e2 := Host.reduce_andi_all _ _ hr h0 _ hlt i
  exact toNat_lt_of_signed (t i) e1 e2

/-- The precondition's bit is 1: all fifteen float inputs are real everywhere, and every edge word is below 50000. -/
theorem of_pre
    (x : FVec Ideal S50000x128 .f32) (ei : IVec S2x800000 32) (di : IVec S4096x2 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (g1 be1 g2 be2 g3 be3 : FVec Ideal S128 .f32)
    (p1 p2 : FVec Ideal S128x128 .f32)
    (h : Cert.Pre_finite_inputs.fn (F := Ideal) x ei di w1 b1 w2 b2 w3 b3 g1 be1 g2 be2 g3 be3 p1 p2 = (fun _ => 1#1)) :
    (∀ i, ∃ r : ℝ, x i = (r : EReal)) ∧ (∀ i, ∃ r : ℝ, w1 i = (r : EReal)) ∧ (∀ i, ∃ r : ℝ, b1 i = (r : EReal)) ∧
    (∀ i, ∃ r : ℝ, w2 i = (r : EReal)) ∧ (∀ i, ∃ r : ℝ, b2 i = (r : EReal)) ∧ (∀ i, ∃ r : ℝ, w3 i = (r : EReal)) ∧
    (∀ i, ∃ r : ℝ, b3 i = (r : EReal)) ∧ (∀ i, ∃ r : ℝ, g1 i = (r : EReal)) ∧ (∀ i, ∃ r : ℝ, be1 i = (r : EReal)) ∧
    (∀ i, ∃ r : ℝ, g2 i = (r : EReal)) ∧ (∀ i, ∃ r : ℝ, be2 i = (r : EReal)) ∧ (∀ i, ∃ r : ℝ, g3 i = (r : EReal)) ∧
    (∀ i, ∃ r : ℝ, be3 i = (r : EReal)) ∧ (∀ i, ∃ r : ℝ, p1 i = (r : EReal)) ∧ (∀ i, ∃ r : ℝ, p2 i = (r : EReal)) ∧
    (∀ i, (ei i).toNat < 50000) := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨⟨⟨⟨hx, hw1⟩, hb1⟩, hw2⟩, hb2⟩, hw3⟩, hb3⟩, hg1⟩, hbe1⟩, hg2⟩, hbe2⟩, hg3⟩, hbe3⟩, hp1⟩, hp2⟩, hge⟩, hlt⟩ := h0
  exact ⟨all_lt_top x _ _ _ hx, all_lt_top w1 _ _ _ hw1, all_lt_top b1 _ _ _ hb1, all_lt_top w2 _ _ _ hw2,
    all_lt_top b2 _ _ _ hb2, all_lt_top w3 _ _ _ hw3, all_lt_top b3 _ _ _ hb3, all_lt_top g1 _ _ _ hg1,
    all_lt_top be1 _ _ _ hbe1, all_lt_top g2 _ _ _ hg2, all_lt_top be2 _ _ _ hbe2, all_lt_top g3 _ _ _ hg3,
    all_lt_top be3 _ _ _ hbe3, all_lt_top p1 _ _ _ hp1, all_lt_top p2 _ _ _ hp2, all_in_range ei _ _ _ hge hlt⟩

end Cert.PreFacts
-- ==== Proof.lean ====
/-
  The certificate: a three-layer graph convolution with a bilinear decode, computed by ten kernel regions among host
  stretches, against its plain reference, over the extended reals, for finite float inputs and an edge table whose
  entries are node numbers below 50000.

  The frames of the two kernel programs are the generated ones.  The reference program has no kernel: its frame is
  its run with the result forgotten.  Nothing was rewritten when the kernel was idealized, so `preserves` asks nothing.
  For the value claim both programs run to the end (the kernel program's run with its result array named, and the
  reference's run over the fold of its operations); the kernel's result is the decode `decK` of the network `netK`
  — node factors split off the edge sums, variance as mean of squares less squared mean, `a ((p1 p2) p1ᵀ)` — and the
  reference's is `decR` of `netR`; on finite inputs these are one function (`Spec.decode_net_eq`).  The inputs are
  finite and the edge ends in range by the precondition.
-/
import proofs.«404543_j21388937134518_2_alg».proof.Defs
import proofs.«404543_j21388937134518_2_alg».proof.Proof.Gen.Kernel
import proofs.«404543_j21388937134518_2_alg».proof.Proof.Gen.Kernel.Frame
import proofs.«404543_j21388937134518_2_alg».proof.Proof.Gen.KernelIdeal
import proofs.«404543_j21388937134518_2_alg».proof.Proof.Gen.KernelIdeal.Frame
import proofs.«404543_j21388937134518_2_alg».proof.Proof.Gen.ReferenceIdeal
import proofs.«404543_j21388937134518_2_alg».proof.Proof.Gen.Pre_finite_inputs
import proofs.«404543_j21388937134518_2_alg».proof.Proof.KRun
import proofs.«404543_j21388937134518_2_alg».proof.Proof.RefRun
import proofs.«404543_j21388937134518_2_alg».proof.Proof.KValue
import proofs.«404543_j21388937134518_2_alg».proof.Proof.RValue
import proofs.«404543_j21388937134518_2_alg».proof.Proof.PreFacts
import proofs.«404543_j21388937134518_2_alg».proof.Proof.NetAlgebra
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two programs end with equal results. -/
theorem algebraic : Cert.algebraic_KernelIdeal_ReferenceIdeal := by
  intro m g m' g' hpre hagree
  refine ⟨fun c => Cert.KernelIdeal.Gen.W23 m g c (Proc.devRef .tc Cert.KernelIdeal.main_v98), Cert.KernelIdeal.GenP.run m g, ?_⟩
  refine (θ_run Cert.ReferenceIdeal.defs _ _).mono (fun _ h c => ⟨(h c).1.trans ?_, (h c).2⟩)
    (Cert.ReferenceIdeal.ValueP.run (F := Ideal) m' g')
  obtain ⟨hx, hw1, hb1, hw2, hb2, hw3, hb3, hg1, hbe1, hg2, hbe2, hg3, hbe3, hp1, hp2, hei⟩ :=
    Cert.PreFacts.of_pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (hpre c)
  obtain ⟨a0, a1, a2, a3, a4, a5, a6, a7, a8, a9, a10, a11, a12, a13, a14, a15, a16⟩ := hagree c
  generalize e0 : m ((c.tc : Thread Cert.KernelIdeal.nD Cert.KernelIdeal.τ).loc Cert.KernelIdeal.main_arg0) = x at a0 hx
  generalize e1 : m ((c.tc : Thread Cert.KernelIdeal.nD Cert.KernelIdeal.τ).loc Cert.KernelIdeal.main_arg1) = ei at a1 hei
  generalize e2 : m ((c.tc : Thread Cert.KernelIdeal.nD Cert.KernelIdeal.τ).loc Cert.KernelIdeal.main_arg2) = di at a2
  generalize e3 : m ((c.tc : Thread Cert.KernelIdeal.nD Cert.KernelIdeal.τ).loc Cert.KernelIdeal.main_arg3) = w1 at a3 hw1
  generalize e4 : m ((c.tc : Thread Cert.KernelIdeal.nD Cert.KernelIdeal.τ).loc Cert.KernelIdeal.main_arg4) = b1 at a4 hb1
  generalize e5 : m ((c.tc : Thread Cert.KernelIdeal.nD Cert.KernelIdeal.τ).loc Cert.KernelIdeal.main_arg5) = w2 at a5 hw2
  generalize e6 : m ((c.tc : Thread Cert.KernelIdeal.nD Cert.KernelIdeal.τ).loc Cert.KernelIdeal.main_arg6) = b2 at a6 hb2
  generalize e7 : m ((c.tc : Thread Cert.KernelIdeal.nD Cert.KernelIdeal.τ).loc Cert.KernelIdeal.main_arg7) = w3 at a7 hw3
  generalize e8 : m ((c.tc : Thread Cert.KernelIdeal.nD Cert.KernelIdeal.τ).loc Cert.KernelIdeal.main_arg8) = b3 at a8 hb3
  generalize e9 : m ((c.tc : Thread Cert.KernelIdeal.nD Cert.KernelIdeal.τ).loc Cert.KernelIdeal.main_arg9) = g1 at a9 hg1
  generalize e10 : m ((c.tc : Thread Cert.KernelIdeal.nD Cert.KernelIdeal.τ).loc Cert.KernelIdeal.main_arg10) = be1 at a10 hbe1
  generalize e11 : m ((c.tc : Thread Cert.KernelIdeal.nD Cert.KernelIdeal.τ).loc Cert.KernelIdeal.main_arg11) = g2 at a11 hg2
  generalize e12 : m ((c.tc : Thread Cert.KernelIdeal.nD Cert.KernelIdeal.τ).loc Cert.KernelIdeal.main_arg12) = be2 at a12 hbe2
  generalize e13 : m ((c.tc : Thread Cert.KernelIdeal.nD Cert.KernelIdeal.τ).loc Cert.KernelIdeal.main_arg13) = g3 at a13 hg3
  generalize e14 : m ((c.tc : Thread Cert.KernelIdeal.nD Cert.KernelIdeal.τ).loc Cert.KernelIdeal.main_arg14) = be3 at a14 hbe3
  generalize e15 : m ((c.tc : Thread Cert.KernelIdeal.nD Cert.KernelIdeal.τ).loc Cert.KernelIdeal.main_arg15) = p1 at a15 hp1
  generalize e16 : m ((c.tc : Thread Cert.KernelIdeal.nD Cert.KernelIdeal.τ).loc Cert.KernelIdeal.main_arg16) = p2 at a16 hp2
  funext i
  obtain ⟨r, q, rfl⟩ : ∃ (r : Fin 4096) (q : Fin 1), i = ix2 r q := ⟨i 0, i 1, eq_ix2 i⟩
  obtain rfl : q = 0 := Subsingleton.elim _ _
  refine (Cert.ReferenceIdeal.RValue.result' m' c x ei di w1 b1 w2 b2 w3 b3 g1 be1 g2 be2 g3 be3 p1 p2 a0 a1 a2 a3 a4 a5 a6 a7 a8 a9 a10 a11 a12 a13 a14 a15 a16 hei r).trans ?_
  refine Eq.trans ?_ (Cert.KernelIdeal.KValue.result' m g c x ei di w1 b1 w2 b2 w3 b3 g1 be1 g2 be2 g3 be3 p1 p2 e0 e1 e2 e3 e4 e5 e6 e7 e8 e9 e10 e11 e12 e13 e14 e15 e16 hei r).symm
  exact (congrFun (Cert.Spec.decode_net_eq (Cert.Spec.R ei) (Cert.Spec.C ei) (Cert.Spec.drugNode di 0) (Cert.Spec.drugNode di 1)
    (fun a k => x (ix2 a k)) (fun a k => w1 (ix2 a k)) (fun q => b1 (ix1 q)) (fun a k => w2 (ix2 a k)) (fun q => b2 (ix1 q)) (fun a k => w3 (ix2 a k)) (fun q => b3 (ix1 q))
    (fun q => g1 (ix1 q)) (fun q => be1 (ix1 q)) (fun q => g2 (ix1 q)) (fun q => be2 (ix1 q)) (fun q => g3 (ix1 q)) (fun q => be3 (ix1 q)) (fun a k => p1 (ix2 a k)) (fun a k => p2 (ix2 a k))
    (fun a k => hx (ix2 a k)) (fun a k => hw1 (ix2 a k)) (fun a => hb1 (ix1 a)) (fun a k => hw2 (ix2 a k)) (fun a => hb2 (ix1 a))
    (fun a k => hw3 (ix2 a k)) (fun a => hb3 (ix1 a)) (fun a => hg1 (ix1 a)) (fun a => hbe1 (ix1 a)) (fun a => hg2 (ix1 a))
    (fun a => hbe2 (ix1 a)) (fun a => hg3 (ix1 a)) (fun a => hbe3 (ix1 a)) (fun a k => hp1 (ix2 a k)) (fun a k => hp2 (ix2 a k))) r).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
